-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x2 : Shape := ⟨2, ![200000, 2]⟩
abbrev S200000 : Shape := ⟨1, ![200000]⟩
abbrev S1000000x2 : Shape := ⟨2, ![1000000, 2]⟩
abbrev S2x3200000 : Shape := ⟨2, ![2, 3200000]⟩
abbrev S2x8 : Shape := ⟨2, ![2, 8]⟩
abbrev S8 : Shape := ⟨1, ![8]⟩
abbrev S8x16 : Shape := ⟨2, ![8, 16]⟩
abbrev S16 : Shape := ⟨1, ![16]⟩
abbrev S2x16 : Shape := ⟨2, ![2, 16]⟩
abbrev S32x64 : Shape := ⟨2, ![32, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S200000x2 : S_.BroadcastsInDim S200000x2 (![] : Fin 0 → Fin S200000x2.rank)
  reducesTo_S200000x2_S_d0_1 : S200000x2.ReducesTo [0, 1] S_
  h_S_ : 0 < S_.numel
  bcast_S_S2x8 : S_.BroadcastsInDim S2x8 (![] : Fin 0 → Fin S2x8.rank)
  reducesTo_S2x8_S_d0_1 : S2x8.ReducesTo [0, 1] S_
  bcast_S_S8 : S_.BroadcastsInDim S8 (![] : Fin 0 → Fin S8.rank)
  reducesTo_S8_S_d0 : S8.ReducesTo [0] S_
  bcast_S_S8x16 : S_.BroadcastsInDim S8x16 (![] : Fin 0 → Fin S8x16.rank)
  reducesTo_S8x16_S_d0_1 : S8x16.ReducesTo [0, 1] S_
  bcast_S_S16 : S_.BroadcastsInDim S16 (![] : Fin 0 → Fin S16.rank)
  reducesTo_S16_S_d0 : S16.ReducesTo [0] S_
  bcast_S_S2x16 : S_.BroadcastsInDim S2x16 (![] : Fin 0 → Fin S2x16.rank)
  reducesTo_S2x16_S_d0_1 : S2x16.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S1000000x2 : S_.BroadcastsInDim S1000000x2 (![] : Fin 0 → Fin S1000000x2.rank)
  reducesTo_S1000000x2_S_d0_1 : S1000000x2.ReducesTo [0, 1] S_

variable [Facts]

def fn_part4 {F : FTy → Type} [FloatOps F] (main_arg2 : IVec S1000000x2 32) (main_v67 : IVec S_ 1) : IVec S_ 1 :=
  let main_c_26 : IVec S_ 32 := constantI S_ 32 100000#32
  let main_v68 : IVec S1000000x2 32 := broadcastInDim S1000000x2 ![] bcast_S_S1000000x2 main_c_26
  let main_v69 : IVec S1000000x2 1 := cmpi .slt main_arg2 main_v68
  let main_c_27 : IVec S_ 1 := constantI S_ 1 1#1
  let main_v70 : IVec S_ 1 := (fun x v => Host.reduce IntOp.andi x v reducesTo_S1000000x2_S_d0_1 h_S_) main_v69 main_c_27
  let main_v71 : IVec S_ 1 := andi main_v67 main_v70
  main_v71

def fn_part3 {F : FTy → Type} [FloatOps F] (main_arg2 : IVec S1000000x2 32) (main_arg14 : FVec F S64x1 .f32) (main_arg15 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x1 .f32 := Host.absf main_arg14
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg15
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_c_24 : IVec S_ 32 := constantI S_ 32 0#32
  let main_v64 : IVec S1000000x2 32 := broadcastInDim S1000000x2 ![] bcast_S_S1000000x2 main_c_24
  let main_v65 : IVec S1000000x2 1 := cmpi .sge main_arg2 main_v64
  let main_c_25 : IVec S_ 1 := constantI S_ 1 1#1
  let main_v66 : IVec S_ 1 := (fun x v => Host.reduce IntOp.andi x v reducesTo_S1000000x2_S_d0_1 h_S_) main_v65 main_c_25
  let main_v67 : IVec S_ 1 := andi main_v63 main_v66
  fn_part4 (F := F) main_arg2 main_v67

def fn_part2 {F : FTy → Type} [FloatOps F] (main_arg2 : IVec S1000000x2 32) (main_arg10 : FVec F S2x16 .f32) (main_arg11 : FVec F S16 .f32) (main_arg12 : FVec F S32x64 .f32) (main_arg13 : FVec F S64 .f32) (main_arg14 : FVec F S64x1 .f32) (main_arg15 : FVec F S1 .f32) (main_v33 : IVec S_ 1) : IVec S_ 1 :=
  let main_v34 : FVec F S2x16 .f32 := Host.absf main_arg10
  let main_cst_12 : FVec F S_ .f32 := constant S_ .f32 0x7F800000#32
  let main_v35 : FVec F S2x16 .f32 := broadcastInDim S2x16 ![] bcast_S_S2x16 main_cst_12
  let main_v36 : IVec S2x16 1 := cmpf .olt main_v34 main_v35
  let main_c_13 : IVec S_ 1 := constantI S_ 1 1#1
  let main_v37 : IVec S_ 1 := (fun x v => Host.reduce IntOp.andi x v reducesTo_S2x16_S_d0_1 h_S_) main_v36 main_c_13
  let main_v38 : IVec S_ 1 := andi main_v33 main_v37
  let main_v39 : FVec F S16 .f32 := Host.absf main_arg11
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S32x64 .f32 := Host.absf main_arg12
  let main_cst_16 : FVec F S_ .f32 := constant S_ .f32 0x7F800000#32
  let main_v45 : FVec F S32x64 .f32 := broadcastInDim S32x64 ![] bcast_S_S32x64 main_cst_16
  let main_v46 : IVec S32x64 1 := cmpf .olt main_v44 main_v45
  let main_c_17 : IVec S_ 1 := constantI S_ 1 1#1
  let main_v47 : IVec S_ 1 := (fun x v => Host.reduce IntOp.andi x v reducesTo_S32x64_S_d0_1 h_S_) main_v46 main_c_17
  let main_v48 : IVec S_ 1 := andi main_v43 main_v47
  let main_v49 : FVec F S64 .f32 := Host.absf main_arg13
  let main_cst_18 : FVec F S_ .f32 := constant S_ .f32 0x7F800000#32
  let main_v50 : FVec F S64 .f32 := broadcastInDim S64 ![] bcast_S_S64 main_cst_18
  fn_part3 (F := F) main_arg2 main_arg14 main_arg15 main_v48 main_v49 main_v50

def fn_part1 {F : FTy → Type} [FloatOps F] (main_arg2 : IVec S1000000x2 32) (main_arg7 : FVec F S8x16 .f32) (main_arg8 : FVec F S8x16 .f32) (main_arg9 : FVec F S16 .f32) (main_arg10 : FVec F S2x16 .f32) (main_arg11 : FVec F S16 .f32) (main_arg12 : FVec F S32x64 .f32) (main_arg13 : FVec F S64 .f32) (main_arg14 : FVec F S64x1 .f32) (main_arg15 : FVec F S1 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S8x16 .f32 := Host.absf main_arg7
  let main_cst_6 : FVec F S_ .f32 := constant S_ .f32 0x7F800000#32
  let main_v20 : FVec F S8x16 .f32 := broadcastInDim S8x16 ![] bcast_S_S8x16 main_cst_6
  let main_v21 : IVec S8x16 1 := cmpf .olt main_v19 main_v20
  let main_c_7 : IVec S_ 1 := constantI S_ 1 1#1
  let main_v22 : IVec S_ 1 := (fun x v => Host.reduce IntOp.andi x v reducesTo_S8x16_S_d0_1 h_S_) main_v21 main_c_7
  let main_v23 : IVec S_ 1 := andi main_v18 main_v22
  let main_v24 : FVec F S8x16 .f32 := Host.absf main_arg8
  let main_cst_8 : FVec F S_ .f32 := constant S_ .f32 0x7F800000#32
  let main_v25 : FVec F S8x16 .f32 := broadcastInDim S8x16 ![] bcast_S_S8x16 main_cst_8
  let main_v26 : IVec S8x16 1 := cmpf .olt main_v24 main_v25
  let main_c_9 : IVec S_ 1 := constantI S_ 1 1#1
  let main_v27 : IVec S_ 1 := (fun x v => Host.reduce IntOp.andi x v reducesTo_S8x16_S_d0_1 h_S_) main_v26 main_c_9
  let main_v28 : IVec S_ 1 := andi main_v23 main_v27
  let main_v29 : FVec F S16 .f32 := Host.absf main_arg9
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg2 main_arg10 main_arg11 main_arg12 main_arg13 main_arg14 main_arg15 main_v33

def fn {F : FTy → Type} [FloatOps F] (main_arg0 : FVec F S200000x2 .f32) (main_arg1 : IVec S200000 1) (main_arg2 : IVec S1000000x2 32) (main_arg3 : IVec S2x3200000 32) (main_arg4 : FVec F S2x8 .f32) (main_arg5 : FVec F S2x8 .f32) (main_arg6 : FVec F S8 .f32) (main_arg7 : FVec F S8x16 .f32) (main_arg8 : FVec F S8x16 .f32) (main_arg9 : FVec F S16 .f32) (main_arg10 : FVec F S2x16 .f32) (main_arg11 : FVec F S16 .f32) (main_arg12 : FVec F S32x64 .f32) (main_arg13 : FVec F S64 .f32) (main_arg14 : FVec F S64x1 .f32) (main_arg15 : FVec F S1 .f32) : IVec S_ 1 :=
  let main_v0 : FVec F S200000x2 .f32 := Host.absf main_arg0
  let main_cst : FVec F S_ .f32 := constant S_ .f32 0x7F800000#32
  let main_v1 : FVec F S200000x2 .f32 := broadcastInDim S200000x2 ![] bcast_S_S200000x2 main_cst
  let main_v2 : IVec S200000x2 1 := cmpf .olt main_v0 main_v1
  let main_c : IVec S_ 1 := constantI S_ 1 1#1
  let main_v3 : IVec S_ 1 := (fun x v => Host.reduce IntOp.andi x v reducesTo_S200000x2_S_d0_1 h_S_) main_v2 main_c
  let main_v4 : FVec F S2x8 .f32 := Host.absf main_arg4
  let main_cst_0 : FVec F S_ .f32 := constant S_ .f32 0x7F800000#32
  let main_v5 : FVec F S2x8 .f32 := broadcastInDim S2x8 ![] bcast_S_S2x8 main_cst_0
  let main_v6 : IVec S2x8 1 := cmpf .olt main_v4 main_v5
  let main_c_1 : IVec S_ 1 := constantI S_ 1 1#1
  let main_v7 : IVec S_ 1 := (fun x v => Host.reduce IntOp.andi x v reducesTo_S2x8_S_d0_1 h_S_) main_v6 main_c_1
  let main_v8 : IVec S_ 1 := andi main_v3 main_v7
  let main_v9 : FVec F S2x8 .f32 := Host.absf main_arg5
  let main_cst_2 : FVec F S_ .f32 := constant S_ .f32 0x7F800000#32
  let main_v10 : FVec F S2x8 .f32 := broadcastInDim S2x8 ![] bcast_S_S2x8 main_cst_2
  let main_v11 : IVec S2x8 1 := cmpf .olt main_v9 main_v10
  let main_c_3 : IVec S_ 1 := constantI S_ 1 1#1
  let main_v12 : IVec S_ 1 := (fun x v => Host.reduce IntOp.andi x v reducesTo_S2x8_S_d0_1 h_S_) main_v11 main_c_3
  let main_v13 : IVec S_ 1 := andi main_v8 main_v12
  let main_v14 : FVec F S8 .f32 := Host.absf main_arg6
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg2 main_arg7 main_arg8 main_arg9 main_arg10 main_arg11 main_arg12 main_arg13 main_arg14 main_arg15 main_v13 main_v16
-- ==== Kernel.lean ====
abbrev S200000x2 : Shape := ⟨2, ![200000, 2]⟩
abbrev S200000 : Shape := ⟨1, ![200000]⟩
abbrev S1000000x2 : Shape := ⟨2, ![1000000, 2]⟩
abbrev S2x3200000 : Shape := ⟨2, ![2, 3200000]⟩
abbrev S2x8 : Shape := ⟨2, ![2, 8]⟩
abbrev S8 : Shape := ⟨1, ![8]⟩
abbrev S8x16 : Shape := ⟨2, ![8, 16]⟩
abbrev S16 : Shape := ⟨1, ![16]⟩
abbrev S2x16 : Shape := ⟨2, ![2, 16]⟩
abbrev S32x64 : Shape := ⟨2, ![32, 64]⟩
abbrev S64 : Shape := ⟨1, ![64]⟩
abbrev S64x1 : Shape := ⟨2, ![64, 1]⟩
abbrev S1 : Shape := ⟨1, ![1]⟩
abbrev S_ : Shape := ⟨0, ![]⟩
abbrev S100000 : Shape := ⟨1, ![100000]⟩
abbrev S200000x1 : Shape := ⟨2, ![200000, 1]⟩
abbrev S100000x1 : Shape := ⟨2, ![100000, 1]⟩
abbrev S100000x2 : Shape := ⟨2, ![100000, 2]⟩
abbrev S2x100000 : Shape := ⟨2, ![2, 100000]⟩
abbrev S16x2 : Shape := ⟨2, ![16, 2]⟩
abbrev S16x1 : Shape := ⟨2, ![16, 1]⟩
abbrev S16x100000 : Shape := ⟨2, ![16, 100000]⟩
abbrev S1x3200000 : Shape := ⟨2, ![1, 3200000]⟩
abbrev S3200000 : Shape := ⟨1, ![3200000]⟩
abbrev S3200000x1 : Shape := ⟨2, ![3200000, 1]⟩
abbrev S3200000x2 : Shape := ⟨2, ![3200000, 2]⟩
abbrev S8x2 : Shape := ⟨2, ![8, 2]⟩
abbrev S8x1 : Shape := ⟨2, ![8, 1]⟩
abbrev S8x100000 : Shape := ⟨2, ![8, 100000]⟩
abbrev S100000x8 : Shape := ⟨2, ![100000, 8]⟩
abbrev S3200000x8 : Shape := ⟨2, ![3200000, 8]⟩
abbrev S16x8 : Shape := ⟨2, ![16, 8]⟩
abbrev S1000000x1 : Shape := ⟨2, ![1000000, 1]⟩
abbrev S1000000 : Shape := ⟨1, ![1000000]⟩
abbrev S1x1 : Shape := ⟨2, ![1, 1]⟩
abbrev S16x1000000 : Shape := ⟨2, ![16, 1000000]⟩
abbrev S64x32 : Shape := ⟨2, ![64, 32]⟩
abbrev S1x64 : Shape := ⟨2, ![1, 64]⟩
abbrev S16x1015808 : Shape := ⟨2, ![16, 1015808]⟩
abbrev S1x1015808 : Shape := ⟨2, ![1, 1015808]⟩
abbrev S16x32768 : Shape := ⟨2, ![16, 32768]⟩
abbrev S1x32768 : Shape := ⟨2, ![1, 32768]⟩
abbrev S32x32768 : Shape := ⟨2, ![32, 32768]⟩
abbrev S64x32768 : Shape := ⟨2, ![64, 32768]⟩
abbrev S1x1000000 : Shape := ⟨2, ![1, 1000000]⟩

abbrev nBuf : Space → Nat
  | .hbm => 270
  | .vmem => 26
  | .smem => 0
  | _ => 0

abbrev hbmTy0_0 (i : Nat) : BufTy := match i % 128 with
  | 0 => ⟨S200000x2, .f32⟩
  | 1 => ⟨S200000, .i1⟩
  | 2 => ⟨S1000000x2, .i32⟩
  | 3 => ⟨S2x3200000, .i32⟩
  | 4 => ⟨S2x8, .f32⟩
  | 5 => ⟨S2x8, .f32⟩
  | 6 => ⟨S8, .f32⟩
  | 7 => ⟨S8x16, .f32⟩
  | 8 => ⟨S8x16, .f32⟩
  | 9 => ⟨S16, .f32⟩
  | 10 => ⟨S2x16, .f32⟩
  | 11 => ⟨S16, .f32⟩
  | 12 => ⟨S32x64, .f32⟩
  | 13 => ⟨S64, .f32⟩
  | 14 => ⟨S64x1, .f32⟩
  | 15 => ⟨S1, .f32⟩
  | 16 => ⟨S200000, .i32⟩
  | 17 => ⟨S_, .i32⟩
  | 18 => ⟨S_, .i32⟩
  | 19 => ⟨S200000, .i32⟩
  | 20 => ⟨S_, .i32⟩
  | 21 => ⟨S100000, .i32⟩
  | 22 => ⟨S_, .i32⟩
  | 23 => ⟨S_, .i32⟩
  | 24 => ⟨S200000, .i32⟩
  | 25 => ⟨S200000, .i32⟩
  | 26 => ⟨S_, .i32⟩
  | 27 => ⟨S200000, .i32⟩
  | 28 => ⟨S200000, .i1⟩
  | 29 => ⟨S_, .i32⟩
  | 30 => ⟨S200000, .i32⟩
  | 31 => ⟨S200000, .i32⟩
  | 32 => ⟨S200000, .i32⟩
  | 33 => ⟨S200000x1, .i32⟩
  | 34 => ⟨S_, .i32⟩
  | 35 => ⟨S200000, .i32⟩
  | 36 => ⟨S100000, .i32⟩
  | 37 => ⟨S_, .i32⟩
  | 38 => ⟨S_, .i32⟩
  | 39 => ⟨S100000, .i32⟩
  | 40 => ⟨S_, .i32⟩
  | 41 => ⟨S100000, .i32⟩
  | 42 => ⟨S100000, .i32⟩
  | 43 => ⟨S100000, .i32⟩
  | 44 => ⟨S_, .i32⟩
  | 45 => ⟨S100000, .i32⟩
  | 46 => ⟨S100000, .i1⟩
  | 47 => ⟨S100000, .i32⟩
  | 48 => ⟨S100000, .i32⟩
  | 49 => ⟨S_, .i32⟩
  | 50 => ⟨S100000, .i32⟩
  | 51 => ⟨S100000, .i1⟩
  | 52 => ⟨S100000, .i1⟩
  | 53 => ⟨S_, .i32⟩
  | 54 => ⟨S100000, .i32⟩
  | 55 => ⟨S100000, .i32⟩
  | 56 => ⟨S100000, .i32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S100000, .i32⟩
  | 64 => ⟨S100000, .i32⟩
  | 65 => ⟨S_, .i32⟩
  | 66 => ⟨S100000, .i32⟩
  | 67 => ⟨S100000, .i1⟩
  | 68 => ⟨S_, .i32⟩
  | 69 => ⟨S100000, .i32⟩
  | 70 => ⟨S100000, .i1⟩
  | 71 => ⟨S_, .i32⟩
  | 72 => ⟨S_, .i1⟩
  | 73 => ⟨S100000, .i1⟩
  | 74 => ⟨S100000, .i1⟩
  | 75 => ⟨S100000, .i1⟩
  | 76 => ⟨S100000, .i32⟩
  | 77 => ⟨S100000, .i32⟩
  | 78 => ⟨S100000, .i32⟩
  | 79 => ⟨S200000, .i1⟩
  | 80 => ⟨S200000, .i32⟩
  | 81 => ⟨S_, .i32⟩
  | 82 => ⟨S_, .i32⟩
  | 83 => ⟨S200000, .i32⟩
  | 84 => ⟨S_, .i32⟩
  | 85 => ⟨S100000, .i32⟩
  | 86 => ⟨S_, .i32⟩
  | 87 => ⟨S_, .i32⟩
  | 88 => ⟨S200000, .i32⟩
  | 89 => ⟨S200000, .i32⟩
  | 90 => ⟨S_, .i32⟩
  | 91 => ⟨S200000, .i32⟩
  | 92 => ⟨S200000, .i1⟩
  | 93 => ⟨S_, .i32⟩
  | 94 => ⟨S200000, .i32⟩
  | 95 => ⟨S200000, .i32⟩
  | 96 => ⟨S200000, .i32⟩
  | 97 => ⟨S200000x1, .i32⟩
  | 98 => ⟨S_, .i32⟩
  | 99 => ⟨S200000, .i32⟩
  | 100 => ⟨S100000, .i32⟩
  | 101 => ⟨S_, .i32⟩
  | 102 => ⟨S_, .i32⟩
  | 103 => ⟨S100000, .i32⟩
  | 104 => ⟨S_, .i32⟩
  | 105 => ⟨S100000, .i32⟩
  | 106 => ⟨S100000, .i32⟩
  | 107 => ⟨S100000, .i32⟩
  | 108 => ⟨S_, .i32⟩
  | 109 => ⟨S100000, .i32⟩
  | 110 => ⟨S100000, .i1⟩
  | 111 => ⟨S100000, .i32⟩
  | 112 => ⟨S100000, .i32⟩
  | 113 => ⟨S_, .i32⟩
  | 114 => ⟨S100000, .i32⟩
  | 115 => ⟨S100000, .i1⟩
  | 116 => ⟨S100000, .i1⟩
  | 117 => ⟨S_, .i32⟩
  | 118 => ⟨S100000, .i32⟩
  | 119 => ⟨S100000, .i32⟩
  | 120 => ⟨S100000, .i32⟩
  | 121 => ⟨S_, .i32⟩
  | 122 => ⟨S_, .i32⟩
  | 123 => ⟨S_, .i32⟩
  | 124 => ⟨S_, .i1⟩
  | 125 => ⟨S_, .i32⟩
  | 126 => ⟨S_, .i32⟩
  | 127 => ⟨S100000, .i32⟩
  | _ => ⟨S200000x2, .f32⟩

abbrev hbmTy0_1 (i : Nat) : BufTy := match i % 128 with
  | 0 => ⟨S100000, .i32⟩
  | 1 => ⟨S_, .i32⟩
  | 2 => ⟨S100000, .i32⟩
  | 3 => ⟨S100000, .i1⟩
  | 4 => ⟨S_, .i32⟩
  | 5 => ⟨S100000, .i32⟩
  | 6 => ⟨S100000, .i1⟩
  | 7 => ⟨S_, .i32⟩
  | 8 => ⟨S_, .i1⟩
  | 9 => ⟨S100000, .i1⟩
  | 10 => ⟨S100000, .i1⟩
  | 11 => ⟨S100000, .i1⟩
  | 12 => ⟨S100000, .i32⟩
  | 13 => ⟨S100000, .i32⟩
  | 14 => ⟨S100000, .i32⟩
  | 15 => ⟨S_, .i32⟩
  | 16 => ⟨S100000, .i32⟩
  | 17 => ⟨S100000, .i1⟩
  | 18 => ⟨S_, .i32⟩
  | 19 => ⟨S100000, .i32⟩
  | 20 => ⟨S100000, .i32⟩
  | 21 => ⟨S100000, .i32⟩
  | 22 => ⟨S100000x1, .i32⟩
  | 23 => ⟨S100000x2, .f32⟩
  | 24 => ⟨S_, .i32⟩
  | 25 => ⟨S100000, .i32⟩
  | 26 => ⟨S100000, .i1⟩
  | 27 => ⟨S_, .i32⟩
  | 28 => ⟨S100000, .i32⟩
  | 29 => ⟨S100000, .i32⟩
  | 30 => ⟨S100000, .i32⟩
  | 31 => ⟨S100000x1, .i32⟩
  | 32 => ⟨S100000x2, .f32⟩
  | 33 => ⟨S2x100000, .f32⟩
  | 34 => ⟨S2x100000, .f32⟩
  | 35 => ⟨S16x2, .f32⟩
  | 36 => ⟨S16x1, .f32⟩
  | 37 => ⟨S16x100000, .f32⟩
  | 38 => ⟨S1x3200000, .i32⟩
  | 39 => ⟨S3200000, .i32⟩
  | 40 => ⟨S1x3200000, .i32⟩
  | 41 => ⟨S3200000, .i32⟩
  | 42 => ⟨S_, .i32⟩
  | 43 => ⟨S3200000, .i32⟩
  | 44 => ⟨S3200000, .i1⟩
  | 45 => ⟨S_, .i32⟩
  | 46 => ⟨S3200000, .i32⟩
  | 47 => ⟨S3200000, .i32⟩
  | 48 => ⟨S3200000, .i32⟩
  | 49 => ⟨S3200000x1, .i32⟩
  | 50 => ⟨S3200000x2, .f32⟩
  | 51 => ⟨S_, .f32⟩
  | 52 => ⟨S100000x2, .f32⟩
  | 53 => ⟨S3200000x1, .i32⟩
  | 54 => ⟨S100000x2, .f32⟩
  | 55 => ⟨S2x100000, .f32⟩
  | 56 => ⟨S8x2, .f32⟩
  | 57 => ⟨S8x2, .f32⟩
  | 58 => ⟨S8x1, .f32⟩
  | 59 => ⟨S8x100000, .f32⟩
  | 60 => ⟨S100000x8, .f32⟩
  | 61 => ⟨S_, .i32⟩
  | 62 => ⟨S3200000, .i32⟩
  | 63 => ⟨S3200000, .i1⟩
  | 64 => ⟨S_, .i32⟩
  | 65 => ⟨S3200000, .i32⟩
  | 66 => ⟨S3200000, .i32⟩
  | 67 => ⟨S3200000, .i32⟩
  | 68 => ⟨S3200000x1, .i32⟩
  | 69 => ⟨S3200000x8, .f32⟩
  | 70 => ⟨S_, .f32⟩
  | 71 => ⟨S100000x8, .f32⟩
  | 72 => ⟨S3200000x1, .i32⟩
  | 73 => ⟨S100000x8, .f32⟩
  | 74 => ⟨S8x100000, .f32⟩
  | 75 => ⟨S16x8, .f32⟩
  | 76 => ⟨S16x8, .f32⟩
  | 77 => ⟨S16x1, .f32⟩
  | 78 => ⟨S16x100000, .f32⟩
  | 79 => ⟨S1000000x1, .i32⟩
  | 80 => ⟨S1000000, .i32⟩
  | 81 => ⟨S_, .i32⟩
  | 82 => ⟨S1000000, .i32⟩
  | 83 => ⟨S1000000, .i1⟩
  | 84 => ⟨S_, .i32⟩
  | 85 => ⟨S1000000, .i32⟩
  | 86 => ⟨S1000000, .i32⟩
  | 87 => ⟨S1000000, .i32⟩
  | 88 => ⟨S1000000x1, .i32⟩
  | 89 => ⟨S1, .i32⟩
  | 90 => ⟨S_, .i32⟩
  | 91 => ⟨S1000000x1, .i32⟩
  | 92 => ⟨S1000000x1, .i1⟩
  | 93 => ⟨S1x1, .i32⟩
  | 94 => ⟨S1000000x1, .i32⟩
  | 95 => ⟨S1000000x1, .i1⟩
  | 96 => ⟨S1000000x1, .i1⟩
  | 97 => ⟨S_, .i1⟩
  | 98 => ⟨S1000000, .i1⟩
  | 99 => ⟨S16x1000000, .f32⟩
  | 100 => ⟨S16x1000000, .i1⟩
  | 101 => ⟨S_, .f32⟩
  | 102 => ⟨S16x1000000, .f32⟩
  | 103 => ⟨S16x1000000, .f32⟩
  | 104 => ⟨S1000000x1, .i32⟩
  | 105 => ⟨S1000000, .i32⟩
  | 106 => ⟨S_, .i32⟩
  | 107 => ⟨S1000000, .i32⟩
  | 108 => ⟨S1000000, .i1⟩
  | 109 => ⟨S_, .i32⟩
  | 110 => ⟨S1000000, .i32⟩
  | 111 => ⟨S1000000, .i32⟩
  | 112 => ⟨S1000000, .i32⟩
  | 113 => ⟨S1000000x1, .i32⟩
  | 114 => ⟨S1, .i32⟩
  | 115 => ⟨S_, .i32⟩
  | 116 => ⟨S1000000x1, .i32⟩
  | 117 => ⟨S1000000x1, .i1⟩
  | 118 => ⟨S1x1, .i32⟩
  | 119 => ⟨S1000000x1, .i32⟩
  | 120 => ⟨S1000000x1, .i1⟩
  | 121 => ⟨S1000000x1, .i1⟩
  | 122 => ⟨S_, .i1⟩
  | 123 => ⟨S1000000, .i1⟩
  | 124 => ⟨S16x1000000, .f32⟩
  | 125 => ⟨S16x1000000, .i1⟩
  | 126 => ⟨S_, .f32⟩
  | 127 => ⟨S16x1000000, .f32⟩
  | _ => ⟨S200000x2, .f32⟩

abbrev hbmTy0_2 (i : Nat) : BufTy := match i % 128 with
  | 0 => ⟨S16x1000000, .f32⟩
  | 1 => ⟨S64x32, .f32⟩
  | 2 => ⟨S1x64, .f32⟩
  | 3 => ⟨S_, .i32⟩
  | 4 => ⟨S_, .f32⟩
  | 5 => ⟨S16x1015808, .f32⟩
  | 6 => ⟨S_, .i32⟩
  | 7 => ⟨S_, .f32⟩
  | 8 => ⟨S16x1015808, .f32⟩
  | 9 => ⟨S64x1, .f32⟩
  | 10 => ⟨S1x1, .f32⟩
  | 11 => ⟨S1x1015808, .f32⟩
  | 12 => ⟨S1x1000000, .f32⟩
  | 13 => ⟨S1000000, .f32⟩
  | _ => ⟨S200000x2, .f32⟩

abbrev hbmTy (i : Nat) : BufTy := match i / 128 with
  | 0 => hbmTy0_0 i
  | 1 => hbmTy0_1 i
  | 2 => hbmTy0_2 i
  | _ => ⟨S200000x2, .f32⟩

abbrev bufTy : (tb : Table) → Fin (tcTables nBuf tb) → BufTy
  | .hbm, ⟨i, _⟩ => hbmTy i
  | .local _ .vmem, ⟨0, _⟩ => ⟨S2x100000, .f32⟩
  | .local _ .vmem, ⟨1, _⟩ => ⟨S16x2, .f32⟩
  | .local _ .vmem, ⟨2, _⟩ => ⟨S16x1, .f32⟩
  | .local _ .vmem, ⟨3, _⟩ => ⟨S16x100000, .f32⟩
  | .local _ .vmem, ⟨4, _⟩ => ⟨S2x100000, .f32⟩
  | .local _ .vmem, ⟨5, _⟩ => ⟨S2x100000, .f32⟩
  | .local _ .vmem, ⟨6, _⟩ => ⟨S8x2, .f32⟩
  | .local _ .vmem, ⟨7, _⟩ => ⟨S8x2, .f32⟩
  | .local _ .vmem, ⟨8, _⟩ => ⟨S8x1, .f32⟩
  | .local _ .vmem, ⟨9, _⟩ => ⟨S8x100000, .f32⟩
  | .local _ .vmem, ⟨10, _⟩ => ⟨S8x100000, .f32⟩
  | .local _ .vmem, ⟨11, _⟩ => ⟨S8x100000, .f32⟩
  | .local _ .vmem, ⟨12, _⟩ => ⟨S16x8, .f32⟩
  | .local _ .vmem, ⟨13, _⟩ => ⟨S16x8, .f32⟩
  | .local _ .vmem, ⟨14, _⟩ => ⟨S16x1, .f32⟩
  | .local _ .vmem, ⟨15, _⟩ => ⟨S16x100000, .f32⟩
  | .local _ .vmem, ⟨16, _⟩ => ⟨S16x32768, .f32⟩
  | .local _ .vmem, ⟨17, _⟩ => ⟨S16x32768, .f32⟩
  | .local _ .vmem, ⟨18, _⟩ => ⟨S16x32768, .f32⟩
  | .local _ .vmem, ⟨19, _⟩ => ⟨S16x32768, .f32⟩
  | .local _ .vmem, ⟨20, _⟩ => ⟨S64x32, .f32⟩
  | .local _ .vmem, ⟨21, _⟩ => ⟨S64x1, .f32⟩
  | .local _ .vmem, ⟨22, _⟩ => ⟨S1x64, .f32⟩
  | .local _ .vmem, ⟨23, _⟩ => ⟨S1x1, .f32⟩
  | .local _ .vmem, ⟨24, _⟩ => ⟨S1x32768, .f32⟩
  | .local _ .vmem, ⟨25, _⟩ => ⟨S1x32768, .f32⟩
  | _, _ => ⟨S200000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_v0 : Ref sig .tc := ⟨.hbm, 16, rfl⟩
abbrev main_call0_call0_c : Ref sig .tc := ⟨.hbm, 17, rfl⟩
abbrev main_call0_call0_v0 : Ref sig .tc := ⟨.hbm, 18, rfl⟩
abbrev main_v0 : Ref sig .tc := ⟨.hbm, 19, rfl⟩
abbrev main_c : Ref sig .tc := ⟨.hbm, 20, rfl⟩
abbrev main_v1 : Ref sig .tc := ⟨.hbm, 21, rfl⟩
abbrev main_c_0 : Ref sig .tc := ⟨.hbm, 22, rfl⟩
abbrev main_call1_v0 : Ref sig .tc := ⟨.hbm, 23, rfl⟩
abbrev main_call1_v1 : Ref sig .tc := ⟨.hbm, 24, rfl⟩
abbrev main_v2 : Ref sig .tc := ⟨.hbm, 25, rfl⟩
abbrev main_c_1 : Ref sig .tc := ⟨.hbm, 26, rfl⟩
abbrev main_v3 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_c_3 : Ref sig .tc := ⟨.hbm, 34, rfl⟩
abbrev main_v9 : Ref sig .tc := ⟨.hbm, 35, rfl⟩
abbrev main_v10 : Ref sig .tc := ⟨.hbm, 36, rfl⟩
abbrev main_call2_call0_c : Ref sig .tc := ⟨.hbm, 37, rfl⟩
abbrev main_call2_call0_v0 : Ref sig .tc := ⟨.hbm, 38, rfl⟩
abbrev main_v11 : Ref sig .tc := ⟨.hbm, 39, rfl⟩
abbrev main_c_4 : Ref sig .tc := ⟨.hbm, 40, rfl⟩
abbrev main_call3_v0 : Ref sig .tc := ⟨.hbm, 41, rfl⟩
abbrev main_call3_v1 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_call3_v5 : Ref sig .tc := ⟨.hbm, 46, rfl⟩
abbrev main_call3_v6 : Ref sig .tc := ⟨.hbm, 47, rfl⟩
abbrev main_call3_v7 : Ref sig .tc := ⟨.hbm, 48, rfl⟩
abbrev main_call3_c : Ref sig .tc := ⟨.hbm, 49, rfl⟩
abbrev main_call3_v8 : Ref sig .tc := ⟨.hbm, 50, rfl⟩
abbrev main_call3_v9 : Ref sig .tc := ⟨.hbm, 51, rfl⟩
abbrev main_call3_v10 : Ref sig .tc := ⟨.hbm, 52, rfl⟩
abbrev main_call3_c_0 : Ref sig .tc := ⟨.hbm, 53, rfl⟩
abbrev main_call3_v11 : Ref sig .tc := ⟨.hbm, 54, rfl⟩
abbrev main_call3_v12 : Ref sig .tc := ⟨.hbm, 55, rfl⟩
abbrev main_v12 : Ref sig .tc := ⟨.hbm, 56, rfl⟩
abbrev main_c_5 : Ref sig .tc := ⟨.hbm, 57, rfl⟩
abbrev main_call4_v0 : Ref sig .tc := ⟨.hbm, 58, rfl⟩
abbrev main_call4_c : Ref sig .tc := ⟨.hbm, 59, rfl⟩
abbrev main_call4_v1 : Ref sig .tc := ⟨.hbm, 60, rfl⟩
abbrev main_call4_c_0 : Ref sig .tc := ⟨.hbm, 61, rfl⟩
abbrev main_call4_v2 : Ref sig .tc := ⟨.hbm, 62, rfl⟩
abbrev main_call4_v3 : Ref sig .tc := ⟨.hbm, 63, rfl⟩
abbrev main_call4_v4 : Ref sig .tc := ⟨.hbm, 64, rfl⟩
abbrev main_call4_c_1 : Ref sig .tc := ⟨.hbm, 65, rfl⟩
abbrev main_call4_v5 : Ref sig .tc := ⟨.hbm, 66, rfl⟩
abbrev main_call4_v6 : Ref sig .tc := ⟨.hbm, 67, rfl⟩
abbrev main_call4_c_2 : Ref sig .tc := ⟨.hbm, 68, rfl⟩
abbrev main_call4_v7 : Ref sig .tc := ⟨.hbm, 69, rfl⟩
abbrev main_call4_v8 : Ref sig .tc := ⟨.hbm, 70, rfl⟩
abbrev main_call4_c_3 : Ref sig .tc := ⟨.hbm, 71, rfl⟩
abbrev main_call4_v9 : Ref sig .tc := ⟨.hbm, 72, rfl⟩
abbrev main_call4_v10 : Ref sig .tc := ⟨.hbm, 73, rfl⟩
abbrev main_call4_v11 : Ref sig .tc := ⟨.hbm, 74, rfl⟩
abbrev main_call4_v12 : Ref sig .tc := ⟨.hbm, 75, rfl⟩
abbrev main_call4_v13 : Ref sig .tc := ⟨.hbm, 76, rfl⟩
abbrev main_call4_v14 : Ref sig .tc := ⟨.hbm, 77, rfl⟩
abbrev main_v13 : Ref sig .tc := ⟨.hbm, 78, rfl⟩
abbrev main_v14 : Ref sig .tc := ⟨.hbm, 79, rfl⟩
abbrev main_call5_v0 : Ref sig .tc := ⟨.hbm, 80, rfl⟩
abbrev main_call5_call0_c : Ref sig .tc := ⟨.hbm, 81, rfl⟩
abbrev main_call5_call0_v0 : Ref sig .tc := ⟨.hbm, 82, rfl⟩
abbrev main_v15 : Ref sig .tc := ⟨.hbm, 83, rfl⟩
abbrev main_c_6 : Ref sig .tc := ⟨.hbm, 84, rfl⟩
abbrev main_v16 : Ref sig .tc := ⟨.hbm, 85, rfl⟩
abbrev main_c_7 : Ref sig .tc := ⟨.hbm, 86, rfl⟩
abbrev main_call6_v0 : Ref sig .tc := ⟨.hbm, 87, rfl⟩
abbrev main_call6_v1 : Ref sig .tc := ⟨.hbm, 88, rfl⟩
abbrev main_v17 : Ref sig .tc := ⟨.hbm, 89, rfl⟩
abbrev main_c_8 : Ref sig .tc := ⟨.hbm, 90, rfl⟩
abbrev main_v18 : Ref sig .tc := ⟨.hbm, 91, rfl⟩
abbrev main_v19 : Ref sig .tc := ⟨.hbm, 92, rfl⟩
abbrev main_c_9 : Ref sig .tc := ⟨.hbm, 93, rfl⟩
abbrev main_v20 : Ref sig .tc := ⟨.hbm, 94, rfl⟩
abbrev main_v21 : Ref sig .tc := ⟨.hbm, 95, rfl⟩
abbrev main_v22 : Ref sig .tc := ⟨.hbm, 96, rfl⟩
abbrev main_v23 : Ref sig .tc := ⟨.hbm, 97, rfl⟩
abbrev main_c_10 : Ref sig .tc := ⟨.hbm, 98, rfl⟩
abbrev main_v24 : Ref sig .tc := ⟨.hbm, 99, rfl⟩
abbrev main_v25 : Ref sig .tc := ⟨.hbm, 100, rfl⟩
abbrev main_call7_call0_c : Ref sig .tc := ⟨.hbm, 101, rfl⟩
abbrev main_call7_call0_v0 : Ref sig .tc := ⟨.hbm, 102, rfl⟩
abbrev main_v26 : Ref sig .tc := ⟨.hbm, 103, rfl⟩
abbrev main_c_11 : Ref sig .tc := ⟨.hbm, 104, rfl⟩
abbrev main_call8_v0 : Ref sig .tc := ⟨.hbm, 105, rfl⟩
abbrev main_call8_v1 : Ref sig .tc := ⟨.hbm, 106, rfl⟩
abbrev main_call8_v2 : Ref sig .tc := ⟨.hbm, 107, rfl⟩
abbrev main_call8_v3 : Ref sig .tc := ⟨.hbm, 108, rfl⟩
abbrev main_call8_v4 : Ref sig .tc := ⟨.hbm, 109, rfl⟩
abbrev main_call8_v5 : Ref sig .tc := ⟨.hbm, 110, rfl⟩
abbrev main_call8_v6 : Ref sig .tc := ⟨.hbm, 111, rfl⟩
abbrev main_call8_v7 : Ref sig .tc := ⟨.hbm, 112, rfl⟩
abbrev main_call8_c : Ref sig .tc := ⟨.hbm, 113, rfl⟩
abbrev main_call8_v8 : Ref sig .tc := ⟨.hbm, 114, rfl⟩
abbrev main_call8_v9 : Ref sig .tc := ⟨.hbm, 115, rfl⟩
abbrev main_call8_v10 : Ref sig .tc := ⟨.hbm, 116, rfl⟩
abbrev main_call8_c_0 : Ref sig .tc := ⟨.hbm, 117, rfl⟩
abbrev main_call8_v11 : Ref sig .tc := ⟨.hbm, 118, rfl⟩
abbrev main_call8_v12 : Ref sig .tc := ⟨.hbm, 119, rfl⟩
abbrev main_v27 : Ref sig .tc := ⟨.hbm, 120, rfl⟩
abbrev main_c_12 : Ref sig .tc := ⟨.hbm, 121, rfl⟩
abbrev main_call9_v0 : Ref sig .tc := ⟨.hbm, 122, rfl⟩
abbrev main_call9_c : Ref sig .tc := ⟨.hbm, 123, rfl⟩
abbrev main_call9_v1 : Ref sig .tc := ⟨.hbm, 124, rfl⟩
abbrev main_call9_c_0 : Ref sig .tc := ⟨.hbm, 125, rfl⟩
abbrev main_call9_v2 : Ref sig .tc := ⟨.hbm, 126, rfl⟩
abbrev main_call9_v3 : Ref sig .tc := ⟨.hbm, 127, rfl⟩
abbrev main_call9_v4 : Ref sig .tc := ⟨.hbm, 128, rfl⟩
abbrev main_call9_c_1 : Ref sig .tc := ⟨.hbm, 129, rfl⟩
abbrev main_call9_v5 : Ref sig .tc := ⟨.hbm, 130, rfl⟩
abbrev main_call9_v6 : Ref sig .tc := ⟨.hbm, 131, rfl⟩
abbrev main_call9_c_2 : Ref sig .tc := ⟨.hbm, 132, rfl⟩
abbrev main_call9_v7 : Ref sig .tc := ⟨.hbm, 133, rfl⟩
abbrev main_call9_v8 : Ref sig .tc := ⟨.hbm, 134, rfl⟩
abbrev main_call9_c_3 : Ref sig .tc := ⟨.hbm, 135, rfl⟩
abbrev main_call9_v9 : Ref sig .tc := ⟨.hbm, 136, rfl⟩
abbrev main_call9_v10 : Ref sig .tc := ⟨.hbm, 137, rfl⟩
abbrev main_call9_v11 : Ref sig .tc := ⟨.hbm, 138, rfl⟩
abbrev main_call9_v12 : Ref sig .tc := ⟨.hbm, 139, rfl⟩
abbrev main_call9_v13 : Ref sig .tc := ⟨.hbm, 140, rfl⟩
abbrev main_call9_v14 : Ref sig .tc := ⟨.hbm, 141, rfl⟩
abbrev main_v28 : Ref sig .tc := ⟨.hbm, 142, rfl⟩
abbrev main_c_13 : Ref sig .tc := ⟨.hbm, 143, rfl⟩
abbrev main_v29 : Ref sig .tc := ⟨.hbm, 144, rfl⟩
abbrev main_v30 : Ref sig .tc := ⟨.hbm, 145, rfl⟩
abbrev main_c_14 : Ref sig .tc := ⟨.hbm, 146, rfl⟩
abbrev main_v31 : Ref sig .tc := ⟨.hbm, 147, rfl⟩
abbrev main_v32 : Ref sig .tc := ⟨.hbm, 148, rfl⟩
abbrev main_v33 : Ref sig .tc := ⟨.hbm, 149, rfl⟩
abbrev main_v34 : Ref sig .tc := ⟨.hbm, 150, rfl⟩
abbrev main_v35 : Ref sig .tc := ⟨.hbm, 151, rfl⟩
abbrev main_c_15 : Ref sig .tc := ⟨.hbm, 152, rfl⟩
abbrev main_v36 : Ref sig .tc := ⟨.hbm, 153, rfl⟩
abbrev main_v37 : Ref sig .tc := ⟨.hbm, 154, rfl⟩
abbrev main_c_16 : Ref sig .tc := ⟨.hbm, 155, rfl⟩
abbrev main_v38 : Ref sig .tc := ⟨.hbm, 156, rfl⟩
abbrev main_v39 : Ref sig .tc := ⟨.hbm, 157, rfl⟩
abbrev main_v40 : Ref sig .tc := ⟨.hbm, 158, rfl⟩
abbrev main_v41 : Ref sig .tc := ⟨.hbm, 159, rfl⟩
abbrev main_v42 : Ref sig .tc := ⟨.hbm, 160, rfl⟩
abbrev main_v43 : Ref sig .tc := ⟨.hbm, 161, rfl⟩
abbrev main_v44 : Ref sig .tc := ⟨.hbm, 162, rfl⟩
abbrev main_v45 : Ref sig .tc := ⟨.hbm, 163, rfl⟩
abbrev main_v46 : Ref sig .tc := ⟨.hbm, 164, rfl⟩
abbrev main_v47 : Ref sig .tc := ⟨.hbm, 165, rfl⟩
abbrev main_v48 : Ref sig .tc := ⟨.hbm, 166, rfl⟩
abbrev main_v49 : Ref sig .tc := ⟨.hbm, 167, rfl⟩
abbrev main_v50 : Ref sig .tc := ⟨.hbm, 168, rfl⟩
abbrev main_v51 : Ref sig .tc := ⟨.hbm, 169, rfl⟩
abbrev main_c_17 : Ref sig .tc := ⟨.hbm, 170, rfl⟩
abbrev main_v52 : Ref sig .tc := ⟨.hbm, 171, rfl⟩
abbrev main_v53 : Ref sig .tc := ⟨.hbm, 172, rfl⟩
abbrev main_c_18 : Ref sig .tc := ⟨.hbm, 173, rfl⟩
abbrev main_v54 : Ref sig .tc := ⟨.hbm, 174, rfl⟩
abbrev main_v55 : Ref sig .tc := ⟨.hbm, 175, rfl⟩
abbrev main_v56 : Ref sig .tc := ⟨.hbm, 176, rfl⟩
abbrev main_v57 : Ref sig .tc := ⟨.hbm, 177, rfl⟩
abbrev main_v58 : Ref sig .tc := ⟨.hbm, 178, rfl⟩
abbrev main_cst : Ref sig .tc := ⟨.hbm, 179, rfl⟩
abbrev main_v59 : Ref sig .tc := ⟨.hbm, 180, rfl⟩
abbrev main_v60 : Ref sig .tc := ⟨.hbm, 181, rfl⟩
abbrev main_v61 : Ref sig .tc := ⟨.hbm, 182, rfl⟩
abbrev main_v62 : Ref sig .tc := ⟨.hbm, 183, rfl⟩
abbrev main_v63 : Ref sig .tc := ⟨.hbm, 184, rfl⟩
abbrev main_v64 : Ref sig .tc := ⟨.hbm, 185, rfl⟩
abbrev main_v65 : Ref sig .tc := ⟨.hbm, 186, rfl⟩
abbrev main_v66 : Ref sig .tc := ⟨.hbm, 187, rfl⟩
abbrev main_v67 : Ref sig .tc := ⟨.hbm, 188, rfl⟩
abbrev main_c_19 : Ref sig .tc := ⟨.hbm, 189, rfl⟩
abbrev main_v68 : Ref sig .tc := ⟨.hbm, 190, rfl⟩
abbrev main_v69 : Ref sig .tc := ⟨.hbm, 191, rfl⟩
abbrev main_c_20 : Ref sig .tc := ⟨.hbm, 192, rfl⟩
abbrev main_v70 : Ref sig .tc := ⟨.hbm, 193, rfl⟩
abbrev main_v71 : Ref sig .tc := ⟨.hbm, 194, rfl⟩
abbrev main_v72 : Ref sig .tc := ⟨.hbm, 195, rfl⟩
abbrev main_v73 : Ref sig .tc := ⟨.hbm, 196, rfl⟩
abbrev main_v74 : Ref sig .tc := ⟨.hbm, 197, rfl⟩
abbrev main_cst_21 : Ref sig .tc := ⟨.hbm, 198, rfl⟩
abbrev main_v75 : Ref sig .tc := ⟨.hbm, 199, rfl⟩
abbrev main_v76 : Ref sig .tc := ⟨.hbm, 200, rfl⟩
abbrev main_v77 : Ref sig .tc := ⟨.hbm, 201, rfl⟩
abbrev main_v78 : Ref sig .tc := ⟨.hbm, 202, rfl⟩
abbrev main_v79 : Ref sig .tc := ⟨.hbm, 203, rfl⟩
abbrev main_v80 : Ref sig .tc := ⟨.hbm, 204, rfl⟩
abbrev main_v81 : Ref sig .tc := ⟨.hbm, 205, rfl⟩
abbrev main_v82 : Ref sig .tc := ⟨.hbm, 206, rfl⟩
abbrev main_v83 : Ref sig .tc := ⟨.hbm, 207, rfl⟩
abbrev main_v84 : Ref sig .tc := ⟨.hbm, 208, rfl⟩
abbrev main_call10_c : Ref sig .tc := ⟨.hbm, 209, rfl⟩
abbrev main_call10_v0 : Ref sig .tc := ⟨.hbm, 210, rfl⟩
abbrev main_call10_v1 : Ref sig .tc := ⟨.hbm, 211, rfl⟩
abbrev main_call10_c_0 : Ref sig .tc := ⟨.hbm, 212, rfl⟩
abbrev main_call10_v2 : Ref sig .tc := ⟨.hbm, 213, rfl⟩
abbrev main_call10_v3 : Ref sig .tc := ⟨.hbm, 214, rfl⟩
abbrev main_call10_v4 : Ref sig .tc := ⟨.hbm, 215, rfl⟩
abbrev main_call10_v5 : Ref sig .tc := ⟨.hbm, 216, rfl⟩
abbrev main_call10_c_1 : Ref sig .tc := ⟨.hbm, 217, rfl⟩
abbrev main_call10_c_2 : Ref sig .tc := ⟨.hbm, 218, rfl⟩
abbrev main_call10_v6 : Ref sig .tc := ⟨.hbm, 219, rfl⟩
abbrev main_call10_v7 : Ref sig .tc := ⟨.hbm, 220, rfl⟩
abbrev main_call10_v8 : Ref sig .tc := ⟨.hbm, 221, rfl⟩
abbrev main_call10_v9 : Ref sig .tc := ⟨.hbm, 222, rfl⟩
abbrev main_call10_v10 : Ref sig .tc := ⟨.hbm, 223, rfl⟩
abbrev main_call10_v11 : Ref sig .tc := ⟨.hbm, 224, rfl⟩
abbrev main_call10_c_3 : Ref sig .tc := ⟨.hbm, 225, rfl⟩
abbrev main_call10_v12 : Ref sig .tc := ⟨.hbm, 226, rfl⟩
abbrev main_call10_v13 : Ref sig .tc := ⟨.hbm, 227, rfl⟩
abbrev main_call10_v14 : Ref sig .tc := ⟨.hbm, 228, rfl⟩
abbrev main_call10_cst : Ref sig .tc := ⟨.hbm, 229, rfl⟩
abbrev main_call10_v15 : Ref sig .tc := ⟨.hbm, 230, rfl⟩
abbrev main_v85 : Ref sig .tc := ⟨.hbm, 231, rfl⟩
abbrev main_v86 : Ref sig .tc := ⟨.hbm, 232, rfl⟩
abbrev main_v87 : Ref sig .tc := ⟨.hbm, 233, rfl⟩
abbrev main_call11_c : Ref sig .tc := ⟨.hbm, 234, rfl⟩
abbrev main_call11_v0 : Ref sig .tc := ⟨.hbm, 235, rfl⟩
abbrev main_call11_v1 : Ref sig .tc := ⟨.hbm, 236, rfl⟩
abbrev main_call11_c_0 : Ref sig .tc := ⟨.hbm, 237, rfl⟩
abbrev main_call11_v2 : Ref sig .tc := ⟨.hbm, 238, rfl⟩
abbrev main_call11_v3 : Ref sig .tc := ⟨.hbm, 239, rfl⟩
abbrev main_call11_v4 : Ref sig .tc := ⟨.hbm, 240, rfl⟩
abbrev main_call11_v5 : Ref sig .tc := ⟨.hbm, 241, rfl⟩
abbrev main_call11_c_1 : Ref sig .tc := ⟨.hbm, 242, rfl⟩
abbrev main_call11_c_2 : Ref sig .tc := ⟨.hbm, 243, rfl⟩
abbrev main_call11_v6 : Ref sig .tc := ⟨.hbm, 244, rfl⟩
abbrev main_call11_v7 : Ref sig .tc := ⟨.hbm, 245, rfl⟩
abbrev main_call11_v8 : Ref sig .tc := ⟨.hbm, 246, rfl⟩
abbrev main_call11_v9 : Ref sig .tc := ⟨.hbm, 247, rfl⟩
abbrev main_call11_v10 : Ref sig .tc := ⟨.hbm, 248, rfl⟩
abbrev main_call11_v11 : Ref sig .tc := ⟨.hbm, 249, rfl⟩
abbrev main_call11_c_3 : Ref sig .tc := ⟨.hbm, 250, rfl⟩
abbrev main_call11_v12 : Ref sig .tc := ⟨.hbm, 251, rfl⟩
abbrev main_call11_v13 : Ref sig .tc := ⟨.hbm, 252, rfl⟩
abbrev main_call11_v14 : Ref sig .tc := ⟨.hbm, 253, rfl⟩
abbrev main_call11_cst : Ref sig .tc := ⟨.hbm, 254, rfl⟩
abbrev main_call11_v15 : Ref sig .tc := ⟨.hbm, 255, rfl⟩
abbrev main_v88 : Ref sig .tc := ⟨.hbm, 256, rfl⟩
abbrev main_v89 : Ref sig .tc := ⟨.hbm, 257, rfl⟩
abbrev main_v90 : Ref sig .tc := ⟨.hbm, 258, rfl⟩
abbrev main_c_22 : Ref sig .tc := ⟨.hbm, 259, rfl⟩
abbrev main_call12_v0 : Ref sig .tc := ⟨.hbm, 260, rfl⟩
abbrev main_v91 : Ref sig .tc := ⟨.hbm, 261, rfl⟩
abbrev main_c_23 : Ref sig .tc := ⟨.hbm, 262, rfl⟩
abbrev main_call13_v0 : Ref sig .tc := ⟨.hbm, 263, rfl⟩
abbrev main_v92 : Ref sig .tc := ⟨.hbm, 264, rfl⟩
abbrev main_v93 : Ref sig .tc := ⟨.hbm, 265, rfl⟩
abbrev main_v94 : Ref sig .tc := ⟨.hbm, 266, rfl⟩
abbrev main_v95 : Ref sig .tc := ⟨.hbm, 267, rfl⟩
abbrev main_v96 : Ref sig .tc := ⟨.hbm, 268, rfl⟩
abbrev main_v97 : Ref sig .tc := ⟨.hbm, 269, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg5_0 : Ref sig .tc := ⟨.vmem, 23, rfl⟩
abbrev cc3_stg6_0 : Ref sig .tc := ⟨.vmem, 24, rfl⟩
abbrev cc3_stg6_1 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc2_sem0_0 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem3_0 : DmaSem sig := 21
abbrev cc3_sem4_0 : DmaSem sig := 22
abbrev cc3_sem5_0 : DmaSem sig := 23
abbrev cc3_sem6_0 : DmaSem sig := 24
abbrev cc3_sem6_1 : DmaSem sig := 25

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x100000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x100000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2x100000 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2x100000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x100000 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S8x100000 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S8x100000 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16x8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S16x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S16x100000 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![31], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S16x32768 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S16x32768 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1x32768 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  natLt_1_32 : 1 < 32
  bcast_S_S_ : S_.BroadcastsInDim S_ (![] : Fin 0 → Fin S_.rank)
  reduceWindows_S200000_S200000_w200000s1p199999_0 : S200000.ReduceWindows (![200000] : Fin 1 → Nat) ![1] ![199999] ![0] S200000
  h_S_ : 0 < S_.numel
  bcast_S_S100000 : S_.BroadcastsInDim S100000 (![] : Fin 0 → Fin S100000.rank)
  bcast_S_S200000 : S_.BroadcastsInDim S200000 (![] : Fin 0 → Fin S200000.rank)
  bcast_S200000_S200000x1_0 : S200000.BroadcastsInDim S200000x1 (![0] : Fin 1 → Fin S200000x1.rank)
  reduceWindows_S100000_S100000_w100000s1p99999_0 : S100000.ReduceWindows (![100000] : Fin 1 → Nat) ![1] ![99999] ![0] S100000
  bcast_S100000_S100000x1_0 : S100000.BroadcastsInDim S100000x1 (![0] : Fin 1 → Fin S100000x1.rank)
  transposes_S100000x2_S2x100000_1_0 : S100000x2.Transposes [1, 0] S2x100000
  transposes_S2x16_S16x2_1_0 : S2x16.Transposes [1, 0] S16x2
  shapeCasts_S16_S16x1 : S16.ShapeCasts S16x1
  inb_S2x100000_S2x100000_0_0 : ∀ a, (![0, 0] : Fin 2 → Nat) a + S2x100000.size a ≤ S2x100000.size a
  h_S2x100000 : 0 < S2x100000.numel
  shapeCasts_S2x100000_S2x100000 : S2x100000.ShapeCasts S2x100000
  bitsLt_bf16_f32 : FTy.bits .bf16 < FTy.bits .f32
  inb_S16x2_S16x2_0_0 : ∀ a, (![0, 0] : Fin 2 → Nat) a + S16x2.size a ≤ S16x2.size a
  h_S16x2 : 0 < S16x2.numel
  shapeCasts_S16x2_S16x2 : S16x2.ShapeCasts S16x2
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x100000 : S16x1.Broadcasts S16x100000
  inb_S16x100000_S16x100000_0_0 : ∀ a, (![0, 0] : Fin 2 → Nat) a + S16x100000.size a ≤ S16x100000.size a
  h_S16x100000 : 0 < S16x100000.numel
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x2 : S_.BroadcastsInDim S100000x2 (![] : Fin 0 → Fin S100000x2.rank)
  transposes_S2x8_S8x2_1_0 : S2x8.Transposes [1, 0] S8x2
  shapeCasts_S8_S8x1 : S8.ShapeCasts S8x1
  inb_S8x2_S8x2_0_0 : ∀ a, (![0, 0] : Fin 2 → Nat) a + S8x2.size a ≤ S8x2.size a
  h_S8x2 : 0 < S8x2.numel
  shapeCasts_S8x2_S8x2 : S8x2.ShapeCasts S8x2
  inb_S8x1_S8x1_0_0 : ∀ a, (![0, 0] : Fin 2 → Nat) a + S8x1.size a ≤ S8x1.size a
  h_S8x1 : 0 < S8x1.numel
  shapeCasts_S8x1_S8x1 : S8x1.ShapeCasts S8x1
  broadcasts_S8x1_S8x100000 : S8x1.Broadcasts S8x100000
  inb_S8x100000_S8x100000_0_0 : ∀ a, (![0, 0] : Fin 2 → Nat) a + S8x100000.size a ≤ S8x100000.size a
  h_S8x100000 : 0 < S8x100000.numel
  transposes_S8x100000_S100000x8_1_0 : S8x100000.Transposes [1, 0] S100000x8
  bcast_S_S100000x8 : S_.BroadcastsInDim S100000x8 (![] : Fin 0 → Fin S100000x8.rank)
  transposes_S100000x8_S8x100000_1_0 : S100000x8.Transposes [1, 0] S8x100000
  transposes_S8x16_S16x8_1_0 : S8x16.Transposes [1, 0] S16x8
  shapeCasts_S8x100000_S8x100000 : S8x100000.ShapeCasts S8x100000
  inb_S16x8_S16x8_0_0 : ∀ a, (![0, 0] : Fin 2 → Nat) a + S16x8.size a ≤ S16x8.size a
  h_S16x8 : 0 < S16x8.numel
  shapeCasts_S16x8_S16x8 : S16x8.ShapeCasts S16x8
  slices_S1000000x2_S1000000x1_0_0 : S1000000x2.Slices ![0, 0] S1000000x1
  shapeCasts_S1000000x1_S1000000 : S1000000x1.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  bcast_S1000000_S16x1000000_1 : S1000000.BroadcastsInDim S16x1000000 (![1] : Fin 1 → Fin S16x1000000.rank)
  bcast_S_S16x1000000 : S_.BroadcastsInDim S16x1000000 (![] : Fin 0 → Fin S16x1000000.rank)
  slices_S1000000x2_S1000000x1_0_1 : S1000000x2.Slices ![0, 1] S1000000x1
  transposes_S32x64_S64x32_1_0 : S32x64.Transposes [1, 0] S64x32
  transposes_S64x1_S1x64_1_0 : S64x1.Transposes [1, 0] S1x64
  pads_S16x1000000_S16x1015808_000_0158080 : S16x1000000.Pads (![0, 0] : Fin 2 → Nat) ![0, 15808] ![0, 0] S16x1015808
  shapeCasts_S64_S64x1 : S64.ShapeCasts S64x1
  shapeCasts_S1_S1x1 : S1.ShapeCasts S1x1
  inb_S16x32768_S16x32768_0_0 : ∀ a, (![0, 0] : Fin 2 → Nat) a + S16x32768.size a ≤ S16x32768.size a
  h_S16x32768 : 0 < S16x32768.numel
  shapeCasts_S16x32768_S16x32768 : S16x32768.ShapeCasts S16x32768
  concatenates_S16x32768_S16x32768_S32x32768_d0 : Shape.Concatenates [S16x32768, S16x32768] S32x32768 0
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x32768 : S64x1.Broadcasts S64x32768
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x32768 : S1x1.Broadcasts S1x32768
  inb_S1x32768_S1x32768_0_0 : ∀ a, (![0, 0] : Fin 2 → Nat) a + S1x32768.size a ≤ S1x32768.size a
  h_S1x32768 : 0 < S1x32768.numel
  slices_S1x1015808_S1x1000000_0_0 : S1x1015808.Slices ![0, 0] S1x1000000
  shapeCasts_S1x1000000_S1000000 : S1x1000000.ShapeCasts S1000000
  scatter_S100000_S200000x1_S200000_n_0_0_1_wf : ScatterDims.WF S100000 S200000x1 S200000 [] [0] [0] 1
  gather_S200000x2_S100000x1_S100000x2_1_0_n_n_0_1_12_wf : GatherDims.WF S200000x2 S100000x1 S100000x2 [1] [0] [] [0] [] 1 ![1, 2]
  dot_S16x2_S2x100000_S16x100000_1_0_0_1_n_n_wf : DotDims.WF S16x2 S2x100000 S16x100000 [1] [0] [0] [1] [] []
  gather_S100000x2_S3200000x1_S3200000x2_1_0_n_n_0_1_12_wf : GatherDims.WF S100000x2 S3200000x1 S3200000x2 [1] [0] [] [0] [] 1 ![1, 2]
  scatter_S100000x2_S3200000x1_S3200000x2_1_0_0_1_wf : ScatterDims.WF S100000x2 S3200000x1 S3200000x2 [1] [0] [0] 1
  dot_S8x2_S2x100000_S8x100000_1_0_0_1_n_n_wf : DotDims.WF S8x2 S2x100000 S8x100000 [1] [0] [0] [1] [] []
  gather_S100000x8_S3200000x1_S3200000x8_1_0_n_n_0_1_18_wf : GatherDims.WF S100000x8 S3200000x1 S3200000x8 [1] [0] [] [0] [] 1 ![1, 8]
  scatter_S100000x8_S3200000x1_S3200000x8_1_0_0_1_wf : ScatterDims.WF S100000x8 S3200000x1 S3200000x8 [1] [0] [0] 1
  dot_S16x8_S8x100000_S16x100000_1_0_0_1_n_n_wf : DotDims.WF S16x8 S8x100000 S16x100000 [1] [0] [0] [1] [] []
  gather_S16x100000_S1000000x1_S16x1000000_0_1_n_n_1_1_161_wf : GatherDims.WF S16x100000 S1000000x1 S16x1000000 [0] [1] [] [1] [] 1 ![16, 1]
  dot_S64x32_S32x32768_S64x32768_1_0_0_1_n_n_wf : DotDims.WF S64x32 S32x32768 S64x32768 [1] [0] [0] [1] [] []
  dot_S1x64_S64x32768_S1x32768_1_0_0_1_n_n_wf : DotDims.WF S1x64 S64x32768 S1x32768 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2x100000.size a ≤ S2x100000.size a
  hwx0_0 : ∀ i : grid0.Coords, EltTy.bits .f32 = 32 ∨ (Rect.block (s := S2x100000) S2x100000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x2.size a ≤ S16x2.size a
  hwx0_1 : ∀ i : grid0.Coords, EltTy.bits .f32 = 32 ∨ (Rect.block (s := S16x2) S16x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S16x1.size a
  hwx0_2 : ∀ i : grid0.Coords, EltTy.bits .f32 = 32 ∨ (Rect.block (s := S16x1) S16x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x100000.size a ≤ S16x100000.size a
  hwx0_3 : ∀ i : grid0.Coords, EltTy.bits .f32 = 32 ∨ (Rect.block (s := S16x100000) S16x100000.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2x100000.size a ≤ S2x100000.size a
  hwx1_0 : ∀ i : grid1.Coords, EltTy.bits .f32 = 32 ∨ (Rect.block (s := S2x100000) S2x100000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x100000.size a ≤ S2x100000.size a
  hwx1_1 : ∀ i : grid1.Coords, EltTy.bits .f32 = 32 ∨ (Rect.block (s := S2x100000) S2x100000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x2.size a ≤ S8x2.size a
  hwx1_2 : ∀ i : grid1.Coords, EltTy.bits .f32 = 32 ∨ (Rect.block (s := S8x2) S8x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x2.size a ≤ S8x2.size a
  hwx1_3 : ∀ i : grid1.Coords, EltTy.bits .f32 = 32 ∨ (Rect.block (s := S8x2) S8x2.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x1.size a ≤ S8x1.size a
  hwx1_4 : ∀ i : grid1.Coords, EltTy.bits .f32 = 32 ∨ (Rect.block (s := S8x1) S8x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x100000.size a ≤ S8x100000.size a
  hwx1_5 : ∀ i : grid1.Coords, EltTy.bits .f32 = 32 ∨ (Rect.block (s := S8x100000) S8x100000.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S8x100000.size a ≤ S8x100000.size a
  hwx2_0 : ∀ i : grid2.Coords, EltTy.bits .f32 = 32 ∨ (Rect.block (s := S8x100000) S8x100000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8x100000.size a ≤ S8x100000.size a
  hwx2_1 : ∀ i : grid2.Coords, EltTy.bits .f32 = 32 ∨ (Rect.block (s := S8x100000) S8x100000.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x8.size a ≤ S16x8.size a
  hwx2_2 : ∀ i : grid2.Coords, EltTy.bits .f32 = 32 ∨ (Rect.block (s := S16x8) S16x8.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x8.size a ≤ S16x8.size a
  hwx2_3 : ∀ i : grid2.Coords, EltTy.bits .f32 = 32 ∨ (Rect.block (s := S16x8) S16x8.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S16x1.size a ≤ S16x1.size a
  hwx2_4 : ∀ i : grid2.Coords, EltTy.bits .f32 = 32 ∨ (Rect.block (s := S16x1) S16x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S16x100000.size a ≤ S16x100000.size a
  hwx2_5 : ∀ i : grid2.Coords, EltTy.bits .f32 = 32 ∨ (Rect.block (s := S16x100000) S16x100000.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S16x32768.size a ≤ S16x1015808.size a
  hwx3_0 : ∀ i : grid3.Coords, EltTy.bits .f32 = 32 ∨ (Rect.block (s := S16x1015808) S16x32768.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S16x32768.size a ≤ S16x1015808.size a
  hwx3_1 : ∀ i : grid3.Coords, EltTy.bits .f32 = 32 ∨ (Rect.block (s := S16x1015808) S16x32768.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x32.size a ≤ S64x32.size a
  hwx3_2 : ∀ i : grid3.Coords, EltTy.bits .f32 = 32 ∨ (Rect.block (s := S64x32) S64x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x1.size a ≤ S64x1.size a
  hwx3_3 : ∀ i : grid3.Coords, EltTy.bits .f32 = 32 ∨ (Rect.block (s := S64x1) S64x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1.size a ≤ S1x1.size a
  hwx3_5 : ∀ i : grid3.Coords, EltTy.bits .f32 = 32 ∨ (Rect.block (s := S1x1) S1x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1x32768.size a ≤ S1x1015808.size a
  hwx3_6 : ∀ i : grid3.Coords, EltTy.bits .f32 = 32 ∨ (Rect.block (s := S1x1015808) S1x32768.size (cc3_transform_6 i) (hinb3_6 i)).WholeWords (EltTy.packing .f32)

variable [Facts₀]

def scatter_S100000_S200000x1_S200000_n_0_0_1 : ScatterDims S100000 S200000x1 S200000 where
  updateWindowDims := []
  insertedWindowDims := [0]
  scatterDimsToOperandDims := [0]
  indexVectorDim := 1
  wf := scatter_S100000_S200000x1_S200000_n_0_0_1_wf
def gather_S200000x2_S100000x1_S100000x2_1_0_n_n_0_1_12 : GatherDims S200000x2 S100000x1 S100000x2 where
  offsetDims := [1]
  collapsedSliceDims := [0]
  operandBatchingDims := []
  startIndicesBatchingDims := []
  startIndexMap := [0]
  indexVectorDim := 1
  sliceSizes := ![1, 2]
  wf := gather_S200000x2_S100000x1_S100000x2_1_0_n_n_0_1_12_wf
def dot_S16x2_S2x100000_S16x100000_1_0_0_1_n_n : DotDims S16x2 S2x100000 S16x100000 where
  lhsContracting := [1]
  rhsContracting := [0]
  lhsNonContracting := [0]
  rhsNonContracting := [1]
  lhsBatch := []
  rhsBatch := []
  wf := dot_S16x2_S2x100000_S16x100000_1_0_0_1_n_n_wf
def gather_S100000x2_S3200000x1_S3200000x2_1_0_n_n_0_1_12 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := gather_S100000x2_S3200000x1_S3200000x2_1_0_n_n_0_1_12_wf
def scatter_S100000x2_S3200000x1_S3200000x2_1_0_0_1 : ScatterDims S100000x2 S3200000x1 S3200000x2 where
  updateWindowDims := [1]
  insertedWindowDims := [0]
  scatterDimsToOperandDims := [0]
  indexVectorDim := 1
  wf := scatter_S100000x2_S3200000x1_S3200000x2_1_0_0_1_wf
def dot_S8x2_S2x100000_S8x100000_1_0_0_1_n_n : DotDims S8x2 S2x100000 S8x100000 where
  lhsContracting := [1]
  rhsContracting := [0]
  lhsNonContracting := [0]
  rhsNonContracting := [1]
  lhsBatch := []
  rhsBatch := []
  wf := dot_S8x2_S2x100000_S8x100000_1_0_0_1_n_n_wf
def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf
def dot_S16x8_S8x100000_S16x100000_1_0_0_1_n_n : DotDims S16x8 S8x100000 S16x100000 where
  lhsContracting := [1]
  rhsContracting := [0]
  lhsNonContracting := [0]
  rhsNonContracting := [1]
  lhsBatch := []
  rhsBatch := []
  wf := dot_S16x8_S8x100000_S16x100000_1_0_0_1_n_n_wf
def gather_S16x100000_S1000000x1_S16x1000000_0_1_n_n_1_1_161 : GatherDims S16x100000 S1000000x1 S16x1000000 where
  offsetDims := [0]
  collapsedSliceDims := [1]
  operandBatchingDims := []
  startIndicesBatchingDims := []
  startIndexMap := [1]
  indexVectorDim := 1
  sliceSizes := ![16, 1]
  wf := gather_S16x100000_S1000000x1_S16x1000000_0_1_n_n_1_1_161_wf
def dot_S64x32_S32x32768_S64x32768_1_0_0_1_n_n : DotDims S64x32 S32x32768 S64x32768 where
  lhsContracting := [1]
  rhsContracting := [0]
  lhsNonContracting := [0]
  rhsNonContracting := [1]
  lhsBatch := []
  rhsBatch := []
  wf := dot_S64x32_S32x32768_S64x32768_1_0_0_1_n_n_wf
def dot_S1x64_S64x32768_S1x32768_1_0_0_1_n_n : DotDims S1x64 S64x32768 S1x32768 where
  lhsContracting := [1]
  rhsContracting := [0]
  lhsNonContracting := [0]
  rhsNonContracting := [1]
  lhsBatch := []
  rhsBatch := []
  wf := dot_S1x64_S64x32768_S1x32768_1_0_0_1_n_n_wf

abbrev win0_0 : Pipeline.Window sig grid0 :=
  Pipeline.Window.ofSpec (Memref.whole main_v44) S2x100000.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v45) S16x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v46) S16x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v47) S16x100000.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v62) S2x100000.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v43) S2x100000.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v63) S8x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v64) S8x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v65) S8x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v66) S8x100000.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v78) S8x100000.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v66) S8x100000.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v79) S16x8.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v80) S16x8.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v81) S16x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v82) S16x100000.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v91) S16x32768.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v92) S16x32768.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v89) S64x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v93) S64x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v90) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v94) S1x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v95) S1x32768.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S200000x2 : Shape := ⟨2, ![200000, 2]⟩
abbrev S200000 : Shape := ⟨1, ![200000]⟩
abbrev S1000000x2 : Shape := ⟨2, ![1000000, 2]⟩
abbrev S2x3200000 : Shape := ⟨2, ![2, 3200000]⟩
abbrev S2x8 : Shape := ⟨2, ![2, 8]⟩
abbrev S8 : Shape := ⟨1, ![8]⟩
abbrev S8x16 : Shape := ⟨2, ![8, 16]⟩
abbrev S16 : Shape := ⟨1, ![16]⟩
abbrev S2x16 : Shape := ⟨2, ![2, 16]⟩
abbrev S32x64 : Shape := ⟨2, ![32, 64]⟩
abbrev S64 : Shape := ⟨1, ![64]⟩
abbrev S64x1 : Shape := ⟨2, ![64, 1]⟩
abbrev S1 : Shape := ⟨1, ![1]⟩
abbrev S_ : Shape := ⟨0, ![]⟩
abbrev S100000 : Shape := ⟨1, ![100000]⟩
abbrev S200000x1 : Shape := ⟨2, ![200000, 1]⟩
abbrev S100000x1 : Shape := ⟨2, ![100000, 1]⟩
abbrev S100000x2 : Shape := ⟨2, ![100000, 2]⟩
abbrev S100000x16 : Shape := ⟨2, ![100000, 16]⟩
abbrev S1x16 : Shape := ⟨2, ![1, 16]⟩
abbrev S1x3200000 : Shape := ⟨2, ![1, 3200000]⟩
abbrev S3200000 : Shape := ⟨1, ![3200000]⟩
abbrev S3200000x1 : Shape := ⟨2, ![3200000, 1]⟩
abbrev S3200000x2 : Shape := ⟨2, ![3200000, 2]⟩
abbrev S100000x8 : Shape := ⟨2, ![100000, 8]⟩
abbrev S1x8 : Shape := ⟨2, ![1, 8]⟩
abbrev S3200000x8 : Shape := ⟨2, ![3200000, 8]⟩
abbrev S1000000x1 : Shape := ⟨2, ![1000000, 1]⟩
abbrev S1000000 : Shape := ⟨1, ![1000000]⟩
abbrev S1000000x16 : Shape := ⟨2, ![1000000, 16]⟩
abbrev S1000000x32 : Shape := ⟨2, ![1000000, 32]⟩
abbrev S1000000x64 : Shape := ⟨2, ![1000000, 64]⟩
abbrev S1x64 : Shape := ⟨2, ![1, 64]⟩
abbrev S1x1 : Shape := ⟨2, ![1, 1]⟩

abbrev nBuf : Space → Nat
  | .hbm => 252
  | .vmem => 0
  | .smem => 0
  | _ => 0

abbrev hbmTy0_0 (i : Nat) : BufTy := match i % 128 with
  | 0 => ⟨S200000x2, .f32⟩
  | 1 => ⟨S200000, .i1⟩
  | 2 => ⟨S1000000x2, .i32⟩
  | 3 => ⟨S2x3200000, .i32⟩
  | 4 => ⟨S2x8, .f32⟩
  | 5 => ⟨S2x8, .f32⟩
  | 6 => ⟨S8, .f32⟩
  | 7 => ⟨S8x16, .f32⟩
  | 8 => ⟨S8x16, .f32⟩
  | 9 => ⟨S16, .f32⟩
  | 10 => ⟨S2x16, .f32⟩
  | 11 => ⟨S16, .f32⟩
  | 12 => ⟨S32x64, .f32⟩
  | 13 => ⟨S64, .f32⟩
  | 14 => ⟨S64x1, .f32⟩
  | 15 => ⟨S1, .f32⟩
  | 16 => ⟨S200000, .i32⟩
  | 17 => ⟨S_, .i32⟩
  | 18 => ⟨S_, .i32⟩
  | 19 => ⟨S200000, .i32⟩
  | 20 => ⟨S_, .i32⟩
  | 21 => ⟨S100000, .i32⟩
  | 22 => ⟨S_, .i32⟩
  | 23 => ⟨S_, .i32⟩
  | 24 => ⟨S200000, .i32⟩
  | 25 => ⟨S200000, .i32⟩
  | 26 => ⟨S_, .i32⟩
  | 27 => ⟨S200000, .i32⟩
  | 28 => ⟨S200000, .i1⟩
  | 29 => ⟨S_, .i32⟩
  | 30 => ⟨S200000, .i32⟩
  | 31 => ⟨S200000, .i32⟩
  | 32 => ⟨S200000, .i32⟩
  | 33 => ⟨S200000x1, .i32⟩
  | 34 => ⟨S_, .i32⟩
  | 35 => ⟨S200000, .i32⟩
  | 36 => ⟨S100000, .i32⟩
  | 37 => ⟨S_, .i32⟩
  | 38 => ⟨S_, .i32⟩
  | 39 => ⟨S100000, .i32⟩
  | 40 => ⟨S_, .i32⟩
  | 41 => ⟨S100000, .i32⟩
  | 42 => ⟨S100000, .i32⟩
  | 43 => ⟨S100000, .i32⟩
  | 44 => ⟨S_, .i32⟩
  | 45 => ⟨S100000, .i32⟩
  | 46 => ⟨S100000, .i1⟩
  | 47 => ⟨S100000, .i32⟩
  | 48 => ⟨S100000, .i32⟩
  | 49 => ⟨S_, .i32⟩
  | 50 => ⟨S100000, .i32⟩
  | 51 => ⟨S100000, .i1⟩
  | 52 => ⟨S100000, .i1⟩
  | 53 => ⟨S_, .i32⟩
  | 54 => ⟨S100000, .i32⟩
  | 55 => ⟨S100000, .i32⟩
  | 56 => ⟨S100000, .i32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S100000, .i32⟩
  | 64 => ⟨S100000, .i32⟩
  | 65 => ⟨S_, .i32⟩
  | 66 => ⟨S100000, .i32⟩
  | 67 => ⟨S100000, .i1⟩
  | 68 => ⟨S_, .i32⟩
  | 69 => ⟨S100000, .i32⟩
  | 70 => ⟨S100000, .i1⟩
  | 71 => ⟨S_, .i32⟩
  | 72 => ⟨S_, .i1⟩
  | 73 => ⟨S100000, .i1⟩
  | 74 => ⟨S100000, .i1⟩
  | 75 => ⟨S100000, .i1⟩
  | 76 => ⟨S100000, .i32⟩
  | 77 => ⟨S100000, .i32⟩
  | 78 => ⟨S100000, .i32⟩
  | 79 => ⟨S200000, .i1⟩
  | 80 => ⟨S200000, .i32⟩
  | 81 => ⟨S_, .i32⟩
  | 82 => ⟨S_, .i32⟩
  | 83 => ⟨S200000, .i32⟩
  | 84 => ⟨S_, .i32⟩
  | 85 => ⟨S100000, .i32⟩
  | 86 => ⟨S_, .i32⟩
  | 87 => ⟨S_, .i32⟩
  | 88 => ⟨S200000, .i32⟩
  | 89 => ⟨S200000, .i32⟩
  | 90 => ⟨S_, .i32⟩
  | 91 => ⟨S200000, .i32⟩
  | 92 => ⟨S200000, .i1⟩
  | 93 => ⟨S_, .i32⟩
  | 94 => ⟨S200000, .i32⟩
  | 95 => ⟨S200000, .i32⟩
  | 96 => ⟨S200000, .i32⟩
  | 97 => ⟨S200000x1, .i32⟩
  | 98 => ⟨S_, .i32⟩
  | 99 => ⟨S200000, .i32⟩
  | 100 => ⟨S100000, .i32⟩
  | 101 => ⟨S_, .i32⟩
  | 102 => ⟨S_, .i32⟩
  | 103 => ⟨S100000, .i32⟩
  | 104 => ⟨S_, .i32⟩
  | 105 => ⟨S100000, .i32⟩
  | 106 => ⟨S100000, .i32⟩
  | 107 => ⟨S100000, .i32⟩
  | 108 => ⟨S_, .i32⟩
  | 109 => ⟨S100000, .i32⟩
  | 110 => ⟨S100000, .i1⟩
  | 111 => ⟨S100000, .i32⟩
  | 112 => ⟨S100000, .i32⟩
  | 113 => ⟨S_, .i32⟩
  | 114 => ⟨S100000, .i32⟩
  | 115 => ⟨S100000, .i1⟩
  | 116 => ⟨S100000, .i1⟩
  | 117 => ⟨S_, .i32⟩
  | 118 => ⟨S100000, .i32⟩
  | 119 => ⟨S100000, .i32⟩
  | 120 => ⟨S100000, .i32⟩
  | 121 => ⟨S_, .i32⟩
  | 122 => ⟨S_, .i32⟩
  | 123 => ⟨S_, .i32⟩
  | 124 => ⟨S_, .i1⟩
  | 125 => ⟨S_, .i32⟩
  | 126 => ⟨S_, .i32⟩
  | 127 => ⟨S100000, .i32⟩
  | _ => ⟨S200000x2, .f32⟩

abbrev hbmTy0_1 (i : Nat) : BufTy := match i % 128 with
  | 0 => ⟨S100000, .i32⟩
  | 1 => ⟨S_, .i32⟩
  | 2 => ⟨S100000, .i32⟩
  | 3 => ⟨S100000, .i1⟩
  | 4 => ⟨S_, .i32⟩
  | 5 => ⟨S100000, .i32⟩
  | 6 => ⟨S100000, .i1⟩
  | 7 => ⟨S_, .i32⟩
  | 8 => ⟨S_, .i1⟩
  | 9 => ⟨S100000, .i1⟩
  | 10 => ⟨S100000, .i1⟩
  | 11 => ⟨S100000, .i1⟩
  | 12 => ⟨S100000, .i32⟩
  | 13 => ⟨S100000, .i32⟩
  | 14 => ⟨S100000, .i32⟩
  | 15 => ⟨S_, .i32⟩
  | 16 => ⟨S100000, .i32⟩
  | 17 => ⟨S100000, .i1⟩
  | 18 => ⟨S_, .i32⟩
  | 19 => ⟨S100000, .i32⟩
  | 20 => ⟨S100000, .i32⟩
  | 21 => ⟨S100000, .i32⟩
  | 22 => ⟨S100000x1, .i32⟩
  | 23 => ⟨S100000x2, .f32⟩
  | 24 => ⟨S100000x16, .f32⟩
  | 25 => ⟨S1x16, .f32⟩
  | 26 => ⟨S100000x16, .f32⟩
  | 27 => ⟨S100000x16, .f32⟩
  | 28 => ⟨S_, .i32⟩
  | 29 => ⟨S100000, .i32⟩
  | 30 => ⟨S100000, .i1⟩
  | 31 => ⟨S_, .i32⟩
  | 32 => ⟨S100000, .i32⟩
  | 33 => ⟨S100000, .i32⟩
  | 34 => ⟨S100000, .i32⟩
  | 35 => ⟨S100000x1, .i32⟩
  | 36 => ⟨S100000x2, .f32⟩
  | 37 => ⟨S1x3200000, .i32⟩
  | 38 => ⟨S3200000, .i32⟩
  | 39 => ⟨S1x3200000, .i32⟩
  | 40 => ⟨S3200000, .i32⟩
  | 41 => ⟨S_, .i32⟩
  | 42 => ⟨S3200000, .i32⟩
  | 43 => ⟨S3200000, .i1⟩
  | 44 => ⟨S_, .i32⟩
  | 45 => ⟨S3200000, .i32⟩
  | 46 => ⟨S3200000, .i32⟩
  | 47 => ⟨S3200000, .i32⟩
  | 48 => ⟨S3200000x1, .i32⟩
  | 49 => ⟨S3200000x2, .f32⟩
  | 50 => ⟨S_, .f32⟩
  | 51 => ⟨S100000x2, .f32⟩
  | 52 => ⟨S3200000x1, .i32⟩
  | 53 => ⟨S100000x2, .f32⟩
  | 54 => ⟨S100000x8, .f32⟩
  | 55 => ⟨S100000x8, .f32⟩
  | 56 => ⟨S100000x8, .f32⟩
  | 57 => ⟨S1x8, .f32⟩
  | 58 => ⟨S100000x8, .f32⟩
  | 59 => ⟨S100000x8, .f32⟩
  | 60 => ⟨S_, .f32⟩
  | 61 => ⟨S100000x8, .f32⟩
  | 62 => ⟨S100000x8, .f32⟩
  | 63 => ⟨S1x3200000, .i32⟩
  | 64 => ⟨S3200000, .i32⟩
  | 65 => ⟨S1x3200000, .i32⟩
  | 66 => ⟨S3200000, .i32⟩
  | 67 => ⟨S_, .i32⟩
  | 68 => ⟨S3200000, .i32⟩
  | 69 => ⟨S3200000, .i1⟩
  | 70 => ⟨S_, .i32⟩
  | 71 => ⟨S3200000, .i32⟩
  | 72 => ⟨S3200000, .i32⟩
  | 73 => ⟨S3200000, .i32⟩
  | 74 => ⟨S3200000x1, .i32⟩
  | 75 => ⟨S3200000x8, .f32⟩
  | 76 => ⟨S_, .f32⟩
  | 77 => ⟨S100000x8, .f32⟩
  | 78 => ⟨S3200000x1, .i32⟩
  | 79 => ⟨S100000x8, .f32⟩
  | 80 => ⟨S100000x16, .f32⟩
  | 81 => ⟨S100000x16, .f32⟩
  | 82 => ⟨S100000x16, .f32⟩
  | 83 => ⟨S1x16, .f32⟩
  | 84 => ⟨S100000x16, .f32⟩
  | 85 => ⟨S100000x16, .f32⟩
  | 86 => ⟨S_, .f32⟩
  | 87 => ⟨S100000x16, .f32⟩
  | 88 => ⟨S100000x16, .f32⟩
  | 89 => ⟨S1000000x1, .i32⟩
  | 90 => ⟨S1000000, .i32⟩
  | 91 => ⟨S_, .i32⟩
  | 92 => ⟨S1000000, .i32⟩
  | 93 => ⟨S1000000, .i1⟩
  | 94 => ⟨S_, .i32⟩
  | 95 => ⟨S1000000, .i32⟩
  | 96 => ⟨S1000000, .i32⟩
  | 97 => ⟨S1000000, .i32⟩
  | 98 => ⟨S1000000x1, .i32⟩
  | 99 => ⟨S1000000x16, .f32⟩
  | 100 => ⟨S1000000x1, .i32⟩
  | 101 => ⟨S1000000, .i32⟩
  | 102 => ⟨S_, .i32⟩
  | 103 => ⟨S1000000, .i32⟩
  | 104 => ⟨S1000000, .i1⟩
  | 105 => ⟨S_, .i32⟩
  | 106 => ⟨S1000000, .i32⟩
  | 107 => ⟨S1000000, .i32⟩
  | 108 => ⟨S1000000, .i32⟩
  | 109 => ⟨S1000000x1, .i32⟩
  | 110 => ⟨S1000000x16, .f32⟩
  | 111 => ⟨S1000000x32, .f32⟩
  | 112 => ⟨S1000000x64, .f32⟩
  | 113 => ⟨S1x64, .f32⟩
  | 114 => ⟨S1000000x64, .f32⟩
  | 115 => ⟨S1000000x64, .f32⟩
  | 116 => ⟨S_, .f32⟩
  | 117 => ⟨S1000000x64, .f32⟩
  | 118 => ⟨S1000000x64, .f32⟩
  | 119 => ⟨S1000000x1, .f32⟩
  | 120 => ⟨S1x1, .f32⟩
  | 121 => ⟨S1000000x1, .f32⟩
  | 122 => ⟨S1000000x1, .f32⟩
  | 123 => ⟨S1000000, .f32⟩
  | _ => ⟨S200000x2, .f32⟩

abbrev hbmTy (i : Nat) : BufTy := match i / 128 with
  | 0 => hbmTy0_0 i
  | 1 => hbmTy0_1 i
  | _ => ⟨S200000x2, .f32⟩

abbrev bufTy : (tb : Table) → Fin (tcTables nBuf tb) → BufTy
  | .hbm, ⟨i, _⟩ => hbmTy i
  | _, _ => ⟨S200000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_v0 : Ref sig .tc := ⟨.hbm, 16, rfl⟩
abbrev main_call0_call0_c : Ref sig .tc := ⟨.hbm, 17, rfl⟩
abbrev main_call0_call0_v0 : Ref sig .tc := ⟨.hbm, 18, rfl⟩
abbrev main_v0 : Ref sig .tc := ⟨.hbm, 19, rfl⟩
abbrev main_c : Ref sig .tc := ⟨.hbm, 20, rfl⟩
abbrev main_v1 : Ref sig .tc := ⟨.hbm, 21, rfl⟩
abbrev main_c_0 : Ref sig .tc := ⟨.hbm, 22, rfl⟩
abbrev main_call1_v0 : Ref sig .tc := ⟨.hbm, 23, rfl⟩
abbrev main_call1_v1 : Ref sig .tc := ⟨.hbm, 24, rfl⟩
abbrev main_v2 : Ref sig .tc := ⟨.hbm, 25, rfl⟩
abbrev main_c_1 : Ref sig .tc := ⟨.hbm, 26, rfl⟩
abbrev main_v3 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_c_3 : Ref sig .tc := ⟨.hbm, 34, rfl⟩
abbrev main_v9 : Ref sig .tc := ⟨.hbm, 35, rfl⟩
abbrev main_v10 : Ref sig .tc := ⟨.hbm, 36, rfl⟩
abbrev main_call2_call0_c : Ref sig .tc := ⟨.hbm, 37, rfl⟩
abbrev main_call2_call0_v0 : Ref sig .tc := ⟨.hbm, 38, rfl⟩
abbrev main_v11 : Ref sig .tc := ⟨.hbm, 39, rfl⟩
abbrev main_c_4 : Ref sig .tc := ⟨.hbm, 40, rfl⟩
abbrev main_call3_v0 : Ref sig .tc := ⟨.hbm, 41, rfl⟩
abbrev main_call3_v1 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_call3_v5 : Ref sig .tc := ⟨.hbm, 46, rfl⟩
abbrev main_call3_v6 : Ref sig .tc := ⟨.hbm, 47, rfl⟩
abbrev main_call3_v7 : Ref sig .tc := ⟨.hbm, 48, rfl⟩
abbrev main_call3_c : Ref sig .tc := ⟨.hbm, 49, rfl⟩
abbrev main_call3_v8 : Ref sig .tc := ⟨.hbm, 50, rfl⟩
abbrev main_call3_v9 : Ref sig .tc := ⟨.hbm, 51, rfl⟩
abbrev main_call3_v10 : Ref sig .tc := ⟨.hbm, 52, rfl⟩
abbrev main_call3_c_0 : Ref sig .tc := ⟨.hbm, 53, rfl⟩
abbrev main_call3_v11 : Ref sig .tc := ⟨.hbm, 54, rfl⟩
abbrev main_call3_v12 : Ref sig .tc := ⟨.hbm, 55, rfl⟩
abbrev main_v12 : Ref sig .tc := ⟨.hbm, 56, rfl⟩
abbrev main_c_5 : Ref sig .tc := ⟨.hbm, 57, rfl⟩
abbrev main_call4_v0 : Ref sig .tc := ⟨.hbm, 58, rfl⟩
abbrev main_call4_c : Ref sig .tc := ⟨.hbm, 59, rfl⟩
abbrev main_call4_v1 : Ref sig .tc := ⟨.hbm, 60, rfl⟩
abbrev main_call4_c_0 : Ref sig .tc := ⟨.hbm, 61, rfl⟩
abbrev main_call4_v2 : Ref sig .tc := ⟨.hbm, 62, rfl⟩
abbrev main_call4_v3 : Ref sig .tc := ⟨.hbm, 63, rfl⟩
abbrev main_call4_v4 : Ref sig .tc := ⟨.hbm, 64, rfl⟩
abbrev main_call4_c_1 : Ref sig .tc := ⟨.hbm, 65, rfl⟩
abbrev main_call4_v5 : Ref sig .tc := ⟨.hbm, 66, rfl⟩
abbrev main_call4_v6 : Ref sig .tc := ⟨.hbm, 67, rfl⟩
abbrev main_call4_c_2 : Ref sig .tc := ⟨.hbm, 68, rfl⟩
abbrev main_call4_v7 : Ref sig .tc := ⟨.hbm, 69, rfl⟩
abbrev main_call4_v8 : Ref sig .tc := ⟨.hbm, 70, rfl⟩
abbrev main_call4_c_3 : Ref sig .tc := ⟨.hbm, 71, rfl⟩
abbrev main_call4_v9 : Ref sig .tc := ⟨.hbm, 72, rfl⟩
abbrev main_call4_v10 : Ref sig .tc := ⟨.hbm, 73, rfl⟩
abbrev main_call4_v11 : Ref sig .tc := ⟨.hbm, 74, rfl⟩
abbrev main_call4_v12 : Ref sig .tc := ⟨.hbm, 75, rfl⟩
abbrev main_call4_v13 : Ref sig .tc := ⟨.hbm, 76, rfl⟩
abbrev main_call4_v14 : Ref sig .tc := ⟨.hbm, 77, rfl⟩
abbrev main_v13 : Ref sig .tc := ⟨.hbm, 78, rfl⟩
abbrev main_v14 : Ref sig .tc := ⟨.hbm, 79, rfl⟩
abbrev main_call5_v0 : Ref sig .tc := ⟨.hbm, 80, rfl⟩
abbrev main_call5_call0_c : Ref sig .tc := ⟨.hbm, 81, rfl⟩
abbrev main_call5_call0_v0 : Ref sig .tc := ⟨.hbm, 82, rfl⟩
abbrev main_v15 : Ref sig .tc := ⟨.hbm, 83, rfl⟩
abbrev main_c_6 : Ref sig .tc := ⟨.hbm, 84, rfl⟩
abbrev main_v16 : Ref sig .tc := ⟨.hbm, 85, rfl⟩
abbrev main_c_7 : Ref sig .tc := ⟨.hbm, 86, rfl⟩
abbrev main_call6_v0 : Ref sig .tc := ⟨.hbm, 87, rfl⟩
abbrev main_call6_v1 : Ref sig .tc := ⟨.hbm, 88, rfl⟩
abbrev main_v17 : Ref sig .tc := ⟨.hbm, 89, rfl⟩
abbrev main_c_8 : Ref sig .tc := ⟨.hbm, 90, rfl⟩
abbrev main_v18 : Ref sig .tc := ⟨.hbm, 91, rfl⟩
abbrev main_v19 : Ref sig .tc := ⟨.hbm, 92, rfl⟩
abbrev main_c_9 : Ref sig .tc := ⟨.hbm, 93, rfl⟩
abbrev main_v20 : Ref sig .tc := ⟨.hbm, 94, rfl⟩
abbrev main_v21 : Ref sig .tc := ⟨.hbm, 95, rfl⟩
abbrev main_v22 : Ref sig .tc := ⟨.hbm, 96, rfl⟩
abbrev main_v23 : Ref sig .tc := ⟨.hbm, 97, rfl⟩
abbrev main_c_10 : Ref sig .tc := ⟨.hbm, 98, rfl⟩
abbrev main_v24 : Ref sig .tc := ⟨.hbm, 99, rfl⟩
abbrev main_v25 : Ref sig .tc := ⟨.hbm, 100, rfl⟩
abbrev main_call7_call0_c : Ref sig .tc := ⟨.hbm, 101, rfl⟩
abbrev main_call7_call0_v0 : Ref sig .tc := ⟨.hbm, 102, rfl⟩
abbrev main_v26 : Ref sig .tc := ⟨.hbm, 103, rfl⟩
abbrev main_c_11 : Ref sig .tc := ⟨.hbm, 104, rfl⟩
abbrev main_call8_v0 : Ref sig .tc := ⟨.hbm, 105, rfl⟩
abbrev main_call8_v1 : Ref sig .tc := ⟨.hbm, 106, rfl⟩
abbrev main_call8_v2 : Ref sig .tc := ⟨.hbm, 107, rfl⟩
abbrev main_call8_v3 : Ref sig .tc := ⟨.hbm, 108, rfl⟩
abbrev main_call8_v4 : Ref sig .tc := ⟨.hbm, 109, rfl⟩
abbrev main_call8_v5 : Ref sig .tc := ⟨.hbm, 110, rfl⟩
abbrev main_call8_v6 : Ref sig .tc := ⟨.hbm, 111, rfl⟩
abbrev main_call8_v7 : Ref sig .tc := ⟨.hbm, 112, rfl⟩
abbrev main_call8_c : Ref sig .tc := ⟨.hbm, 113, rfl⟩
abbrev main_call8_v8 : Ref sig .tc := ⟨.hbm, 114, rfl⟩
abbrev main_call8_v9 : Ref sig .tc := ⟨.hbm, 115, rfl⟩
abbrev main_call8_v10 : Ref sig .tc := ⟨.hbm, 116, rfl⟩
abbrev main_call8_c_0 : Ref sig .tc := ⟨.hbm, 117, rfl⟩
abbrev main_call8_v11 : Ref sig .tc := ⟨.hbm, 118, rfl⟩
abbrev main_call8_v12 : Ref sig .tc := ⟨.hbm, 119, rfl⟩
abbrev main_v27 : Ref sig .tc := ⟨.hbm, 120, rfl⟩
abbrev main_c_12 : Ref sig .tc := ⟨.hbm, 121, rfl⟩
abbrev main_call9_v0 : Ref sig .tc := ⟨.hbm, 122, rfl⟩
abbrev main_call9_c : Ref sig .tc := ⟨.hbm, 123, rfl⟩
abbrev main_call9_v1 : Ref sig .tc := ⟨.hbm, 124, rfl⟩
abbrev main_call9_c_0 : Ref sig .tc := ⟨.hbm, 125, rfl⟩
abbrev main_call9_v2 : Ref sig .tc := ⟨.hbm, 126, rfl⟩
abbrev main_call9_v3 : Ref sig .tc := ⟨.hbm, 127, rfl⟩
abbrev main_call9_v4 : Ref sig .tc := ⟨.hbm, 128, rfl⟩
abbrev main_call9_c_1 : Ref sig .tc := ⟨.hbm, 129, rfl⟩
abbrev main_call9_v5 : Ref sig .tc := ⟨.hbm, 130, rfl⟩
abbrev main_call9_v6 : Ref sig .tc := ⟨.hbm, 131, rfl⟩
abbrev main_call9_c_2 : Ref sig .tc := ⟨.hbm, 132, rfl⟩
abbrev main_call9_v7 : Ref sig .tc := ⟨.hbm, 133, rfl⟩
abbrev main_call9_v8 : Ref sig .tc := ⟨.hbm, 134, rfl⟩
abbrev main_call9_c_3 : Ref sig .tc := ⟨.hbm, 135, rfl⟩
abbrev main_call9_v9 : Ref sig .tc := ⟨.hbm, 136, rfl⟩
abbrev main_call9_v10 : Ref sig .tc := ⟨.hbm, 137, rfl⟩
abbrev main_call9_v11 : Ref sig .tc := ⟨.hbm, 138, rfl⟩
abbrev main_call9_v12 : Ref sig .tc := ⟨.hbm, 139, rfl⟩
abbrev main_call9_v13 : Ref sig .tc := ⟨.hbm, 140, rfl⟩
abbrev main_call9_v14 : Ref sig .tc := ⟨.hbm, 141, rfl⟩
abbrev main_v28 : Ref sig .tc := ⟨.hbm, 142, rfl⟩
abbrev main_c_13 : Ref sig .tc := ⟨.hbm, 143, rfl⟩
abbrev main_v29 : Ref sig .tc := ⟨.hbm, 144, rfl⟩
abbrev main_v30 : Ref sig .tc := ⟨.hbm, 145, rfl⟩
abbrev main_c_14 : Ref sig .tc := ⟨.hbm, 146, rfl⟩
abbrev main_v31 : Ref sig .tc := ⟨.hbm, 147, rfl⟩
abbrev main_v32 : Ref sig .tc := ⟨.hbm, 148, rfl⟩
abbrev main_v33 : Ref sig .tc := ⟨.hbm, 149, rfl⟩
abbrev main_v34 : Ref sig .tc := ⟨.hbm, 150, rfl⟩
abbrev main_v35 : Ref sig .tc := ⟨.hbm, 151, rfl⟩
abbrev main_v36 : Ref sig .tc := ⟨.hbm, 152, rfl⟩
abbrev main_v37 : Ref sig .tc := ⟨.hbm, 153, rfl⟩
abbrev main_v38 : Ref sig .tc := ⟨.hbm, 154, rfl⟩
abbrev main_v39 : Ref sig .tc := ⟨.hbm, 155, rfl⟩
abbrev main_c_15 : Ref sig .tc := ⟨.hbm, 156, rfl⟩
abbrev main_v40 : Ref sig .tc := ⟨.hbm, 157, rfl⟩
abbrev main_v41 : Ref sig .tc := ⟨.hbm, 158, rfl⟩
abbrev main_c_16 : Ref sig .tc := ⟨.hbm, 159, rfl⟩
abbrev main_v42 : Ref sig .tc := ⟨.hbm, 160, rfl⟩
abbrev main_v43 : Ref sig .tc := ⟨.hbm, 161, rfl⟩
abbrev main_v44 : Ref sig .tc := ⟨.hbm, 162, rfl⟩
abbrev main_v45 : Ref sig .tc := ⟨.hbm, 163, rfl⟩
abbrev main_v46 : Ref sig .tc := ⟨.hbm, 164, rfl⟩
abbrev main_v47 : Ref sig .tc := ⟨.hbm, 165, rfl⟩
abbrev main_v48 : Ref sig .tc := ⟨.hbm, 166, rfl⟩
abbrev main_v49 : Ref sig .tc := ⟨.hbm, 167, rfl⟩
abbrev main_v50 : Ref sig .tc := ⟨.hbm, 168, rfl⟩
abbrev main_c_17 : Ref sig .tc := ⟨.hbm, 169, rfl⟩
abbrev main_v51 : Ref sig .tc := ⟨.hbm, 170, rfl⟩
abbrev main_v52 : Ref sig .tc := ⟨.hbm, 171, rfl⟩
abbrev main_c_18 : Ref sig .tc := ⟨.hbm, 172, rfl⟩
abbrev main_v53 : Ref sig .tc := ⟨.hbm, 173, rfl⟩
abbrev main_v54 : Ref sig .tc := ⟨.hbm, 174, rfl⟩
abbrev main_v55 : Ref sig .tc := ⟨.hbm, 175, rfl⟩
abbrev main_v56 : Ref sig .tc := ⟨.hbm, 176, rfl⟩
abbrev main_v57 : Ref sig .tc := ⟨.hbm, 177, rfl⟩
abbrev main_cst : Ref sig .tc := ⟨.hbm, 178, rfl⟩
abbrev main_v58 : Ref sig .tc := ⟨.hbm, 179, rfl⟩
abbrev main_v59 : Ref sig .tc := ⟨.hbm, 180, rfl⟩
abbrev main_v60 : Ref sig .tc := ⟨.hbm, 181, rfl⟩
abbrev main_v61 : Ref sig .tc := ⟨.hbm, 182, rfl⟩
abbrev main_v62 : Ref sig .tc := ⟨.hbm, 183, rfl⟩
abbrev main_v63 : Ref sig .tc := ⟨.hbm, 184, rfl⟩
abbrev main_v64 : Ref sig .tc := ⟨.hbm, 185, rfl⟩
abbrev main_v65 : Ref sig .tc := ⟨.hbm, 186, rfl⟩
abbrev main_v66 : Ref sig .tc := ⟨.hbm, 187, rfl⟩
abbrev main_call10_cst : Ref sig .tc := ⟨.hbm, 188, rfl⟩
abbrev main_call10_v0 : Ref sig .tc := ⟨.hbm, 189, rfl⟩
abbrev main_v67 : Ref sig .tc := ⟨.hbm, 190, rfl⟩
abbrev main_v68 : Ref sig .tc := ⟨.hbm, 191, rfl⟩
abbrev main_v69 : Ref sig .tc := ⟨.hbm, 192, rfl⟩
abbrev main_v70 : Ref sig .tc := ⟨.hbm, 193, rfl⟩
abbrev main_v71 : Ref sig .tc := ⟨.hbm, 194, rfl⟩
abbrev main_c_19 : Ref sig .tc := ⟨.hbm, 195, rfl⟩
abbrev main_v72 : Ref sig .tc := ⟨.hbm, 196, rfl⟩
abbrev main_v73 : Ref sig .tc := ⟨.hbm, 197, rfl⟩
abbrev main_c_20 : Ref sig .tc := ⟨.hbm, 198, rfl⟩
abbrev main_v74 : Ref sig .tc := ⟨.hbm, 199, rfl⟩
abbrev main_v75 : Ref sig .tc := ⟨.hbm, 200, rfl⟩
abbrev main_v76 : Ref sig .tc := ⟨.hbm, 201, rfl⟩
abbrev main_v77 : Ref sig .tc := ⟨.hbm, 202, rfl⟩
abbrev main_v78 : Ref sig .tc := ⟨.hbm, 203, rfl⟩
abbrev main_cst_21 : Ref sig .tc := ⟨.hbm, 204, rfl⟩
abbrev main_v79 : Ref sig .tc := ⟨.hbm, 205, rfl⟩
abbrev main_v80 : Ref sig .tc := ⟨.hbm, 206, rfl⟩
abbrev main_v81 : Ref sig .tc := ⟨.hbm, 207, rfl⟩
abbrev main_v82 : Ref sig .tc := ⟨.hbm, 208, rfl⟩
abbrev main_v83 : Ref sig .tc := ⟨.hbm, 209, rfl⟩
abbrev main_v84 : Ref sig .tc := ⟨.hbm, 210, rfl⟩
abbrev main_v85 : Ref sig .tc := ⟨.hbm, 211, rfl⟩
abbrev main_v86 : Ref sig .tc := ⟨.hbm, 212, rfl⟩
abbrev main_v87 : Ref sig .tc := ⟨.hbm, 213, rfl⟩
abbrev main_call11_cst : Ref sig .tc := ⟨.hbm, 214, rfl⟩
abbrev main_call11_v0 : Ref sig .tc := ⟨.hbm, 215, rfl⟩
abbrev main_v88 : Ref sig .tc := ⟨.hbm, 216, rfl⟩
abbrev main_v89 : Ref sig .tc := ⟨.hbm, 217, rfl⟩
abbrev main_v90 : Ref sig .tc := ⟨.hbm, 218, rfl⟩
abbrev main_c_22 : Ref sig .tc := ⟨.hbm, 219, rfl⟩
abbrev main_v91 : Ref sig .tc := ⟨.hbm, 220, rfl⟩
abbrev main_v92 : Ref sig .tc := ⟨.hbm, 221, rfl⟩
abbrev main_c_23 : Ref sig .tc := ⟨.hbm, 222, rfl⟩
abbrev main_v93 : Ref sig .tc := ⟨.hbm, 223, rfl⟩
abbrev main_v94 : Ref sig .tc := ⟨.hbm, 224, rfl⟩
abbrev main_v95 : Ref sig .tc := ⟨.hbm, 225, rfl⟩
abbrev main_v96 : Ref sig .tc := ⟨.hbm, 226, rfl⟩
abbrev main_v97 : Ref sig .tc := ⟨.hbm, 227, rfl⟩
abbrev main_v98 : Ref sig .tc := ⟨.hbm, 228, rfl⟩
abbrev main_v99 : Ref sig .tc := ⟨.hbm, 229, rfl⟩
abbrev main_c_24 : Ref sig .tc := ⟨.hbm, 230, rfl⟩
abbrev main_v100 : Ref sig .tc := ⟨.hbm, 231, rfl⟩
abbrev main_v101 : Ref sig .tc := ⟨.hbm, 232, rfl⟩
abbrev main_c_25 : Ref sig .tc := ⟨.hbm, 233, rfl⟩
abbrev main_v102 : Ref sig .tc := ⟨.hbm, 234, rfl⟩
abbrev main_v103 : Ref sig .tc := ⟨.hbm, 235, rfl⟩
abbrev main_v104 : Ref sig .tc := ⟨.hbm, 236, rfl⟩
abbrev main_v105 : Ref sig .tc := ⟨.hbm, 237, rfl⟩
abbrev main_v106 : Ref sig .tc := ⟨.hbm, 238, rfl⟩
abbrev main_v107 : Ref sig .tc := ⟨.hbm, 239, rfl⟩
abbrev main_v108 : Ref sig .tc := ⟨.hbm, 240, rfl⟩
abbrev main_v109 : Ref sig .tc := ⟨.hbm, 241, rfl⟩
abbrev main_v110 : Ref sig .tc := ⟨.hbm, 242, rfl⟩
abbrev main_v111 : Ref sig .tc := ⟨.hbm, 243, rfl⟩
abbrev main_call12_cst : Ref sig .tc := ⟨.hbm, 244, rfl⟩
abbrev main_call12_v0 : Ref sig .tc := ⟨.hbm, 245, rfl⟩
abbrev main_v112 : Ref sig .tc := ⟨.hbm, 246, rfl⟩
abbrev main_v113 : Ref sig .tc := ⟨.hbm, 247, rfl⟩
abbrev main_v114 : Ref sig .tc := ⟨.hbm, 248, rfl⟩
abbrev main_v115 : Ref sig .tc := ⟨.hbm, 249, rfl⟩
abbrev main_v116 : Ref sig .tc := ⟨.hbm, 250, rfl⟩
abbrev main_v117 : Ref sig .tc := ⟨.hbm, 251, rfl⟩

abbrev nD : Nat := 1
abbrev τ : Topo := Topo.v7x

variable {F : FTy → Type} [FloatOps F]

class Facts₀ : Prop where
  natLt_1_32 : 1 < 32
  bcast_S_S_ : S_.BroadcastsInDim S_ (![] : Fin 0 → Fin S_.rank)
  reduceWindows_S200000_S200000_w200000s1p199999_0 : S200000.ReduceWindows (![200000] : Fin 1 → Nat) ![1] ![199999] ![0] S200000
  h_S_ : 0 < S_.numel
  bcast_S_S100000 : S_.BroadcastsInDim S100000 (![] : Fin 0 → Fin S100000.rank)
  bcast_S_S200000 : S_.BroadcastsInDim S200000 (![] : Fin 0 → Fin S200000.rank)
  bcast_S200000_S200000x1_0 : S200000.BroadcastsInDim S200000x1 (![0] : Fin 1 → Fin S200000x1.rank)
  reduceWindows_S100000_S100000_w100000s1p99999_0 : S100000.ReduceWindows (![100000] : Fin 1 → Nat) ![1] ![99999] ![0] S100000
  bcast_S100000_S100000x1_0 : S100000.BroadcastsInDim S100000x1 (![0] : Fin 1 → Fin S100000x1.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x2 : S_.BroadcastsInDim S100000x2 (![] : Fin 0 → Fin S100000x2.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S_S100000x8 : S_.BroadcastsInDim S100000x8 (![] : Fin 0 → Fin S100000x8.rank)
  bcast_S_S100000x16 : S_.BroadcastsInDim S100000x16 (![] : Fin 0 → Fin S100000x16.rank)
  slices_S1000000x2_S1000000x1_0_0 : S1000000x2.Slices ![0, 0] S1000000x1
  shapeCasts_S1000000x1_S1000000 : S1000000x1.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S1000000x2_S1000000x1_0_1 : S1000000x2.Slices ![0, 1] S1000000x1
  concatenates_S1000000x16_S1000000x16_S1000000x32_d1 : Shape.Concatenates [S1000000x16, S1000000x16] S1000000x32 1
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  scatter_S100000_S200000x1_S200000_n_0_0_1_wf : ScatterDims.WF S100000 S200000x1 S200000 [] [0] [0] 1
  gather_S200000x2_S100000x1_S100000x2_1_0_n_n_0_1_12_wf : GatherDims.WF S200000x2 S100000x1 S100000x2 [1] [0] [] [0] [] 1 ![1, 2]
  dot_S100000x2_S2x16_S100000x16_1_0_0_1_n_n_wf : DotDims.WF S100000x2 S2x16 S100000x16 [1] [0] [0] [1] [] []
  gather_S100000x2_S3200000x1_S3200000x2_1_0_n_n_0_1_12_wf : GatherDims.WF S100000x2 S3200000x1 S3200000x2 [1] [0] [] [0] [] 1 ![1, 2]
  scatter_S100000x2_S3200000x1_S3200000x2_1_0_0_1_wf : ScatterDims.WF S100000x2 S3200000x1 S3200000x2 [1] [0] [0] 1
  dot_S100000x2_S2x8_S100000x8_1_0_0_1_n_n_wf : DotDims.WF S100000x2 S2x8 S100000x8 [1] [0] [0] [1] [] []
  gather_S100000x8_S3200000x1_S3200000x8_1_0_n_n_0_1_18_wf : GatherDims.WF S100000x8 S3200000x1 S3200000x8 [1] [0] [] [0] [] 1 ![1, 8]
  scatter_S100000x8_S3200000x1_S3200000x8_1_0_0_1_wf : ScatterDims.WF S100000x8 S3200000x1 S3200000x8 [1] [0] [0] 1
  dot_S100000x8_S8x16_S100000x16_1_0_0_1_n_n_wf : DotDims.WF S100000x8 S8x16 S100000x16 [1] [0] [0] [1] [] []
  gather_S100000x16_S1000000x1_S1000000x16_1_0_n_n_0_1_116_wf : GatherDims.WF S100000x16 S1000000x1 S1000000x16 [1] [0] [] [0] [] 1 ![1, 16]
  dot_S1000000x32_S32x64_S1000000x64_1_0_0_1_n_n_wf : DotDims.WF S1000000x32 S32x64 S1000000x64 [1] [0] [0] [1] [] []
  dot_S1000000x64_S64x1_S1000000x1_1_0_0_1_n_n_wf : DotDims.WF S1000000x64 S64x1 S1000000x1 [1] [0] [0] [1] [] []

variable [Facts₀]

def scatter_S100000_S200000x1_S200000_n_0_0_1 : ScatterDims S100000 S200000x1 S200000 where
  updateWindowDims := []
  insertedWindowDims := [0]
  scatterDimsToOperandDims := [0]
  indexVectorDim := 1
  wf := scatter_S100000_S200000x1_S200000_n_0_0_1_wf
def gather_S200000x2_S100000x1_S100000x2_1_0_n_n_0_1_12 : GatherDims S200000x2 S100000x1 S100000x2 where
  offsetDims := [1]
  collapsedSliceDims := [0]
  operandBatchingDims := []
  startIndicesBatchingDims := []
  startIndexMap := [0]
  indexVectorDim := 1
  sliceSizes := ![1, 2]
  wf := gather_S200000x2_S100000x1_S100000x2_1_0_n_n_0_1_12_wf
def dot_S100000x2_S2x16_S100000x16_1_0_0_1_n_n : DotDims S100000x2 S2x16 S100000x16 where
  lhsContracting := [1]
  rhsContracting := [0]
  lhsNonContracting := [0]
  rhsNonContracting := [1]
  lhsBatch := []
  rhsBatch := []
  wf := dot_S100000x2_S2x16_S100000x16_1_0_0_1_n_n_wf
def gather_S100000x2_S3200000x1_S3200000x2_1_0_n_n_0_1_12 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := gather_S100000x2_S3200000x1_S3200000x2_1_0_n_n_0_1_12_wf
def scatter_S100000x2_S3200000x1_S3200000x2_1_0_0_1 : ScatterDims S100000x2 S3200000x1 S3200000x2 where
  updateWindowDims := [1]
  insertedWindowDims := [0]
  scatterDimsToOperandDims := [0]
  indexVectorDim := 1
  wf := scatter_S100000x2_S3200000x1_S3200000x2_1_0_0_1_wf
def dot_S100000x2_S2x8_S100000x8_1_0_0_1_n_n : DotDims S100000x2 S2x8 S100000x8 where
  lhsContracting := [1]
  rhsContracting := [0]
  lhsNonContracting := [0]
  rhsNonContracting := [1]
  lhsBatch := []
  rhsBatch := []
  wf := dot_S100000x2_S2x8_S100000x8_1_0_0_1_n_n_wf
def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf
def dot_S100000x8_S8x16_S100000x16_1_0_0_1_n_n : DotDims S100000x8 S8x16 S100000x16 where
  lhsContracting := [1]
  rhsContracting := [0]
  lhsNonContracting := [0]
  rhsNonContracting := [1]
  lhsBatch := []
  rhsBatch := []
  wf := dot_S100000x8_S8x16_S100000x16_1_0_0_1_n_n_wf
def gather_S100000x16_S1000000x1_S1000000x16_1_0_n_n_0_1_116 : GatherDims S100000x16 S1000000x1 S1000000x16 where
  offsetDims := [1]
  collapsedSliceDims := [0]
  operandBatchingDims := []
  startIndicesBatchingDims := []
  startIndexMap := [0]
  indexVectorDim := 1
  sliceSizes := ![1, 16]
  wf := gather_S100000x16_S1000000x1_S1000000x16_1_0_n_n_0_1_116_wf
def dot_S1000000x32_S32x64_S1000000x64_1_0_0_1_n_n : DotDims S1000000x32 S32x64 S1000000x64 where
  lhsContracting := [1]
  rhsContracting := [0]
  lhsNonContracting := [0]
  rhsNonContracting := [1]
  lhsBatch := []
  rhsBatch := []
  wf := dot_S1000000x32_S32x64_S1000000x64_1_0_0_1_n_n_wf
def dot_S1000000x64_S64x1_S1000000x1_1_0_0_1_n_n : DotDims S1000000x64 S64x1 S1000000x1 where
  lhsContracting := [1]
  rhsContracting := [0]
  lhsNonContracting := [0]
  rhsNonContracting := [1]
  lhsBatch := []
  rhsBatch := []
  wf := dot_S1000000x64_S64x1_S1000000x1_1_0_0_1_n_n_wf

class Facts : Prop extends Facts₀ where

variable [Facts]
-- ==== Proof.RefOps.lean ====
import proofs.«402058_j52493090292432_1_alg».proof.Proof.Gen.ReferenceIdeal
import Idealize.ShloMosaic.Lib.StableHlo.Run
import Idealize.ShloMosaic.Lib.Pipeline.Regions

/-! The reference's @main as lists of its host operations, a called function's body inlined at its call site, and its run:
    every weakly fair execution terminates with every buffer at the operations' fold over the launch contents. -/

set_option maxRecDepth 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- 4 operations of @main (window 0), in order. -/
abbrev it0 : List (HloOp τ sig (Elt F)) :=
  [ StableHlo.TRef.unary (.of main_arg1 : StableHlo.TRef sig ⟨S200000, .i1⟩) (.of main_call0_v0 : StableHlo.TRef sig ⟨S200000, .i32⟩) (extui 32 · natLt_1_32),
    StableHlo.TRef.nullary (.of main_call0_call0_c : StableHlo.TRef sig ⟨S_, .i32⟩) (constantI S_ 32 0#32),
    StableHlo.TRef.unary (.of main_call0_call0_c : StableHlo.TRef sig ⟨S_, .i32⟩) (.of main_call0_call0_v0 : StableHlo.TRef sig ⟨S_, .i32⟩) (broadcastInDim S_ ![] bcast_S_S_),
    StableHlo.TRef.binary (.of main_call0_v0 : StableHlo.TRef sig ⟨S200000, .i32⟩) (.of main_call0_call0_v0 : StableHlo.TRef sig ⟨S_, .i32⟩) (.of main_v0 : StableHlo.TRef sig ⟨S200000, .i32⟩) (fun x v => Host.reduceWindow IntOp.addi ![200000] ![1] ![199999] ![0] x v reduceWindows_S200000_S200000_w200000s1p199999_0 h_S_) ]
theorem it0_sub : (it0 : List (HloOp τ sig (Elt F))).Forall fun op => op.bufs ⊆ tcRefs τ sig :=
  ⟨unary_bufs_sub .., nullary_bufs_sub .., unary_bufs_sub .., binary_bufs_sub ..⟩
theorem it0_fresh : (it0 : List (HloOp τ sig (Elt F))).Forall fun op => op.fresh = ∅ := by
  simp only [List.Forall]; repeat' constructor
/-- The references it0 writes, in order. -/
abbrev it0_W : List (Ref sig .tc) := [main_call0_v0, main_call0_call0_c, main_call0_call0_v0, main_v0]

/-- 3 operations of @main (window 0), in order. -/
abbrev it1 : List (HloOp τ sig (Elt F)) :=
  [ StableHlo.nullary main_c (constantI S_ 32 0#32),
    StableHlo.unary main_c main_v1 (broadcastInDim S100000 ![] bcast_S_S100000 : (⟨S_, .i32⟩ : BufTy).Contents (Elt F) → (⟨S100000, .i32⟩ : BufTy).Contents (Elt F)),
    StableHlo.nullary main_c_0 (constantI S_ 32 0#32) ]
theorem it1_sub : (it1 : List (HloOp τ sig (Elt F))).Forall fun op => op.bufs ⊆ tcRefs τ sig :=
  ⟨nullary_bufs_sub .., unary_bufs_sub .., nullary_bufs_sub ..⟩
theorem it1_fresh : (it1 : List (HloOp τ sig (Elt F))).Forall fun op => op.fresh = ∅ := by
  simp only [List.Forall]; repeat' constructor
/-- The references it1 writes, in order. -/
abbrev it1_W : List (Ref sig .tc) := [main_c, main_v1, main_c_0]

/-- 3 operations of @main (window 0), in order. -/
abbrev it2 : List (HloOp τ sig (Elt F)) :=
  [ StableHlo.TRef.unary (.of main_c_0 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S200000, .i32⟩) (broadcastInDim S200000 ![] bcast_S_S200000),
    StableHlo.TRef.binary (.of main_call1_v1 : StableHlo.TRef sig ⟨S200000, .i32⟩) (.of main_v0 : StableHlo.TRef sig ⟨S200000, .i32⟩) (.of main_v2 : StableHlo.TRef sig ⟨S200000, .i32⟩) maxsi ]
theorem it2_sub : (it2 : List (HloOp τ sig (Elt F))).Forall fun op => op.bufs ⊆ tcRefs τ sig :=
  ⟨unary_bufs_sub .., unary_bufs_sub .., binary_bufs_sub ..⟩
theorem it2_fresh : (it2 : List (HloOp τ sig (Elt F))).Forall fun op => op.fresh = ∅ := by
  simp only [List.Forall]; repeat' constructor
/-- The references it2 writes, in order. -/
abbrev it2_W : List (Ref sig .tc) := [main_call1_v0, main_call1_v1, main_v2]

/-- 11 operations of @main (window 0), in order. -/
abbrev it3 : List (HloOp τ sig (Elt F)) :=
  [ StableHlo.nullary main_c_1 (constantI S_ 32 0#32),
    StableHlo.unary main_c_1 main_v3 (broadcastInDim S200000 ![] bcast_S_S200000 : (⟨S_, .i32⟩ : BufTy).Contents (Elt F) → (⟨S200000, .i32⟩ : BufTy).Contents (Elt F)),
    StableHlo.binary main_v2 main_v3 main_v4 (cmpi .slt : (⟨S200000, .i32⟩ : BufTy).Contents (Elt F) → (⟨S200000, .i32⟩ : BufTy).Contents (Elt F) → (⟨S200000, .i1⟩ : BufTy).Contents (Elt F)),
    StableHlo.nullary main_c_2 (constantI S_ 32 100000#32),
    StableHlo.unary main_c_2 main_v5 (broadcastInDim S200000 ![] bcast_S_S200000 : (⟨S_, .i32⟩ : BufTy).Contents (Elt F) → (⟨S200000, .i32⟩ : BufTy).Contents (Elt F)),
    StableHlo.binary main_v2 main_v5 main_v6 (addi : (⟨S200000, .i32⟩ : BufTy).Contents (Elt F) → (⟨S200000, .i32⟩ : BufTy).Contents (Elt F) → (⟨S200000, .i32⟩ : BufTy).Contents (Elt F)),
    StableHlo.ternary main_v4 main_v6 main_v2 main_v7 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v7 main_v8 (broadcastInDim S200000x1 ![0] bcast_S200000_S200000x1_0 : (⟨S200000, .i32⟩ : BufTy).Contents (Elt F) → (⟨S200000x1, .i32⟩ : BufTy).Contents (Elt F)),
    StableHlo.nullary main_c_3 (constantI S_ 32 1#32),
    StableHlo.unary main_c_3 main_v9 (broadcastInDim S200000 ![] bcast_S_S200000 : (⟨S_, .i32⟩ : BufTy).Contents (Elt F) → (⟨S200000, .i32⟩ : BufTy).Contents (Elt F)),
    StableHlo.ternary main_v1 main_v8 main_v9 main_v10 ((fun x i u => Host.scatter scatter_S100000_S200000x1_S200000_n_0_0_1 IntOp.addi x i u) : (⟨S100000, .i32⟩ : BufTy).Contents (Elt F) → (⟨S200000x1, .i32⟩ : BufTy).Contents (Elt F) → (⟨S200000, .i32⟩ : BufTy).Contents (Elt F) → (⟨S100000, .i32⟩ : BufTy).Contents (Elt F)) ]
theorem it3_sub : (it3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩
theorem it3_fresh : (it3 : List (HloOp τ sig (Elt F))).Forall fun op => op.fresh = ∅ := by
  simp only [List.Forall]; repeat' constructor
/-- The references it3 writes, in order. -/
abbrev it3_W : List (Ref sig .tc) := [main_c_1, main_v3, main_v4, main_c_2, main_v5, main_v6, main_v7, main_v8, main_c_3, main_v9, main_v10]

/-- 3 operations of @main (window 0), in order. -/
abbrev it4 : List (HloOp τ sig (Elt F)) :=
  [ StableHlo.TRef.nullary (.of main_call2_call0_c : StableHlo.TRef sig ⟨S_, .i32⟩) (constantI S_ 32 0#32),
    StableHlo.TRef.unary (.of main_call2_call0_c : StableHlo.TRef sig ⟨S_, .i32⟩) (.of main_call2_call0_v0 : StableHlo.TRef sig ⟨S_, .i32⟩) (broadcastInDim S_ ![] bcast_S_S_),
    StableHlo.TRef.binary (.of main_v10 : StableHlo.TRef sig ⟨S100000, .i32⟩) (.of main_call2_call0_v0 : StableHlo.TRef sig ⟨S_, .i32⟩) (.of main_v11 : StableHlo.TRef sig ⟨S100000, .i32⟩) (fun x v => Host.reduceWindow IntOp.addi ![100000] ![1] ![99999] ![0] x v reduceWindows_S100000_S100000_w100000s1p99999_0 h_S_) ]
theorem it4_sub : (it4 : List (HloOp τ sig (Elt F))).Forall fun op => op.bufs ⊆ tcRefs τ sig :=
  ⟨nullary_bufs_sub .., unary_bufs_sub .., binary_bufs_sub ..⟩
theorem it4_fresh : (it4 : List (HloOp τ sig (Elt F))).Forall fun op => op.fresh = ∅ := by
  simp only [List.Forall]; repeat' constructor
/-- The references it4 writes, in order. -/
abbrev it4_W : List (Ref sig .tc) := [main_call2_call0_c, main_call2_call0_v0, main_v11]

/-- 1 operations of @main (window 0), in order. -/
abbrev it5 : List (HloOp τ sig (Elt F)) :=
  [ StableHlo.nullary main_c_4 (constantI S_ 32 1#32) ]
theorem it5_sub : (it5 : List (HloOp τ sig (Elt F))).Forall fun op => op.bufs ⊆ tcRefs τ sig :=
  nullary_bufs_sub ..
theorem it5_fresh : (it5 : List (HloOp τ sig (Elt F))).Forall fun op => op.fresh = ∅ := by
  simp only [List.Forall]; repeat' constructor
/-- The references it5 writes, in order. -/
abbrev it5_W : List (Ref sig .tc) := [main_c_4]

/-- 16 operations of @main (window 0), in order. -/
abbrev it6 : List (HloOp τ sig (Elt F)) :=
  [ StableHlo.TRef.unary (.of main_c_4 : StableHlo.TRef sig ⟨S_, .i32⟩) (.of main_call3_v0 : StableHlo.TRef sig ⟨S100000, .i32⟩) (broadcastInDim S100000 ![] bcast_S_S100000),
    StableHlo.TRef.binary (.of main_v11 : StableHlo.TRef sig ⟨S100000, .i32⟩) (.of main_call3_v0 : StableHlo.TRef sig ⟨S100000, .i32⟩) (.of main_call3_v1 : StableHlo.TRef sig ⟨S100000, .i32⟩) Host.divsi,
    StableHlo.TRef.unary (.of main_v11 : StableHlo.TRef sig ⟨S100000, .i32⟩) (.of main_call3_v2 : StableHlo.TRef sig ⟨S100000, .i32⟩) signi,
    StableHlo.TRef.unary (.of main_c_4 : StableHlo.TRef sig ⟨S_, .i32⟩) (.of main_call3_v3 : StableHlo.TRef sig ⟨S_, .i32⟩) signi,
    StableHlo.TRef.unary (.of main_call3_v3 : StableHlo.TRef sig ⟨S_, .i32⟩) (.of main_call3_v4 : StableHlo.TRef sig ⟨S100000, .i32⟩) (broadcastInDim S100000 ![] bcast_S_S100000),
    StableHlo.TRef.binary (.of main_call3_v2 : StableHlo.TRef sig ⟨S100000, .i32⟩) (.of main_call3_v4 : StableHlo.TRef sig ⟨S100000, .i32⟩) (.of main_call3_v5 : StableHlo.TRef sig ⟨S100000, .i1⟩) (cmpi .ne),
    StableHlo.TRef.unary (.of main_c_4 : StableHlo.TRef sig ⟨S_, .i32⟩) (.of main_call3_v6 : StableHlo.TRef sig ⟨S100000, .i32⟩) (broadcastInDim S100000 ![] bcast_S_S100000),
    StableHlo.TRef.binary (.of main_v11 : StableHlo.TRef sig ⟨S100000, .i32⟩) (.of main_call3_v6 : StableHlo.TRef sig ⟨S100000, .i32⟩) (.of main_call3_v7 : StableHlo.TRef sig ⟨S100000, .i32⟩) Host.remsi,
    StableHlo.TRef.nullary (.of main_call3_c : StableHlo.TRef sig ⟨S_, .i32⟩) (constantI S_ 32 0#32),
    StableHlo.TRef.unary (.of main_call3_c : StableHlo.TRef sig ⟨S_, .i32⟩) (.of main_call3_v8 : StableHlo.TRef sig ⟨S100000, .i32⟩) (broadcastInDim S100000 ![] bcast_S_S100000),
    StableHlo.TRef.binary (.of main_call3_v7 : StableHlo.TRef sig ⟨S100000, .i32⟩) (.of main_call3_v8 : StableHlo.TRef sig ⟨S100000, .i32⟩) (.of main_call3_v9 : StableHlo.TRef sig ⟨S100000, .i1⟩) (cmpi .ne),
    StableHlo.TRef.binary (.of main_call3_v5 : StableHlo.TRef sig ⟨S100000, .i1⟩) (.of main_call3_v9 : StableHlo.TRef sig ⟨S100000, .i1⟩) (.of main_call3_v10 : StableHlo.TRef sig ⟨S100000, .i1⟩) andi,
    StableHlo.TRef.nullary (.of main_call3_c_0 : StableHlo.TRef sig ⟨S_, .i32⟩) (constantI S_ 32 1#32),
    StableHlo.TRef.unary (.of main_call3_c_0 : StableHlo.TRef sig ⟨S_, .i32⟩) (.of main_call3_v11 : StableHlo.TRef sig ⟨S100000, .i32⟩) (broadcastInDim S100000 ![] bcast_S_S100000),
    StableHlo.TRef.binary (.of main_call3_v1 : StableHlo.TRef sig ⟨S100000, .i32⟩) (.of main_call3_v11 : StableHlo.TRef sig ⟨S100000, .i32⟩) (.of main_call3_v12 : StableHlo.TRef sig ⟨S100000, .i32⟩) subi,
    StableHlo.TRef.ternary (.of main_call3_v10 : StableHlo.TRef sig ⟨S100000, .i1⟩) (.of main_call3_v12 : StableHlo.TRef sig ⟨S100000, .i32⟩) (.of main_call3_v1 : StableHlo.TRef sig ⟨S100000, .i32⟩) (.of main_v12 : StableHlo.TRef sig ⟨S100000, .i32⟩) select ]
theorem it6_sub : (it6 : List (HloOp τ sig (Elt F))).Forall fun op => op.bufs ⊆ tcRefs τ sig :=
  ⟨unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem it6_fresh : (it6 : List (HloOp τ sig (Elt F))).Forall fun op => op.fresh = ∅ := by
  simp only [List.Forall]; repeat' constructor
/-- The references it6 writes, in order. -/
abbrev it6_W : List (Ref sig .tc) := [main_call3_v0, main_call3_v1, main_call3_v2, main_call3_v3, main_call3_v4, main_call3_v5, main_call3_v6, main_call3_v7, main_call3_c, main_call3_v8, main_call3_v9, main_call3_v10, main_call3_c_0, main_call3_v11, main_call3_v12, main_v12]

/-- 1 operations of @main (window 0), in order. -/
abbrev it7 : List (HloOp τ sig (Elt F)) :=
  [ StableHlo.nullary main_c_5 (constantI S_ 32 200000#32) ]
theorem it7_sub : (it7 : List (HloOp τ sig (Elt F))).Forall fun op => op.bufs ⊆ tcRefs τ sig :=
  nullary_bufs_sub ..
theorem it7_fresh : (it7 : List (HloOp τ sig (Elt F))).Forall fun op => op.fresh = ∅ := by
  simp only [List.Forall]; repeat' constructor
/-- The references it7 writes, in order. -/
abbrev it7_W : List (Ref sig .tc) := [main_c_5]

/-- 21 operations of @main (window 0), in order. -/
abbrev it8 : List (HloOp τ sig (Elt F)) :=
  [ StableHlo.TRef.unary (.of main_c_5 : StableHlo.TRef sig ⟨S_, .i32⟩) (.of main_call4_v0 : StableHlo.TRef sig ⟨S_, .i32⟩) id,
    StableHlo.TRef.nullary (.of main_call4_c : StableHlo.TRef sig ⟨S_, .i32⟩) (constantI S_ 32 0#32),
    StableHlo.TRef.binary (.of main_call4_v0 : StableHlo.TRef sig ⟨S_, .i32⟩) (.of main_call4_c : StableHlo.TRef sig ⟨S_, .i32⟩) (.of main_call4_v1 : StableHlo.TRef sig ⟨S_, .i1⟩) (cmpi .eq),
    StableHlo.TRef.nullary (.of main_call4_c_0 : StableHlo.TRef sig ⟨S_, .i32⟩) (constantI S_ 32 1#32),
    StableHlo.TRef.ternary (.of main_call4_v1 : StableHlo.TRef sig ⟨S_, .i1⟩) (.of main_call4_c_0 : StableHlo.TRef sig ⟨S_, .i32⟩) (.of main_call4_v0 : StableHlo.TRef sig ⟨S_, .i32⟩) (.of main_call4_v2 : StableHlo.TRef sig ⟨S_, .i32⟩) select,
    StableHlo.TRef.unary main_call4_call0.v0 (.of main_call4_v3 : StableHlo.TRef sig ⟨S100000, .i32⟩) (broadcastInDim S100000 ![] bcast_S_S100000),
    StableHlo.TRef.binary (.of main_v12 : StableHlo.TRef sig ⟨S100000, .i32⟩) (.of main_call4_v3 : StableHlo.TRef sig ⟨S100000, .i32⟩) (.of main_call4_v4 : StableHlo.TRef sig ⟨S100000, .i32⟩) Host.remsi,
    StableHlo.TRef.nullary (.of main_call4_c_1 : StableHlo.TRef sig ⟨S_, .i32⟩) (constantI S_ 32 0#32),
    StableHlo.TRef.unary (.of main_call4_c_1 : StableHlo.TRef sig ⟨S_, .i32⟩) (.of main_call4_v5 : StableHlo.TRef sig ⟨S100000, .i32⟩) (broadcastInDim S100000 ![] bcast_S_S100000),
    StableHlo.TRef.binary (.of main_call4_v4 : StableHlo.TRef sig ⟨S100000, .i32⟩) (.of main_call4_v5 : StableHlo.TRef sig ⟨S100000, .i32⟩) (.of main_call4_v6 : StableHlo.TRef sig ⟨S100000, .i1⟩) (cmpi .ne),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v7 : StableHlo.TRef sig ⟨S100000, .i32⟩) (broadcastInDim S100000 ![] bcast_S_S100000),
    StableHlo.TRef.binary (.of main_call4_v4 : StableHlo.TRef sig ⟨S100000, .i32⟩) (.of main_call4_v7 : StableHlo.TRef sig ⟨S100000, .i32⟩) (.of main_call4_v8 : StableHlo.TRef sig ⟨S100000, .i1⟩) (cmpi .slt),
    StableHlo.TRef.nullary (.of main_call4_c_3 : StableHlo.TRef sig ⟨S_, .i32⟩) (constantI S_ 32 0#32),
    StableHlo.TRef.binary main_call4_call0.v0 (.of main_call4_c_3 : StableHlo.TRef sig ⟨S_, .i32⟩) (.of main_call4_v9 : StableHlo.TRef sig ⟨S_, .i1⟩) (cmpi .slt),
    StableHlo.TRef.unary (.of main_call4_v9 : StableHlo.TRef sig ⟨S_, .i1⟩) (.of main_call4_v10 : StableHlo.TRef sig ⟨S100000, .i1⟩) (broadcastInDim S100000 ![] bcast_S_S100000),
    StableHlo.TRef.binary (.of main_call4_v8 : StableHlo.TRef sig ⟨S100000, .i1⟩) (.of main_call4_v10 : StableHlo.TRef sig ⟨S100000, .i1⟩) (.of main_call4_v11 : StableHlo.TRef sig ⟨S100000, .i1⟩) (cmpi .ne),
    StableHlo.TRef.binary (.of main_call4_v11 : StableHlo.TRef sig ⟨S100000, .i1⟩) (.of main_call4_v6 : StableHlo.TRef sig ⟨S100000, .i1⟩) (.of main_call4_v12 : StableHlo.TRef sig ⟨S100000, .i1⟩) andi,
    StableHlo.TRef.unary main_call4_call0.v0 (.of main_call4_v13 : StableHlo.TRef sig ⟨S100000, .i32⟩) (broadcastInDim S100000 ![] bcast_S_S100000),
    StableHlo.TRef.binary (.of main_call4_v4 : StableHlo.TRef sig ⟨S100000, .i32⟩) (.of main_call4_v13 : StableHlo.TRef sig ⟨S100000, .i32⟩) (.of main_call4_v14 : StableHlo.TRef sig ⟨S100000, .i32⟩) addi,
    StableHlo.TRef.ternary (.of main_call4_v12 : StableHlo.TRef sig ⟨S100000, .i1⟩) (.of main_call4_v14 : StableHlo.TRef sig ⟨S100000, .i32⟩) (.of main_call4_v4 : StableHlo.TRef sig ⟨S100000, .i32⟩) (.of main_v13 : StableHlo.TRef sig ⟨S100000, .i32⟩) select ]
theorem it8_sub : (it8 : List (HloOp τ sig (Elt F))).Forall fun op => op.bufs ⊆ tcRefs τ sig :=
  ⟨unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem it8_fresh : (it8 : List (HloOp τ sig (Elt F))).Forall fun op => op.fresh = ∅ := by
  simp only [List.Forall]; repeat' constructor
/-- The references it8 writes, in order. -/
abbrev it8_W : List (Ref sig .tc) := [main_call4_v0, main_call4_c, main_call4_v1, main_call4_c_0, main_call4_v2, main_call4_v3, main_call4_v4, main_call4_c_1, main_call4_v5, main_call4_v6, main_call4_c_2, main_call4_v7, main_call4_v8, main_call4_c_3, main_call4_v9, main_call4_v10, main_call4_v11, main_call4_v12, main_call4_v13, main_call4_v14, main_v13]

/-- 1 operations of @main (window 0), in order. -/
abbrev it9 : List (HloOp τ sig (Elt F)) :=
  [ StableHlo.unary main_arg1 main_v14 (noti : (⟨S200000, .i1⟩ : BufTy).Contents (Elt F) → (⟨S200000, .i1⟩ : BufTy).Contents (Elt F)) ]
theorem it9_sub : (it9 : List (HloOp τ sig (Elt F))).Forall fun op => op.bufs ⊆ tcRefs τ sig :=
  unary_bufs_sub ..
theorem it9_fresh : (it9 : List (HloOp τ sig (Elt F))).Forall fun op => op.fresh = ∅ := by
  simp only [List.Forall]; repeat' constructor
/-- The references it9 writes, in order. -/
abbrev it9_W : List (Ref sig .tc) := [main_v14]

/-- 4 operations of @main (window 0), in order. -/
abbrev it10 : List (HloOp τ sig (Elt F)) :=
  [ StableHlo.TRef.unary (.of main_v14 : StableHlo.TRef sig ⟨S200000, .i1⟩) (.of main_call5_v0 : StableHlo.TRef sig ⟨S200000, .i32⟩) (extui 32 · natLt_1_32),
    StableHlo.TRef.nullary (.of main_call5_call0_c : StableHlo.TRef sig ⟨S_, .i32⟩) (constantI S_ 32 0#32),
    StableHlo.TRef.unary (.of main_call5_call0_c : StableHlo.TRef sig ⟨S_, .i32⟩) (.of main_call5_call0_v0 : StableHlo.TRef sig ⟨S_, .i32⟩) (broadcastInDim S_ ![] bcast_S_S_),
    StableHlo.TRef.binary (.of main_call5_v0 : StableHlo.TRef sig ⟨S200000, .i32⟩) (.of main_call5_call0_v0 : StableHlo.TRef sig ⟨S_, .i32⟩) (.of main_v15 : StableHlo.TRef sig ⟨S200000, .i32⟩) (fun x v => Host.reduceWindow IntOp.addi ![200000] ![1] ![199999] ![0] x v reduceWindows_S200000_S200000_w200000s1p199999_0 h_S_) ]
theorem it10_sub : (it10 : List (HloOp τ sig (Elt F))).Forall fun op => op.bufs ⊆ tcRefs τ sig :=
  ⟨unary_bufs_sub .., nullary_bufs_sub .., unary_bufs_sub .., binary_bufs_sub ..⟩
theorem it10_fresh : (it10 : List (HloOp τ sig (Elt F))).Forall fun op => op.fresh = ∅ := by
  simp only [List.Forall]; repeat' constructor
/-- The references it10 writes, in order. -/
abbrev it10_W : List (Ref sig .tc) := [main_call5_v0, main_call5_call0_c, main_call5_call0_v0, main_v15]

/-- 3 operations of @main (window 0), in order. -/
abbrev it11 : List (HloOp τ sig (Elt F)) :=
  [ StableHlo.nullary main_c_6 (constantI S_ 32 0#32),
    StableHlo.unary main_c_6 main_v16 (broadcastInDim S100000 ![] bcast_S_S100000 : (⟨S_, .i32⟩ : BufTy).Contents (Elt F) → (⟨S100000, .i32⟩ : BufTy).Contents (Elt F)),
    StableHlo.nullary main_c_7 (constantI S_ 32 0#32) ]
theorem it11_sub : (it11 : List (HloOp τ sig (Elt F))).Forall fun op => op.bufs ⊆ tcRefs τ sig :=
  ⟨nullary_bufs_sub .., unary_bufs_sub .., nullary_bufs_sub ..⟩
theorem it11_fresh : (it11 : List (HloOp τ sig (Elt F))).Forall fun op => op.fresh = ∅ := by
  simp only [List.Forall]; repeat' constructor
/-- The references it11 writes, in order. -/
abbrev it11_W : List (Ref sig .tc) := [main_c_6, main_v16, main_c_7]

/-- 3 operations of @main (window 0), in order. -/
abbrev it12 : List (HloOp τ sig (Elt F)) :=
  [ StableHlo.TRef.unary (.of main_c_7 : StableHlo.TRef sig ⟨S_, .i32⟩) (.of main_call6_v0 : StableHlo.TRef sig ⟨S_, .i32⟩) id,
    StableHlo.TRef.unary (.of main_call6_v0 : StableHlo.TRef sig ⟨S_, .i32⟩) (.of main_call6_v1 : StableHlo.TRef sig ⟨S200000, .i32⟩) (broadcastInDim S200000 ![] bcast_S_S200000),
    StableHlo.TRef.binary (.of main_call6_v1 : StableHlo.TRef sig ⟨S200000, .i32⟩) (.of main_v15 : StableHlo.TRef sig ⟨S200000, .i32⟩) (.of main_v17 : StableHlo.TRef sig ⟨S200000, .i32⟩) maxsi ]
theorem it12_sub : (it12 : List (HloOp τ sig (Elt F))).Forall fun op => op.bufs ⊆ tcRefs τ sig :=
  ⟨unary_bufs_sub .., unary_bufs_sub .., binary_bufs_sub ..⟩
theorem it12_fresh : (it12 : List (HloOp τ sig (Elt F))).Forall fun op => op.fresh = ∅ := by
  simp only [List.Forall]; repeat' constructor
/-- The references it12 writes, in order. -/
abbrev it12_W : List (Ref sig .tc) := [main_call6_v0, main_call6_v1, main_v17]

/-- 11 operations of @main (window 0), in order. -/
abbrev it13 : List (HloOp τ sig (Elt F)) :=
  [ StableHlo.nullary main_c_8 (constantI S_ 32 0#32),
    StableHlo.unary main_c_8 main_v18 (broadcastInDim S200000 ![] bcast_S_S200000 : (⟨S_, .i32⟩ : BufTy).Contents (Elt F) → (⟨S200000, .i32⟩ : BufTy).Contents (Elt F)),
    StableHlo.binary main_v17 main_v18 main_v19 (cmpi .slt : (⟨S200000, .i32⟩ : BufTy).Contents (Elt F) → (⟨S200000, .i32⟩ : BufTy).Contents (Elt F) → (⟨S200000, .i1⟩ : BufTy).Contents (Elt F)),
    StableHlo.nullary main_c_9 (constantI S_ 32 100000#32),
    StableHlo.unary main_c_9 main_v20 (broadcastInDim S200000 ![] bcast_S_S200000 : (⟨S_, .i32⟩ : BufTy).Contents (Elt F) → (⟨S200000, .i32⟩ : BufTy).Contents (Elt F)),
    StableHlo.binary main_v17 main_v20 main_v21 (addi : (⟨S200000, .i32⟩ : BufTy).Contents (Elt F) → (⟨S200000, .i32⟩ : BufTy).Contents (Elt F) → (⟨S200000, .i32⟩ : BufTy).Contents (Elt F)),
    StableHlo.ternary main_v19 main_v21 main_v17 main_v22 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v22 main_v23 (broadcastInDim S200000x1 ![0] bcast_S200000_S200000x1_0 : (⟨S200000, .i32⟩ : BufTy).Contents (Elt F) → (⟨S200000x1, .i32⟩ : BufTy).Contents (Elt F)),
    StableHlo.nullary main_c_10 (constantI S_ 32 1#32),
    StableHlo.unary main_c_10 main_v24 (broadcastInDim S200000 ![] bcast_S_S200000 : (⟨S_, .i32⟩ : BufTy).Contents (Elt F) → (⟨S200000, .i32⟩ : BufTy).Contents (Elt F)),
    StableHlo.ternary main_v16 main_v23 main_v24 main_v25 ((fun x i u => Host.scatter scatter_S100000_S200000x1_S200000_n_0_0_1 IntOp.addi x i u) : (⟨S100000, .i32⟩ : BufTy).Contents (Elt F) → (⟨S200000x1, .i32⟩ : BufTy).Contents (Elt F) → (⟨S200000, .i32⟩ : BufTy).Contents (Elt F) → (⟨S100000, .i32⟩ : BufTy).Contents (Elt F)) ]
theorem it13_sub : (it13 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩
theorem it13_fresh : (it13 : List (HloOp τ sig (Elt F))).Forall fun op => op.fresh = ∅ := by
  simp only [List.Forall]; repeat' constructor
/-- The references it13 writes, in order. -/
abbrev it13_W : List (Ref sig .tc) := [main_c_8, main_v18, main_v19, main_c_9, main_v20, main_v21, main_v22, main_v23, main_c_10, main_v24, main_v25]

/-- 3 operations of @main (window 0), in order. -/
abbrev it14 : List (HloOp τ sig (Elt F)) :=
  [ StableHlo.TRef.nullary (.of main_call7_call0_c : StableHlo.TRef sig ⟨S_, .i32⟩) (constantI S_ 32 0#32),
    StableHlo.TRef.unary (.of main_call7_call0_c : StableHlo.TRef sig ⟨S_, .i32⟩) (.of main_call7_call0_v0 : StableHlo.TRef sig ⟨S_, .i32⟩) (broadcastInDim S_ ![] bcast_S_S_),
    StableHlo.TRef.binary (.of main_v25 : StableHlo.TRef sig ⟨S100000, .i32⟩) (.of main_call7_call0_v0 : StableHlo.TRef sig ⟨S_, .i32⟩) (.of main_v26 : StableHlo.TRef sig ⟨S100000, .i32⟩) (fun x v => Host.reduceWindow IntOp.addi ![100000] ![1] ![99999] ![0] x v reduceWindows_S100000_S100000_w100000s1p99999_0 h_S_) ]
theorem it14_sub : (it14 : List (HloOp τ sig (Elt F))).Forall fun op => op.bufs ⊆ tcRefs τ sig :=
  ⟨nullary_bufs_sub .., unary_bufs_sub .., binary_bufs_sub ..⟩
theorem it14_fresh : (it14 : List (HloOp τ sig (Elt F))).Forall fun op => op.fresh = ∅ := by
  simp only [List.Forall]; repeat' constructor
/-- The references it14 writes, in order. -/
abbrev it14_W : List (Ref sig .tc) := [main_call7_call0_c, main_call7_call0_v0, main_v26]

/-- 1 operations of @main (window 0), in order. -/
abbrev it15 : List (HloOp τ sig (Elt F)) :=
  [ StableHlo.nullary main_c_11 (constantI S_ 32 1#32) ]
theorem it15_sub : (it15 : List (HloOp τ sig (Elt F))).Forall fun op => op.bufs ⊆ tcRefs τ sig :=
  nullary_bufs_sub ..
theorem it15_fresh : (it15 : List (HloOp τ sig (Elt F))).Forall fun op => op.fresh = ∅ := by
  simp only [List.Forall]; repeat' constructor
/-- The references it15 writes, in order. -/
abbrev it15_W : List (Ref sig .tc) := [main_c_11]

/-- 16 operations of @main (window 0), in order. -/
abbrev it16 : List (HloOp τ sig (Elt F)) :=
  [ StableHlo.TRef.unary (.of main_c_11 : StableHlo.TRef sig ⟨S_, .i32⟩) (.of main_call8_v0 : StableHlo.TRef sig ⟨S100000, .i32⟩) (broadcastInDim S100000 ![] bcast_S_S100000),
    StableHlo.TRef.binary (.of main_v26 : StableHlo.TRef sig ⟨S100000, .i32⟩) (.of main_call8_v0 : StableHlo.TRef sig ⟨S100000, .i32⟩) (.of main_call8_v1 : StableHlo.TRef sig ⟨S100000, .i32⟩) Host.divsi,
    StableHlo.TRef.unary (.of main_v26 : StableHlo.TRef sig ⟨S100000, .i32⟩) (.of main_call8_v2 : StableHlo.TRef sig ⟨S100000, .i32⟩) signi,
    StableHlo.TRef.unary (.of main_c_11 : StableHlo.TRef sig ⟨S_, .i32⟩) (.of main_call8_v3 : StableHlo.TRef sig ⟨S_, .i32⟩) signi,
    StableHlo.TRef.unary (.of main_call8_v3 : StableHlo.TRef sig ⟨S_, .i32⟩) (.of main_call8_v4 : StableHlo.TRef sig ⟨S100000, .i32⟩) (broadcastInDim S100000 ![] bcast_S_S100000),
    StableHlo.TRef.binary (.of main_call8_v2 : StableHlo.TRef sig ⟨S100000, .i32⟩) (.of main_call8_v4 : StableHlo.TRef sig ⟨S100000, .i32⟩) (.of main_call8_v5 : StableHlo.TRef sig ⟨S100000, .i1⟩) (cmpi .ne),
    StableHlo.TRef.unary (.of main_c_11 : StableHlo.TRef sig ⟨S_, .i32⟩) (.of main_call8_v6 : StableHlo.TRef sig ⟨S100000, .i32⟩) (broadcastInDim S100000 ![] bcast_S_S100000),
    StableHlo.TRef.binary (.of main_v26 : StableHlo.TRef sig ⟨S100000, .i32⟩) (.of main_call8_v6 : StableHlo.TRef sig ⟨S100000, .i32⟩) (.of main_call8_v7 : StableHlo.TRef sig ⟨S100000, .i32⟩) Host.remsi,
    StableHlo.TRef.nullary (.of main_call8_c : StableHlo.TRef sig ⟨S_, .i32⟩) (constantI S_ 32 0#32),
    StableHlo.TRef.unary (.of main_call8_c : StableHlo.TRef sig ⟨S_, .i32⟩) (.of main_call8_v8 : StableHlo.TRef sig ⟨S100000, .i32⟩) (broadcastInDim S100000 ![] bcast_S_S100000),
    StableHlo.TRef.binary (.of main_call8_v7 : StableHlo.TRef sig ⟨S100000, .i32⟩) (.of main_call8_v8 : StableHlo.TRef sig ⟨S100000, .i32⟩) (.of main_call8_v9 : StableHlo.TRef sig ⟨S100000, .i1⟩) (cmpi .ne),
    StableHlo.TRef.binary (.of main_call8_v5 : StableHlo.TRef sig ⟨S100000, .i1⟩) (.of main_call8_v9 : StableHlo.TRef sig ⟨S100000, .i1⟩) (.of main_call8_v10 : StableHlo.TRef sig ⟨S100000, .i1⟩) andi,
    StableHlo.TRef.nullary (.of main_call8_c_0 : StableHlo.TRef sig ⟨S_, .i32⟩) (constantI S_ 32 1#32),
    StableHlo.TRef.unary (.of main_call8_c_0 : StableHlo.TRef sig ⟨S_, .i32⟩) (.of main_call8_v11 : StableHlo.TRef sig ⟨S100000, .i32⟩) (broadcastInDim S100000 ![] bcast_S_S100000),
    StableHlo.TRef.binary (.of main_call8_v1 : StableHlo.TRef sig ⟨S100000, .i32⟩) (.of main_call8_v11 : StableHlo.TRef sig ⟨S100000, .i32⟩) (.of main_call8_v12 : StableHlo.TRef sig ⟨S100000, .i32⟩) subi,
    StableHlo.TRef.ternary (.of main_call8_v10 : StableHlo.TRef sig ⟨S100000, .i1⟩) (.of main_call8_v12 : StableHlo.TRef sig ⟨S100000, .i32⟩) (.of main_call8_v1 : StableHlo.TRef sig ⟨S100000, .i32⟩) (.of main_v27 : StableHlo.TRef sig ⟨S100000, .i32⟩) select ]
theorem it16_sub : (it16 : List (HloOp τ sig (Elt F))).Forall fun op => op.bufs ⊆ tcRefs τ sig :=
  ⟨unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem it16_fresh : (it16 : List (HloOp τ sig (Elt F))).Forall fun op => op.fresh = ∅ := by
  simp only [List.Forall]; repeat' constructor
/-- The references it16 writes, in order. -/
abbrev it16_W : List (Ref sig .tc) := [main_call8_v0, main_call8_v1, main_call8_v2, main_call8_v3, main_call8_v4, main_call8_v5, main_call8_v6, main_call8_v7, main_call8_c, main_call8_v8, main_call8_v9, main_call8_v10, main_call8_c_0, main_call8_v11, main_call8_v12, main_v27]

/-- 1 operations of @main (window 0), in order. -/
abbrev it17 : List (HloOp τ sig (Elt F)) :=
  [ StableHlo.nullary main_c_12 (constantI S_ 32 200000#32) ]
theorem it17_sub : (it17 : List (HloOp τ sig (Elt F))).Forall fun op => op.bufs ⊆ tcRefs τ sig :=
  nullary_bufs_sub ..
theorem it17_fresh : (it17 : List (HloOp τ sig (Elt F))).Forall fun op => op.fresh = ∅ := by
  simp only [List.Forall]; repeat' constructor
/-- The references it17 writes, in order. -/
abbrev it17_W : List (Ref sig .tc) := [main_c_12]

/-- 21 operations of @main (window 0), in order. -/
abbrev it18 : List (HloOp τ sig (Elt F)) :=
  [ StableHlo.TRef.unary (.of main_c_12 : StableHlo.TRef sig ⟨S_, .i32⟩) (.of main_call9_v0 : StableHlo.TRef sig ⟨S_, .i32⟩) id,
    StableHlo.TRef.nullary (.of main_call9_c : StableHlo.TRef sig ⟨S_, .i32⟩) (constantI S_ 32 0#32),
    StableHlo.TRef.binary (.of main_call9_v0 : StableHlo.TRef sig ⟨S_, .i32⟩) (.of main_call9_c : StableHlo.TRef sig ⟨S_, .i32⟩) (.of main_call9_v1 : StableHlo.TRef sig ⟨S_, .i1⟩) (cmpi .eq),
    StableHlo.TRef.nullary (.of main_call9_c_0 : StableHlo.TRef sig ⟨S_, .i32⟩) (constantI S_ 32 1#32),
    StableHlo.TRef.ternary (.of main_call9_v1 : StableHlo.TRef sig ⟨S_, .i1⟩) (.of main_call9_c_0 : StableHlo.TRef sig ⟨S_, .i32⟩) (.of main_call9_v0 : StableHlo.TRef sig ⟨S_, .i32⟩) (.of main_call9_v2 : StableHlo.TRef sig ⟨S_, .i32⟩) select,
    StableHlo.TRef.unary main_call9_call0.v0 (.of main_call9_v3 : StableHlo.TRef sig ⟨S100000, .i32⟩) (broadcastInDim S100000 ![] bcast_S_S100000),
    StableHlo.TRef.binary (.of main_v27 : StableHlo.TRef sig ⟨S100000, .i32⟩) (.of main_call9_v3 : StableHlo.TRef sig ⟨S100000, .i32⟩) (.of main_call9_v4 : StableHlo.TRef sig ⟨S100000, .i32⟩) Host.remsi,
    StableHlo.TRef.nullary (.of main_call9_c_1 : StableHlo.TRef sig ⟨S_, .i32⟩) (constantI S_ 32 0#32),
    StableHlo.TRef.unary (.of main_call9_c_1 : StableHlo.TRef sig ⟨S_, .i32⟩) (.of main_call9_v5 : StableHlo.TRef sig ⟨S100000, .i32⟩) (broadcastInDim S100000 ![] bcast_S_S100000),
    StableHlo.TRef.binary (.of main_call9_v4 : StableHlo.TRef sig ⟨S100000, .i32⟩) (.of main_call9_v5 : StableHlo.TRef sig ⟨S100000, .i32⟩) (.of main_call9_v6 : StableHlo.TRef sig ⟨S100000, .i1⟩) (cmpi .ne),
    StableHlo.TRef.nullary (.of main_call9_c_2 : StableHlo.TRef sig ⟨S_, .i32⟩) (constantI S_ 32 0#32),
    StableHlo.TRef.unary (.of main_call9_c_2 : StableHlo.TRef sig ⟨S_, .i32⟩) (.of main_call9_v7 : StableHlo.TRef sig ⟨S100000, .i32⟩) (broadcastInDim S100000 ![] bcast_S_S100000),
    StableHlo.TRef.binary (.of main_call9_v4 : StableHlo.TRef sig ⟨S100000, .i32⟩) (.of main_call9_v7 : StableHlo.TRef sig ⟨S100000, .i32⟩) (.of main_call9_v8 : StableHlo.TRef sig ⟨S100000, .i1⟩) (cmpi .slt),
    StableHlo.TRef.nullary (.of main_call9_c_3 : StableHlo.TRef sig ⟨S_, .i32⟩) (constantI S_ 32 0#32),
    StableHlo.TRef.binary main_call9_call0.v0 (.of main_call9_c_3 : StableHlo.TRef sig ⟨S_, .i32⟩) (.of main_call9_v9 : StableHlo.TRef sig ⟨S_, .i1⟩) (cmpi .slt),
    StableHlo.TRef.unary (.of main_call9_v9 : StableHlo.TRef sig ⟨S_, .i1⟩) (.of main_call9_v10 : StableHlo.TRef sig ⟨S100000, .i1⟩) (broadcastInDim S100000 ![] bcast_S_S100000),
    StableHlo.TRef.binary (.of main_call9_v8 : StableHlo.TRef sig ⟨S100000, .i1⟩) (.of main_call9_v10 : StableHlo.TRef sig ⟨S100000, .i1⟩) (.of main_call9_v11 : StableHlo.TRef sig ⟨S100000, .i1⟩) (cmpi .ne),
    StableHlo.TRef.binary (.of main_call9_v11 : StableHlo.TRef sig ⟨S100000, .i1⟩) (.of main_call9_v6 : StableHlo.TRef sig ⟨S100000, .i1⟩) (.of main_call9_v12 : StableHlo.TRef sig ⟨S100000, .i1⟩) andi,
    StableHlo.TRef.unary main_call9_call0.v0 (.of main_call9_v13 : StableHlo.TRef sig ⟨S100000, .i32⟩) (broadcastInDim S100000 ![] bcast_S_S100000),
    StableHlo.TRef.binary (.of main_call9_v4 : StableHlo.TRef sig ⟨S100000, .i32⟩) (.of main_call9_v13 : StableHlo.TRef sig ⟨S100000, .i32⟩) (.of main_call9_v14 : StableHlo.TRef sig ⟨S100000, .i32⟩) addi,
    StableHlo.TRef.ternary (.of main_call9_v12 : StableHlo.TRef sig ⟨S100000, .i1⟩) (.of main_call9_v14 : StableHlo.TRef sig ⟨S100000, .i32⟩) (.of main_call9_v4 : StableHlo.TRef sig ⟨S100000, .i32⟩) (.of main_v28 : StableHlo.TRef sig ⟨S100000, .i32⟩) select ]
theorem it18_sub : (it18 : List (HloOp τ sig (Elt F))).Forall fun op => op.bufs ⊆ tcRefs τ sig :=
  ⟨unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem it18_fresh : (it18 : List (HloOp τ sig (Elt F))).Forall fun op => op.fresh = ∅ := by
  simp only [List.Forall]; repeat' constructor
/-- The references it18 writes, in order. -/
abbrev it18_W : List (Ref sig .tc) := [main_call9_v0, main_call9_c, main_call9_v1, main_call9_c_0, main_call9_v2, main_call9_v3, main_call9_v4, main_call9_c_1, main_call9_v5, main_call9_v6, main_call9_c_2, main_call9_v7, main_call9_v8, main_call9_c_3, main_call9_v9, main_call9_v10, main_call9_v11, main_call9_v12, main_call9_v13, main_call9_v14, main_v28]

/-- 9 operations of @main (window 0), in order. -/
abbrev it19 : List (HloOp τ sig (Elt F)) :=
  [ StableHlo.nullary main_c_13 (constantI S_ 32 0#32),
    StableHlo.unary main_c_13 main_v29 (broadcastInDim S100000 ![] bcast_S_S100000 : (⟨S_, .i32⟩ : BufTy).Contents (Elt F) → (⟨S100000, .i32⟩ : BufTy).Contents (Elt F)),
    StableHlo.binary main_v28 main_v29 main_v30 (cmpi .slt : (⟨S100000, .i32⟩ : BufTy).Contents (Elt F) → (⟨S100000, .i32⟩ : BufTy).Contents (Elt F) → (⟨S100000, .i1⟩ : BufTy).Contents (Elt F)),
    StableHlo.nullary main_c_14 (constantI S_ 32 200000#32),
    StableHlo.unary main_c_14 main_v31 (broadcastInDim S100000 ![] bcast_S_S100000 : (⟨S_, .i32⟩ : BufTy).Contents (Elt F) → (⟨S100000, .i32⟩ : BufTy).Contents (Elt F)),
    StableHlo.binary main_v28 main_v31 main_v32 (addi : (⟨S100000, .i32⟩ : BufTy).Contents (Elt F) → (⟨S100000, .i32⟩ : BufTy).Contents (Elt F) → (⟨S100000, .i32⟩ : BufTy).Contents (Elt F)),
    StableHlo.ternary main_v30 main_v32 main_v28 main_v33 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v33 main_v34 (broadcastInDim S100000x1 ![0] bcast_S100000_S100000x1_0 : (⟨S100000, .i32⟩ : BufTy).Contents (Elt F) → (⟨S100000x1, .i32⟩ : BufTy).Contents (Elt F)),
    StableHlo.binary main_arg0 main_v34 main_v35 ((fun x i => Host.gather gather_S200000x2_S100000x1_S100000x2_1_0_n_n_0_1_12 x i) : (⟨S200000x2, .f32⟩ : BufTy).Contents (Elt F) → (⟨S100000x1, .i32⟩ : BufTy).Contents (Elt F) → (⟨S100000x2, .f32⟩ : BufTy).Contents (Elt F)) ]
theorem it19_sub : (it19 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩
theorem it19_fresh : (it19 : List (HloOp τ sig (Elt F))).Forall fun op => op.fresh = ∅ := by
  simp only [List.Forall]; repeat' constructor
/-- The references it19 writes, in order. -/
abbrev it19_W : List (Ref sig .tc) := [main_c_13, main_v29, main_v30, main_c_14, main_v31, main_v32, main_v33, main_v34, main_v35]

/-- 4 operations of @main (window 0), in order. -/
abbrev it20 : List (HloOp τ sig (Elt F)) :=
  [ StableHlo.binary main_v35 main_arg10 main_v36 ((fun l r => Host.dotGeneral dot_S100000x2_S2x16_S100000x16_1_0_0_1_n_n none l r) : (⟨S100000x2, .f32⟩ : BufTy).Contents (Elt F) → (⟨S2x16, .f32⟩ : BufTy).Contents (Elt F) → (⟨S100000x16, .f32⟩ : BufTy).Contents (Elt F)),
    StableHlo.unary main_arg11 main_v37 (broadcastInDim S1x16 ![1] bcast_S16_S1x16_1 : (⟨S16, .f32⟩ : BufTy).Contents (Elt F) → (⟨S1x16, .f32⟩ : BufTy).Contents (Elt F)),
    StableHlo.unary main_v37 main_v38 (broadcastInDim S100000x16 ![0, 1] bcast_S1x16_S100000x16_0_1 : (⟨S1x16, .f32⟩ : BufTy).Contents (Elt F) → (⟨S100000x16, .f32⟩ : BufTy).Contents (Elt F)),
    StableHlo.binary main_v36 main_v38 main_v39 (addf : (⟨S100000x16, .f32⟩ : BufTy).Contents (Elt F) → (⟨S100000x16, .f32⟩ : BufTy).Contents (Elt F) → (⟨S100000x16, .f32⟩ : BufTy).Contents (Elt F)) ]
theorem it20_sub : (it20 : List (HloOp τ sig (Elt F))).Forall fun op => op.bufs ⊆ tcRefs τ sig :=
  ⟨binary_bufs_sub .., unary_bufs_sub .., unary_bufs_sub .., binary_bufs_sub ..⟩
theorem it20_fresh : (it20 : List (HloOp τ sig (Elt F))).Forall fun op => op.fresh = ∅ := by
  simp only [List.Forall]; repeat' constructor
/-- The references it20 writes, in order. -/
abbrev it20_W : List (Ref sig .tc) := [main_v36, main_v37, main_v38, main_v39]

/-- 4 operations of @main (window 0), in order. -/
abbrev it21 : List (HloOp τ sig (Elt F)) :=
  [ StableHlo.nullary main_c_15 (constantI S_ 32 0#32),
    StableHlo.unary main_c_15 main_v40 (broadcastInDim S100000 ![] bcast_S_S100000 : (⟨S_, .i32⟩ : BufTy).Contents (Elt F) → (⟨S100000, .i32⟩ : BufTy).Contents (Elt F)),
    StableHlo.binary main_v13 main_v40 main_v41 (cmpi .slt : (⟨S100000, .i32⟩ : BufTy).Contents (Elt F) → (⟨S100000, .i32⟩ : BufTy).Contents (Elt F) → (⟨S100000, .i1⟩ : BufTy).Contents (Elt F)),
    StableHlo.nullary main_c_16 (constantI S_ 32 200000#32) ]
theorem it21_sub : (it21 : List (HloOp τ sig (Elt F))).Forall fun op => op.bufs ⊆ tcRefs τ sig :=
  ⟨nullary_bufs_sub .., unary_bufs_sub .., binary_bufs_sub .., nullary_bufs_sub ..⟩
theorem it21_fresh : (it21 : List (HloOp τ sig (Elt F))).Forall fun op => op.fresh = ∅ := by
  simp only [List.Forall]; repeat' constructor
/-- The references it21 writes, in order. -/
abbrev it21_W : List (Ref sig .tc) := [main_c_15, main_v40, main_v41, main_c_16]

/-- 22 operations of @main (window 1), in order. -/
abbrev it22 : List (HloOp τ sig (Elt F)) :=
  [ StableHlo.unary main_c_16 main_v42 (broadcastInDim S100000 ![] bcast_S_S100000 : (⟨S_, .i32⟩ : BufTy).Contents (Elt F) → (⟨S100000, .i32⟩ : BufTy).Contents (Elt F)),
    StableHlo.binary main_v13 main_v42 main_v43 (addi : (⟨S100000, .i32⟩ : BufTy).Contents (Elt F) → (⟨S100000, .i32⟩ : BufTy).Contents (Elt F) → (⟨S100000, .i32⟩ : BufTy).Contents (Elt F)),
    StableHlo.ternary main_v41 main_v43 main_v13 main_v44 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v44 main_v45 (broadcastInDim S100000x1 ![0] bcast_S100000_S100000x1_0 : (⟨S100000, .i32⟩ : BufTy).Contents (Elt F) → (⟨S100000x1, .i32⟩ : BufTy).Contents (Elt F)),
    StableHlo.binary main_arg0 main_v45 main_v46 ((fun x i => Host.gather gather_S200000x2_S100000x1_S100000x2_1_0_n_n_0_1_12 x i) : (⟨S200000x2, .f32⟩ : BufTy).Contents (Elt F) → (⟨S100000x1, .i32⟩ : BufTy).Contents (Elt F) → (⟨S100000x2, .f32⟩ : BufTy).Contents (Elt F)),
    StableHlo.unary main_arg3 main_v47 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v47 main_v48 rfl shapeCasts_S1x3200000_S3200000,
    StableHlo.unary main_arg3 main_v49 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v49 main_v50 rfl shapeCasts_S1x3200000_S3200000,
    StableHlo.nullary main_c_17 (constantI S_ 32 0#32),
    StableHlo.unary main_c_17 main_v51 (broadcastInDim S3200000 ![] bcast_S_S3200000 : (⟨S_, .i32⟩ : BufTy).Contents (Elt F) → (⟨S3200000, .i32⟩ : BufTy).Contents (Elt F)),
    StableHlo.binary main_v48 main_v51 main_v52 (cmpi .slt : (⟨S3200000, .i32⟩ : BufTy).Contents (Elt F) → (⟨S3200000, .i32⟩ : BufTy).Contents (Elt F) → (⟨S3200000, .i1⟩ : BufTy).Contents (Elt F)),
    StableHlo.nullary main_c_18 (constantI S_ 32 100000#32),
    StableHlo.unary main_c_18 main_v53 (broadcastInDim S3200000 ![] bcast_S_S3200000 : (⟨S_, .i32⟩ : BufTy).Contents (Elt F) → (⟨S3200000, .i32⟩ : BufTy).Contents (Elt F)),
    StableHlo.binary main_v48 main_v53 main_v54 (addi : (⟨S3200000, .i32⟩ : BufTy).Contents (Elt F) → (⟨S3200000, .i32⟩ : BufTy).Contents (Elt F) → (⟨S3200000, .i32⟩ : BufTy).Contents (Elt F)),
    StableHlo.ternary main_v52 main_v54 main_v48 main_v55 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v55 main_v56 (broadcastInDim S3200000x1 ![0] bcast_S3200000_S3200000x1_0 : (⟨S3200000, .i32⟩ : BufTy).Contents (Elt F) → (⟨S3200000x1, .i32⟩ : BufTy).Contents (Elt F)),
    StableHlo.binary main_v46 main_v56 main_v57 ((fun x i => Host.gather gather_S100000x2_S3200000x1_S3200000x2_1_0_n_n_0_1_12 x i) : (⟨S100000x2, .f32⟩ : BufTy).Contents (Elt F) → (⟨S3200000x1, .i32⟩ : BufTy).Contents (Elt F) → (⟨S3200000x2, .f32⟩ : BufTy).Contents (Elt F)),
    StableHlo.nullary main_cst (constant S_ .f32 0x00000000#32),
    StableHlo.unary main_cst main_v58 (broadcastInDim S100000x2 ![] bcast_S_S100000x2 : (⟨S_, .f32⟩ : BufTy).Contents (Elt F) → (⟨S100000x2, .f32⟩ : BufTy).Contents (Elt F)),
    StableHlo.unary main_v50 main_v59 (broadcastInDim S3200000x1 ![0] bcast_S3200000_S3200000x1_0 : (⟨S3200000, .i32⟩ : BufTy).Contents (Elt F) → (⟨S3200000x1, .i32⟩ : BufTy).Contents (Elt F)),
    StableHlo.ternary main_v58 main_v59 main_v57 main_v60 ((fun x i u => Host.scatterAdd scatter_S100000x2_S3200000x1_S3200000x2_1_0_0_1 x i u) : (⟨S100000x2, .f32⟩ : BufTy).Contents (Elt F) → (⟨S3200000x1, .i32⟩ : BufTy).Contents (Elt F) → (⟨S3200000x2, .f32⟩ : BufTy).Contents (Elt F) → (⟨S100000x2, .f32⟩ : BufTy).Contents (Elt F)) ]
theorem it22_sub : (it22 : List (HloOp τ sig (Elt F))).Forall fun op => op.bufs ⊆ tcRefs τ sig :=
  ⟨unary_bufs_sub .., binary_bufs_sub .., ternary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩
theorem it22_fresh : (it22 : List (HloOp τ sig (Elt F))).Forall fun op => op.fresh = ∅ := by
  simp only [List.Forall]; repeat' constructor
/-- The references it22 writes, in order. -/
abbrev it22_W : List (Ref sig .tc) := [main_v42, main_v43, main_v44, main_v45, main_v46, main_v47, main_v48, main_v49, main_v50, main_c_17, main_v51, main_v52, main_c_18, main_v53, main_v54, main_v55, main_v56, main_v57, main_cst, main_v58, main_v59, main_v60]

/-- 6 operations of @main (window 1), in order. -/
abbrev it23 : List (HloOp τ sig (Elt F)) :=
  [ StableHlo.binary main_v60 main_arg4 main_v61 ((fun l r => Host.dotGeneral dot_S100000x2_S2x8_S100000x8_1_0_0_1_n_n none l r) : (⟨S100000x2, .f32⟩ : BufTy).Contents (Elt F) → (⟨S2x8, .f32⟩ : BufTy).Contents (Elt F) → (⟨S100000x8, .f32⟩ : BufTy).Contents (Elt F)),
    StableHlo.binary main_v46 main_arg5 main_v62 ((fun l r => Host.dotGeneral dot_S100000x2_S2x8_S100000x8_1_0_0_1_n_n none l r) : (⟨S100000x2, .f32⟩ : BufTy).Contents (Elt F) → (⟨S2x8, .f32⟩ : BufTy).Contents (Elt F) → (⟨S100000x8, .f32⟩ : BufTy).Contents (Elt F)),
    StableHlo.binary main_v61 main_v62 main_v63 (addf : (⟨S100000x8, .f32⟩ : BufTy).Contents (Elt F) → (⟨S100000x8, .f32⟩ : BufTy).Contents (Elt F) → (⟨S100000x8, .f32⟩ : BufTy).Contents (Elt F)),
    StableHlo.unary main_arg6 main_v64 (broadcastInDim S1x8 ![1] bcast_S8_S1x8_1 : (⟨S8, .f32⟩ : BufTy).Contents (Elt F) → (⟨S1x8, .f32⟩ : BufTy).Contents (Elt F)),
    StableHlo.unary main_v64 main_v65 (broadcastInDim S100000x8 ![0, 1] bcast_S1x8_S100000x8_0_1 : (⟨S1x8, .f32⟩ : BufTy).Contents (Elt F) → (⟨S100000x8, .f32⟩ : BufTy).Contents (Elt F)),
    StableHlo.binary main_v63 main_v65 main_v66 (addf : (⟨S100000x8, .f32⟩ : BufTy).Contents (Elt F) → (⟨S100000x8, .f32⟩ : BufTy).Contents (Elt F) → (⟨S100000x8, .f32⟩ : BufTy).Contents (Elt F)) ]
theorem it23_sub : (it23 : List (HloOp τ sig (Elt F))).Forall fun op => op.bufs ⊆ tcRefs τ sig :=
  ⟨binary_bufs_sub .., binary_bufs_sub .., binary_bufs_sub .., unary_bufs_sub .., unary_bufs_sub .., binary_bufs_sub ..⟩
theorem it23_fresh : (it23 : List (HloOp τ sig (Elt F))).Forall fun op => op.fresh = ∅ := by
  simp only [List.Forall]; repeat' constructor
/-- The references it23 writes, in order. -/
abbrev it23_W : List (Ref sig .tc) := [main_v61, main_v62, main_v63, main_v64, main_v65, main_v66]

/-- 3 operations of @main (window 1), in order. -/
abbrev it24 : List (HloOp τ sig (Elt F)) :=
  [ StableHlo.TRef.nullary (.of main_call10_cst : StableHlo.TRef sig ⟨S_, .f32⟩) (constant S_ .f32 0x00000000#32),
    StableHlo.TRef.unary (.of main_call10_cst : StableHlo.TRef sig ⟨S_, .f32⟩) (.of main_call10_v0 : StableHlo.TRef sig ⟨S100000x8, .f32⟩) (broadcastInDim S100000x8 ![] bcast_S_S100000x8),
    StableHlo.TRef.binary (.of main_v66 : StableHlo.TRef sig ⟨S100000x8, .f32⟩) (.of main_call10_v0 : StableHlo.TRef sig ⟨S100000x8, .f32⟩) (.of main_v67 : StableHlo.TRef sig ⟨S100000x8, .f32⟩) maximumf ]
theorem it24_sub : (it24 : List (HloOp τ sig (Elt F))).Forall fun op => op.bufs ⊆ tcRefs τ sig :=
  ⟨nullary_bufs_sub .., unary_bufs_sub .., binary_bufs_sub ..⟩
theorem it24_fresh : (it24 : List (HloOp τ sig (Elt F))).Forall fun op => op.fresh = ∅ := by
  simp only [List.Forall]; repeat' constructor
/-- The references it24 writes, in order. -/
abbrev it24_W : List (Ref sig .tc) := [main_call10_cst, main_call10_v0, main_v67]

/-- 17 operations of @main (window 1), in order. -/
abbrev it25 : List (HloOp τ sig (Elt F)) :=
  [ StableHlo.unary main_arg3 main_v68 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v68 main_v69 rfl shapeCasts_S1x3200000_S3200000,
    StableHlo.unary main_arg3 main_v70 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v70 main_v71 rfl shapeCasts_S1x3200000_S3200000,
    StableHlo.nullary main_c_19 (constantI S_ 32 0#32),
    StableHlo.unary main_c_19 main_v72 (broadcastInDim S3200000 ![] bcast_S_S3200000 : (⟨S_, .i32⟩ : BufTy).Contents (Elt F) → (⟨S3200000, .i32⟩ : BufTy).Contents (Elt F)),
    StableHlo.binary main_v69 main_v72 main_v73 (cmpi .slt : (⟨S3200000, .i32⟩ : BufTy).Contents (Elt F) → (⟨S3200000, .i32⟩ : BufTy).Contents (Elt F) → (⟨S3200000, .i1⟩ : BufTy).Contents (Elt F)),
    StableHlo.nullary main_c_20 (constantI S_ 32 100000#32),
    StableHlo.unary main_c_20 main_v74 (broadcastInDim S3200000 ![] bcast_S_S3200000 : (⟨S_, .i32⟩ : BufTy).Contents (Elt F) → (⟨S3200000, .i32⟩ : BufTy).Contents (Elt F)),
    StableHlo.binary main_v69 main_v74 main_v75 (addi : (⟨S3200000, .i32⟩ : BufTy).Contents (Elt F) → (⟨S3200000, .i32⟩ : BufTy).Contents (Elt F) → (⟨S3200000, .i32⟩ : BufTy).Contents (Elt F)),
    StableHlo.ternary main_v73 main_v75 main_v69 main_v76 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v76 main_v77 (broadcastInDim S3200000x1 ![0] bcast_S3200000_S3200000x1_0 : (⟨S3200000, .i32⟩ : BufTy).Contents (Elt F) → (⟨S3200000x1, .i32⟩ : BufTy).Contents (Elt F)),
    StableHlo.binary main_v67 main_v77 main_v78 ((fun x i => Host.gather gather_S100000x8_S3200000x1_S3200000x8_1_0_n_n_0_1_18 x i) : (⟨S100000x8, .f32⟩ : BufTy).Contents (Elt F) → (⟨S3200000x1, .i32⟩ : BufTy).Contents (Elt F) → (⟨S3200000x8, .f32⟩ : BufTy).Contents (Elt F)),
    StableHlo.nullary main_cst_21 (constant S_ .f32 0x00000000#32),
    StableHlo.unary main_cst_21 main_v79 (broadcastInDim S100000x8 ![] bcast_S_S100000x8 : (⟨S_, .f32⟩ : BufTy).Contents (Elt F) → (⟨S100000x8, .f32⟩ : BufTy).Contents (Elt F)),
    StableHlo.unary main_v71 main_v80 (broadcastInDim S3200000x1 ![0] bcast_S3200000_S3200000x1_0 : (⟨S3200000, .i32⟩ : BufTy).Contents (Elt F) → (⟨S3200000x1, .i32⟩ : BufTy).Contents (Elt F)),
    StableHlo.ternary main_v79 main_v80 main_v78 main_v81 ((fun x i u => Host.scatterAdd scatter_S100000x8_S3200000x1_S3200000x8_1_0_0_1 x i u) : (⟨S100000x8, .f32⟩ : BufTy).Contents (Elt F) → (⟨S3200000x1, .i32⟩ : BufTy).Contents (Elt F) → (⟨S3200000x8, .f32⟩ : BufTy).Contents (Elt F) → (⟨S100000x8, .f32⟩ : BufTy).Contents (Elt F)) ]
theorem it25_sub : (it25 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩
theorem it25_fresh : (it25 : List (HloOp τ sig (Elt F))).Forall fun op => op.fresh = ∅ := by
  simp only [List.Forall]; repeat' constructor
/-- The references it25 writes, in order. -/
abbrev it25_W : List (Ref sig .tc) := [main_v68, main_v69, main_v70, main_v71, main_c_19, main_v72, main_v73, main_c_20, main_v74, main_v75, main_v76, main_v77, main_v78, main_cst_21, main_v79, main_v80, main_v81]

/-- 6 operations of @main (window 1), in order. -/
abbrev it26 : List (HloOp τ sig (Elt F)) :=
  [ StableHlo.binary main_v81 main_arg7 main_v82 ((fun l r => Host.dotGeneral dot_S100000x8_S8x16_S100000x16_1_0_0_1_n_n none l r) : (⟨S100000x8, .f32⟩ : BufTy).Contents (Elt F) → (⟨S8x16, .f32⟩ : BufTy).Contents (Elt F) → (⟨S100000x16, .f32⟩ : BufTy).Contents (Elt F)),
    StableHlo.binary main_v67 main_arg8 main_v83 ((fun l r => Host.dotGeneral dot_S100000x8_S8x16_S100000x16_1_0_0_1_n_n none l r) : (⟨S100000x8, .f32⟩ : BufTy).Contents (Elt F) → (⟨S8x16, .f32⟩ : BufTy).Contents (Elt F) → (⟨S100000x16, .f32⟩ : BufTy).Contents (Elt F)),
    StableHlo.binary main_v82 main_v83 main_v84 (addf : (⟨S100000x16, .f32⟩ : BufTy).Contents (Elt F) → (⟨S100000x16, .f32⟩ : BufTy).Contents (Elt F) → (⟨S100000x16, .f32⟩ : BufTy).Contents (Elt F)),
    StableHlo.unary main_arg9 main_v85 (broadcastInDim S1x16 ![1] bcast_S16_S1x16_1 : (⟨S16, .f32⟩ : BufTy).Contents (Elt F) → (⟨S1x16, .f32⟩ : BufTy).Contents (Elt F)),
    StableHlo.unary main_v85 main_v86 (broadcastInDim S100000x16 ![0, 1] bcast_S1x16_S100000x16_0_1 : (⟨S1x16, .f32⟩ : BufTy).Contents (Elt F) → (⟨S100000x16, .f32⟩ : BufTy).Contents (Elt F)),
    StableHlo.binary main_v84 main_v86 main_v87 (addf : (⟨S100000x16, .f32⟩ : BufTy).Contents (Elt F) → (⟨S100000x16, .f32⟩ : BufTy).Contents (Elt F) → (⟨S100000x16, .f32⟩ : BufTy).Contents (Elt F)) ]
theorem it26_sub : (it26 : List (HloOp τ sig (Elt F))).Forall fun op => op.bufs ⊆ tcRefs τ sig :=
  ⟨binary_bufs_sub .., binary_bufs_sub .., binary_bufs_sub .., unary_bufs_sub .., unary_bufs_sub .., binary_bufs_sub ..⟩
theorem it26_fresh : (it26 : List (HloOp τ sig (Elt F))).Forall fun op => op.fresh = ∅ := by
  simp only [List.Forall]; repeat' constructor
/-- The references it26 writes, in order. -/
abbrev it26_W : List (Ref sig .tc) := [main_v82, main_v83, main_v84, main_v85, main_v86, main_v87]

/-- 3 operations of @main (window 1), in order. -/
abbrev it27 : List (HloOp τ sig (Elt F)) :=
  [ StableHlo.TRef.nullary (.of main_call11_cst : StableHlo.TRef sig ⟨S_, .f32⟩) (constant S_ .f32 0x00000000#32),
    StableHlo.TRef.unary (.of main_call11_cst : StableHlo.TRef sig ⟨S_, .f32⟩) (.of main_call11_v0 : StableHlo.TRef sig ⟨S100000x16, .f32⟩) (broadcastInDim S100000x16 ![] bcast_S_S100000x16),
    StableHlo.TRef.binary (.of main_v87 : StableHlo.TRef sig ⟨S100000x16, .f32⟩) (.of main_call11_v0 : StableHlo.TRef sig ⟨S100000x16, .f32⟩) (.of main_v88 : StableHlo.TRef sig ⟨S100000x16, .f32⟩) maximumf ]
theorem it27_sub : (it27 : List (HloOp τ sig (Elt F))).Forall fun op => op.bufs ⊆ tcRefs τ sig :=
  ⟨nullary_bufs_sub .., unary_bufs_sub .., binary_bufs_sub ..⟩
theorem it27_fresh : (it27 : List (HloOp τ sig (Elt F))).Forall fun op => op.fresh = ∅ := by
  simp only [List.Forall]; repeat' constructor
/-- The references it27 writes, in order. -/
abbrev it27_W : List (Ref sig .tc) := [main_call11_cst, main_call11_v0, main_v88]

/-- 7 operations of @main (window 1), in order. -/
abbrev it28 : List (HloOp τ sig (Elt F)) :=
  [ StableHlo.unary main_arg2 main_v89 ((extractStridedSlice S1000000x1 ![0, 0] · slices_S1000000x2_S1000000x1_0_0) : (⟨S1000000x2, .i32⟩ : BufTy).Contents (Elt F) → (⟨S1000000x1, .i32⟩ : BufTy).Contents (Elt F)),
    StableHlo.reshape main_v89 main_v90 rfl shapeCasts_S1000000x1_S1000000,
    StableHlo.nullary main_c_22 (constantI S_ 32 0#32),
    StableHlo.unary main_c_22 main_v91 (broadcastInDim S1000000 ![] bcast_S_S1000000 : (⟨S_, .i32⟩ : BufTy).Contents (Elt F) → (⟨S1000000, .i32⟩ : BufTy).Contents (Elt F)),
    StableHlo.binary main_v90 main_v91 main_v92 (cmpi .slt : (⟨S1000000, .i32⟩ : BufTy).Contents (Elt F) → (⟨S1000000, .i32⟩ : BufTy).Contents (Elt F) → (⟨S1000000, .i1⟩ : BufTy).Contents (Elt F)),
    StableHlo.nullary main_c_23 (constantI S_ 32 100000#32),
    StableHlo.unary main_c_23 main_v93 (broadcastInDim S1000000 ![] bcast_S_S1000000 : (⟨S_, .i32⟩ : BufTy).Contents (Elt F) → (⟨S1000000, .i32⟩ : BufTy).Contents (Elt F)) ]
theorem it28_sub : (it28 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub ..⟩
theorem it28_fresh : (it28 : List (HloOp τ sig (Elt F))).Forall fun op => op.fresh = ∅ := by
  simp only [List.Forall]; repeat' constructor
/-- The references it28 writes, in order. -/
abbrev it28_W : List (Ref sig .tc) := [main_v89, main_v90, main_c_22, main_v91, main_v92, main_c_23, main_v93]

/-- 20 operations of @main (window 2), in order. -/
abbrev it29 : List (HloOp τ sig (Elt F)) :=
  [ StableHlo.binary main_v90 main_v93 main_v94 (addi : (⟨S1000000, .i32⟩ : BufTy).Contents (Elt F) → (⟨S1000000, .i32⟩ : BufTy).Contents (Elt F) → (⟨S1000000, .i32⟩ : BufTy).Contents (Elt F)),
    StableHlo.ternary main_v92 main_v94 main_v90 main_v95 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v95 main_v96 (broadcastInDim S1000000x1 ![0] bcast_S1000000_S1000000x1_0 : (⟨S1000000, .i32⟩ : BufTy).Contents (Elt F) → (⟨S1000000x1, .i32⟩ : BufTy).Contents (Elt F)),
    StableHlo.binary main_v88 main_v96 main_v97 ((fun x i => Host.gather gather_S100000x16_S1000000x1_S1000000x16_1_0_n_n_0_1_116 x i) : (⟨S100000x16, .f32⟩ : BufTy).Contents (Elt F) → (⟨S1000000x1, .i32⟩ : BufTy).Contents (Elt F) → (⟨S1000000x16, .f32⟩ : BufTy).Contents (Elt F)),
    StableHlo.unary main_arg2 main_v98 ((extractStridedSlice S1000000x1 ![0, 1] · slices_S1000000x2_S1000000x1_0_1) : (⟨S1000000x2, .i32⟩ : BufTy).Contents (Elt F) → (⟨S1000000x1, .i32⟩ : BufTy).Contents (Elt F)),
    StableHlo.reshape main_v98 main_v99 rfl shapeCasts_S1000000x1_S1000000,
    StableHlo.nullary main_c_24 (constantI S_ 32 0#32),
    StableHlo.unary main_c_24 main_v100 (broadcastInDim S1000000 ![] bcast_S_S1000000 : (⟨S_, .i32⟩ : BufTy).Contents (Elt F) → (⟨S1000000, .i32⟩ : BufTy).Contents (Elt F)),
    StableHlo.binary main_v99 main_v100 main_v101 (cmpi .slt : (⟨S1000000, .i32⟩ : BufTy).Contents (Elt F) → (⟨S1000000, .i32⟩ : BufTy).Contents (Elt F) → (⟨S1000000, .i1⟩ : BufTy).Contents (Elt F)),
    StableHlo.nullary main_c_25 (constantI S_ 32 100000#32),
    StableHlo.unary main_c_25 main_v102 (broadcastInDim S1000000 ![] bcast_S_S1000000 : (⟨S_, .i32⟩ : BufTy).Contents (Elt F) → (⟨S1000000, .i32⟩ : BufTy).Contents (Elt F)),
    StableHlo.binary main_v99 main_v102 main_v103 (addi : (⟨S1000000, .i32⟩ : BufTy).Contents (Elt F) → (⟨S1000000, .i32⟩ : BufTy).Contents (Elt F) → (⟨S1000000, .i32⟩ : BufTy).Contents (Elt F)),
    StableHlo.ternary main_v101 main_v103 main_v99 main_v104 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v104 main_v105 (broadcastInDim S1000000x1 ![0] bcast_S1000000_S1000000x1_0 : (⟨S1000000, .i32⟩ : BufTy).Contents (Elt F) → (⟨S1000000x1, .i32⟩ : BufTy).Contents (Elt F)),
    StableHlo.binary main_v39 main_v105 main_v106 ((fun x i => Host.gather gather_S100000x16_S1000000x1_S1000000x16_1_0_n_n_0_1_116 x i) : (⟨S100000x16, .f32⟩ : BufTy).Contents (Elt F) → (⟨S1000000x1, .i32⟩ : BufTy).Contents (Elt F) → (⟨S1000000x16, .f32⟩ : BufTy).Contents (Elt F)),
    StableHlo.binary main_v97 main_v106 main_v107 ((fun a b => concatenate S1000000x32 1 [⟨S1000000x16, a⟩, ⟨S1000000x16, b⟩] concatenates_S1000000x16_S1000000x16_S1000000x32_d1) : (⟨S1000000x16, .f32⟩ : BufTy).Contents (Elt F) → (⟨S1000000x16, .f32⟩ : BufTy).Contents (Elt F) → (⟨S1000000x32, .f32⟩ : BufTy).Contents (Elt F)),
    StableHlo.binary main_v107 main_arg12 main_v108 ((fun l r => Host.dotGeneral dot_S1000000x32_S32x64_S1000000x64_1_0_0_1_n_n none l r) : (⟨S1000000x32, .f32⟩ : BufTy).Contents (Elt F) → (⟨S32x64, .f32⟩ : BufTy).Contents (Elt F) → (⟨S1000000x64, .f32⟩ : BufTy).Contents (Elt F)),
    StableHlo.unary main_arg13 main_v109 (broadcastInDim S1x64 ![1] bcast_S64_S1x64_1 : (⟨S64, .f32⟩ : BufTy).Contents (Elt F) → (⟨S1x64, .f32⟩ : BufTy).Contents (Elt F)),
    StableHlo.unary main_v109 main_v110 (broadcastInDim S1000000x64 ![0, 1] bcast_S1x64_S1000000x64_0_1 : (⟨S1x64, .f32⟩ : BufTy).Contents (Elt F) → (⟨S1000000x64, .f32⟩ : BufTy).Contents (Elt F)),
    StableHlo.binary main_v108 main_v110 main_v111 (addf : (⟨S1000000x64, .f32⟩ : BufTy).Contents (Elt F) → (⟨S1000000x64, .f32⟩ : BufTy).Contents (Elt F) → (⟨S1000000x64, .f32⟩ : BufTy).Contents (Elt F)) ]
theorem it29_sub : (it29 : List (HloOp τ sig (Elt F))).Forall fun op => op.bufs ⊆ tcRefs τ sig :=
  ⟨binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub ..⟩
theorem it29_fresh : (it29 : List (HloOp τ sig (Elt F))).Forall fun op => op.fresh = ∅ := by
  simp only [List.Forall]; repeat' constructor
/-- The references it29 writes, in order. -/
abbrev it29_W : List (Ref sig .tc) := [main_v94, main_v95, main_v96, main_v97, main_v98, main_v99, main_c_24, main_v100, main_v101, main_c_25, main_v102, main_v103, main_v104, main_v105, main_v106, main_v107, main_v108, main_v109, main_v110, main_v111]

/-- 3 operations of @main (window 2), in order. -/
abbrev it30 : List (HloOp τ sig (Elt F)) :=
  [ StableHlo.TRef.nullary (.of main_call12_cst : StableHlo.TRef sig ⟨S_, .f32⟩) (constant S_ .f32 0x00000000#32),
    StableHlo.TRef.unary (.of main_call12_cst : StableHlo.TRef sig ⟨S_, .f32⟩) (.of main_call12_v0 : StableHlo.TRef sig ⟨S1000000x64, .f32⟩) (broadcastInDim S1000000x64 ![] bcast_S_S1000000x64),
    StableHlo.TRef.binary (.of main_v111 : StableHlo.TRef sig ⟨S1000000x64, .f32⟩) (.of main_call12_v0 : StableHlo.TRef sig ⟨S1000000x64, .f32⟩) (.of main_v112 : StableHlo.TRef sig ⟨S1000000x64, .f32⟩) maximumf ]
theorem it30_sub : (it30 : List (HloOp τ sig (Elt F))).Forall fun op => op.bufs ⊆ tcRefs τ sig :=
  ⟨nullary_bufs_sub .., unary_bufs_sub .., binary_bufs_sub ..⟩
theorem it30_fresh : (it30 : List (HloOp τ sig (Elt F))).Forall fun op => op.fresh = ∅ := by
  simp only [List.Forall]; repeat' constructor
/-- The references it30 writes, in order. -/
abbrev it30_W : List (Ref sig .tc) := [main_call12_cst, main_call12_v0, main_v112]

/-- 5 operations of @main (window 2), in order. -/
abbrev it31 : List (HloOp τ sig (Elt F)) :=
  [ StableHlo.binary main_v112 main_arg14 main_v113 ((fun l r => Host.dotGeneral dot_S1000000x64_S64x1_S1000000x1_1_0_0_1_n_n none l r) : (⟨S1000000x64, .f32⟩ : BufTy).Contents (Elt F) → (⟨S64x1, .f32⟩ : BufTy).Contents (Elt F) → (⟨S1000000x1, .f32⟩ : BufTy).Contents (Elt F)),
    StableHlo.unary main_arg15 main_v114 (broadcastInDim S1x1 ![1] bcast_S1_S1x1_1 : (⟨S1, .f32⟩ : BufTy).Contents (Elt F) → (⟨S1x1, .f32⟩ : BufTy).Contents (Elt F)),
    StableHlo.unary main_v114 main_v115 (broadcastInDim S1000000x1 ![0, 1] bcast_S1x1_S1000000x1_0_1 : (⟨S1x1, .f32⟩ : BufTy).Contents (Elt F) → (⟨S1000000x1, .f32⟩ : BufTy).Contents (Elt F)),
    StableHlo.binary main_v113 main_v115 main_v116 (addf : (⟨S1000000x1, .f32⟩ : BufTy).Contents (Elt F) → (⟨S1000000x1, .f32⟩ : BufTy).Contents (Elt F) → (⟨S1000000x1, .f32⟩ : BufTy).Contents (Elt F)),
    StableHlo.reshape main_v116 main_v117 rfl shapeCasts_S1000000x1_S1000000 ]
theorem it31_sub : (it31 : List (HloOp τ sig (Elt F))).Forall fun op => op.bufs ⊆ tcRefs τ sig :=
  ⟨binary_bufs_sub .., unary_bufs_sub .., unary_bufs_sub .., binary_bufs_sub .., reshape_bufs_sub ..⟩
theorem it31_fresh : (it31 : List (HloOp τ sig (Elt F))).Forall fun op => op.fresh = ∅ := by
  simp only [List.Forall]; repeat' constructor
/-- The references it31 writes, in order. -/
abbrev it31_W : List (Ref sig .tc) := [main_v113, main_v114, main_v115, main_v116, main_v117]

theorem main_part0_chain (c : Dev nD) : main_part0 (F := F) c = (Pipeline.chainK
  [ seq it0,
    seq it1,
    seq it2,
    seq it3,
    seq it4,
    seq it5,
    seq it6,
    seq it7,
    seq it8,
    seq it9,
    seq it10,
    seq it11,
    seq it12,
    seq it13,
    seq it14,
    seq it15,
    seq it16,
    seq it17,
    seq it18,
    seq it19,
    seq it20 ]
  (seq it21) : Prog (TpuEff nD τ sig (Elt F) (Pipeline.Sig Λ₀ (Fin 0) fun p => (pcfgs (F := F) p).Adm) .tc) PUnit) := by
  chain_rfl

theorem main_part1_chain (c : Dev nD) : main_part1 (F := F) c = (Pipeline.chainK
  [ seq it22,
    seq it23,
    seq it24,
    seq it25,
    seq it26,
    seq it27 ]
  (seq it28) : Prog (TpuEff nD τ sig (Elt F) (Pipeline.Sig Λ₀ (Fin 0) fun p => (pcfgs (F := F) p).Adm) .tc) PUnit) := by
  chain_rfl

theorem main_part2_chain (c : Dev nD) : main_part2 (F := F) c = (Pipeline.chain
  [ seq it29,
    seq it30,
    seq it31 ] : Prog (TpuEff nD τ sig (Elt F) (Pipeline.Sig Λ₀ (Fin 0) fun p => (pcfgs (F := F) p).Adm) .tc) PUnit) := by
  chain_rfl

/-- @main is the chain of its items. -/
theorem main_chain (c : Dev nD) : main (F := F) c = (Pipeline.chain
  [ seq it0,
    seq it1,
    seq it2,
    seq it3,
    seq it4,
    seq it5,
    seq it6,
    seq it7,
    seq it8,
    seq it9,
    seq it10,
    seq it11,
    seq it12,
    seq it13,
    seq it14,
    seq it15,
    seq it16,
    seq it17,
    seq it18,
    seq it19,
    seq it20,
    seq it21,
    seq it22,
    seq it23,
    seq it24,
    seq it25,
    seq it26,
    seq it27,
    seq it28,
    seq it29,
    seq it30,
    seq it31 ] : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c) = _
  rewrite [main_part2_chain, main_part1_chain, Pipeline.chainK_bind_chain, main_part0_chain, Pipeline.chainK_bind_chain]
  chain_rfl

/-- Segment 1 of @main: items 0 … 19. -/
abbrev seg1 : List (HloOp τ sig (Elt F)) := List.flatten [it0, it1, it2, it3, it4, it5, it6, it7, it8, it9, it10, it11, it12, it13, it14, it15, it16, it17, it18, it19]
/-- The references segment 1 writes. -/
abbrev seg1_W : List (Ref sig .tc) := List.flatten [it0_W, it1_W, it2_W, it3_W, it4_W, it5_W, it6_W, it7_W, it8_W, it9_W, it10_W, it11_W, it12_W, it13_W, it14_W, it15_W, it16_W, it17_W, it18_W, it19_W]

/-- Segment 2 of @main: items 20 … 20. -/
abbrev seg2 : List (HloOp τ sig (Elt F)) := List.flatten [it20]
/-- The references segment 2 writes. -/
abbrev seg2_W : List (Ref sig .tc) := List.flatten [it20_W]

/-- Segment 3 of @main: items 21 … 22. -/
abbrev seg3 : List (HloOp τ sig (Elt F)) := List.flatten [it21, it22]
/-- The references segment 3 writes. -/
abbrev seg3_W : List (Ref sig .tc) := List.flatten [it21_W, it22_W]

/-- Segment 4 of @main: items 23 … 24. -/
abbrev seg4 : List (HloOp τ sig (Elt F)) := List.flatten [it23, it24]
/-- The references segment 4 writes. -/
abbrev seg4_W : List (Ref sig .tc) := List.flatten [it23_W, it24_W]

/-- Segment 5 of @main: items 25 … 25. -/
abbrev seg5 : List (HloOp τ sig (Elt F)) := List.flatten [it25]
/-- The references segment 5 writes. -/
abbrev seg5_W : List (Ref sig .tc) := List.flatten [it25_W]

/-- Segment 6 of @main: items 26 … 27. -/
abbrev seg6 : List (HloOp τ sig (Elt F)) := List.flatten [it26, it27]
/-- The references segment 6 writes. -/
abbrev seg6_W : List (Ref sig .tc) := List.flatten [it26_W, it27_W]

/-- Segment 7 of @main: items 28 … 31. -/
abbrev seg7 : List (HloOp τ sig (Elt F)) := List.flatten [it28, it29, it30, it31]
/-- The references segment 7 writes. -/
abbrev seg7_W : List (Ref sig .tc) := List.flatten [it28_W, it29_W, it30_W, it31_W]

/-- Every operation of @main, in order. -/
abbrev rall : List (HloOp τ sig (Elt F)) := List.flatten [it0, it1, it2, it3, it4, it5, it6, it7, it8, it9, it10, it11, it12, it13, it14, it15, it16, it17, it18, it19, it20, it21, it22, it23, it24, it25, it26, it27, it28, it29, it30, it31]

theorem forall_flatten {α : Type} {p : α → Prop} (ls : List (List α)) (h : ∀ l ∈ ls, l.Forall p) : ls.flatten.Forall p := by
  rw [List.forall_iff_forall_mem]; intro x hx
  obtain ⟨l, hl, hxl⟩ := List.mem_flatten.mp hx
  exact (List.forall_iff_forall_mem.mp (h l hl)) x hxl

theorem rall_sub : (rall : List (HloOp τ sig (Elt F))).Forall fun op => op.bufs ⊆ tcRefs τ sig :=
  forall_flatten _ (by
    intro l hl
    simp only [List.mem_cons, List.not_mem_nil, or_false] at hl
    rcases hl with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    · exact it0_sub
    · exact it1_sub
    · exact it2_sub
    · exact it3_sub
    · exact it4_sub
    · exact it5_sub
    · exact it6_sub
    · exact it7_sub
    · exact it8_sub
    · exact it9_sub
    · exact it10_sub
    · exact it11_sub
    · exact it12_sub
    · exact it13_sub
    · exact it14_sub
    · exact it15_sub
    · exact it16_sub
    · exact it17_sub
    · exact it18_sub
    · exact it19_sub
    · exact it20_sub
    · exact it21_sub
    · exact it22_sub
    · exact it23_sub
    · exact it24_sub
    · exact it25_sub
    · exact it26_sub
    · exact it27_sub
    · exact it28_sub
    · exact it29_sub
    · exact it30_sub
    · exact it31_sub)

theorem rall_fresh : (rall : List (HloOp τ sig (Elt F))).Forall fun op => op.fresh = ∅ :=
  forall_flatten _ (by
    intro l hl
    simp only [List.mem_cons, List.not_mem_nil, or_false] at hl
    rcases hl with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    · exact it0_fresh
    · exact it1_fresh
    · exact it2_fresh
    · exact it3_fresh
    · exact it4_fresh
    · exact it5_fresh
    · exact it6_fresh
    · exact it7_fresh
    · exact it8_fresh
    · exact it9_fresh
    · exact it10_fresh
    · exact it11_fresh
    · exact it12_fresh
    · exact it13_fresh
    · exact it14_fresh
    · exact it15_fresh
    · exact it16_fresh
    · exact it17_fresh
    · exact it18_fresh
    · exact it19_fresh
    · exact it20_fresh
    · exact it21_fresh
    · exact it22_fresh
    · exact it23_fresh
    · exact it24_fresh
    · exact it25_fresh
    · exact it26_fresh
    · exact it27_fresh
    · exact it28_fresh
    · exact it29_fresh
    · exact it30_fresh
    · exact it31_fresh)

/-- A chain of straight lines is the straight line of their concatenation. -/
theorem chain_seq_flatten (ls : List (List (HloOp τ sig (Elt F)))) :
    (Pipeline.chain (ls.map fun l => (seq l : Prog (TpuEff nD τ sig (Elt F) (Pipeline.Sig Λ₀ (Fin 0) fun p => (pcfgs (F := F) p).Adm) .tc) PUnit)) : Prog (TpuEff nD τ sig (Elt F) (Pipeline.Sig Λ₀ (Fin 0) fun p => (pcfgs (F := F) p).Adm) .tc) PUnit) = seq ls.flatten := by
  induction ls with
  | nil => rfl
  | cons l ls ih => simp only [List.map_cons, Pipeline.chain_cons, List.flatten_cons, seq_append, ih]

theorem main_eq (c : Dev nD) : main (F := F) c = seq rall :=
  (main_chain c).trans (chain_seq_flatten [it0, it1, it2, it3, it4, it5, it6, it7, it8, it9, it10, it11, it12, it13, it14, it15, it16, it17, it18, it19, it20, it21, it22, it23, it24, it25, it26, it27, it28, it29, it30, it31])

theorem after_append (l₁ l₂ : List (HloOp τ sig (Elt F))) (V : Valuation τ sig (Elt F)) : after (l₁ ++ l₂) V = after l₂ (after l₁ V) := by
  induction l₁ generalizing V with
  | nil => rfl
  | cons op l ih => simp only [List.cons_append, after_cons, ih]

theorem rall_segs : (rall : List (HloOp τ sig (Elt F))) = seg1 ++ (seg2 ++ (seg3 ++ (seg4 ++ (seg5 ++ (seg6 ++ (seg7)))))) := by
  chain_rfl

/-- The buffer contents after each segment, from given contents. -/
abbrev RW1 (V : Valuation τ sig (Elt F)) : Valuation τ sig (Elt F) := after seg1 (V)
abbrev RW2 (V : Valuation τ sig (Elt F)) : Valuation τ sig (Elt F) := after seg2 (RW1 V)
abbrev RW3 (V : Valuation τ sig (Elt F)) : Valuation τ sig (Elt F) := after seg3 (RW2 V)
abbrev RW4 (V : Valuation τ sig (Elt F)) : Valuation τ sig (Elt F) := after seg4 (RW3 V)
abbrev RW5 (V : Valuation τ sig (Elt F)) : Valuation τ sig (Elt F) := after seg5 (RW4 V)
abbrev RW6 (V : Valuation τ sig (Elt F)) : Valuation τ sig (Elt F) := after seg6 (RW5 V)
abbrev RW7 (V : Valuation τ sig (Elt F)) : Valuation τ sig (Elt F) := after seg7 (RW6 V)

theorem after_rall (V : Valuation τ sig (Elt F)) : after rall V = RW7 V := by
  rw [rall_segs]; simp only [after_append]

theorem scopedRefs_eq : (Finset.univ.filter fun b : Ref sig .tc => b.isScoped) = ∅ := by decide
theorem scopedSems_eq : (Finset.univ.filter fun sm : SemLoc sig => sm.isScoped .tc) = ∅ := by decide

/-- On every device, from any memory with zero counters: every weakly fair execution of @main terminates with each
    buffer at the fold of @main's operations, segment by segment, over its launch contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = RW7 (launchContents m c) (Proc.devRef .tc b) :=
  (θ_run defs _ _).mono (fun _ h c b => (h c b).trans (congrFun (after_rall _) _))
    (run_seq scopedRefs_eq scopedSems_eq defs main (fun _ => rall) main_eq (fun _ => rall_sub) m ρ
      (fun _ => List.forall_iff_forall_mem.mp rall_fresh))

end Cert.ReferenceIdeal.Hand

end
-- ==== Proof.Iface.lean ====
import proofs.«402058_j52493090292432_1_alg».proof.Proof.Gen.KernelIdeal.Frame
import proofs.«402058_j52493090292432_1_alg».proof.Proof.RefOps
import Idealize.ShloMosaic.Lib.ValueIdx

/-! The values the two programs are compared at. The kernel's program runs four regions among stretches of host
    operations; the reference is one straight line, cut here into seven segments. Both compute, from the same arguments:
    the rows of `x` the mask selects (`xg`) and those it does not (`xu`); a linear layer of `xu` (`xunc`); two rounds of
    "sum the sources' rows into their targets, then a linear layer of the sum and of the row itself, then max with 0"
    (`agg1`, `h1`, `agg2`, `h2`); and a two-layer perceptron of the rows of `h2` and `xunc` a candidate pair names (`out`).
    The kernel keeps `xunc`, `h1`, `h2` feature-major (transposed). This module names each of those arrays on both sides,
    as the boundary valuation's contents of the buffer that holds it. -/

noncomputable section

namespace Cert.Bridge

open Idealize.ShloMosaic Idealize.ShloMosaic.TcCoe Idealize.SL.Sem Idealize.ShloMosaic.StableHlo

/-- A rank-2 and a rank-1 shape, literally. -/
abbrev Sh2 (a b : Nat) : Shape := ⟨2, ![a, b]⟩
abbrev Sh1 (a : Nat) : Shape := ⟨1, ![a]⟩

abbrev KMem := (ℓ : Loc Cert.KernelIdeal.nD Cert.KernelIdeal.τ Cert.KernelIdeal.sig) → Buf (Elt Ideal) ℓ
abbrev RMem := (ℓ : Loc Cert.ReferenceIdeal.nD Cert.ReferenceIdeal.τ Cert.ReferenceIdeal.sig) → Buf (Elt Ideal) ℓ

variable (m : KMem) (ρ : Dev Cert.KernelIdeal.nD → PrngReg) (m' : RMem) (c : Dev Cert.KernelIdeal.nD)

/-- The reference's launch contents on core `c`. -/
abbrev RV : Valuation Cert.ReferenceIdeal.τ Cert.ReferenceIdeal.sig (Elt Ideal) := launchContents m' c

/-! ## The kernel's program: each array at the boundary where it is complete -/

/-- rows of `x` outside the mask, at region 0's entry -/
abbrev kXu : Vec Ideal (Sh2 100000 2) .f32 := Cert.KernelIdeal.Gen.W20 (F := Ideal) m ρ c (Proc.devRef .tc Cert.KernelIdeal.main_v42)
/-- rows of `x` inside the mask, at region 0's entry -/
abbrev kXg : Vec Ideal (Sh2 100000 2) .f32 := Cert.KernelIdeal.Gen.W20 (F := Ideal) m ρ c (Proc.devRef .tc Cert.KernelIdeal.main_v35)
/-- region 0's output (feature-major), at its exit -/
abbrev kXuncT : Vec Ideal (Sh2 16 100000) .f32 := Cert.KernelIdeal.Gen.W21 (F := Ideal) m ρ c (Proc.devRef .tc Cert.KernelIdeal.main_v47)
/-- the first segment sum, at region 1's entry -/
abbrev kAgg1 : Vec Ideal (Sh2 100000 2) .f32 := Cert.KernelIdeal.Gen.W22 (F := Ideal) m ρ c (Proc.devRef .tc Cert.KernelIdeal.main_v61)
/-- region 1's output (feature-major), at its exit -/
abbrev kH1T : Vec Ideal (Sh2 8 100000) .f32 := Cert.KernelIdeal.Gen.W23 (F := Ideal) m ρ c (Proc.devRef .tc Cert.KernelIdeal.main_v66)
/-- the second segment sum, at region 2's entry -/
abbrev kAgg2 : Vec Ideal (Sh2 100000 8) .f32 := Cert.KernelIdeal.Gen.W24 (F := Ideal) m ρ c (Proc.devRef .tc Cert.KernelIdeal.main_v77)
/-- region 2's output (feature-major), at its exit -/
abbrev kH2T : Vec Ideal (Sh2 16 100000) .f32 := Cert.KernelIdeal.Gen.W25 (F := Ideal) m ρ c (Proc.devRef .tc Cert.KernelIdeal.main_v82)
/-- the result, after the last host stretch -/
abbrev kOut : Vec Ideal (Sh1 1000000) .f32 := Cert.KernelIdeal.Gen.W36 (F := Ideal) m ρ c (Proc.devRef .tc Cert.KernelIdeal.main_v97)

/-! ## The reference: each array after the segment that computes it -/

abbrev rXu : Vec Ideal (Sh2 100000 2) .f32 := Cert.ReferenceIdeal.Hand.RW1 (RV m' c) (Proc.devRef .tc Cert.ReferenceIdeal.main_v35)
abbrev rXunc : Vec Ideal (Sh2 100000 16) .f32 := Cert.ReferenceIdeal.Hand.RW2 (RV m' c) (Proc.devRef .tc Cert.ReferenceIdeal.main_v39)
abbrev rXg : Vec Ideal (Sh2 100000 2) .f32 := Cert.ReferenceIdeal.Hand.RW3 (RV m' c) (Proc.devRef .tc Cert.ReferenceIdeal.main_v46)
abbrev rAgg1 : Vec Ideal (Sh2 100000 2) .f32 := Cert.ReferenceIdeal.Hand.RW3 (RV m' c) (Proc.devRef .tc Cert.ReferenceIdeal.main_v60)
abbrev rH1 : Vec Ideal (Sh2 100000 8) .f32 := Cert.ReferenceIdeal.Hand.RW4 (RV m' c) (Proc.devRef .tc Cert.ReferenceIdeal.main_v67)
abbrev rAgg2 : Vec Ideal (Sh2 100000 8) .f32 := Cert.ReferenceIdeal.Hand.RW5 (RV m' c) (Proc.devRef .tc Cert.ReferenceIdeal.main_v81)
abbrev rH2 : Vec Ideal (Sh2 100000 16) .f32 := Cert.ReferenceIdeal.Hand.RW6 (RV m' c) (Proc.devRef .tc Cert.ReferenceIdeal.main_v88)
abbrev rOut : Vec Ideal (Sh1 1000000) .f32 := Cert.ReferenceIdeal.Hand.RW7 (RV m' c) (Proc.devRef .tc Cert.ReferenceIdeal.main_v117)

/-! ## The hypotheses the comparison runs under -/

/-- The two launch memories agree on the sixteen arguments (the claim's own hypothesis, at one core). -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)

/-- The candidate pairs, as the kernel's program is launched with them. -/
abbrev kCand : IVec (Sh2 1000000 2) 32 := m ((c.tc : Thread Cert.KernelIdeal.nD Cert.KernelIdeal.τ).loc Cert.KernelIdeal.main_arg2)

/-- Every candidate index lies in `[0, 100000)`: both columns index arrays of 100000 rows. -/
def CandRange : Prop := ∀ j : (Sh2 1000000 2).Idx, 0 ≤ (kCand m c j).toInt ∧ (kCand m c j).toInt < 100000

end Cert.Bridge

end
-- ==== Proof.PA.lean ====
import proofs.«402058_j52493090292432_1_alg».proof.Proof.Iface
import Idealize.ShloMosaic.Lib.StableHlo.Run

/-! The rows of `x` the mask selects, and those it does not, are the same arrays in both programs.

    Both programs find the selected positions the same way: the mask's running count, clipped below at 0, says for each
    position how many selected positions precede or equal it; adding 1 at that count into a zero vector of 100000 slots
    and taking the running sum again gives, for each output slot, the position it holds (after a floored quotient by 1
    and a remainder modulo 200000, both the identity on that range). The unselected positions are found the same way
    from the mask's complement. The rows of `x` at those positions (a negative position wrapped by 200000) are then
    gathered. The two programs run these operations in the same order on the same inputs, so each intermediate array
    is the same function of the arrays before it on both sides: the comparison goes stretch by stretch, carrying the
    arrays that are still to be read. -/

set_option maxRecDepth 8192

noncomputable section

namespace Cert.Bridge

open Idealize.ShloMosaic Idealize.ShloMosaic.TcCoe Idealize.SL.Sem Idealize.ShloMosaic.StableHlo Idealize.ShloMosaic.ValueIdx

namespace PA

/-- Buffer contents of the kernel's program and of the reference on one core. -/
abbrev KVal := Valuation Cert.KernelIdeal.τ Cert.KernelIdeal.sig (Elt Ideal)
abbrev RVal := Valuation Cert.ReferenceIdeal.τ Cert.ReferenceIdeal.sig (Elt Ideal)

/-- The arrays' types: `x`, a gathered half of it, a mask over 200000 positions, counts over 200000 positions and over 100000 slots. -/
abbrev XT := Vec Ideal (Sh2 200000 2) .f32
abbrev OT := Vec Ideal (Sh2 100000 2) .f32
abbrev M2 := IVec (Sh1 200000) 1
abbrev J2 := IVec (Sh1 200000) 32
abbrev J1 := IVec (Sh1 100000) 32

open Lean in
/-- `sameAt(VK, VR, b, T)`: the buffer named `b` in each program holds the same contents under `VK` and `VR`, both read at the type `T`. -/
local macro "sameAt(" vk:term ", " vr:term ", " b:ident ", " t:term ")" : term =>
  let k := mkIdent (`Cert.KernelIdeal ++ b.getId)
  let r := mkIdent (`Cert.ReferenceIdeal ++ b.getId)
  `(((($vk) (Proc.devRef .tc $k) : $t) = (($vr) (Proc.devRef .tc $r) : $t)))

/-! ## What the two programs agree on at each boundary -/

/-- At launch: the array `x` and the mask. -/
abbrev B0 (VK : KVal) (VR : RVal) : Prop :=
  sameAt(VK, VR, main_arg0, XT) ∧ sameAt(VK, VR, main_arg1, M2)

/-- After the mask's running count. -/
abbrev B1 (VK : KVal) (VR : RVal) : Prop :=
  sameAt(VK, VR, main_arg0, XT) ∧ sameAt(VK, VR, main_arg1, M2) ∧ sameAt(VK, VR, main_v0, J2)

/-- After the count is clipped below at 0 (and a zero vector of 100000 laid out). -/
abbrev B2 (VK : KVal) (VR : RVal) : Prop :=
  sameAt(VK, VR, main_arg0, XT) ∧ sameAt(VK, VR, main_arg1, M2) ∧ sameAt(VK, VR, main_v1, J1) ∧ sameAt(VK, VR, main_v2, J2)

/-- After the scatter-add that counts, per slot, how many positions have that running count. -/
abbrev B3 (VK : KVal) (VR : RVal) : Prop :=
  sameAt(VK, VR, main_arg0, XT) ∧ sameAt(VK, VR, main_arg1, M2) ∧ sameAt(VK, VR, main_v10, J1)

/-- After the running sum of those counts. -/
abbrev B4 (VK : KVal) (VR : RVal) : Prop :=
  sameAt(VK, VR, main_arg0, XT) ∧ sameAt(VK, VR, main_arg1, M2) ∧ sameAt(VK, VR, main_v11, J1)

/-- After the floored quotient by 1. -/
abbrev B5 (VK : KVal) (VR : RVal) : Prop :=
  sameAt(VK, VR, main_arg0, XT) ∧ sameAt(VK, VR, main_arg1, M2) ∧ sameAt(VK, VR, main_v12, J1)

/-- After the remainder modulo 200000: the selected positions, in order. -/
abbrev B6 (VK : KVal) (VR : RVal) : Prop :=
  sameAt(VK, VR, main_arg0, XT) ∧ sameAt(VK, VR, main_arg1, M2) ∧ sameAt(VK, VR, main_v13, J1)

/-- After the mask's complement. -/
abbrev B7 (VK : KVal) (VR : RVal) : Prop :=
  sameAt(VK, VR, main_arg0, XT) ∧ sameAt(VK, VR, main_v13, J1) ∧ sameAt(VK, VR, main_v14, M2)

/-- After the complement's running count. -/
abbrev B8 (VK : KVal) (VR : RVal) : Prop :=
  sameAt(VK, VR, main_arg0, XT) ∧ sameAt(VK, VR, main_v13, J1) ∧ sameAt(VK, VR, main_v15, J2)

/-- After that count is clipped below at 0 (and a zero vector of 100000 laid out). -/
abbrev B9 (VK : KVal) (VR : RVal) : Prop :=
  sameAt(VK, VR, main_arg0, XT) ∧ sameAt(VK, VR, main_v13, J1) ∧ sameAt(VK, VR, main_v16, J1) ∧ sameAt(VK, VR, main_v17, J2)

/-- After the complement's scatter-add of counts. -/
abbrev B10 (VK : KVal) (VR : RVal) : Prop :=
  sameAt(VK, VR, main_arg0, XT) ∧ sameAt(VK, VR, main_v13, J1) ∧ sameAt(VK, VR, main_v25, J1)

/-- After the running sum of those counts. -/
abbrev B11 (VK : KVal) (VR : RVal) : Prop :=
  sameAt(VK, VR, main_arg0, XT) ∧ sameAt(VK, VR, main_v13, J1) ∧ sameAt(VK, VR, main_v26, J1)

/-- After the floored quotient by 1. -/
abbrev B12 (VK : KVal) (VR : RVal) : Prop :=
  sameAt(VK, VR, main_arg0, XT) ∧ sameAt(VK, VR, main_v13, J1) ∧ sameAt(VK, VR, main_v27, J1)

/-- After the remainder modulo 200000: the unselected positions, in order. -/
abbrev B13 (VK : KVal) (VR : RVal) : Prop :=
  sameAt(VK, VR, main_arg0, XT) ∧ sameAt(VK, VR, main_v13, J1) ∧ sameAt(VK, VR, main_v28, J1)

/-! ## One stretch at a time: the same operations on agreeing inputs give agreeing outputs -/

set_option maxHeartbeats 1000000 in
/-- The running count of the mask. -/
theorem s0 (VK : KVal) (VR : RVal) (h : B0 VK VR) :
    B1 (after Cert.KernelIdeal.Gen.hostOps0 VK) (after Cert.ReferenceIdeal.Hand.it0 VR) := by
  obtain ⟨h0, h1⟩ := h
  refine ⟨?_, ?_, ?_⟩
  · (simp only [Cert.KernelIdeal.Gen.hostOps0, Cert.ReferenceIdeal.Hand.it0]; after_results_simp) <;> exact h0
  · (simp only [Cert.KernelIdeal.Gen.hostOps0, Cert.ReferenceIdeal.Hand.it0]; after_results_simp) <;> exact h1
  · (simp only [Cert.KernelIdeal.Gen.hostOps0, Cert.ReferenceIdeal.Hand.it0]; after_results_simp) <;> (rw [h1] <;> rfl)

set_option maxHeartbeats 1000000 in
/-- A zero vector, and the count clipped below at 0. -/
theorem s1 (VK : KVal) (VR : RVal) (h : B1 VK VR) :
    B2 (after Cert.KernelIdeal.Gen.hostOps0_2 (after Cert.KernelIdeal.Gen.hostOps0_1 VK)) (after Cert.ReferenceIdeal.Hand.it2 (after Cert.ReferenceIdeal.Hand.it1 VR)) := by
  obtain ⟨h0, h1, h2⟩ := h
  refine ⟨?_, ?_, ?_, ?_⟩
  · (simp only [Cert.KernelIdeal.Gen.hostOps0_1, Cert.KernelIdeal.Gen.hostOps0_2, Cert.ReferenceIdeal.Hand.it1, Cert.ReferenceIdeal.Hand.it2]; after_results_simp) <;> exact h0
  · (simp only [Cert.KernelIdeal.Gen.hostOps0_1, Cert.KernelIdeal.Gen.hostOps0_2, Cert.ReferenceIdeal.Hand.it1, Cert.ReferenceIdeal.Hand.it2]; after_results_simp) <;> exact h1
  · (simp only [Cert.KernelIdeal.Gen.hostOps0_1, Cert.KernelIdeal.Gen.hostOps0_2, Cert.ReferenceIdeal.Hand.it1, Cert.ReferenceIdeal.Hand.it2]; after_results_simp) <;> rfl
  · (simp only [Cert.KernelIdeal.Gen.hostOps0_1, Cert.KernelIdeal.Gen.hostOps0_2, Cert.ReferenceIdeal.Hand.it1, Cert.ReferenceIdeal.Hand.it2]; after_results_simp) <;> (rw [h2] <;> rfl)

set_option maxHeartbeats 1000000 in
/-- Negative counts wrapped by 100000, then 1 added into the zero vector at each position's count. -/
theorem s2 (VK : KVal) (VR : RVal) (h : B2 VK VR) :
    B3 (after Cert.KernelIdeal.Gen.hostOps0_3 VK) (after Cert.ReferenceIdeal.Hand.it3 VR) := by
  obtain ⟨h0, h1, h2, h3⟩ := h
  refine ⟨?_, ?_, ?_⟩
  · (simp only [Cert.KernelIdeal.Gen.hostOps0_3, Cert.ReferenceIdeal.Hand.it3]; after_results_simp) <;> exact h0
  · (simp only [Cert.KernelIdeal.Gen.hostOps0_3, Cert.ReferenceIdeal.Hand.it3]; after_results_simp) <;> exact h1
  · (simp only [Cert.KernelIdeal.Gen.hostOps0_3, Cert.ReferenceIdeal.Hand.it3]; after_results_simp) <;> (rw [h2, h3] <;> rfl)

set_option maxHeartbeats 1000000 in
/-- The running sum of the per-slot counts. -/
theorem s3 (VK : KVal) (VR : RVal) (h : B3 VK VR) :
    B4 (after Cert.KernelIdeal.Gen.hostOps0_4 VK) (after Cert.ReferenceIdeal.Hand.it4 VR) := by
  obtain ⟨h0, h1, h2⟩ := h
  refine ⟨?_, ?_, ?_⟩
  · (simp only [Cert.KernelIdeal.Gen.hostOps0_4, Cert.ReferenceIdeal.Hand.it4]; after_results_simp) <;> exact h0
  · (simp only [Cert.KernelIdeal.Gen.hostOps0_4, Cert.ReferenceIdeal.Hand.it4]; after_results_simp) <;> exact h1
  · (simp only [Cert.KernelIdeal.Gen.hostOps0_4, Cert.ReferenceIdeal.Hand.it4]; after_results_simp) <;> (rw [h2] <;> rfl)

set_option maxHeartbeats 1000000 in
/-- The floored quotient by the constant 1. -/
theorem s4 (VK : KVal) (VR : RVal) (h : B4 VK VR) :
    B5 (after Cert.KernelIdeal.Gen.hostOps0_6 (after Cert.KernelIdeal.Gen.hostOps0_5 VK)) (after Cert.ReferenceIdeal.Hand.it6 (after Cert.ReferenceIdeal.Hand.it5 VR)) := by
  obtain ⟨h0, h1, h2⟩ := h
  refine ⟨?_, ?_, ?_⟩
  · (simp only [Cert.KernelIdeal.Gen.hostOps0_5, Cert.KernelIdeal.Gen.hostOps0_6, Cert.ReferenceIdeal.Hand.it5, Cert.ReferenceIdeal.Hand.it6]; after_results_simp) <;> exact h0
  · (simp only [Cert.KernelIdeal.Gen.hostOps0_5, Cert.KernelIdeal.Gen.hostOps0_6, Cert.ReferenceIdeal.Hand.it5, Cert.ReferenceIdeal.Hand.it6]; after_results_simp) <;> exact h1
  · (simp only [Cert.KernelIdeal.Gen.hostOps0_5, Cert.KernelIdeal.Gen.hostOps0_6, Cert.ReferenceIdeal.Hand.it5, Cert.ReferenceIdeal.Hand.it6]; after_results_simp) <;> (rw [h2] <;> rfl)

set_option maxHeartbeats 1000000 in
/-- The remainder modulo the constant 200000, with the divisor's sign. -/
theorem s5 (VK : KVal) (VR : RVal) (h : B5 VK VR) :
    B6 (after Cert.KernelIdeal.Gen.hostOps0_8 (after Cert.KernelIdeal.Gen.hostOps0_7 VK)) (after Cert.ReferenceIdeal.Hand.it8 (after Cert.ReferenceIdeal.Hand.it7 VR)) := by
  obtain ⟨h0, h1, h2⟩ := h
  refine ⟨?_, ?_, ?_⟩
  · (simp only [Cert.KernelIdeal.Gen.hostOps0_7, Cert.KernelIdeal.Gen.hostOps0_8, Cert.ReferenceIdeal.Hand.it7, Cert.ReferenceIdeal.Hand.it8]; after_results_simp) <;> exact h0
  · (simp only [Cert.KernelIdeal.Gen.hostOps0_7, Cert.KernelIdeal.Gen.hostOps0_8, Cert.ReferenceIdeal.Hand.it7, Cert.ReferenceIdeal.Hand.it8]; after_results_simp) <;> exact h1
  · (simp only [Cert.KernelIdeal.Gen.hostOps0_7, Cert.KernelIdeal.Gen.hostOps0_8, Cert.ReferenceIdeal.Hand.it7, Cert.ReferenceIdeal.Hand.it8]; after_results_simp) <;> (rw [h2] <;> rfl)

set_option maxHeartbeats 1000000 in
/-- The mask's complement. -/
theorem s6 (VK : KVal) (VR : RVal) (h : B6 VK VR) :
    B7 (after Cert.KernelIdeal.Gen.hostOps0_9 VK) (after Cert.ReferenceIdeal.Hand.it9 VR) := by
  obtain ⟨h0, h1, h2⟩ := h
  refine ⟨?_, ?_, ?_⟩
  · (simp only [Cert.KernelIdeal.Gen.hostOps0_9, Cert.ReferenceIdeal.Hand.it9]; after_results_simp) <;> exact h0
  · (simp only [Cert.KernelIdeal.Gen.hostOps0_9, Cert.ReferenceIdeal.Hand.it9]; after_results_simp) <;> exact h2
  · (simp only [Cert.KernelIdeal.Gen.hostOps0_9, Cert.ReferenceIdeal.Hand.it9]; after_results_simp) <;> (rw [h1] <;> rfl)

set_option maxHeartbeats 1000000 in
/-- The running count of the complement. -/
theorem s7 (VK : KVal) (VR : RVal) (h : B7 VK VR) :
    B8 (after Cert.KernelIdeal.Gen.hostOps0_10 VK) (after Cert.ReferenceIdeal.Hand.it10 VR) := by
  obtain ⟨h0, h1, h2⟩ := h
  refine ⟨?_, ?_, ?_⟩
  · (simp only [Cert.KernelIdeal.Gen.hostOps0_10, Cert.ReferenceIdeal.Hand.it10]; after_results_simp) <;> exact h0
  · (simp only [Cert.KernelIdeal.Gen.hostOps0_10, Cert.ReferenceIdeal.Hand.it10]; after_results_simp) <;> exact h1
  · (simp only [Cert.KernelIdeal.Gen.hostOps0_10, Cert.ReferenceIdeal.Hand.it10]; after_results_simp) <;> (rw [h2] <;> rfl)

set_option maxHeartbeats 1000000 in
/-- A zero vector, and the count clipped below at 0. -/
theorem s8 (VK : KVal) (VR : RVal) (h : B8 VK VR) :
    B9 (after Cert.KernelIdeal.Gen.hostOps0_12 (after Cert.KernelIdeal.Gen.hostOps0_11 VK)) (after Cert.ReferenceIdeal.Hand.it12 (after Cert.ReferenceIdeal.Hand.it11 VR)) := by
  obtain ⟨h0, h1, h2⟩ := h
  refine ⟨?_, ?_, ?_, ?_⟩
  · (simp only [Cert.KernelIdeal.Gen.hostOps0_11, Cert.KernelIdeal.Gen.hostOps0_12, Cert.ReferenceIdeal.Hand.it11, Cert.ReferenceIdeal.Hand.it12]; after_results_simp) <;> exact h0
  · (simp only [Cert.KernelIdeal.Gen.hostOps0_11, Cert.KernelIdeal.Gen.hostOps0_12, Cert.ReferenceIdeal.Hand.it11, Cert.ReferenceIdeal.Hand.it12]; after_results_simp) <;> exact h1
  · (simp only [Cert.KernelIdeal.Gen.hostOps0_11, Cert.KernelIdeal.Gen.hostOps0_12, Cert.ReferenceIdeal.Hand.it11, Cert.ReferenceIdeal.Hand.it12]; after_results_simp) <;> rfl
  · (simp only [Cert.KernelIdeal.Gen.hostOps0_11, Cert.KernelIdeal.Gen.hostOps0_12, Cert.ReferenceIdeal.Hand.it11, Cert.ReferenceIdeal.Hand.it12]; after_results_simp) <;> (rw [h2] <;> rfl)

set_option maxHeartbeats 1000000 in
/-- Negative counts wrapped by 100000, then 1 added into the zero vector at each position's count. -/
theorem s9 (VK : KVal) (VR : RVal) (h : B9 VK VR) :
    B10 (after Cert.KernelIdeal.Gen.hostOps0_13 VK) (after Cert.ReferenceIdeal.Hand.it13 VR) := by
  obtain ⟨h0, h1, h2, h3⟩ := h
  refine ⟨?_, ?_, ?_⟩
  · (simp only [Cert.KernelIdeal.Gen.hostOps0_13, Cert.ReferenceIdeal.Hand.it13]; after_results_simp) <;> exact h0
  · (simp only [Cert.KernelIdeal.Gen.hostOps0_13, Cert.ReferenceIdeal.Hand.it13]; after_results_simp) <;> exact h1
  · (simp only [Cert.KernelIdeal.Gen.hostOps0_13, Cert.ReferenceIdeal.Hand.it13]; after_results_simp) <;> (rw [h2, h3] <;> rfl)

set_option maxHeartbeats 1000000 in
/-- The running sum of the per-slot counts. -/
theorem s10 (VK : KVal) (VR : RVal) (h : B10 VK VR) :
    B11 (after Cert.KernelIdeal.Gen.hostOps0_14 VK) (after Cert.ReferenceIdeal.Hand.it14 VR) := by
  obtain ⟨h0, h1, h2⟩ := h
  refine ⟨?_, ?_, ?_⟩
  · (simp only [Cert.KernelIdeal.Gen.hostOps0_14, Cert.ReferenceIdeal.Hand.it14]; after_results_simp) <;> exact h0
  · (simp only [Cert.KernelIdeal.Gen.hostOps0_14, Cert.ReferenceIdeal.Hand.it14]; after_results_simp) <;> exact h1
  · (simp only [Cert.KernelIdeal.Gen.hostOps0_14, Cert.ReferenceIdeal.Hand.it14]; after_results_simp) <;> (rw [h2] <;> rfl)

set_option maxHeartbeats 1000000 in
/-- The floored quotient by the constant 1. -/
theorem s11 (VK : KVal) (VR : RVal) (h : B11 VK VR) :
    B12 (after Cert.KernelIdeal.Gen.hostOps0_16 (after Cert.KernelIdeal.Gen.hostOps0_15 VK)) (after Cert.ReferenceIdeal.Hand.it16 (after Cert.ReferenceIdeal.Hand.it15 VR)) := by
  obtain ⟨h0, h1, h2⟩ := h
  refine ⟨?_, ?_, ?_⟩
  · (simp only [Cert.KernelIdeal.Gen.hostOps0_15, Cert.KernelIdeal.Gen.hostOps0_16, Cert.ReferenceIdeal.Hand.it15, Cert.ReferenceIdeal.Hand.it16]; after_results_simp) <;> exact h0
  · (simp only [Cert.KernelIdeal.Gen.hostOps0_15, Cert.KernelIdeal.Gen.hostOps0_16, Cert.ReferenceIdeal.Hand.it15, Cert.ReferenceIdeal.Hand.it16]; after_results_simp) <;> exact h1
  · (simp only [Cert.KernelIdeal.Gen.hostOps0_15, Cert.KernelIdeal.Gen.hostOps0_16, Cert.ReferenceIdeal.Hand.it15, Cert.ReferenceIdeal.Hand.it16]; after_results_simp) <;> (rw [h2] <;> rfl)

set_option maxHeartbeats 1000000 in
/-- The remainder modulo the constant 200000, with the divisor's sign. -/
theorem s12 (VK : KVal) (VR : RVal) (h : B12 VK VR) :
    B13 (after Cert.KernelIdeal.Gen.hostOps0_18 (after Cert.KernelIdeal.Gen.hostOps0_17 VK)) (after Cert.ReferenceIdeal.Hand.it18 (after Cert.ReferenceIdeal.Hand.it17 VR)) := by
  obtain ⟨h0, h1, h2⟩ := h
  refine ⟨?_, ?_, ?_⟩
  · (simp only [Cert.KernelIdeal.Gen.hostOps0_17, Cert.KernelIdeal.Gen.hostOps0_18, Cert.ReferenceIdeal.Hand.it17, Cert.ReferenceIdeal.Hand.it18]; after_results_simp) <;> exact h0
  · (simp only [Cert.KernelIdeal.Gen.hostOps0_17, Cert.KernelIdeal.Gen.hostOps0_18, Cert.ReferenceIdeal.Hand.it17, Cert.ReferenceIdeal.Hand.it18]; after_results_simp) <;> exact h1
  · (simp only [Cert.KernelIdeal.Gen.hostOps0_17, Cert.KernelIdeal.Gen.hostOps0_18, Cert.ReferenceIdeal.Hand.it17, Cert.ReferenceIdeal.Hand.it18]; after_results_simp) <;> (rw [h2] <;> rfl)

set_option maxHeartbeats 1000000 in
/-- The gathers: each position list, a negative entry wrapped by 200000, picks the same rows of `x` on both sides. The kernel's
    program gathers both halves in one stretch; the reference gathers the unselected rows first and the selected rows two
    stretches later, with nothing in between touching the position lists or `x`. -/
theorem gathers (VK : KVal) (VR : RVal) (h : B13 VK VR) :
    ((after Cert.KernelIdeal.Gen.hostOps0_19 VK (Proc.devRef .tc Cert.KernelIdeal.main_v42) : OT) = (after Cert.ReferenceIdeal.Hand.it19 VR (Proc.devRef .tc Cert.ReferenceIdeal.main_v35) : OT))
    ∧ ((after Cert.KernelIdeal.Gen.hostOps0_19 VK (Proc.devRef .tc Cert.KernelIdeal.main_v35) : OT)
        = (after Cert.ReferenceIdeal.Hand.it22 (after Cert.ReferenceIdeal.Hand.it21 (after Cert.ReferenceIdeal.Hand.it20 (after Cert.ReferenceIdeal.Hand.it19 VR))) (Proc.devRef .tc Cert.ReferenceIdeal.main_v46) : OT)) := by
  obtain ⟨h0, h1, h2⟩ := h
  refine ⟨?_, ?_⟩
  · (simp only [Cert.KernelIdeal.Gen.hostOps0_19, Cert.ReferenceIdeal.Hand.it19]; after_results_simp) <;> (rw [h0, h2] <;> rfl)
  · (simp only [Cert.KernelIdeal.Gen.hostOps0_19, Cert.ReferenceIdeal.Hand.it19, Cert.ReferenceIdeal.Hand.it20, Cert.ReferenceIdeal.Hand.it21, Cert.ReferenceIdeal.Hand.it22]; after_results_simp) <;> (rw [h0, h1] <;> rfl)

/-! ## The whole run of stretches -/

set_option maxHeartbeats 1000000 in
/-- From agreeing `x` and mask, the kernel program's twenty stretches and the reference's first three segments end with the same
    two gathered arrays. -/
theorem rel (VK : KVal) (VR : RVal) (h : B0 VK VR) :
    (((after Cert.KernelIdeal.Gen.hostOps0_19 (after Cert.KernelIdeal.Gen.hostOps0_18 (after Cert.KernelIdeal.Gen.hostOps0_17 (after Cert.KernelIdeal.Gen.hostOps0_16 (after Cert.KernelIdeal.Gen.hostOps0_15 (after Cert.KernelIdeal.Gen.hostOps0_14 (after Cert.KernelIdeal.Gen.hostOps0_13 (after Cert.KernelIdeal.Gen.hostOps0_12 (after Cert.KernelIdeal.Gen.hostOps0_11 (after Cert.KernelIdeal.Gen.hostOps0_10 (after Cert.KernelIdeal.Gen.hostOps0_9 (after Cert.KernelIdeal.Gen.hostOps0_8 (after Cert.KernelIdeal.Gen.hostOps0_7 (after Cert.KernelIdeal.Gen.hostOps0_6 (after Cert.KernelIdeal.Gen.hostOps0_5 (after Cert.KernelIdeal.Gen.hostOps0_4 (after Cert.KernelIdeal.Gen.hostOps0_3 (after Cert.KernelIdeal.Gen.hostOps0_2 (after Cert.KernelIdeal.Gen.hostOps0_1 (after Cert.KernelIdeal.Gen.hostOps0 VK)))))))))))))))))))) (Proc.devRef .tc Cert.KernelIdeal.main_v42) : OT) = (Cert.ReferenceIdeal.Hand.RW1 VR (Proc.devRef .tc Cert.ReferenceIdeal.main_v35) : OT))
    ∧ (((after Cert.KernelIdeal.Gen.hostOps0_19 (after Cert.KernelIdeal.Gen.hostOps0_18 (after Cert.KernelIdeal.Gen.hostOps0_17 (after Cert.KernelIdeal.Gen.hostOps0_16 (after Cert.KernelIdeal.Gen.hostOps0_15 (after Cert.KernelIdeal.Gen.hostOps0_14 (after Cert.KernelIdeal.Gen.hostOps0_13 (after Cert.KernelIdeal.Gen.hostOps0_12 (after Cert.KernelIdeal.Gen.hostOps0_11 (after Cert.KernelIdeal.Gen.hostOps0_10 (after Cert.KernelIdeal.Gen.hostOps0_9 (after Cert.KernelIdeal.Gen.hostOps0_8 (after Cert.KernelIdeal.Gen.hostOps0_7 (after Cert.KernelIdeal.Gen.hostOps0_6 (after Cert.KernelIdeal.Gen.hostOps0_5 (after Cert.KernelIdeal.Gen.hostOps0_4 (after Cert.KernelIdeal.Gen.hostOps0_3 (after Cert.KernelIdeal.Gen.hostOps0_2 (after Cert.KernelIdeal.Gen.hostOps0_1 (after Cert.KernelIdeal.Gen.hostOps0 VK)))))))))))))))))))) (Proc.devRef .tc Cert.KernelIdeal.main_v35) : OT) = (Cert.ReferenceIdeal.Hand.RW3 VR (Proc.devRef .tc Cert.ReferenceIdeal.main_v46) : OT)) := by
  simp only [Cert.ReferenceIdeal.Hand.RW1, Cert.ReferenceIdeal.Hand.RW2, Cert.ReferenceIdeal.Hand.RW3, Cert.ReferenceIdeal.Hand.seg1, Cert.ReferenceIdeal.Hand.seg2, Cert.ReferenceIdeal.Hand.seg3,
    List.flatten_cons, List.flatten_nil, List.append_nil, StableHlo.after_append]
  have a1 := s0 VK VR h
  have a2 := s1 _ _ a1
  have a3 := s2 _ _ a2
  have a4 := s3 _ _ a3
  have a5 := s4 _ _ a4
  have a6 := s5 _ _ a5
  have a7 := s6 _ _ a6
  have a8 := s7 _ _ a7
  have a9 := s8 _ _ a8
  have a10 := s9 _ _ a9
  have a11 := s10 _ _ a10
  have a12 := s11 _ _ a11
  have a13 := s12 _ _ a12
  exact gathers _ _ a13

end PA

variable (m : KMem) (ρ : Dev Cert.KernelIdeal.nD → PrngReg) (m' : RMem) (c : Dev Cert.KernelIdeal.nD)

theorem P_A (h : Agree m m' c) : kXu m ρ c = rXu m' c ∧ kXg m ρ c = rXg m' c := by
  obtain ⟨h0, h1, -⟩ := h
  exact PA.rel (Cert.KernelIdeal.Gen.W0 (F := Ideal) m ρ c) (RV m' c) ⟨h0.symm, h1.symm⟩

end Cert.Bridge

end
-- ==== Proof.PXunc.lean ====
import proofs.«402058_j52493090292432_1_alg».proof.Proof.Iface
import Idealize.ShloMosaic.Lib.StackMember
import Idealize.ShloMosaic.Lib.KernelVsHost
import Idealize.ShloMosaic.Lib.StableHlo.Run
import Idealize.ShloMosaic.Lib.Pipeline.Value

/-! The linear layer of the unselected rows: the kernel's region 0 leaves the transpose of the reference's array.

    With xu the 100000 × 2 array of unselected rows, w the 2 × 16 weights and b the 16 biases, the reference computes
    xunc[n, j] = (Σ_k xu[n, k] · w[k, j]) + b[j]. The kernel's program transposes xu and w and lays b out as a column
    before the region, and the region's one grid point, whose blocks are the whole arrays, writes
    out[j, n] = (Σ_k wT[j, k] · xuT[k, n]) + bcol[j, 0]. Entry by entry the two sums have the same terms with the
    factors in the other order, so commutativity of the product of extended reals is the only law used; nothing needs
    the entries to be finite. -/

set_option maxRecDepth 16384

noncomputable section

namespace Cert.Bridge

open Idealize.ShloMosaic Idealize.ShloMosaic.TcCoe Idealize.SL.Sem Idealize.ShloMosaic.StableHlo Idealize.ShloMosaic.ValueIdx

namespace Xunc

/-! ## Layout operations at an index -/

/-- A transposed matrix at (p, q) is the matrix at (q, p). -/
theorem transpose2_at {a b : Nat} {α : Type} (x : (Sh2 a b).Idx → α) (h : (Sh2 a b).Transposes [1, 0] (Sh2 b a))
    (p : Fin b) (q : Fin a) : transpose (Sh2 b a) [1, 0] x h (ix2 p q) = x (ix2 q p) :=
  transpose_apply [1, 0] x h (ix2 p q) (ix2 q p) (fun bb => by
    match bb with
    | ⟨0, _⟩ => rfl
    | ⟨1, _⟩ => rfl)

/-- A vector reshaped to one column, at (p, 0), is the vector at p: both have row-major position p. -/
theorem column_at {a : Nat} {α : Type} (x : (Sh1 a).Idx → α) (h : (Sh1 a).ShapeCasts (Sh2 a 1)) (p : Fin a) :
    shapeCast (Sh2 a 1) x h (ix2 p (0 : Fin 1)) = x (ix1 p) :=
  shapeCast_apply x h (ix2 p 0) (ix1 p) (by
    rw [Shape.rowMajor_val_one, Shape.rowMajor_val_two]
    show p.val = p.val * 1 + 0
    omega)

/-- A column copied along every column of a matrix, at (p, q), is the column at (p, 0). -/
theorem column_bcast_at {a b : Nat} {α : Type} (ha : a ≠ 1) (x : (Sh2 a 1).Idx → α) (h : (Sh2 a 1).Broadcasts (Sh2 a b))
    (p : Fin a) (q : Fin b) : broadcastTo (Sh2 a b) x h (ix2 p q) = x (ix2 p (0 : Fin 1)) :=
  broadcastTo_apply x h (ix2 p q) (ix2 p 0) (fun ax => by
    match ax with
    | ⟨0, _⟩ => exact (if_neg ha).symm
    | ⟨1, _⟩ => exact (if_pos rfl).symm)

/-- A vector made a one-row matrix and then copied down the rows, at (p, q), is the vector at q. -/
theorem row_bcast_at {a b : Nat} {α : Type} (hb : b ≠ 1) (x : (Sh1 b).Idx → α)
    (h1 : (Sh1 b).BroadcastsInDim (Sh2 1 b) ![1]) (h2 : (Sh2 1 b).BroadcastsInDim (Sh2 a b) ![0, 1])
    (p : Fin a) (q : Fin b) :
    broadcastInDim (Sh2 a b) ![0, 1] h2 (broadcastInDim (Sh2 1 b) ![1] h1 x) (ix2 p q) = x (ix1 q) := by
  rw [broadcastInDim_apply ![0, 1] h2 _ (ix2 p q) (ix2 (0 : Fin 1) q) (fun ax => by
    match ax with
    | ⟨0, _⟩ => exact (if_pos rfl).symm
    | ⟨1, _⟩ => exact (if_neg hb).symm)]
  exact broadcastInDim_apply ![1] h1 x (ix2 (0 : Fin 1) q) (ix1 q) (fun ax => by
    match ax with
    | ⟨0, _⟩ => exact (if_neg hb).symm)

/-! ## The body of region 0 at an index -/

section Body
open Cert.KernelIdeal Cert.KernelIdeal.Gen

/-- The body's result at (j, n): the product of the weights' transpose with the rows' transpose accumulated into
    zeros is the plain sum over the contracted coordinate, the format changes are the identity on extended reals,
    and the bias column is copied along the columns. -/
theorem lin_at (x0 : FVec Ideal S2x100000 .f32) (x1 : FVec Ideal S16x2 .f32) (x2 : FVec Ideal S16x1 .f32)
    (j : Fin 16) (n : Fin 100000) :
    k0_pay1 (F := Ideal) x0 x1 x2 (ix2 j n) = (∑ k : Fin 2, x1 (ix2 j k) * x0 (ix2 k n)) + x2 (ix2 j (0 : Fin 1)) := by
  have hm : ∀ (a : FVec Ideal S16x2 .bf16) (b : FVec Ideal S2x100000 .bf16),
      matmul dot_S16x2_S2x100000_S16x100000_1_0_0_1_n_n none a b (constant S16x100000 .f32 0x00000000#32) (ix2 j n)
        = ∑ k : Fin 2, a (ix2 j k) * b (ix2 k n) := by
    intro a b
    rw [matmul_zero_eq_dotGeneral]
    exact StackMember.dotGeneral_plain_apply (m := 16) (n := 100000) none a b j n
  unfold k0_pay1
  rw [shapeCast_self, shapeCast_self, shapeCast_self, addf_apply, hm, column_bcast_at (by decide)]
  rfl

end Body

/-! ## Region 0's exit

    The grid has one point and each window's block at that point starts at offset zero and has the array's own sizes, so
    a block read is the array and the one write-back covers the output array. -/

section Exit
open Cert.KernelIdeal Cert.KernelIdeal.Gen
variable {F : FTy → Type} [FloatOps F]
variable (V : (c : Dev nD) → (b : Ref sig .tc) → Buf (Elt F) ((c : Thread nD τ).loc b))

/-- Each input window's block at the one point is its whole array. -/
theorem blk0_0 (c : Dev nD) (t : Fin cfg0.N) : (iblk0 V c 0 t : Vec F S2x100000 .f32) = V c main_v44 := by
  obtain rfl := fin_N0 t
  have hz' : (fun a => win0_0.index t0_0 a * main_v44.ty.shape.size a) = fun _ => 0 := funext fun a => by fin_cases a <;> decide
  exact Memref.read_access_unit_zero (Elt F) main_v44 hz' (fun a => by rw [congrFun hz' a]; simp) _

theorem blk0_1 (c : Dev nD) (t : Fin cfg0.N) : (iblk0 V c 1 t : Vec F S16x2 .f32) = V c main_v45 := by
  obtain rfl := fin_N0 t
  have hz' : (fun a => win0_1.index t0_0 a * main_v45.ty.shape.size a) = fun _ => 0 := funext fun a => by fin_cases a <;> decide
  exact Memref.read_access_unit_zero (Elt F) main_v45 hz' (fun a => by rw [congrFun hz' a]; simp) _

theorem blk0_2 (c : Dev nD) (t : Fin cfg0.N) : (iblk0 V c 2 t : Vec F S16x1 .f32) = V c main_v46 := by
  obtain rfl := fin_N0 t
  have hz' : (fun a => win0_2.index t0_0 a * main_v46.ty.shape.size a) = fun _ => 0 := funext fun a => by fin_cases a <;> decide
  exact Memref.read_access_unit_zero (Elt F) main_v46 hz' (fun a => by rw [congrFun hz' a]; simp) _

/-- What the point writes back is the body's buffer of the whole input arrays, which is also its own whole block. -/
theorem flushed0_eq (c : Dev nD) (t : Fin cfg0.N) :
    (dat0 V c).flushed 3 t = ((cfg0.win 3).blk t).view.read (Elt F) (out0_3 (V c main_v44) (V c main_v45) (V c main_v46)) := by
  show (cfg0.win 3).cut (grid0.coords t) ((dat0 V c).after 3 t) = _
  rw [after0_3]
  have e : out0_3 (iblk0 V c 0 t) (iblk0 V c 1 t) (iblk0 V c 2 t) = out0_3 (V c main_v44) (V c main_v45) (V c main_v46) :=
    congr (congr (congrArg (out0_3 (F := F)) (blk0_0 V c t)) (blk0_1 V c t)) (blk0_2 V c t)
  rw [e]
  obtain rfl := fin_N0 t
  have hz' : (fun a => win0_3.index t0_0 a * main_v47.ty.shape.size a) = fun _ => 0 := funext fun a => by fin_cases a <;> decide
  exact (Memref.read_access_unit_zero (Elt F) main_v47 hz' (fun a => by rw [congrFun hz' a]; simp) _).symm

/-- Every index of the output array lies in the one point's block. -/
theorem cover0 (i : S16x100000.Idx) : i ∈ ((cfg0.win 3).blk t0_0).view.set := by
  show i ∈ ((View.whole main_v47).slice (win0_3.rect t0_0)).set
  rw [View.set_slice_whole, Rect.mem_set_unit]
  intro a
  have key : ∀ a : Fin 2, win0_3.index t0_0 a * win0_3.size a = 0 ∧ win0_3.xsize (grid0.coords t0_0) a = S16x100000.size a := by decide +kernel
  rw [(key a).1, (key a).2, Nat.zero_add]
  exact ⟨Nat.zero_le _, (i a).isLt⟩

/-- So the output array ends holding the body's buffer of the whole input arrays. -/
theorem exit0 (c : Dev nD) : (dat0 V c).arrAt 3 cfg0.N = out0_3 (V c main_v44) (V c main_v45) (V c main_v46) :=
  (dat0 V c).arrAt_eq_of_cover 3 _ (fun t _ => flushed0_eq V c t) fun i => ⟨t0_0, flush0_3 t0_0, cover0 i⟩

theorem hz2 : (![0, 0] : Fin 2 → Nat) = fun _ => 0 := funext fun a => by fin_cases a <;> rfl

/-- The body's one store goes through the whole buffer at offset zero, as do its loads: the buffer is the payload. -/
theorem out0_3_eq (x0 : Vec F S2x100000 .f32) (x1 : Vec F S16x2 .f32) (x2 : Vec F S16x1 .f32) :
    out0_3 x0 x1 x2 = k0_pay1 x0 x1 x2 := by
  unfold out0_3
  rw [View.canon_unit_zero hz2]
  simp only [View.ld_unit_zero (S := S2x100000) hz2, View.ld_unit_zero (S := S16x2) hz2, View.ld_unit_zero (S := S16x1) hz2]

end Exit

section ExitAt
open Cert.KernelIdeal Cert.KernelIdeal.Gen
variable (V : (c : Dev nD) → (b : Ref sig .tc) → Buf (Elt Ideal) ((c : Thread nD τ).loc b))

/-- The output array at (j, n), over names for the three input arrays. -/
theorem exit0_at (c : Dev nD) (x0 : FVec Ideal S2x100000 .f32) (x1 : FVec Ideal S16x2 .f32) (x2 : FVec Ideal S16x1 .f32)
    (h0 : V c main_v44 = x0) (h1 : V c main_v45 = x1) (h2 : V c main_v46 = x2) (j : Fin 16) (n : Fin 100000) :
    ((dat0 V c).arrAt 3 cfg0.N : FVec Ideal S16x100000 .f32) (ix2 j n)
      = (∑ k : Fin 2, x1 (ix2 j k) * x0 (ix2 k n)) + x2 (ix2 j (0 : Fin 1)) := by
  subst h0 h1 h2
  rw [exit0, out0_3_eq]
  exact lin_at _ _ _ j n

end ExitAt

/-! ## The host operations before region 0, and the arguments they leave alone -/

section KHost
open Cert.KernelIdeal Cert.KernelIdeal.Gen

/-- The last stretch before the region writes the three input arrays: the transposes of the unselected rows and of the
    weights, and the biases as a column. -/
theorem k_v44 (VK : Valuation τ sig (Elt Ideal)) :
    (StableHlo.after hostOps0_19 VK (Proc.devRef .tc main_v44) : FVec Ideal S2x100000 .f32)
      = transpose S2x100000 [1, 0] (StableHlo.after hostOps0_19 VK (Proc.devRef .tc main_v42) : FVec Ideal S100000x2 .f32) transposes_S100000x2_S2x100000_1_0 := by
  simp only [hostOps0_19]
  after_results_simp

theorem k_v45 (VK : Valuation τ sig (Elt Ideal)) :
    (StableHlo.after hostOps0_19 VK (Proc.devRef .tc main_v45) : FVec Ideal S16x2 .f32)
      = transpose S16x2 [1, 0] (StableHlo.after hostOps0_19 VK (Proc.devRef .tc main_arg10) : FVec Ideal S2x16 .f32) transposes_S2x16_S16x2_1_0 := by
  simp only [hostOps0_19]
  after_results_simp

theorem k_v46 (VK : Valuation τ sig (Elt Ideal)) :
    (StableHlo.after hostOps0_19 VK (Proc.devRef .tc main_v46) : FVec Ideal S16x1 .f32)
      = shapeCast S16x1 (StableHlo.after hostOps0_19 VK (Proc.devRef .tc main_arg11) : FVec Ideal S16 .f32) shapeCasts_S16_S16x1 := by
  simp only [hostOps0_19]
  after_results_simp
  rfl

/-- A buffer that no operation of a stretch writes holds after it what it held before. -/
local macro "unwritten" l:ident : tactic =>
  `(tactic| exact StableHlo.after_of_forall_not_mem (b := _) _ _ (List.forall_iff_forall_mem.mp (by
      simp only [$l:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

variable (m : KMem) (ρ : Dev Cert.KernelIdeal.nD → PrngReg) (c : Dev Cert.KernelIdeal.nD)

/-- No stretch before region 0 writes the weights or the biases: at the region's entry they are as launched. -/
theorem K_main_arg10 : W20 (F := Ideal) m ρ c (Proc.devRef .tc main_arg10) = m ((c : Thread nD τ).loc main_arg10) :=
  calc W20 (F := Ideal) m ρ c (Proc.devRef .tc main_arg10)
    _ = W19 (F := Ideal) m ρ c (Proc.devRef .tc main_arg10) := by unwritten hostOps0_19
    _ = W18 (F := Ideal) m ρ c (Proc.devRef .tc main_arg10) := by unwritten hostOps0_18
    _ = W17 (F := Ideal) m ρ c (Proc.devRef .tc main_arg10) := by unwritten hostOps0_17
    _ = W16 (F := Ideal) m ρ c (Proc.devRef .tc main_arg10) := by unwritten hostOps0_16
    _ = W15 (F := Ideal) m ρ c (Proc.devRef .tc main_arg10) := by unwritten hostOps0_15
    _ = W14 (F := Ideal) m ρ c (Proc.devRef .tc main_arg10) := by unwritten hostOps0_14
    _ = W13 (F := Ideal) m ρ c (Proc.devRef .tc main_arg10) := by unwritten hostOps0_13
    _ = W12 (F := Ideal) m ρ c (Proc.devRef .tc main_arg10) := by unwritten hostOps0_12
    _ = W11 (F := Ideal) m ρ c (Proc.devRef .tc main_arg10) := by unwritten hostOps0_11
    _ = W10 (F := Ideal) m ρ c (Proc.devRef .tc main_arg10) := by unwritten hostOps0_10
    _ = W9 (F := Ideal) m ρ c (Proc.devRef .tc main_arg10) := by unwritten hostOps0_9
    _ = W8 (F := Ideal) m ρ c (Proc.devRef .tc main_arg10) := by unwritten hostOps0_8
    _ = W7 (F := Ideal) m ρ c (Proc.devRef .tc main_arg10) := by unwritten hostOps0_7
    _ = W6 (F := Ideal) m ρ c (Proc.devRef .tc main_arg10) := by unwritten hostOps0_6
    _ = W5 (F := Ideal) m ρ c (Proc.devRef .tc main_arg10) := by unwritten hostOps0_5
    _ = W4 (F := Ideal) m ρ c (Proc.devRef .tc main_arg10) := by unwritten hostOps0_4
    _ = W3 (F := Ideal) m ρ c (Proc.devRef .tc main_arg10) := by unwritten hostOps0_3
    _ = W2 (F := Ideal) m ρ c (Proc.devRef .tc main_arg10) := by unwritten hostOps0_2
    _ = W1 (F := Ideal) m ρ c (Proc.devRef .tc main_arg10) := by unwritten hostOps0_1
    _ = W0 (F := Ideal) m ρ c (Proc.devRef .tc main_arg10) := by unwritten hostOps0
    _ = m ((c : Thread nD τ).loc main_arg10) := rfl

theorem K_main_arg11 : W20 (F := Ideal) m ρ c (Proc.devRef .tc main_arg11) = m ((c : Thread nD τ).loc main_arg11) :=
  calc W20 (F := Ideal) m ρ c (Proc.devRef .tc main_arg11)
    _ = W19 (F := Ideal) m ρ c (Proc.devRef .tc main_arg11) := by unwritten hostOps0_19
    _ = W18 (F := Ideal) m ρ c (Proc.devRef .tc main_arg11) := by unwritten hostOps0_18
    _ = W17 (F := Ideal) m ρ c (Proc.devRef .tc main_arg11) := by unwritten hostOps0_17
    _ = W16 (F := Ideal) m ρ c (Proc.devRef .tc main_arg11) := by unwritten hostOps0_16
    _ = W15 (F := Ideal) m ρ c (Proc.devRef .tc main_arg11) := by unwritten hostOps0_15
    _ = W14 (F := Ideal) m ρ c (Proc.devRef .tc main_arg11) := by unwritten hostOps0_14
    _ = W13 (F := Ideal) m ρ c (Proc.devRef .tc main_arg11) := by unwritten hostOps0_13
    _ = W12 (F := Ideal) m ρ c (Proc.devRef .tc main_arg11) := by unwritten hostOps0_12
    _ = W11 (F := Ideal) m ρ c (Proc.devRef .tc main_arg11) := by unwritten hostOps0_11
    _ = W10 (F := Ideal) m ρ c (Proc.devRef .tc main_arg11) := by unwritten hostOps0_10
    _ = W9 (F := Ideal) m ρ c (Proc.devRef .tc main_arg11) := by unwritten hostOps0_9
    _ = W8 (F := Ideal) m ρ c (Proc.devRef .tc main_arg11) := by unwritten hostOps0_8
    _ = W7 (F := Ideal) m ρ c (Proc.devRef .tc main_arg11) := by unwritten hostOps0_7
    _ = W6 (F := Ideal) m ρ c (Proc.devRef .tc main_arg11) := by unwritten hostOps0_6
    _ = W5 (F := Ideal) m ρ c (Proc.devRef .tc main_arg11) := by unwritten hostOps0_5
    _ = W4 (F := Ideal) m ρ c (Proc.devRef .tc main_arg11) := by unwritten hostOps0_4
    _ = W3 (F := Ideal) m ρ c (Proc.devRef .tc main_arg11) := by unwritten hostOps0_3
    _ = W2 (F := Ideal) m ρ c (Proc.devRef .tc main_arg11) := by unwritten hostOps0_2
    _ = W1 (F := Ideal) m ρ c (Proc.devRef .tc main_arg11) := by unwritten hostOps0_1
    _ = W0 (F := Ideal) m ρ c (Proc.devRef .tc main_arg11) := by unwritten hostOps0
    _ = m ((c : Thread nD τ).loc main_arg11) := rfl

end KHost

/-! ## The reference's linear layer -/

section RHost
open Cert.ReferenceIdeal Cert.ReferenceIdeal.Hand Cert.ReferenceIdeal.Facts₀

/-- The four operations of the layer (product, the bias as a row, the row copied down, sum) read at (n, j), over names
    for the three arrays they read. -/
theorem r_v39_at (VR : Valuation τ sig (Elt Ideal)) (xu : FVec Ideal S100000x2 .f32) (w : FVec Ideal S2x16 .f32) (b : FVec Ideal S16 .f32)
    (hx : VR (Proc.devRef .tc main_v35) = xu) (hw : VR (Proc.devRef .tc main_arg10) = w) (hb : VR (Proc.devRef .tc main_arg11) = b)
    (j : Fin 16) (n : Fin 100000) :
    (StableHlo.after seg2 VR (Proc.devRef .tc main_v39) : FVec Ideal S100000x16 .f32) (ix2 n j)
      = (∑ k : Fin 2, xu (ix2 n k) * w (ix2 k j)) + b (ix1 j) := by
  subst hx hw hb
  simp only [seg2, it20, List.flatten_cons, List.flatten_nil, List.append_nil, List.cons_append, List.nil_append]
  after_results_simp
  exact congrArg₂ (· + ·)
    (StackMember.dotGeneral_plain_apply (m := 100000) (n := 16) none
      (VR (Proc.devRef .tc main_v35) : FVec Ideal S100000x2 .f32) (VR (Proc.devRef .tc main_arg10) : FVec Ideal S2x16 .f32) n j)
    (row_bcast_at (a := 100000) (b := 16) (by decide) (VR (Proc.devRef .tc main_arg11) : FVec Ideal S16 .f32) _ _ n j)

/-- The same for the reference's first segment, which writes no argument. -/
local macro "unwritten1" : tactic =>
  `(tactic| exact StableHlo.after_of_forall_not_mem (b := _) _ _ (List.forall_iff_forall_mem.mp (by
      simp only [seg1, it0, it1, it2, it3, it4, it5, it6, it7, it8, it9, it10, it11, it12, it13, it14, it15, it16, it17, it18, it19, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem r_seg1_arg10 (VR : Valuation τ sig (Elt Ideal)) :
    StableHlo.after seg1 VR (Proc.devRef .tc main_arg10) = VR (Proc.devRef .tc main_arg10) := by unwritten1

theorem r_seg1_arg11 (VR : Valuation τ sig (Elt Ideal)) :
    StableHlo.after seg1 VR (Proc.devRef .tc main_arg11) = VR (Proc.devRef .tc main_arg11) := by unwritten1

end RHost

/-! ## The two sides, over the launch contents -/

section Sides

variable (m : KMem) (ρ : Dev Cert.KernelIdeal.nD → PrngReg) (m' : RMem) (c : Dev Cert.KernelIdeal.nD)

/-- The weights and the biases as each program is launched with them, and the unselected rows, as arrays of extended reals. -/
abbrev kW : FVec Ideal (Sh2 2 16) .f32 := m ((c.tc : Thread Cert.KernelIdeal.nD Cert.KernelIdeal.τ).loc Cert.KernelIdeal.main_arg10)
abbrev kB : FVec Ideal (Sh1 16) .f32 := m ((c.tc : Thread Cert.KernelIdeal.nD Cert.KernelIdeal.τ).loc Cert.KernelIdeal.main_arg11)
abbrev rW : FVec Ideal (Sh2 2 16) .f32 := m' ((c.tc : Thread Cert.ReferenceIdeal.nD Cert.ReferenceIdeal.τ).loc Cert.ReferenceIdeal.main_arg10)
abbrev rB : FVec Ideal (Sh1 16) .f32 := m' ((c.tc : Thread Cert.ReferenceIdeal.nD Cert.ReferenceIdeal.τ).loc Cert.ReferenceIdeal.main_arg11)
abbrev kXuF : FVec Ideal (Sh2 100000 2) .f32 := kXu m ρ c
abbrev rXuF : FVec Ideal (Sh2 100000 2) .f32 := rXu m' c

section K
open Cert.KernelIdeal Cert.KernelIdeal.Gen

/-- The kernel's array at (j, n). -/
theorem K_side (j : Fin 16) (n : Fin 100000) :
    kXuncT m ρ c (ix2 j n) = (∑ k : Fin 2, kW m c (ix2 k j) * kXuF m ρ c (ix2 n k)) + kB m c (ix1 j) := by
  have e := exit0_at (V20 (F := Ideal) m ρ) c
    (transpose S2x100000 [1, 0] (kXuF m ρ c) transposes_S100000x2_S2x100000_1_0)
    (transpose S16x2 [1, 0] (kW m c) transposes_S2x16_S16x2_1_0)
    (shapeCast S16x1 (kB m c) shapeCasts_S16_S16x1)
    (k_v44 (W19 (F := Ideal) m ρ c))
    ((k_v45 (W19 (F := Ideal) m ρ c)).trans (congrArg (fun x => transpose S16x2 [1, 0] x transposes_S2x16_S16x2_1_0) (K_main_arg10 m ρ c)))
    ((k_v46 (W19 (F := Ideal) m ρ c)).trans (congrArg (fun x => shapeCast S16x1 x shapeCasts_S16_S16x1) (K_main_arg11 m ρ c))) j n
  refine ((congrFun (W21_arr (F := Ideal) m ρ c 3) (ix2 j n)).trans e).trans ?_
  refine congrArg₂ (· + ·) (Finset.sum_congr rfl fun k _ => ?_) (column_at (kB m c) _ j)
  exact congrArg₂ (· * ·) (transpose2_at (kW m c) _ j k) (transpose2_at (kXuF m ρ c) _ k n)

end K

section R
open Cert.ReferenceIdeal Cert.ReferenceIdeal.Hand

/-- The reference's array at (n, j). -/
theorem R_side (j : Fin 16) (n : Fin 100000) :
    rXunc m' c (ix2 n j) = (∑ k : Fin 2, rXuF m' c (ix2 n k) * rW m' c (ix2 k j)) + rB m' c (ix1 j) :=
  r_v39_at (RW1 (RV m' c)) (rXuF m' c) (rW m' c) (rB m' c) rfl (r_seg1_arg10 (RV m' c)) (r_seg1_arg11 (RV m' c)) j n

end R

end Sides

end Xunc

open Xunc

variable (m : KMem) (ρ : Dev Cert.KernelIdeal.nD → PrngReg) (m' : RMem) (c : Dev Cert.KernelIdeal.nD)

/-- Region 0's output is the transpose of the reference's linear layer: the same sum with the factors commuted. -/
theorem P_xunc (h : Agree m m' c) (hxu : kXu m ρ c = rXu m' c) :
    ∀ (j : Fin 16) (n : Fin 100000), kXuncT m ρ c (ix2 j n) = rXunc m' c (ix2 n j) := by
  intro j n
  obtain ⟨-, -, -, -, -, -, -, -, -, -, h10, h11, -⟩ := h
  have hx : kXuF m ρ c = rXuF m' c := hxu
  have hw : rW m' c = kW m c := h10
  have hb : rB m' c = kB m c := h11
  refine (K_side m ρ c j n).trans (Eq.trans ?_ (R_side m' c j n).symm)
  refine congrArg₂ (· + ·) (Finset.sum_congr rfl fun k _ => ?_) (congrFun hb.symm (ix1 j))
  exact (mul_comm _ _).trans (congrArg₂ (· * ·) (congrFun hx (ix2 n k)) (congrFun hw.symm (ix2 k j)))

end Cert.Bridge

end
-- ==== Proof.PAgg1.lean ====
import proofs.«402058_j52493090292432_1_alg».proof.Proof.Iface

/-! The first segment sum is the same array in both programs. -/

set_option maxRecDepth 4096

noncomputable section

namespace Cert.ReferenceIdeal.Hand.Agg1

open Cert.ReferenceIdeal Cert.ReferenceIdeal.Gen Idealize.ShloMosaic Idealize.ShloMosaic.TcCoe Idealize.SL.Sem Idealize.ShloMosaic.StableHlo

variable {F : FTy → Type} [FloatOps F]

/-- The reference's third segment up to the rows of `x` the mask selects (`main_v46`). -/
abbrev seg3a : List (HloOp τ sig (Elt F)) :=
  [ StableHlo.nullary main_c_15 (constantI S_ 32 0#32),
    StableHlo.unary main_c_15 main_v40 (broadcastInDim S100000 ![] bcast_S_S100000 : (⟨S_, .i32⟩ : BufTy).Contents (Elt F) → (⟨S100000, .i32⟩ : BufTy).Contents (Elt F)),
    StableHlo.binary main_v13 main_v40 main_v41 (cmpi .slt : (⟨S100000, .i32⟩ : BufTy).Contents (Elt F) → (⟨S100000, .i32⟩ : BufTy).Contents (Elt F) → (⟨S100000, .i1⟩ : BufTy).Contents (Elt F)),
    StableHlo.nullary main_c_16 (constantI S_ 32 200000#32),
    StableHlo.unary main_c_16 main_v42 (broadcastInDim S100000 ![] bcast_S_S100000 : (⟨S_, .i32⟩ : BufTy).Contents (Elt F) → (⟨S100000, .i32⟩ : BufTy).Contents (Elt F)),
    StableHlo.binary main_v13 main_v42 main_v43 (addi : (⟨S100000, .i32⟩ : BufTy).Contents (Elt F) → (⟨S100000, .i32⟩ : BufTy).Contents (Elt F) → (⟨S100000, .i32⟩ : BufTy).Contents (Elt F)),
    StableHlo.ternary main_v41 main_v43 main_v13 main_v44 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v44 main_v45 (broadcastInDim S100000x1 ![0] bcast_S100000_S100000x1_0 : (⟨S100000, .i32⟩ : BufTy).Contents (Elt F) → (⟨S100000x1, .i32⟩ : BufTy).Contents (Elt F)),
    StableHlo.binary main_arg0 main_v45 main_v46 ((fun x i => Host.gather gather_S200000x2_S100000x1_S100000x2_1_0_n_n_0_1_12 x i) : (⟨S200000x2, .f32⟩ : BufTy).Contents (Elt F) → (⟨S100000x1, .i32⟩ : BufTy).Contents (Elt F) → (⟨S100000x2, .f32⟩ : BufTy).Contents (Elt F)) ]

/-- The rest of the third segment: the edges' two rows, the sources' rows of the selected rows, their sum into the targets. -/
abbrev seg3b : List (HloOp τ sig (Elt F)) :=
  [ StableHlo.unary main_arg3 main_v47 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v47 main_v48 rfl shapeCasts_S1x3200000_S3200000,
    StableHlo.unary main_arg3 main_v49 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v49 main_v50 rfl shapeCasts_S1x3200000_S3200000,
    StableHlo.nullary main_c_17 (constantI S_ 32 0#32),
    StableHlo.unary main_c_17 main_v51 (broadcastInDim S3200000 ![] bcast_S_S3200000 : (⟨S_, .i32⟩ : BufTy).Contents (Elt F) → (⟨S3200000, .i32⟩ : BufTy).Contents (Elt F)),
    StableHlo.binary main_v48 main_v51 main_v52 (cmpi .slt : (⟨S3200000, .i32⟩ : BufTy).Contents (Elt F) → (⟨S3200000, .i32⟩ : BufTy).Contents (Elt F) → (⟨S3200000, .i1⟩ : BufTy).Contents (Elt F)),
    StableHlo.nullary main_c_18 (constantI S_ 32 100000#32),
    StableHlo.unary main_c_18 main_v53 (broadcastInDim S3200000 ![] bcast_S_S3200000 : (⟨S_, .i32⟩ : BufTy).Contents (Elt F) → (⟨S3200000, .i32⟩ : BufTy).Contents (Elt F)),
    StableHlo.binary main_v48 main_v53 main_v54 (addi : (⟨S3200000, .i32⟩ : BufTy).Contents (Elt F) → (⟨S3200000, .i32⟩ : BufTy).Contents (Elt F) → (⟨S3200000, .i32⟩ : BufTy).Contents (Elt F)),
    StableHlo.ternary main_v52 main_v54 main_v48 main_v55 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v55 main_v56 (broadcastInDim S3200000x1 ![0] bcast_S3200000_S3200000x1_0 : (⟨S3200000, .i32⟩ : BufTy).Contents (Elt F) → (⟨S3200000x1, .i32⟩ : BufTy).Contents (Elt F)),
    StableHlo.binary main_v46 main_v56 main_v57 ((fun x i => Host.gather gather_S100000x2_S3200000x1_S3200000x2_1_0_n_n_0_1_12 x i) : (⟨S100000x2, .f32⟩ : BufTy).Contents (Elt F) → (⟨S3200000x1, .i32⟩ : BufTy).Contents (Elt F) → (⟨S3200000x2, .f32⟩ : BufTy).Contents (Elt F)),
    StableHlo.nullary main_cst (constant S_ .f32 0x00000000#32),
    StableHlo.unary main_cst main_v58 (broadcastInDim S100000x2 ![] bcast_S_S100000x2 : (⟨S_, .f32⟩ : BufTy).Contents (Elt F) → (⟨S100000x2, .f32⟩ : BufTy).Contents (Elt F)),
    StableHlo.unary main_v50 main_v59 (broadcastInDim S3200000x1 ![0] bcast_S3200000_S3200000x1_0 : (⟨S3200000, .i32⟩ : BufTy).Contents (Elt F) → (⟨S3200000x1, .i32⟩ : BufTy).Contents (Elt F)),
    StableHlo.ternary main_v58 main_v59 main_v57 main_v60 ((fun x i u => Host.scatterAdd scatter_S100000x2_S3200000x1_S3200000x2_1_0_0_1 x i u) : (⟨S100000x2, .f32⟩ : BufTy).Contents (Elt F) → (⟨S3200000x1, .i32⟩ : BufTy).Contents (Elt F) → (⟨S3200000x2, .f32⟩ : BufTy).Contents (Elt F) → (⟨S100000x2, .f32⟩ : BufTy).Contents (Elt F)) ]

theorem seg3_cut : (seg3 : List (HloOp τ sig (Elt F))) = seg3a ++ seg3b := rfl

theorem seg3_after (V : Valuation τ sig (Elt F)) : after seg3 V = after seg3b (after seg3a V) := by
  rw [seg3_cut, StableHlo.after_append]

end Cert.ReferenceIdeal.Hand.Agg1

namespace Cert.Bridge

open Idealize.ShloMosaic Idealize.ShloMosaic.TcCoe Idealize.SL.Sem Idealize.ShloMosaic.StableHlo Idealize.ShloMosaic.ValueIdx

variable (m : KMem) (ρ : Dev Cert.KernelIdeal.nD → PrngReg) (m' : RMem) (c : Dev Cert.KernelIdeal.nD)

/-! ## The edge list is as launched wherever it is read -/

/-- The edge list is written by no operation of the listed stretch of the kernel's program. -/
local macro "k_unwritten" : tactic => `(tactic| (
  refine StableHlo.after_of_forall_not_mem (b := Proc.devRef .tc Cert.KernelIdeal.main_arg3) _ _ (List.forall_iff_forall_mem.mp ?_)
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)))

/-- The edge list is written by no operation of the listed stretch of the reference. -/
local macro "r_unwritten" : tactic => `(tactic| (
  refine StableHlo.after_of_forall_not_mem (b := Proc.devRef .tc Cert.ReferenceIdeal.main_arg3) _ _ (List.forall_iff_forall_mem.mp ?_)
  simp only [Cert.ReferenceIdeal.Hand.seg1, Cert.ReferenceIdeal.Hand.seg2, Cert.ReferenceIdeal.Hand.seg3, Cert.ReferenceIdeal.Hand.seg4, Cert.ReferenceIdeal.Hand.Agg1.seg3a, Cert.ReferenceIdeal.Hand.it0, Cert.ReferenceIdeal.Hand.it1, Cert.ReferenceIdeal.Hand.it2, Cert.ReferenceIdeal.Hand.it3, Cert.ReferenceIdeal.Hand.it4, Cert.ReferenceIdeal.Hand.it5, Cert.ReferenceIdeal.Hand.it6, Cert.ReferenceIdeal.Hand.it7, Cert.ReferenceIdeal.Hand.it8, Cert.ReferenceIdeal.Hand.it9, Cert.ReferenceIdeal.Hand.it10, Cert.ReferenceIdeal.Hand.it11, Cert.ReferenceIdeal.Hand.it12, Cert.ReferenceIdeal.Hand.it13, Cert.ReferenceIdeal.Hand.it14, Cert.ReferenceIdeal.Hand.it15, Cert.ReferenceIdeal.Hand.it16, Cert.ReferenceIdeal.Hand.it17, Cert.ReferenceIdeal.Hand.it18, Cert.ReferenceIdeal.Hand.it19, Cert.ReferenceIdeal.Hand.it20, Cert.ReferenceIdeal.Hand.it21, Cert.ReferenceIdeal.Hand.it22, Cert.ReferenceIdeal.Hand.it23, Cert.ReferenceIdeal.Hand.it24, Cert.ReferenceIdeal.Hand.it25, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)))

/-- At region 0's exit the kernel's edge list is the launched one. -/
theorem agg1_kEdges : Cert.KernelIdeal.Gen.W21 (F := Ideal) m ρ c (Proc.devRef .tc Cert.KernelIdeal.main_arg3) = m ((c.tc : Thread Cert.KernelIdeal.nD Cert.KernelIdeal.τ).loc Cert.KernelIdeal.main_arg3) :=
  calc Cert.KernelIdeal.Gen.W21 (F := Ideal) m ρ c (Proc.devRef .tc Cert.KernelIdeal.main_arg3)
    _ = Cert.KernelIdeal.Gen.W20 (F := Ideal) m ρ c (Proc.devRef .tc Cert.KernelIdeal.main_arg3) := Cert.KernelIdeal.Gen.W21_of_ne m ρ c Cert.KernelIdeal.main_arg3 (by decide)
    _ = Cert.KernelIdeal.Gen.W19 (F := Ideal) m ρ c (Proc.devRef .tc Cert.KernelIdeal.main_arg3) := by k_unwritten
    _ = Cert.KernelIdeal.Gen.W18 (F := Ideal) m ρ c (Proc.devRef .tc Cert.KernelIdeal.main_arg3) := by k_unwritten
    _ = Cert.KernelIdeal.Gen.W17 (F := Ideal) m ρ c (Proc.devRef .tc Cert.KernelIdeal.main_arg3) := by k_unwritten
    _ = Cert.KernelIdeal.Gen.W16 (F := Ideal) m ρ c (Proc.devRef .tc Cert.KernelIdeal.main_arg3) := by k_unwritten
    _ = Cert.KernelIdeal.Gen.W15 (F := Ideal) m ρ c (Proc.devRef .tc Cert.KernelIdeal.main_arg3) := by k_unwritten
    _ = Cert.KernelIdeal.Gen.W14 (F := Ideal) m ρ c (Proc.devRef .tc Cert.KernelIdeal.main_arg3) := by k_unwritten
    _ = Cert.KernelIdeal.Gen.W13 (F := Ideal) m ρ c (Proc.devRef .tc Cert.KernelIdeal.main_arg3) := by k_unwritten
    _ = Cert.KernelIdeal.Gen.W12 (F := Ideal) m ρ c (Proc.devRef .tc Cert.KernelIdeal.main_arg3) := by k_unwritten
    _ = Cert.KernelIdeal.Gen.W11 (F := Ideal) m ρ c (Proc.devRef .tc Cert.KernelIdeal.main_arg3) := by k_unwritten
    _ = Cert.KernelIdeal.Gen.W10 (F := Ideal) m ρ c (Proc.devRef .tc Cert.KernelIdeal.main_arg3) := by k_unwritten
    _ = Cert.KernelIdeal.Gen.W9 (F := Ideal) m ρ c (Proc.devRef .tc Cert.KernelIdeal.main_arg3) := by k_unwritten
    _ = Cert.KernelIdeal.Gen.W8 (F := Ideal) m ρ c (Proc.devRef .tc Cert.KernelIdeal.main_arg3) := by k_unwritten
    _ = Cert.KernelIdeal.Gen.W7 (F := Ideal) m ρ c (Proc.devRef .tc Cert.KernelIdeal.main_arg3) := by k_unwritten
    _ = Cert.KernelIdeal.Gen.W6 (F := Ideal) m ρ c (Proc.devRef .tc Cert.KernelIdeal.main_arg3) := by k_unwritten
    _ = Cert.KernelIdeal.Gen.W5 (F := Ideal) m ρ c (Proc.devRef .tc Cert.KernelIdeal.main_arg3) := by k_unwritten
    _ = Cert.KernelIdeal.Gen.W4 (F := Ideal) m ρ c (Proc.devRef .tc Cert.KernelIdeal.main_arg3) := by k_unwritten
    _ = Cert.KernelIdeal.Gen.W3 (F := Ideal) m ρ c (Proc.devRef .tc Cert.KernelIdeal.main_arg3) := by k_unwritten
    _ = Cert.KernelIdeal.Gen.W2 (F := Ideal) m ρ c (Proc.devRef .tc Cert.KernelIdeal.main_arg3) := by k_unwritten
    _ = Cert.KernelIdeal.Gen.W1 (F := Ideal) m ρ c (Proc.devRef .tc Cert.KernelIdeal.main_arg3) := by k_unwritten
    _ = Cert.KernelIdeal.Gen.W0 (F := Ideal) m ρ c (Proc.devRef .tc Cert.KernelIdeal.main_arg3) := by k_unwritten
    _ = m ((c.tc : Thread Cert.KernelIdeal.nD Cert.KernelIdeal.τ).loc Cert.KernelIdeal.main_arg3) := rfl

/-- After its second segment the reference's edge list is the launched one. -/
theorem agg1_rEdges : Cert.ReferenceIdeal.Hand.RW2 (RV m' c) (Proc.devRef .tc Cert.ReferenceIdeal.main_arg3) = m' ((c.tc : Thread Cert.ReferenceIdeal.nD Cert.ReferenceIdeal.τ).loc Cert.ReferenceIdeal.main_arg3) :=
  calc Cert.ReferenceIdeal.Hand.RW2 (RV m' c) (Proc.devRef .tc Cert.ReferenceIdeal.main_arg3)
    _ = Cert.ReferenceIdeal.Hand.RW1 (RV m' c) (Proc.devRef .tc Cert.ReferenceIdeal.main_arg3) := by r_unwritten
    _ = RV m' c (Proc.devRef .tc Cert.ReferenceIdeal.main_arg3) := by r_unwritten
    _ = m' ((c.tc : Thread Cert.ReferenceIdeal.nD Cert.ReferenceIdeal.τ).loc Cert.ReferenceIdeal.main_arg3) := rfl

/-- The first part of the third segment leaves the edge list alone. -/
theorem agg1_head_edges (VR : Valuation Cert.ReferenceIdeal.τ Cert.ReferenceIdeal.sig (Elt Ideal)) :
    StableHlo.after Cert.ReferenceIdeal.Hand.Agg1.seg3a VR (Proc.devRef .tc Cert.ReferenceIdeal.main_arg3) = VR (Proc.devRef .tc Cert.ReferenceIdeal.main_arg3) := by r_unwritten

/-! ## The segment sum, from equal rows and equal edges -/

/-- The rest of the third segment leaves the selected rows alone. -/
theorem agg1_rest_rows (VR : Valuation Cert.ReferenceIdeal.τ Cert.ReferenceIdeal.sig (Elt Ideal)) :
    StableHlo.after Cert.ReferenceIdeal.Hand.Agg1.seg3b VR (Proc.devRef .tc Cert.ReferenceIdeal.main_v46) = VR (Proc.devRef .tc Cert.ReferenceIdeal.main_v46) := by
  simp only [Cert.ReferenceIdeal.Hand.Agg1.seg3b]
  after_results_simp

/-- Both programs slice the edge list into sources and targets, wrap negative sources, gather the sources' rows, and add
    them into a zero array at the targets: from equal rows and equal edge lists, equal sums. -/
theorem agg1_rel (VK : Valuation Cert.KernelIdeal.τ Cert.KernelIdeal.sig (Elt Ideal)) (VR : Valuation Cert.ReferenceIdeal.τ Cert.ReferenceIdeal.sig (Elt Ideal))
    (hx : (VK (Proc.devRef .tc Cert.KernelIdeal.main_v35) : Vec Ideal (Sh2 100000 2) .f32) = VR (Proc.devRef .tc Cert.ReferenceIdeal.main_v46))
    (he : (VK (Proc.devRef .tc Cert.KernelIdeal.main_arg3) : IVec (Sh2 2 3200000) 32) = VR (Proc.devRef .tc Cert.ReferenceIdeal.main_arg3)) :
    (StableHlo.after Cert.KernelIdeal.Gen.hostOps1 VK (Proc.devRef .tc Cert.KernelIdeal.main_v61) : Vec Ideal (Sh2 100000 2) .f32)
      = StableHlo.after Cert.ReferenceIdeal.Hand.Agg1.seg3b VR (Proc.devRef .tc Cert.ReferenceIdeal.main_v60) := by
  simp only [Cert.KernelIdeal.Gen.hostOps1, Cert.ReferenceIdeal.Hand.Agg1.seg3b]
  after_results_simp
  rw [hx, he]
  rfl

theorem P_agg1 (h : Agree m m' c) (hxg : kXg m ρ c = rXg m' c) : kAgg1 m ρ c = rAgg1 m' c := by
  have hR : rAgg1 m' c = StableHlo.after Cert.ReferenceIdeal.Hand.Agg1.seg3b (StableHlo.after Cert.ReferenceIdeal.Hand.Agg1.seg3a (Cert.ReferenceIdeal.Hand.RW2 (RV m' c))) (Proc.devRef .tc Cert.ReferenceIdeal.main_v60) :=
    congrFun (Cert.ReferenceIdeal.Hand.Agg1.seg3_after _) _
  have hX : rXg m' c = StableHlo.after Cert.ReferenceIdeal.Hand.Agg1.seg3a (Cert.ReferenceIdeal.Hand.RW2 (RV m' c)) (Proc.devRef .tc Cert.ReferenceIdeal.main_v46) :=
    (congrFun (Cert.ReferenceIdeal.Hand.Agg1.seg3_after _) _).trans (agg1_rest_rows _)
  refine (agg1_rel (Cert.KernelIdeal.Gen.W21 (F := Ideal) m ρ c) (StableHlo.after Cert.ReferenceIdeal.Hand.Agg1.seg3a (Cert.ReferenceIdeal.Hand.RW2 (RV m' c))) ?_ ?_).trans hR.symm
  · exact ((Cert.KernelIdeal.Gen.W21_of_ne m ρ c Cert.KernelIdeal.main_v35 (by decide)).trans hxg).trans hX
  · exact (agg1_kEdges m ρ c).trans (h.2.2.2.1.symm.trans ((agg1_head_edges _).trans (agg1_rEdges m' c)).symm)

end Cert.Bridge

end
-- ==== Proof.PH1.lean ====
import proofs.«402058_j52493090292432_1_alg».proof.Proof.Iface
import Idealize.ShloMosaic.Lib.StableHlo.Run
import Idealize.ShloMosaic.Lib.Pipeline.Value
import Idealize.ShloMosaic.PureOps.Ideal.Laws

/-! The first graph layer: the kernel's region 1 leaves the transpose of the reference's array.

    Both programs compute, for node n and feature j,
      max ( (Σ_k agg1[n,k]·w_rel[k,j] + Σ_k xg[n,k]·w_root[k,j]) + b[j] , 0 ).
    The reference does it row-major with two products of a 100000×2 by a 2×8 matrix. The kernel's region works on the
    transposes: its five input arrays are the transposes of agg1, xg, w_rel, w_root and the bias as a column, it forms
    w_relᵀ·agg1ᵀ + w_rootᵀ·xgᵀ, adds the column to every column, takes the maximum with zero, and has one grid point whose
    blocks are the whole arrays. Entry by entry the two results differ only in the order of each product's two factors. -/

noncomputable section

namespace Cert.Bridge.H1

open Idealize.ShloMosaic Idealize.ShloMosaic.TcCoe Idealize.SL.Sem Idealize.ShloMosaic.StableHlo Idealize.ShloMosaic.ValueIdx
open scoped BigOperators

/-! ## The region's arithmetic at an entry -/

section KernelValue
open Cert.KernelIdeal Cert.KernelIdeal.Gen

theorem kdot_lhs_0 (i : S8x100000.Idx) (q : dot_S8x2_S2x100000_S8x100000_1_0_0_1_n_n.contr.Idx) :
    (dot_S8x2_S2x100000_S8x100000_1_0_0_1_n_n.lhsIdx i q 0).val = (i 0).val := by
  unfold DotDims.lhsIdx
  rw [dif_neg (show ¬(0 : Fin S8x2.rank) ∈ dot_S8x2_S2x100000_S8x100000_1_0_0_1_n_n.lhsBatch by decide), dif_pos (show (0 : Fin S8x2.rank) ∈ dot_S8x2_S2x100000_S8x100000_1_0_0_1_n_n.lhsNonContracting by decide)]
  rfl
theorem kdot_lhs_1 (i : S8x100000.Idx) (q : dot_S8x2_S2x100000_S8x100000_1_0_0_1_n_n.contr.Idx) :
    (dot_S8x2_S2x100000_S8x100000_1_0_0_1_n_n.lhsIdx i q 1).val = (q ⟨0, by decide⟩).val :=
  dot_S8x2_S2x100000_S8x100000_1_0_0_1_n_n.lhsIdx_val_of_single rfl i q
theorem kdot_rhs_0 (i : S8x100000.Idx) (q : dot_S8x2_S2x100000_S8x100000_1_0_0_1_n_n.contr.Idx) :
    (dot_S8x2_S2x100000_S8x100000_1_0_0_1_n_n.rhsIdx i q 0).val = (q ⟨0, by decide⟩).val :=
  dot_S8x2_S2x100000_S8x100000_1_0_0_1_n_n.rhsIdx_val_of_single rfl i q
theorem kdot_rhs_1 (i : S8x100000.Idx) (q : dot_S8x2_S2x100000_S8x100000_1_0_0_1_n_n.contr.Idx) :
    (dot_S8x2_S2x100000_S8x100000_1_0_0_1_n_n.rhsIdx i q 1).val = (i 1).val := by
  unfold DotDims.rhsIdx
  rw [dif_neg (show ¬(1 : Fin S2x100000.rank) ∈ dot_S8x2_S2x100000_S8x100000_1_0_0_1_n_n.rhsBatch by decide), dif_pos (show (1 : Fin S2x100000.rank) ∈ dot_S8x2_S2x100000_S8x100000_1_0_0_1_n_n.rhsNonContracting by decide)]
  rfl

/-- A product of an 8×2 by a 2×100000 matrix into a zero accumulator, at entry (j, n): the sum over the two contracted
    positions. -/
theorem kmatmul_apply (A : FVec Ideal S8x2 .bf16) (B : FVec Ideal S2x100000 .bf16) (j : Fin 8) (n : Fin 100000) :
    matmul dot_S8x2_S2x100000_S8x100000_1_0_0_1_n_n none A B (constant S8x100000 .f32 0x00000000#32) (ix2 j n)
      = ∑ k : Fin 2, A (ix2 j k) * B (ix2 k n) := by
  show FloatOps.matmul _ none A B _ (ix2 j n) = _
  rw [Ideal.matmul_constant_zero_apply, ← Equiv.sum_comp (contrEquiv1 dot_S8x2_S2x100000_S8x100000_1_0_0_1_n_n 2 rfl rfl).symm]
  refine Finset.sum_congr rfl fun k _ => ?_
  have hk := contrEquiv1_symm_val dot_S8x2_S2x100000_S8x100000_1_0_0_1_n_n 2 rfl rfl k
  have el : dot_S8x2_S2x100000_S8x100000_1_0_0_1_n_n.lhsIdx (ix2 j n) ((contrEquiv1 dot_S8x2_S2x100000_S8x100000_1_0_0_1_n_n 2 rfl rfl).symm k) = ix2 j k := funext fun a => Fin.ext (by
    match a with
    | ⟨0, _⟩ => exact kdot_lhs_0 _ _
    | ⟨1, _⟩ => exact (kdot_lhs_1 _ _).trans hk)
  have er : dot_S8x2_S2x100000_S8x100000_1_0_0_1_n_n.rhsIdx (ix2 j n) ((contrEquiv1 dot_S8x2_S2x100000_S8x100000_1_0_0_1_n_n 2 rfl rfl).symm k) = ix2 k n := funext fun a => Fin.ext (by
    match a with
    | ⟨0, _⟩ => exact (kdot_rhs_0 _ _).trans hk
    | ⟨1, _⟩ => exact kdot_rhs_1 _ _)
  rw [el, er]

/-- The column of biases spread over each row's 100000 entries reads, at (j, n), its entry j. -/
theorem kbias_apply (v : S8x1.Idx → EReal) (h : S8x1.Broadcasts S8x100000) (j : Fin 8) (n : Fin 100000) :
    broadcastTo S8x100000 v h (ix2 j n) = v (ix2 j (0 : Fin 1)) := by
  refine broadcastTo_apply v h (ix2 j n) (ix2 j (0 : Fin 1)) fun ax => ?_
  match ax with
  | ⟨0, _⟩ => rfl
  | ⟨1, _⟩ => rfl

/-- The body's arithmetic at entry (j, n): the two products' sums, the bias, and the maximum with zero. -/
theorem pay_apply (x0 x1 : Vec Ideal S2x100000 .f32) (x2 x3 : Vec Ideal S8x2 .f32) (x4 : Vec Ideal S8x1 .f32)
    (j : Fin 8) (n : Fin 100000) :
    k1_pay1 (F := Ideal) x0 x1 x2 x3 x4 (ix2 j n)
      = max (((∑ k : Fin 2, x2 (ix2 j k) * x0 (ix2 k n)) + (∑ k : Fin 2, x3 (ix2 j k) * x1 (ix2 k n))) + x4 (ix2 j (0 : Fin 1))) 0 := by
  unfold k1_pay1
  simp only [shapeCast_self]
  refine (maximumf_apply _ _ _).trans ?_
  refine congrArg₂ max ?_ ?_
  · refine (addf_apply _ _ _).trans ?_
    refine congrArg₂ (· + ·) ?_ ?_
    · refine (addf_apply _ _ _).trans ?_
      refine congrArg₂ (· + ·) ?_ ?_
      · exact kmatmul_apply _ _ j n
      · exact kmatmul_apply _ _ j n
    · exact kbias_apply _ _ j n
  · show Ideal.ofBits .f32 0x00000000#32 = 0
    exact Ideal.ofBits_zero_f32

/-- A transposed 100000×2 array at (k, n) is the array at (n, k). -/
theorem tr_2xN_apply (x : S100000x2.Idx → EReal) (k : Fin 2) (n : Fin 100000) :
    transpose S2x100000 [1, 0] x transposes_S100000x2_S2x100000_1_0 (ix2 k n) = x (ix2 n k) :=
  transpose_apply _ x _ (ix2 k n) (ix2 n k) fun b => by
    match b with
    | ⟨0, _⟩ => rfl
    | ⟨1, _⟩ => rfl

/-- A transposed 2×8 array at (j, k) is the array at (k, j). -/
theorem tr_8x2_apply (x : S2x8.Idx → EReal) (j : Fin 8) (k : Fin 2) :
    transpose S8x2 [1, 0] x transposes_S2x8_S8x2_1_0 (ix2 j k) = x (ix2 k j) :=
  transpose_apply _ x _ (ix2 j k) (ix2 k j) fun b => by
    match b with
    | ⟨0, _⟩ => rfl
    | ⟨1, _⟩ => rfl

/-- The bias as a column, at (j, 0), is its entry j. -/
theorem col_apply (b : S8.Idx → EReal) (j : Fin 8) :
    shapeCast S8x1 b shapeCasts_S8_S8x1 (ix2 j (0 : Fin 1)) = b (ix1 j) :=
  shapeCast_apply b _ (ix2 j (0 : Fin 1)) (ix1 j)
    ((Shape.rowMajor_val_one (ix1 j)).trans ((Shape.rowMajor_val_two (ix2 j (0 : Fin 1))).trans (by
      show j.val * 1 + 0 = j.val
      omega)).symm)

/-- The body on the transposed operands, at entry (j, n), in the operands' own coordinates. -/
theorem kernel_val (a x : S100000x2.Idx → EReal) (w4 w5 : S2x8.Idx → EReal) (b : S8.Idx → EReal) (j : Fin 8) (n : Fin 100000) :
    k1_pay1 (F := Ideal) (transpose S2x100000 [1, 0] a transposes_S100000x2_S2x100000_1_0)
        (transpose S2x100000 [1, 0] x transposes_S100000x2_S2x100000_1_0)
        (transpose S8x2 [1, 0] w4 transposes_S2x8_S8x2_1_0) (transpose S8x2 [1, 0] w5 transposes_S2x8_S8x2_1_0)
        (shapeCast S8x1 b shapeCasts_S8_S8x1) (ix2 j n)
      = max (((∑ k : Fin 2, w4 (ix2 k j) * a (ix2 n k)) + (∑ k : Fin 2, w5 (ix2 k j) * x (ix2 n k))) + b (ix1 j)) 0 := by
  rw [pay_apply]
  exact congrArg₂ max (congrArg₂ (· + ·) (congrArg₂ (· + ·)
      (Finset.sum_congr rfl fun k _ => congrArg₂ (· * ·) (tr_8x2_apply w4 j k) (tr_2xN_apply a k n))
      (Finset.sum_congr rfl fun k _ => congrArg₂ (· * ·) (tr_8x2_apply w5 j k) (tr_2xN_apply x k n)))
    (col_apply b j)) rfl

end KernelValue

/-! ## From the region's blocks to its output array -/

section Region
open Cert.KernelIdeal Cert.KernelIdeal.Gen

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- Every window of the region sits at block (0, 0) at the grid's one point. -/
theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Each input window's block at the one point is its whole array: an entry of the block sits at
    block index × block size + its own coordinate, and the block index is 0. -/
theorem blk0 (t : Fin cfg1.N) : (iblk1 V c 0 t : Vec Ideal S2x100000 .f32) = (V c main_v62 : Vec Ideal S2x100000 .f32) := by
  obtain ⟨e0, e1, -⟩ := idx_facts t
  funext j
  show V c main_v62 (((cfg1.win 0).blk t).view.emb j) = V c main_v62 j
  refine congrArg _ (funext fun a => Fin.ext ?_)
  match a with
  | ⟨0, _⟩ => show win1_0.index t (0 : Fin 2) * 2 + 1 * (j 0).val = (j 0).val; rw [e0]; omega
  | ⟨1, _⟩ => show win1_0.index t (1 : Fin 2) * 100000 + 1 * (j 1).val = (j 1).val; rw [e1]; omega

theorem blk1 (t : Fin cfg1.N) : (iblk1 V c 1 t : Vec Ideal S2x100000 .f32) = (V c main_v43 : Vec Ideal S2x100000 .f32) := by
  obtain ⟨-, -, e0, e1, -⟩ := idx_facts t
  funext j
  show V c main_v43 (((cfg1.win 1).blk t).view.emb j) = V c main_v43 j
  refine congrArg _ (funext fun a => Fin.ext ?_)
  match a with
  | ⟨0, _⟩ => show win1_1.index t (0 : Fin 2) * 2 + 1 * (j 0).val = (j 0).val; rw [e0]; omega
  | ⟨1, _⟩ => show win1_1.index t (1 : Fin 2) * 100000 + 1 * (j 1).val = (j 1).val; rw [e1]; omega

theorem blk2 (t : Fin cfg1.N) : (iblk1 V c 2 t : Vec Ideal S8x2 .f32) = (V c main_v63 : Vec Ideal S8x2 .f32) := by
  obtain ⟨-, -, -, -, e0, e1, -⟩ := idx_facts t
  funext j
  show V c main_v63 (((cfg1.win 2).blk t).view.emb j) = V c main_v63 j
  refine congrArg _ (funext fun a => Fin.ext ?_)
  match a with
  | ⟨0, _⟩ => show win1_2.index t (0 : Fin 2) * 8 + 1 * (j 0).val = (j 0).val; rw [e0]; omega
  | ⟨1, _⟩ => show win1_2.index t (1 : Fin 2) * 2 + 1 * (j 1).val = (j 1).val; rw [e1]; omega

theorem blk3 (t : Fin cfg1.N) : (iblk1 V c 3 t : Vec Ideal S8x2 .f32) = (V c main_v64 : Vec Ideal S8x2 .f32) := by
  obtain ⟨-, -, -, -, -, -, e0, e1, -⟩ := idx_facts t
  funext j
  show V c main_v64 (((cfg1.win 3).blk t).view.emb j) = V c main_v64 j
  refine congrArg _ (funext fun a => Fin.ext ?_)
  match a with
  | ⟨0, _⟩ => show win1_3.index t (0 : Fin 2) * 8 + 1 * (j 0).val = (j 0).val; rw [e0]; omega
  | ⟨1, _⟩ => show win1_3.index t (1 : Fin 2) * 2 + 1 * (j 1).val = (j 1).val; rw [e1]; omega

theorem blk4 (t : Fin cfg1.N) : (iblk1 V c 4 t : Vec Ideal S8x1 .f32) = (V c main_v65 : Vec Ideal S8x1 .f32) := by
  obtain ⟨-, -, -, -, -, -, -, -, e0, e1, -⟩ := idx_facts t
  funext j
  show V c main_v65 (((cfg1.win 4).blk t).view.emb j) = V c main_v65 j
  refine congrArg _ (funext fun a => Fin.ext ?_)
  match a with
  | ⟨0, _⟩ => show win1_4.index t (0 : Fin 2) * 8 + 1 * (j 0).val = (j 0).val; rw [e0]; omega
  | ⟨1, _⟩ => show win1_4.index t (1 : Fin 2) * 1 + 1 * (j 1).val = (j 1).val; rw [e1]; omega

/-- The output window's block at the one point is the whole array too. -/
theorem out_blk (t : Fin cfg1.N) (G : Vec Ideal S8x100000 .f32) :
    (cfg1.win 5).cut (grid1.coords t) G = ((cfg1.win 5).blk t).view.read (Elt Ideal) G := by
  obtain ⟨-, -, -, -, -, -, -, -, -, -, e0, e1⟩ := idx_facts t
  funext j
  show G j = G (((cfg1.win 5).blk t).view.emb j)
  refine congrArg G (funext fun a => Fin.ext ?_)
  match a with
  | ⟨0, _⟩ => show (j 0).val = win1_5.index t (0 : Fin 2) * 8 + 1 * (j 0).val; rw [e0]; omega
  | ⟨1, _⟩ => show (j 1).val = win1_5.index t (1 : Fin 2) * 100000 + 1 * (j 1).val; rw [e1]; omega

/-- The body stores its result once, over the whole staging buffer, from whole-buffer loads. -/
theorem out_eq_pay (x0 x1 : Vec Ideal S2x100000 .f32) (x2 x3 : Vec Ideal S8x2 .f32) (x4 : Vec Ideal S8x1 .f32) :
    out1_5 x0 x1 x2 x3 x4 = k1_pay1 (F := Ideal) x0 x1 x2 x3 x4 := by
  unfold out1_5
  rw [View.canon_unit_zero hz]
  simp only [View.ld_unit_zero (S := S2x100000) hz, View.ld_unit_zero (S := S8x2) hz, View.ld_unit_zero (S := S8x1) hz]

/-- With one grid point whose blocks are the whole arrays, the output array ends holding the body's result on the
    input arrays as the region finds them. -/
theorem arr_eq : (dat1 V c).arrAt 5 cfg1.N
    = (out1_5 (V c main_v62) (V c main_v43) (V c main_v63) (V c main_v64) (V c main_v65) : Vec Ideal S8x100000 .f32) :=
  (dat1 V c).arrAt_eq_of_cover 5 _ (fun t _ => by
      show (cfg1.win 5).cut (grid1.coords t) ((dat1 V c).after 5 t) = _
      rw [after1_5, blk0, blk1, blk2, blk3, blk4]
      exact out_blk t _)
    (fun i => ⟨t1_0, flush1_5 t1_0, by
      obtain ⟨-, -, -, -, -, -, -, -, -, -, e0, e1⟩ := idx_facts t1_0
      show i ∈ ((View.whole main_v66).slice (win1_5.rect t1_0)).set
      rw [View.set_slice_whole, Rect.mem_set_unit]
      intro a
      have h0 : (i 0 : Nat) < 8 := (i 0).isLt
      have h1 : (i 1 : Nat) < 100000 := (i 1).isLt
      match a with
      | ⟨0, _⟩ => show win1_5.index t1_0 (0 : Fin 2) * 8 ≤ (i 0 : Nat) ∧ (i 0 : Nat) < win1_5.index t1_0 (0 : Fin 2) * 8 + 8; rw [e0]; omega
      | ⟨1, _⟩ => show win1_5.index t1_0 (1 : Fin 2) * 100000 ≤ (i 1 : Nat) ∧ (i 1 : Nat) < win1_5.index t1_0 (1 : Fin 2) * 100000 + 100000; rw [e1]; omega⟩)

/-- The same with the input arrays named. -/
theorem arr_eq_named (x0 x1 : Vec Ideal S2x100000 .f32) (x2 x3 : Vec Ideal S8x2 .f32) (x4 : Vec Ideal S8x1 .f32)
    (h0 : (V c main_v62 : Vec Ideal S2x100000 .f32) = x0) (h1 : (V c main_v43 : Vec Ideal S2x100000 .f32) = x1)
    (h2 : (V c main_v63 : Vec Ideal S8x2 .f32) = x2) (h3 : (V c main_v64 : Vec Ideal S8x2 .f32) = x3)
    (h4 : (V c main_v65 : Vec Ideal S8x1 .f32) = x4) :
    (dat1 V c).arrAt 5 cfg1.N = (k1_pay1 (F := Ideal) x0 x1 x2 x3 x4 : Vec Ideal S8x100000 .f32) := by
  subst h0 h1 h2 h3 h4
  exact (arr_eq V c).trans (out_eq_pay _ _ _ _ _)

end Region

/-! ## The host stretches around the region -/

section KernelHost
open Cert.KernelIdeal Cert.KernelIdeal.Gen

/-- The stretch before the region transposes the segment sum it has just computed … -/
theorem host1_v62 (V : Valuation τ sig (Elt Ideal)) :
    (StableHlo.after hostOps1 V (Proc.devRef .tc main_v62) : Vec Ideal S2x100000 .f32)
      = transpose S2x100000 [1, 0] (StableHlo.after hostOps1 V (Proc.devRef .tc main_v61) : Vec Ideal S100000x2 .f32) transposes_S100000x2_S2x100000_1_0 := by
  simp only [hostOps1]
  after_results_simp

/-- … and the two weight matrices, … -/
theorem host1_v63 (V : Valuation τ sig (Elt Ideal)) :
    (StableHlo.after hostOps1 V (Proc.devRef .tc main_v63) : Vec Ideal S8x2 .f32)
      = transpose S8x2 [1, 0] (V (Proc.devRef .tc main_arg4) : Vec Ideal S2x8 .f32) transposes_S2x8_S8x2_1_0 := by
  simp only [hostOps1]
  after_results_simp

theorem host1_v64 (V : Valuation τ sig (Elt Ideal)) :
    (StableHlo.after hostOps1 V (Proc.devRef .tc main_v64) : Vec Ideal S8x2 .f32)
      = transpose S8x2 [1, 0] (V (Proc.devRef .tc main_arg5) : Vec Ideal S2x8 .f32) transposes_S2x8_S8x2_1_0 := by
  simp only [hostOps1]
  after_results_simp

/-- … makes the bias a column, … -/
theorem host1_v65 (V : Valuation τ sig (Elt Ideal)) :
    (StableHlo.after hostOps1 V (Proc.devRef .tc main_v65) : Vec Ideal S8x1 .f32)
      = shapeCast S8x1 (V (Proc.devRef .tc main_arg6) : Vec Ideal S8 .f32) shapeCasts_S8_S8x1 := by
  simp only [hostOps1]
  after_results_simp
  rfl

/-- … and leaves the transposed selected rows alone. -/
theorem host1_v43 (V : Valuation τ sig (Elt Ideal)) :
    StableHlo.after hostOps1 V (Proc.devRef .tc main_v43) = V (Proc.devRef .tc main_v43) := by
  simp only [hostOps1]
  after_results_simp

/-- Those were transposed in the stretch that gathered them. -/
theorem host0_19_v43 (V : Valuation τ sig (Elt Ideal)) :
    (StableHlo.after hostOps0_19 V (Proc.devRef .tc main_v43) : Vec Ideal S2x100000 .f32)
      = transpose S2x100000 [1, 0] (StableHlo.after hostOps0_19 V (Proc.devRef .tc main_v35) : Vec Ideal S100000x2 .f32) transposes_S100000x2_S2x100000_1_0 := by
  simp only [hostOps0_19]
  after_results_simp

/-- One stretch of host operations back: none of them writes the buffer in hand. -/
local macro "kept_step" : tactic => `(tactic|
  refine (StableHlo.after_of_forall_not_mem _ _ (List.forall_iff_forall_mem.mp (by
    simp only [hostOps0, hostOps0_1, hostOps0_2, hostOps0_3, hostOps0_4, hostOps0_5, hostOps0_6, hostOps0_7, hostOps0_8, hostOps0_9,
      hostOps0_10, hostOps0_11, hostOps0_12, hostOps0_13, hostOps0_14, hostOps0_15, hostOps0_16, hostOps0_17, hostOps0_18, hostOps0_19,
      List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans ?_)

variable (m : KMem) (ρ : Dev nD → PrngReg) (c : Dev nD)

/-- The layer's weights and bias reach region 0's exit as launched: nothing before writes an argument. -/
theorem W21_arg4 : W21 (F := Ideal) m ρ c (Proc.devRef .tc main_arg4) = m ((c : Thread nD τ).loc main_arg4) := by
  refine (W21_of_ne m ρ c main_arg4 (by decide)).trans ?_
  iterate 20 kept_step
  rfl

theorem W21_arg5 : W21 (F := Ideal) m ρ c (Proc.devRef .tc main_arg5) = m ((c : Thread nD τ).loc main_arg5) := by
  refine (W21_of_ne m ρ c main_arg5 (by decide)).trans ?_
  iterate 20 kept_step
  rfl

theorem W21_arg6 : W21 (F := Ideal) m ρ c (Proc.devRef .tc main_arg6) = m ((c : Thread nD τ).loc main_arg6) := by
  refine (W21_of_ne m ρ c main_arg6 (by decide)).trans ?_
  iterate 20 kept_step
  rfl

end KernelHost

/-! ## The reference's layer -/

section Ref
open Cert.ReferenceIdeal Cert.ReferenceIdeal.Gen Cert.ReferenceIdeal.Hand

/-- The reference's layer as one term of the buffers its segment reads. -/
theorem ref_h1 (V : Valuation τ sig (Elt Ideal)) :
    (StableHlo.after seg4 V (Proc.devRef .tc main_v67) : FVec Ideal S100000x8 .f32)
      = maximumf (addf (addf (Host.dotGeneral (φ₁ := .f32) (φ₂ := .f32) dot_S100000x2_S2x8_S100000x8_1_0_0_1_n_n none (V (Proc.devRef .tc main_v60)) (V (Proc.devRef .tc main_arg4)))
            (Host.dotGeneral (φ₁ := .f32) (φ₂ := .f32) dot_S100000x2_S2x8_S100000x8_1_0_0_1_n_n none (V (Proc.devRef .tc main_v46)) (V (Proc.devRef .tc main_arg5))))
          (broadcastInDim S100000x8 ![0, 1] bcast_S1x8_S100000x8_0_1 (broadcastInDim S1x8 ![1] bcast_S8_S1x8_1 (V (Proc.devRef .tc main_arg6) : FVec Ideal S8 .f32))))
        (broadcastInDim S100000x8 ![] bcast_S_S100000x8 (constant (F := Ideal) S_ .f32 0x00000000#32)) := by
  simp only [seg4, it23, it24, List.flatten_cons, List.flatten_nil, List.append_nil, List.cons_append, List.nil_append]
  after_results_simp
  rfl

theorem rdot_lhs_0 (i : S100000x8.Idx) (q : dot_S100000x2_S2x8_S100000x8_1_0_0_1_n_n.contr.Idx) :
    (dot_S100000x2_S2x8_S100000x8_1_0_0_1_n_n.lhsIdx i q 0).val = (i 0).val := by
  unfold DotDims.lhsIdx
  rw [dif_neg (show ¬(0 : Fin S100000x2.rank) ∈ dot_S100000x2_S2x8_S100000x8_1_0_0_1_n_n.lhsBatch by decide), dif_pos (show (0 : Fin S100000x2.rank) ∈ dot_S100000x2_S2x8_S100000x8_1_0_0_1_n_n.lhsNonContracting by decide)]
  rfl
theorem rdot_lhs_1 (i : S100000x8.Idx) (q : dot_S100000x2_S2x8_S100000x8_1_0_0_1_n_n.contr.Idx) :
    (dot_S100000x2_S2x8_S100000x8_1_0_0_1_n_n.lhsIdx i q 1).val = (q ⟨0, by decide⟩).val :=
  dot_S100000x2_S2x8_S100000x8_1_0_0_1_n_n.lhsIdx_val_of_single rfl i q
theorem rdot_rhs_0 (i : S100000x8.Idx) (q : dot_S100000x2_S2x8_S100000x8_1_0_0_1_n_n.contr.Idx) :
    (dot_S100000x2_S2x8_S100000x8_1_0_0_1_n_n.rhsIdx i q 0).val = (q ⟨0, by decide⟩).val :=
  dot_S100000x2_S2x8_S100000x8_1_0_0_1_n_n.rhsIdx_val_of_single rfl i q
theorem rdot_rhs_1 (i : S100000x8.Idx) (q : dot_S100000x2_S2x8_S100000x8_1_0_0_1_n_n.contr.Idx) :
    (dot_S100000x2_S2x8_S100000x8_1_0_0_1_n_n.rhsIdx i q 1).val = (i 1).val := by
  unfold DotDims.rhsIdx
  rw [dif_neg (show ¬(1 : Fin S2x8.rank) ∈ dot_S100000x2_S2x8_S100000x8_1_0_0_1_n_n.rhsBatch by decide), dif_pos (show (1 : Fin S2x8.rank) ∈ dot_S100000x2_S2x8_S100000x8_1_0_0_1_n_n.rhsNonContracting by decide)]
  rfl

/-- The reference's product of a 100000×2 by a 2×8 matrix at entry (n, j): the sum over the two contracted positions. -/
theorem rdot_apply (A : FVec Ideal S100000x2 .f32) (B : FVec Ideal S2x8 .f32) (n : Fin 100000) (j : Fin 8) :
    Host.dotGeneral dot_S100000x2_S2x8_S100000x8_1_0_0_1_n_n none A B (ix2 n j) = ∑ k : Fin 2, A (ix2 n k) * B (ix2 k j) := by
  show FloatOps.dotGeneral _ none _ A B (ix2 n j) = _
  rw [Ideal.dotGeneral_apply, ← Equiv.sum_comp (contrEquiv1 dot_S100000x2_S2x8_S100000x8_1_0_0_1_n_n 2 rfl rfl).symm]
  refine Finset.sum_congr rfl fun k _ => ?_
  have hk := contrEquiv1_symm_val dot_S100000x2_S2x8_S100000x8_1_0_0_1_n_n 2 rfl rfl k
  have el : dot_S100000x2_S2x8_S100000x8_1_0_0_1_n_n.lhsIdx (ix2 n j) ((contrEquiv1 dot_S100000x2_S2x8_S100000x8_1_0_0_1_n_n 2 rfl rfl).symm k) = ix2 n k := funext fun a => Fin.ext (by
    match a with
    | ⟨0, _⟩ => exact rdot_lhs_0 _ _
    | ⟨1, _⟩ => exact (rdot_lhs_1 _ _).trans hk)
  have er : dot_S100000x2_S2x8_S100000x8_1_0_0_1_n_n.rhsIdx (ix2 n j) ((contrEquiv1 dot_S100000x2_S2x8_S100000x8_1_0_0_1_n_n 2 rfl rfl).symm k) = ix2 k j := funext fun a => Fin.ext (by
    match a with
    | ⟨0, _⟩ => exact (rdot_rhs_0 _ _).trans hk
    | ⟨1, _⟩ => exact rdot_rhs_1 _ _)
  rw [el, er]

/-- The bias row spread over the 100000 rows reads, at (n, j), its entry j. -/
theorem rbias_apply (b : S8.Idx → EReal) (n : Fin 100000) (j : Fin 8) :
    broadcastInDim S100000x8 ![0, 1] bcast_S1x8_S100000x8_0_1 (broadcastInDim S1x8 ![1] bcast_S8_S1x8_1 b) (ix2 n j) = b (ix1 j) := by
  refine (broadcastInDim_apply _ _ _ (ix2 n j) (ix2 (0 : Fin 1) j) fun a => ?_).trans ?_
  · match a with
    | ⟨0, _⟩ => rfl
    | ⟨1, _⟩ => rfl
  · refine broadcastInDim_apply _ _ _ (ix2 (0 : Fin 1) j) (ix1 j) fun a => ?_
    match a with
    | ⟨0, _⟩ => rfl

/-- The zero the maximum is taken against. -/
theorem rzero_apply (i : S100000x8.Idx) :
    broadcastInDim S100000x8 ![] bcast_S_S100000x8 (constant (F := Ideal) S_ .f32 0x00000000#32) i = 0 := by
  refine (broadcastInDim_apply _ _ _ i ix0 fun a => a.elim0).trans ?_
  show Ideal.ofBits .f32 0x00000000#32 = 0
  exact Ideal.ofBits_zero_f32

/-- The reference's layer at entry (n, j). -/
theorem ref_val (a x : FVec Ideal S100000x2 .f32) (w4 w5 : FVec Ideal S2x8 .f32) (b : FVec Ideal S8 .f32) (n : Fin 100000) (j : Fin 8) :
    maximumf (addf (addf (Host.dotGeneral dot_S100000x2_S2x8_S100000x8_1_0_0_1_n_n none a w4)
            (Host.dotGeneral dot_S100000x2_S2x8_S100000x8_1_0_0_1_n_n none x w5))
          (broadcastInDim S100000x8 ![0, 1] bcast_S1x8_S100000x8_0_1 (broadcastInDim S1x8 ![1] bcast_S8_S1x8_1 b)))
        (broadcastInDim S100000x8 ![] bcast_S_S100000x8 (constant (F := Ideal) S_ .f32 0x00000000#32)) (ix2 n j)
      = max (((∑ k : Fin 2, a (ix2 n k) * w4 (ix2 k j)) + (∑ k : Fin 2, x (ix2 n k) * w5 (ix2 k j))) + b (ix1 j)) 0 := by
  refine (maximumf_apply _ _ _).trans ?_
  refine congrArg₂ max ?_ (rzero_apply _)
  refine (addf_apply _ _ _).trans ?_
  refine congrArg₂ (· + ·) ?_ (rbias_apply b n j)
  refine (addf_apply _ _ _).trans ?_
  exact congrArg₂ (· + ·) (rdot_apply a w4 n j) (rdot_apply x w5 n j)

/-- The segment's result at entry (n, j), with the buffers it reads named. -/
theorem ref_named (V : Valuation τ sig (Elt Ideal)) (a x : FVec Ideal S100000x2 .f32) (w4 w5 : FVec Ideal S2x8 .f32) (b : FVec Ideal S8 .f32)
    (h0 : (V (Proc.devRef .tc main_v60) : FVec Ideal S100000x2 .f32) = a) (h1 : (V (Proc.devRef .tc main_v46) : FVec Ideal S100000x2 .f32) = x)
    (h2 : (V (Proc.devRef .tc main_arg4) : FVec Ideal S2x8 .f32) = w4) (h3 : (V (Proc.devRef .tc main_arg5) : FVec Ideal S2x8 .f32) = w5)
    (h4 : (V (Proc.devRef .tc main_arg6) : FVec Ideal S8 .f32) = b) (n : Fin 100000) (j : Fin 8) :
    (StableHlo.after seg4 V (Proc.devRef .tc main_v67) : FVec Ideal S100000x8 .f32) (ix2 n j)
      = max (((∑ k : Fin 2, a (ix2 n k) * w4 (ix2 k j)) + (∑ k : Fin 2, x (ix2 n k) * w5 (ix2 k j))) + b (ix1 j)) 0 := by
  subst h0 h1 h2 h3 h4
  exact (congrFun (ref_h1 V) (ix2 n j)).trans (ref_val _ _ _ _ _ n j)

/-- One segment back: none of its operations writes the buffer in hand. -/
local macro "rkept_step" : tactic => `(tactic|
  refine (StableHlo.after_of_forall_not_mem _ _ (List.forall_iff_forall_mem.mp (by
    simp only [seg1, seg2, seg3, it0, it1, it2, it3, it4, it5, it6, it7, it8, it9, it10, it11, it12, it13, it14, it15, it16, it17, it18, it19,
      it20, it21, it22, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans ?_)

/-- The first three segments write none of the layer's weights and bias. -/
theorem RW3_arg4 (V : Valuation τ sig (Elt Ideal)) : RW3 V (Proc.devRef .tc main_arg4) = V (Proc.devRef .tc main_arg4) := by
  rkept_step; rkept_step; rkept_step; rfl
theorem RW3_arg5 (V : Valuation τ sig (Elt Ideal)) : RW3 V (Proc.devRef .tc main_arg5) = V (Proc.devRef .tc main_arg5) := by
  rkept_step; rkept_step; rkept_step; rfl
theorem RW3_arg6 (V : Valuation τ sig (Elt Ideal)) : RW3 V (Proc.devRef .tc main_arg6) = V (Proc.devRef .tc main_arg6) := by
  rkept_step; rkept_step; rkept_step; rfl

end Ref

/-! ## The kernel's side, assembled -/

section KernelSide
open Cert.KernelIdeal Cert.KernelIdeal.Gen

variable (m : KMem) (ρ : Dev nD → PrngReg) (c : Dev nD)

/-- The layer's two weight matrices and its bias, as the kernel's program is launched with them. -/
abbrev kWrel : Vec Ideal (Sh2 2 8) .f32 := m ((c.tc : Thread nD τ).loc main_arg4)
abbrev kWroot : Vec Ideal (Sh2 2 8) .f32 := m ((c.tc : Thread nD τ).loc main_arg5)
abbrev kBias : Vec Ideal (Sh1 8) .f32 := m ((c.tc : Thread nD τ).loc main_arg6)

/-- Region 1's output at entry (j, n), in terms of the segment sum, the selected rows and the launched weights and bias. -/
theorem kH1T_apply (j : Fin 8) (n : Fin 100000) :
    kH1T m ρ c (ix2 j n)
      = max (((∑ k : Fin 2, kWrel m c (ix2 k j) * kAgg1 m ρ c (ix2 n k))
          + (∑ k : Fin 2, kWroot m c (ix2 k j) * kXg m ρ c (ix2 n k))) + kBias m c (ix1 j)) 0 := by
  have e0 : (V22 m ρ c main_v62 : Vec Ideal S2x100000 .f32)
      = transpose S2x100000 [1, 0] (kAgg1 m ρ c) transposes_S100000x2_S2x100000_1_0 := host1_v62 (W21 m ρ c)
  have e1 : (V22 m ρ c main_v43 : Vec Ideal S2x100000 .f32)
      = transpose S2x100000 [1, 0] (kXg m ρ c) transposes_S100000x2_S2x100000_1_0 :=
    (host1_v43 (W21 m ρ c)).trans ((W21_of_ne m ρ c main_v43 (by decide)).trans (host0_19_v43 (W19 m ρ c)))
  have e2 : (V22 m ρ c main_v63 : Vec Ideal S8x2 .f32) = transpose S8x2 [1, 0] (kWrel m c) transposes_S2x8_S8x2_1_0 :=
    (host1_v63 (W21 m ρ c)).trans (congrArg (fun x => transpose S8x2 [1, 0] x transposes_S2x8_S8x2_1_0) (W21_arg4 m ρ c))
  have e3 : (V22 m ρ c main_v64 : Vec Ideal S8x2 .f32) = transpose S8x2 [1, 0] (kWroot m c) transposes_S2x8_S8x2_1_0 :=
    (host1_v64 (W21 m ρ c)).trans (congrArg (fun x => transpose S8x2 [1, 0] x transposes_S2x8_S8x2_1_0) (W21_arg5 m ρ c))
  have e4 : (V22 m ρ c main_v65 : Vec Ideal S8x1 .f32) = shapeCast S8x1 (kBias m c) shapeCasts_S8_S8x1 :=
    (host1_v65 (W21 m ρ c)).trans (congrArg (fun x => shapeCast S8x1 x shapeCasts_S8_S8x1) (W21_arg6 m ρ c))
  have hK := (W23_arr m ρ c 5).trans (arr_eq_named (V22 m ρ) c _ _ _ _ _ e0 e1 e2 e3 e4)
  exact (congrFun hK (ix2 j n)).trans (kernel_val (kAgg1 m ρ c) (kXg m ρ c) (kWrel m c) (kWroot m c) (kBias m c) j n)

end KernelSide

/-- The order of each product's two factors does not matter. -/
theorem layer_comm (a x : (Sh2 100000 2).Idx → EReal) (w4 w5 : (Sh2 2 8).Idx → EReal) (b : (Sh1 8).Idx → EReal)
    (j : Fin 8) (n : Fin 100000) :
    max (((∑ k : Fin 2, w4 (ix2 k j) * a (ix2 n k)) + (∑ k : Fin 2, w5 (ix2 k j) * x (ix2 n k))) + b (ix1 j)) 0
      = max (((∑ k : Fin 2, a (ix2 n k) * w4 (ix2 k j)) + (∑ k : Fin 2, x (ix2 n k) * w5 (ix2 k j))) + b (ix1 j)) 0 := by
  have e1 : (∑ k : Fin 2, w4 (ix2 k j) * a (ix2 n k)) = ∑ k : Fin 2, a (ix2 n k) * w4 (ix2 k j) :=
    Finset.sum_congr rfl fun k _ => mul_comm _ _
  have e2 : (∑ k : Fin 2, w5 (ix2 k j) * x (ix2 n k)) = ∑ k : Fin 2, x (ix2 n k) * w5 (ix2 k j) :=
    Finset.sum_congr rfl fun k _ => mul_comm _ _
  rw [e1, e2]

end Cert.Bridge.H1

namespace Cert.Bridge

open Idealize.ShloMosaic Idealize.ShloMosaic.TcCoe Idealize.SL.Sem Idealize.ShloMosaic.StableHlo Idealize.ShloMosaic.ValueIdx
open scoped BigOperators

variable (m : KMem) (ρ : Dev Cert.KernelIdeal.nD → PrngReg) (m' : RMem) (c : Dev Cert.KernelIdeal.nD)

theorem P_h1 (h : Agree m m' c) (hxg : kXg m ρ c = rXg m' c) (hagg : kAgg1 m ρ c = rAgg1 m' c) :
    ∀ (j : Fin 8) (n : Fin 100000), kH1T m ρ c (ix2 j n) = rH1 m' c (ix2 n j) := by
  intro j n
  obtain ⟨-, -, -, -, h4, h5, h6, -⟩ := h
  refine (H1.kH1T_apply m ρ c j n).trans ((H1.layer_comm _ _ _ _ _ j n).trans ?_)
  exact (H1.ref_named (Cert.ReferenceIdeal.Hand.RW3 (RV m' c)) _ _ _ _ _ hagg.symm hxg.symm
    ((H1.RW3_arg4 (RV m' c)).trans h4) ((H1.RW3_arg5 (RV m' c)).trans h5) ((H1.RW3_arg6 (RV m' c)).trans h6) n j).symm

end Cert.Bridge

end
-- ==== Proof.PAgg2.lean ====
import proofs.«402058_j52493090292432_1_alg».proof.Proof.Iface
import Idealize.ShloMosaic.Lib.ValueLayout

/-! The second segment sum is the same array in both programs. -/

set_option maxRecDepth 4096

noncomputable section

namespace Cert.KernelIdeal.Gen.Agg2

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- The first operation of the stretch between regions 1 and 2: region 1's output, transposed back to row-major. -/
abbrev hostOps2a : List (HloOp τ sig (Elt F)) :=
  [ StableHlo.unary main_v66 main_v67 ((transpose S100000x8 [1, 0] · transposes_S8x100000_S100000x8_1_0) : (⟨S8x100000, .f32⟩ : BufTy).Contents (Elt F) → (⟨S100000x8, .f32⟩ : BufTy).Contents (Elt F)) ]

/-- The rest of that stretch: the second segment sum (and region 2's transposed weights). -/
abbrev hostOps2b : List (HloOp τ sig (Elt F)) :=
  [ StableHlo.nullary main_c_19 (constantI S_ 32 0#32),
    StableHlo.unary main_c_19 main_v68 (broadcastInDim S3200000 ![] bcast_S_S3200000 : (⟨S_, .i32⟩ : BufTy).Contents (Elt F) → (⟨S3200000, .i32⟩ : BufTy).Contents (Elt F)),
    StableHlo.binary main_v49 main_v68 main_v69 (cmpi .slt : (⟨S3200000, .i32⟩ : BufTy).Contents (Elt F) → (⟨S3200000, .i32⟩ : BufTy).Contents (Elt F) → (⟨S3200000, .i1⟩ : BufTy).Contents (Elt F)),
    StableHlo.nullary main_c_20 (constantI S_ 32 100000#32),
    StableHlo.unary main_c_20 main_v70 (broadcastInDim S3200000 ![] bcast_S_S3200000 : (⟨S_, .i32⟩ : BufTy).Contents (Elt F) → (⟨S3200000, .i32⟩ : BufTy).Contents (Elt F)),
    StableHlo.binary main_v49 main_v70 main_v71 (addi : (⟨S3200000, .i32⟩ : BufTy).Contents (Elt F) → (⟨S3200000, .i32⟩ : BufTy).Contents (Elt F) → (⟨S3200000, .i32⟩ : BufTy).Contents (Elt F)),
    StableHlo.ternary main_v69 main_v71 main_v49 main_v72 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v72 main_v73 (broadcastInDim S3200000x1 ![0] bcast_S3200000_S3200000x1_0 : (⟨S3200000, .i32⟩ : BufTy).Contents (Elt F) → (⟨S3200000x1, .i32⟩ : BufTy).Contents (Elt F)),
    StableHlo.binary main_v67 main_v73 main_v74 ((fun x i => Host.gather gather_S100000x8_S3200000x1_S3200000x8_1_0_n_n_0_1_18 x i) : (⟨S100000x8, .f32⟩ : BufTy).Contents (Elt F) → (⟨S3200000x1, .i32⟩ : BufTy).Contents (Elt F) → (⟨S3200000x8, .f32⟩ : BufTy).Contents (Elt F)),
    StableHlo.nullary main_cst_21 (constant S_ .f32 0x00000000#32),
    StableHlo.unary main_cst_21 main_v75 (broadcastInDim S100000x8 ![] bcast_S_S100000x8 : (⟨S_, .f32⟩ : BufTy).Contents (Elt F) → (⟨S100000x8, .f32⟩ : BufTy).Contents (Elt F)),
    StableHlo.unary main_v51 main_v76 (broadcastInDim S3200000x1 ![0] bcast_S3200000_S3200000x1_0 : (⟨S3200000, .i32⟩ : BufTy).Contents (Elt F) → (⟨S3200000x1, .i32⟩ : BufTy).Contents (Elt F)),
    StableHlo.ternary main_v75 main_v76 main_v74 main_v77 ((fun x i u => Host.scatterAdd scatter_S100000x8_S3200000x1_S3200000x8_1_0_0_1 x i u) : (⟨S100000x8, .f32⟩ : BufTy).Contents (Elt F) → (⟨S3200000x1, .i32⟩ : BufTy).Contents (Elt F) → (⟨S3200000x8, .f32⟩ : BufTy).Contents (Elt F) → (⟨S100000x8, .f32⟩ : BufTy).Contents (Elt F)),
    StableHlo.unary main_v77 main_v78 ((transpose S8x100000 [1, 0] · transposes_S100000x8_S8x100000_1_0) : (⟨S100000x8, .f32⟩ : BufTy).Contents (Elt F) → (⟨S8x100000, .f32⟩ : BufTy).Contents (Elt F)),
    StableHlo.unary main_arg7 main_v79 ((transpose S16x8 [1, 0] · transposes_S8x16_S16x8_1_0) : (⟨S8x16, .f32⟩ : BufTy).Contents (Elt F) → (⟨S16x8, .f32⟩ : BufTy).Contents (Elt F)),
    StableHlo.unary main_arg8 main_v80 ((transpose S16x8 [1, 0] · transposes_S8x16_S16x8_1_0) : (⟨S8x16, .f32⟩ : BufTy).Contents (Elt F) → (⟨S16x8, .f32⟩ : BufTy).Contents (Elt F)),
    StableHlo.reshape main_arg9 main_v81 rfl shapeCasts_S16_S16x1 ]

theorem hostOps2_cut : (hostOps2 : List (HloOp τ sig (Elt F))) = hostOps2a ++ hostOps2b := rfl

theorem hostOps2_after (V : Valuation τ sig (Elt F)) : StableHlo.after hostOps2 V = StableHlo.after hostOps2b (StableHlo.after hostOps2a V) := by
  rw [hostOps2_cut, StableHlo.after_append]

end Cert.KernelIdeal.Gen.Agg2

namespace Cert.ReferenceIdeal.Hand.Agg2

open Cert.ReferenceIdeal Cert.ReferenceIdeal.Gen Idealize.ShloMosaic Idealize.ShloMosaic.TcCoe Idealize.SL.Sem Idealize.ShloMosaic.StableHlo

variable {F : FTy → Type} [FloatOps F]

/-- The head of the reference's fifth segment: the edge list's two rows, as vectors. -/
abbrev seg5a : List (HloOp τ sig (Elt F)) :=
  [ StableHlo.unary main_arg3 main_v68 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v68 main_v69 rfl shapeCasts_S1x3200000_S3200000,
    StableHlo.unary main_arg3 main_v70 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v70 main_v71 rfl shapeCasts_S1x3200000_S3200000 ]

/-- The rest of the fifth segment: the sources' rows of the first layer's output, summed into the targets. -/
abbrev seg5b : List (HloOp τ sig (Elt F)) :=
  [ StableHlo.nullary main_c_19 (constantI S_ 32 0#32),
    StableHlo.unary main_c_19 main_v72 (broadcastInDim S3200000 ![] bcast_S_S3200000 : (⟨S_, .i32⟩ : BufTy).Contents (Elt F) → (⟨S3200000, .i32⟩ : BufTy).Contents (Elt F)),
    StableHlo.binary main_v69 main_v72 main_v73 (cmpi .slt : (⟨S3200000, .i32⟩ : BufTy).Contents (Elt F) → (⟨S3200000, .i32⟩ : BufTy).Contents (Elt F) → (⟨S3200000, .i1⟩ : BufTy).Contents (Elt F)),
    StableHlo.nullary main_c_20 (constantI S_ 32 100000#32),
    StableHlo.unary main_c_20 main_v74 (broadcastInDim S3200000 ![] bcast_S_S3200000 : (⟨S_, .i32⟩ : BufTy).Contents (Elt F) → (⟨S3200000, .i32⟩ : BufTy).Contents (Elt F)),
    StableHlo.binary main_v69 main_v74 main_v75 (addi : (⟨S3200000, .i32⟩ : BufTy).Contents (Elt F) → (⟨S3200000, .i32⟩ : BufTy).Contents (Elt F) → (⟨S3200000, .i32⟩ : BufTy).Contents (Elt F)),
    StableHlo.ternary main_v73 main_v75 main_v69 main_v76 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v76 main_v77 (broadcastInDim S3200000x1 ![0] bcast_S3200000_S3200000x1_0 : (⟨S3200000, .i32⟩ : BufTy).Contents (Elt F) → (⟨S3200000x1, .i32⟩ : BufTy).Contents (Elt F)),
    StableHlo.binary main_v67 main_v77 main_v78 ((fun x i => Host.gather gather_S100000x8_S3200000x1_S3200000x8_1_0_n_n_0_1_18 x i) : (⟨S100000x8, .f32⟩ : BufTy).Contents (Elt F) → (⟨S3200000x1, .i32⟩ : BufTy).Contents (Elt F) → (⟨S3200000x8, .f32⟩ : BufTy).Contents (Elt F)),
    StableHlo.nullary main_cst_21 (constant S_ .f32 0x00000000#32),
    StableHlo.unary main_cst_21 main_v79 (broadcastInDim S100000x8 ![] bcast_S_S100000x8 : (⟨S_, .f32⟩ : BufTy).Contents (Elt F) → (⟨S100000x8, .f32⟩ : BufTy).Contents (Elt F)),
    StableHlo.unary main_v71 main_v80 (broadcastInDim S3200000x1 ![0] bcast_S3200000_S3200000x1_0 : (⟨S3200000, .i32⟩ : BufTy).Contents (Elt F) → (⟨S3200000x1, .i32⟩ : BufTy).Contents (Elt F)),
    StableHlo.ternary main_v79 main_v80 main_v78 main_v81 ((fun x i u => Host.scatterAdd scatter_S100000x8_S3200000x1_S3200000x8_1_0_0_1 x i u) : (⟨S100000x8, .f32⟩ : BufTy).Contents (Elt F) → (⟨S3200000x1, .i32⟩ : BufTy).Contents (Elt F) → (⟨S3200000x8, .f32⟩ : BufTy).Contents (Elt F) → (⟨S100000x8, .f32⟩ : BufTy).Contents (Elt F)) ]

theorem seg5_cut : (seg5 : List (HloOp τ sig (Elt F))) = seg5a ++ seg5b := rfl

theorem seg5_after (V : Valuation τ sig (Elt F)) : after seg5 V = after seg5b (after seg5a V) := by
  rw [seg5_cut, StableHlo.after_append]

end Cert.ReferenceIdeal.Hand.Agg2

namespace Cert.Bridge

open Idealize.ShloMosaic Idealize.ShloMosaic.TcCoe Idealize.SL.Sem Idealize.ShloMosaic.StableHlo Idealize.ShloMosaic.ValueIdx

variable (m : KMem) (ρ : Dev Cert.KernelIdeal.nD → PrngReg) (m' : RMem) (c : Dev Cert.KernelIdeal.nD)

/-- The edge list is written by no operation of the listed stretch of the kernel's program. -/
local macro "k_unwritten" : tactic => `(tactic| (
  refine StableHlo.after_of_forall_not_mem (b := Proc.devRef .tc Cert.KernelIdeal.main_arg3) _ _ (List.forall_iff_forall_mem.mp ?_)
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)))

/-- At region 0's exit the kernel's edge list is the launched one. -/
theorem agg2_kEdges : Cert.KernelIdeal.Gen.W21 (F := Ideal) m ρ c (Proc.devRef .tc Cert.KernelIdeal.main_arg3) = m ((c.tc : Thread Cert.KernelIdeal.nD Cert.KernelIdeal.τ).loc Cert.KernelIdeal.main_arg3) :=
  calc Cert.KernelIdeal.Gen.W21 (F := Ideal) m ρ c (Proc.devRef .tc Cert.KernelIdeal.main_arg3)
    _ = Cert.KernelIdeal.Gen.W20 (F := Ideal) m ρ c (Proc.devRef .tc Cert.KernelIdeal.main_arg3) := Cert.KernelIdeal.Gen.W21_of_ne m ρ c Cert.KernelIdeal.main_arg3 (by decide)
    _ = Cert.KernelIdeal.Gen.W19 (F := Ideal) m ρ c (Proc.devRef .tc Cert.KernelIdeal.main_arg3) := by k_unwritten
    _ = Cert.KernelIdeal.Gen.W18 (F := Ideal) m ρ c (Proc.devRef .tc Cert.KernelIdeal.main_arg3) := by k_unwritten
    _ = Cert.KernelIdeal.Gen.W17 (F := Ideal) m ρ c (Proc.devRef .tc Cert.KernelIdeal.main_arg3) := by k_unwritten
    _ = Cert.KernelIdeal.Gen.W16 (F := Ideal) m ρ c (Proc.devRef .tc Cert.KernelIdeal.main_arg3) := by k_unwritten
    _ = Cert.KernelIdeal.Gen.W15 (F := Ideal) m ρ c (Proc.devRef .tc Cert.KernelIdeal.main_arg3) := by k_unwritten
    _ = Cert.KernelIdeal.Gen.W14 (F := Ideal) m ρ c (Proc.devRef .tc Cert.KernelIdeal.main_arg3) := by k_unwritten
    _ = Cert.KernelIdeal.Gen.W13 (F := Ideal) m ρ c (Proc.devRef .tc Cert.KernelIdeal.main_arg3) := by k_unwritten
    _ = Cert.KernelIdeal.Gen.W12 (F := Ideal) m ρ c (Proc.devRef .tc Cert.KernelIdeal.main_arg3) := by k_unwritten
    _ = Cert.KernelIdeal.Gen.W11 (F := Ideal) m ρ c (Proc.devRef .tc Cert.KernelIdeal.main_arg3) := by k_unwritten
    _ = Cert.KernelIdeal.Gen.W10 (F := Ideal) m ρ c (Proc.devRef .tc Cert.KernelIdeal.main_arg3) := by k_unwritten
    _ = Cert.KernelIdeal.Gen.W9 (F := Ideal) m ρ c (Proc.devRef .tc Cert.KernelIdeal.main_arg3) := by k_unwritten
    _ = Cert.KernelIdeal.Gen.W8 (F := Ideal) m ρ c (Proc.devRef .tc Cert.KernelIdeal.main_arg3) := by k_unwritten
    _ = Cert.KernelIdeal.Gen.W7 (F := Ideal) m ρ c (Proc.devRef .tc Cert.KernelIdeal.main_arg3) := by k_unwritten
    _ = Cert.KernelIdeal.Gen.W6 (F := Ideal) m ρ c (Proc.devRef .tc Cert.KernelIdeal.main_arg3) := by k_unwritten
    _ = Cert.KernelIdeal.Gen.W5 (F := Ideal) m ρ c (Proc.devRef .tc Cert.KernelIdeal.main_arg3) := by k_unwritten
    _ = Cert.KernelIdeal.Gen.W4 (F := Ideal) m ρ c (Proc.devRef .tc Cert.KernelIdeal.main_arg3) := by k_unwritten
    _ = Cert.KernelIdeal.Gen.W3 (F := Ideal) m ρ c (Proc.devRef .tc Cert.KernelIdeal.main_arg3) := by k_unwritten
    _ = Cert.KernelIdeal.Gen.W2 (F := Ideal) m ρ c (Proc.devRef .tc Cert.KernelIdeal.main_arg3) := by k_unwritten
    _ = Cert.KernelIdeal.Gen.W1 (F := Ideal) m ρ c (Proc.devRef .tc Cert.KernelIdeal.main_arg3) := by k_unwritten
    _ = Cert.KernelIdeal.Gen.W0 (F := Ideal) m ρ c (Proc.devRef .tc Cert.KernelIdeal.main_arg3) := by k_unwritten
    _ = m ((c.tc : Thread Cert.KernelIdeal.nD Cert.KernelIdeal.τ).loc Cert.KernelIdeal.main_arg3) := rfl

/-! ## The edge list is as launched where the second sum reads it -/

/-- The edge list is written by no operation of the listed stretch of the reference. -/
local macro "r_unwritten" : tactic => `(tactic| (
  refine StableHlo.after_of_forall_not_mem (b := Proc.devRef .tc Cert.ReferenceIdeal.main_arg3) _ _ (List.forall_iff_forall_mem.mp ?_)
  simp only [Cert.ReferenceIdeal.Hand.seg1, Cert.ReferenceIdeal.Hand.seg2, Cert.ReferenceIdeal.Hand.seg3, Cert.ReferenceIdeal.Hand.seg4, Cert.ReferenceIdeal.Hand.it0, Cert.ReferenceIdeal.Hand.it1, Cert.ReferenceIdeal.Hand.it2, Cert.ReferenceIdeal.Hand.it3, Cert.ReferenceIdeal.Hand.it4, Cert.ReferenceIdeal.Hand.it5, Cert.ReferenceIdeal.Hand.it6, Cert.ReferenceIdeal.Hand.it7, Cert.ReferenceIdeal.Hand.it8, Cert.ReferenceIdeal.Hand.it9, Cert.ReferenceIdeal.Hand.it10, Cert.ReferenceIdeal.Hand.it11, Cert.ReferenceIdeal.Hand.it12, Cert.ReferenceIdeal.Hand.it13, Cert.ReferenceIdeal.Hand.it14, Cert.ReferenceIdeal.Hand.it15, Cert.ReferenceIdeal.Hand.it16, Cert.ReferenceIdeal.Hand.it17, Cert.ReferenceIdeal.Hand.it18, Cert.ReferenceIdeal.Hand.it19, Cert.ReferenceIdeal.Hand.it20, Cert.ReferenceIdeal.Hand.it21, Cert.ReferenceIdeal.Hand.it22, Cert.ReferenceIdeal.Hand.it23, Cert.ReferenceIdeal.Hand.it24, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)))

/-- After its fourth segment the reference's edge list is the launched one. -/
theorem agg2_rEdges : Cert.ReferenceIdeal.Hand.RW4 (RV m' c) (Proc.devRef .tc Cert.ReferenceIdeal.main_arg3) = m' ((c.tc : Thread Cert.ReferenceIdeal.nD Cert.ReferenceIdeal.τ).loc Cert.ReferenceIdeal.main_arg3) :=
  calc Cert.ReferenceIdeal.Hand.RW4 (RV m' c) (Proc.devRef .tc Cert.ReferenceIdeal.main_arg3)
    _ = Cert.ReferenceIdeal.Hand.RW3 (RV m' c) (Proc.devRef .tc Cert.ReferenceIdeal.main_arg3) := by r_unwritten
    _ = Cert.ReferenceIdeal.Hand.RW2 (RV m' c) (Proc.devRef .tc Cert.ReferenceIdeal.main_arg3) := by r_unwritten
    _ = Cert.ReferenceIdeal.Hand.RW1 (RV m' c) (Proc.devRef .tc Cert.ReferenceIdeal.main_arg3) := by r_unwritten
    _ = RV m' c (Proc.devRef .tc Cert.ReferenceIdeal.main_arg3) := by r_unwritten
    _ = m' ((c.tc : Thread Cert.ReferenceIdeal.nD Cert.ReferenceIdeal.τ).loc Cert.ReferenceIdeal.main_arg3) := rfl

/-! ## Sources and targets: the same two rows of the same edge list -/

/-- The kernel's program cuts the sources out of the edge list once, before region 1; the reference cuts them again
    at the head of its fifth segment: from equal edge lists, equal sources. -/
theorem agg2_src_rel (VK : Valuation Cert.KernelIdeal.τ Cert.KernelIdeal.sig (Elt Ideal)) (VR : Valuation Cert.ReferenceIdeal.τ Cert.ReferenceIdeal.sig (Elt Ideal))
    (he : (VK (Proc.devRef .tc Cert.KernelIdeal.main_arg3) : IVec (Sh2 2 3200000) 32) = VR (Proc.devRef .tc Cert.ReferenceIdeal.main_arg3)) :
    (StableHlo.after Cert.KernelIdeal.Gen.hostOps1 VK (Proc.devRef .tc Cert.KernelIdeal.main_v49) : IVec (Sh1 3200000) 32)
      = StableHlo.after Cert.ReferenceIdeal.Hand.Agg2.seg5a VR (Proc.devRef .tc Cert.ReferenceIdeal.main_v69) := by
  simp only [Cert.KernelIdeal.Gen.hostOps1, Cert.ReferenceIdeal.Hand.Agg2.seg5a]
  after_results_simp
  rw [he]
  rfl

/-- The same for the targets. -/
theorem agg2_dst_rel (VK : Valuation Cert.KernelIdeal.τ Cert.KernelIdeal.sig (Elt Ideal)) (VR : Valuation Cert.ReferenceIdeal.τ Cert.ReferenceIdeal.sig (Elt Ideal))
    (he : (VK (Proc.devRef .tc Cert.KernelIdeal.main_arg3) : IVec (Sh2 2 3200000) 32) = VR (Proc.devRef .tc Cert.ReferenceIdeal.main_arg3)) :
    (StableHlo.after Cert.KernelIdeal.Gen.hostOps1 VK (Proc.devRef .tc Cert.KernelIdeal.main_v51) : IVec (Sh1 3200000) 32)
      = StableHlo.after Cert.ReferenceIdeal.Hand.Agg2.seg5a VR (Proc.devRef .tc Cert.ReferenceIdeal.main_v71) := by
  simp only [Cert.KernelIdeal.Gen.hostOps1, Cert.ReferenceIdeal.Hand.Agg2.seg5a]
  after_results_simp
  rw [he]
  rfl

/-! ## The transposition, and what it leaves alone -/

theorem agg2_keep_src (VK : Valuation Cert.KernelIdeal.τ Cert.KernelIdeal.sig (Elt Ideal)) :
    StableHlo.after Cert.KernelIdeal.Gen.Agg2.hostOps2a VK (Proc.devRef .tc Cert.KernelIdeal.main_v49) = VK (Proc.devRef .tc Cert.KernelIdeal.main_v49) := by
  simp only [Cert.KernelIdeal.Gen.Agg2.hostOps2a]
  after_results_simp

theorem agg2_keep_dst (VK : Valuation Cert.KernelIdeal.τ Cert.KernelIdeal.sig (Elt Ideal)) :
    StableHlo.after Cert.KernelIdeal.Gen.Agg2.hostOps2a VK (Proc.devRef .tc Cert.KernelIdeal.main_v51) = VK (Proc.devRef .tc Cert.KernelIdeal.main_v51) := by
  simp only [Cert.KernelIdeal.Gen.Agg2.hostOps2a]
  after_results_simp

/-- The transposed output at `(n, j)` is region 1's output at `(j, n)`. -/
theorem agg2_transposed (VK : Valuation Cert.KernelIdeal.τ Cert.KernelIdeal.sig (Elt Ideal)) (n : Fin 100000) (j : Fin 8) :
    (StableHlo.after Cert.KernelIdeal.Gen.Agg2.hostOps2a VK (Proc.devRef .tc Cert.KernelIdeal.main_v67) : Vec Ideal (Sh2 100000 8) .f32) (ix2 n j)
      = (VK (Proc.devRef .tc Cert.KernelIdeal.main_v66) : Vec Ideal (Sh2 8 100000) .f32) (ix2 j n) := by
  simp only [Cert.KernelIdeal.Gen.Agg2.hostOps2a]
  after_results_simp
  exact transpose_ix2_apply _ _ n j

theorem agg2_keep_rows (VR : Valuation Cert.ReferenceIdeal.τ Cert.ReferenceIdeal.sig (Elt Ideal)) :
    StableHlo.after Cert.ReferenceIdeal.Hand.Agg2.seg5a VR (Proc.devRef .tc Cert.ReferenceIdeal.main_v67) = VR (Proc.devRef .tc Cert.ReferenceIdeal.main_v67) := by
  simp only [Cert.ReferenceIdeal.Hand.Agg2.seg5a]
  after_results_simp

/-! ## The segment sum, from equal rows, sources and targets -/

/-- Both programs wrap negative sources, gather the sources' rows, and add them into a zero array at the targets. -/
theorem agg2_rel (VK : Valuation Cert.KernelIdeal.τ Cert.KernelIdeal.sig (Elt Ideal)) (VR : Valuation Cert.ReferenceIdeal.τ Cert.ReferenceIdeal.sig (Elt Ideal))
    (hh : (VK (Proc.devRef .tc Cert.KernelIdeal.main_v67) : Vec Ideal (Sh2 100000 8) .f32) = VR (Proc.devRef .tc Cert.ReferenceIdeal.main_v67))
    (hs : (VK (Proc.devRef .tc Cert.KernelIdeal.main_v49) : IVec (Sh1 3200000) 32) = VR (Proc.devRef .tc Cert.ReferenceIdeal.main_v69))
    (hd : (VK (Proc.devRef .tc Cert.KernelIdeal.main_v51) : IVec (Sh1 3200000) 32) = VR (Proc.devRef .tc Cert.ReferenceIdeal.main_v71)) :
    (StableHlo.after Cert.KernelIdeal.Gen.Agg2.hostOps2b VK (Proc.devRef .tc Cert.KernelIdeal.main_v77) : Vec Ideal (Sh2 100000 8) .f32)
      = StableHlo.after Cert.ReferenceIdeal.Hand.Agg2.seg5b VR (Proc.devRef .tc Cert.ReferenceIdeal.main_v81) := by
  simp only [Cert.KernelIdeal.Gen.Agg2.hostOps2b, Cert.ReferenceIdeal.Hand.Agg2.seg5b]
  after_results_simp
  rw [hh, hs, hd]
  rfl

theorem P_agg2 (h : Agree m m' c) (hh1 : ∀ (j : Fin 8) (n : Fin 100000), kH1T m ρ c (ix2 j n) = rH1 m' c (ix2 n j)) :
    kAgg2 m ρ c = rAgg2 m' c := by
  have hK : kAgg2 m ρ c = StableHlo.after Cert.KernelIdeal.Gen.Agg2.hostOps2b (StableHlo.after Cert.KernelIdeal.Gen.Agg2.hostOps2a (Cert.KernelIdeal.Gen.W23 (F := Ideal) m ρ c)) (Proc.devRef .tc Cert.KernelIdeal.main_v77) :=
    congrFun (Cert.KernelIdeal.Gen.Agg2.hostOps2_after _) _
  have hR : rAgg2 m' c = StableHlo.after Cert.ReferenceIdeal.Hand.Agg2.seg5b (StableHlo.after Cert.ReferenceIdeal.Hand.Agg2.seg5a (Cert.ReferenceIdeal.Hand.RW4 (RV m' c))) (Proc.devRef .tc Cert.ReferenceIdeal.main_v81) :=
    congrFun (Cert.ReferenceIdeal.Hand.Agg2.seg5_after _) _
  have he : (Cert.KernelIdeal.Gen.W21 (F := Ideal) m ρ c (Proc.devRef .tc Cert.KernelIdeal.main_arg3) : IVec (Sh2 2 3200000) 32) = Cert.ReferenceIdeal.Hand.RW4 (RV m' c) (Proc.devRef .tc Cert.ReferenceIdeal.main_arg3) :=
    (agg2_kEdges m ρ c).trans (h.2.2.2.1.symm.trans (agg2_rEdges m' c).symm)
  refine hK.trans ((agg2_rel _ _ ?_ ?_ ?_).trans hR.symm)
  · funext i
    obtain ⟨n, j, rfl⟩ : ∃ n j, i = ix2 n j := ⟨_, _, eq_ix2 i⟩
    exact (agg2_transposed _ n j).trans ((hh1 j n).trans (congrFun (agg2_keep_rows _).symm _))
  · exact (agg2_keep_src _).trans ((Cert.KernelIdeal.Gen.W23_of_ne m ρ c Cert.KernelIdeal.main_v49 (by decide)).trans (agg2_src_rel _ _ he))
  · exact (agg2_keep_dst _).trans ((Cert.KernelIdeal.Gen.W23_of_ne m ρ c Cert.KernelIdeal.main_v51 (by decide)).trans (agg2_dst_rel _ _ he))

end Cert.Bridge

end
-- ==== Proof.PH2.lean ====
import proofs.«402058_j52493090292432_1_alg».proof.Proof.Iface
import Idealize.ShloMosaic.PureOps.Ideal.Laws
import Idealize.ShloMosaic.Lib.Pipeline.Value
import Idealize.ShloMosaic.Lib.StableHlo.Run

/-! The second graph layer: the kernel's region 2 leaves the transpose of the reference's array.

    Both sides compute, for a node n and an output feature j,
      max (Σ_k agg2[n,k]·wrel[k,j] + Σ_k h1[n,k]·wroot[k,j] + b[j]) 0,
    the sums over the eight input features. The reference holds the arrays node-major and multiplies rows by the
    weight matrices; the kernel holds them feature-major, multiplies the transposed weight matrices by the transposed
    arrays and adds the bias as a column. Entry by entry the two differ only in the order of the factors of each
    product, so commutativity of the product on the extended reals joins them; no finiteness is needed. -/

noncomputable section

namespace Cert.Bridge

open Idealize.ShloMosaic Idealize.ShloMosaic.TcCoe Idealize.SL.Sem Idealize.ShloMosaic.StableHlo Idealize.ShloMosaic.ValueIdx

namespace H2

/-! ## The reference's second layer -/

section RefSide
open Cert.ReferenceIdeal Cert.ReferenceIdeal.Gen Cert.ReferenceIdeal.Hand

/-- The reference's product record: 100000×8 by 8×16. -/
abbrev RD := Cert.ReferenceIdeal.dot_S100000x8_S8x16_S100000x16_1_0_0_1_n_n

/-- A row of the left matrix times a column of the right one, as a sum over the eight inner coordinates. -/
theorem rmm (x : FVec Ideal S100000x8 .f32) (w : FVec Ideal S8x16 .f32) (n : Fin 100000) (j : Fin 16) :
    Host.dotGeneral RD none x w (ix2 n j) = ∑ k : Fin 8, x (ix2 n k) * w (ix2 k j) := by
  show FloatOps.dotGeneral _ none _ x w (ix2 n j) = _
  rw [Ideal.dotGeneral_apply, ← Equiv.sum_comp (contrEquiv1 RD 8 rfl rfl).symm]
  refine Finset.sum_congr rfl fun c _ => ?_
  have c2 := contrEquiv1_symm_val RD 8 rfl rfl c
  have l2 : RD.lhsIdx (ix2 n j) ((contrEquiv1 RD 8 rfl rfl).symm c) = ix2 n c := by
    funext ax; apply Fin.ext
    match ax with
    | ⟨0, _⟩ => simp [DotDims.lhsIdx, RD, dot_S100000x8_S8x16_S100000x16_1_0_0_1_n_n]; rfl
    | ⟨1, _⟩ => simp [DotDims.lhsIdx, RD, dot_S100000x8_S8x16_S100000x16_1_0_0_1_n_n]; exact c2
  have r2 : RD.rhsIdx (ix2 n j) ((contrEquiv1 RD 8 rfl rfl).symm c) = ix2 c j := by
    funext ax; apply Fin.ext
    match ax with
    | ⟨0, _⟩ => simp [DotDims.rhsIdx, RD, dot_S100000x8_S8x16_S100000x16_1_0_0_1_n_n]; exact c2
    | ⟨1, _⟩ => simp [DotDims.rhsIdx, RD, dot_S100000x8_S8x16_S100000x16_1_0_0_1_n_n]; rfl
  rw [l2, r2]

/-- The layer as the reference writes it: the sum's rows times one matrix, plus the rows themselves times another,
    plus the bias row copied down the rows, then the maximum with zero. -/
def rlayer (agg h1 : FVec Ideal S100000x8 .f32) (w7 w8 : FVec Ideal S8x16 .f32) (b9 : FVec Ideal S16 .f32) : FVec Ideal S100000x16 .f32 :=
  maximumf
    (addf (addf (Host.dotGeneral RD none agg w7) (Host.dotGeneral RD none h1 w8))
      (broadcastInDim S100000x16 ![0, 1] bcast_S1x16_S100000x16_0_1 (broadcastInDim S1x16 ![1] bcast_S16_S1x16_1 b9)))
    (broadcastInDim S100000x16 ![] bcast_S_S100000x16 (constant (F := Ideal) S_ .f32 0x00000000#32))

/-- Entry (n, j) of the layer. -/
theorem rlayer_apply (agg h1 : FVec Ideal S100000x8 .f32) (w7 w8 : FVec Ideal S8x16 .f32) (b9 : FVec Ideal S16 .f32)
    (n : Fin 100000) (j : Fin 16) :
    rlayer agg h1 w7 w8 b9 (ix2 n j)
      = max ((∑ k : Fin 8, agg (ix2 n k) * w7 (ix2 k j)) + (∑ k : Fin 8, h1 (ix2 n k) * w8 (ix2 k j)) + b9 (ix1 j)) 0 := by
  unfold rlayer
  refine (maximumf_apply _ _ _).trans ?_
  refine congrArg₂ max ?_ Ideal.ofBits_zero_f32
  refine (addf_apply _ _ _).trans ?_
  refine congrArg₂ (· + ·) ?_ ?_
  · refine (addf_apply _ _ _).trans ?_
    exact congrArg₂ (· + ·) (rmm agg w7 n j) (rmm h1 w8 n j)
  · refine (broadcastInDim_apply _ _ _ (ix2 n j) (ix2 (0 : Fin 1) j) (fun ax => by
      match ax with
      | ⟨0, _⟩ => rfl
      | ⟨1, _⟩ => rfl)).trans ?_
    exact broadcastInDim_apply _ _ b9 (ix2 (0 : Fin 1) j) (ix1 j) (fun ax => by
      match ax with
      | ⟨0, _⟩ => rfl)

/-- The sixth segment of the reference's line computes that layer of what the buffers hold before it. -/
theorem ref_seg6 (VR : Valuation τ sig (Elt Ideal)) :
    (StableHlo.after seg6 VR (Proc.devRef .tc main_v88) : Vec Ideal S100000x16 .f32)
      = rlayer (VR (Proc.devRef .tc main_v81)) (VR (Proc.devRef .tc main_v67)) (VR (Proc.devRef .tc main_arg7))
          (VR (Proc.devRef .tc main_arg8)) (VR (Proc.devRef .tc main_arg9)) := by
  simp only [seg6, it26, it27, List.flatten_cons, List.flatten_nil, List.append_nil, List.cons_append, List.nil_append]
  after_results_simp
  rfl

/-- The fifth segment does not write the first layer's result. -/
theorem ref_seg5_v67 (VR : Valuation τ sig (Elt Ideal)) :
    StableHlo.after seg5 VR (Proc.devRef .tc main_v67) = VR (Proc.devRef .tc main_v67) :=
  StableHlo.after_of_forall_not_mem (b := Proc.devRef .tc main_v67) _ _ (List.forall_iff_forall_mem.mp (by
          simp only [seg5, it25, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- No operation of the reference's first five segments writes argument 7. -/
theorem RW5_arg7 (V : Valuation τ sig (Elt Ideal)) : RW5 V (Proc.devRef .tc main_arg7) = V (Proc.devRef .tc main_arg7) :=
  calc RW5 V (Proc.devRef .tc main_arg7)
    _ = RW4 V (Proc.devRef .tc main_arg7) := StableHlo.after_of_forall_not_mem (b := Proc.devRef .tc main_arg7) _ _ (List.forall_iff_forall_mem.mp (by
          simp only [seg5, it25, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = RW3 V (Proc.devRef .tc main_arg7) := StableHlo.after_of_forall_not_mem (b := Proc.devRef .tc main_arg7) _ _ (List.forall_iff_forall_mem.mp (by
          simp only [seg4, it23, it24, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = RW2 V (Proc.devRef .tc main_arg7) := StableHlo.after_of_forall_not_mem (b := Proc.devRef .tc main_arg7) _ _ (List.forall_iff_forall_mem.mp (by
          simp only [seg3, it21, it22, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = RW1 V (Proc.devRef .tc main_arg7) := StableHlo.after_of_forall_not_mem (b := Proc.devRef .tc main_arg7) _ _ (List.forall_iff_forall_mem.mp (by
          simp only [seg2, it20, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V (Proc.devRef .tc main_arg7) := StableHlo.after_of_forall_not_mem (b := Proc.devRef .tc main_arg7) _ _ (List.forall_iff_forall_mem.mp (by
          simp only [seg1, it0, it1, it2, it3, it4, it5, it6, it7, it8, it9, it10, it11, it12, it13, it14, it15, it16, it17, it18, it19, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- No operation of the reference's first five segments writes argument 8. -/
theorem RW5_arg8 (V : Valuation τ sig (Elt Ideal)) : RW5 V (Proc.devRef .tc main_arg8) = V (Proc.devRef .tc main_arg8) :=
  calc RW5 V (Proc.devRef .tc main_arg8)
    _ = RW4 V (Proc.devRef .tc main_arg8) := StableHlo.after_of_forall_not_mem (b := Proc.devRef .tc main_arg8) _ _ (List.forall_iff_forall_mem.mp (by
          simp only [seg5, it25, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = RW3 V (Proc.devRef .tc main_arg8) := StableHlo.after_of_forall_not_mem (b := Proc.devRef .tc main_arg8) _ _ (List.forall_iff_forall_mem.mp (by
          simp only [seg4, it23, it24, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = RW2 V (Proc.devRef .tc main_arg8) := StableHlo.after_of_forall_not_mem (b := Proc.devRef .tc main_arg8) _ _ (List.forall_iff_forall_mem.mp (by
          simp only [seg3, it21, it22, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = RW1 V (Proc.devRef .tc main_arg8) := StableHlo.after_of_forall_not_mem (b := Proc.devRef .tc main_arg8) _ _ (List.forall_iff_forall_mem.mp (by
          simp only [seg2, it20, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V (Proc.devRef .tc main_arg8) := StableHlo.after_of_forall_not_mem (b := Proc.devRef .tc main_arg8) _ _ (List.forall_iff_forall_mem.mp (by
          simp only [seg1, it0, it1, it2, it3, it4, it5, it6, it7, it8, it9, it10, it11, it12, it13, it14, it15, it16, it17, it18, it19, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- No operation of the reference's first five segments writes argument 9. -/
theorem RW5_arg9 (V : Valuation τ sig (Elt Ideal)) : RW5 V (Proc.devRef .tc main_arg9) = V (Proc.devRef .tc main_arg9) :=
  calc RW5 V (Proc.devRef .tc main_arg9)
    _ = RW4 V (Proc.devRef .tc main_arg9) := StableHlo.after_of_forall_not_mem (b := Proc.devRef .tc main_arg9) _ _ (List.forall_iff_forall_mem.mp (by
          simp only [seg5, it25, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = RW3 V (Proc.devRef .tc main_arg9) := StableHlo.after_of_forall_not_mem (b := Proc.devRef .tc main_arg9) _ _ (List.forall_iff_forall_mem.mp (by
          simp only [seg4, it23, it24, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = RW2 V (Proc.devRef .tc main_arg9) := StableHlo.after_of_forall_not_mem (b := Proc.devRef .tc main_arg9) _ _ (List.forall_iff_forall_mem.mp (by
          simp only [seg3, it21, it22, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = RW1 V (Proc.devRef .tc main_arg9) := StableHlo.after_of_forall_not_mem (b := Proc.devRef .tc main_arg9) _ _ (List.forall_iff_forall_mem.mp (by
          simp only [seg2, it20, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V (Proc.devRef .tc main_arg9) := StableHlo.after_of_forall_not_mem (b := Proc.devRef .tc main_arg9) _ _ (List.forall_iff_forall_mem.mp (by
          simp only [seg1, it0, it1, it2, it3, it4, it5, it6, it7, it8, it9, it10, it11, it12, it13, it14, it15, it16, it17, it18, it19, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end RefSide

/-! ## The kernel's region 2 -/

section KernelSide
open Cert.KernelIdeal Cert.KernelIdeal.Gen

/-- The kernel's product record: 16×8 by 8×100000. -/
abbrev KD := Cert.KernelIdeal.dot_S16x8_S8x100000_S16x100000_1_0_0_1_n_n

/-- A row of the left matrix times a column of the right one, as a sum over the eight inner coordinates. -/
theorem kmm (w : FVec Ideal S16x8 .f32) (x : FVec Ideal S8x100000 .f32) (j : Fin 16) (n : Fin 100000) :
    ∑ k : KD.contr.Idx, w (KD.lhsIdx (ix2 j n) k) * x (KD.rhsIdx (ix2 j n) k) = ∑ k : Fin 8, w (ix2 j k) * x (ix2 k n) := by
  rw [← Equiv.sum_comp (contrEquiv1 KD 8 rfl rfl).symm]
  refine Finset.sum_congr rfl fun c _ => ?_
  have c2 := contrEquiv1_symm_val KD 8 rfl rfl c
  have l2 : KD.lhsIdx (ix2 j n) ((contrEquiv1 KD 8 rfl rfl).symm c) = ix2 j c := by
    funext ax; apply Fin.ext
    match ax with
    | ⟨0, _⟩ => simp [DotDims.lhsIdx, KD, dot_S16x8_S8x100000_S16x100000_1_0_0_1_n_n]; rfl
    | ⟨1, _⟩ => simp [DotDims.lhsIdx, KD, dot_S16x8_S8x100000_S16x100000_1_0_0_1_n_n]; exact c2
  have r2 : KD.rhsIdx (ix2 j n) ((contrEquiv1 KD 8 rfl rfl).symm c) = ix2 c n := by
    funext ax; apply Fin.ext
    match ax with
    | ⟨0, _⟩ => simp [DotDims.rhsIdx, KD, dot_S16x8_S8x100000_S16x100000_1_0_0_1_n_n]; exact c2
    | ⟨1, _⟩ => simp [DotDims.rhsIdx, KD, dot_S16x8_S8x100000_S16x100000_1_0_0_1_n_n]; rfl
  rw [l2, r2]

/-- Entry (j, n) of what the body stores: the two products' entries and the bias column's entry added, then the
    maximum with zero (format changes are the identity on the extended reals, the products accumulate from zero). -/
theorem kpay_apply (a h : Vec Ideal S8x100000 .f32) (wr wo : Vec Ideal S16x8 .f32) (b : Vec Ideal S16x1 .f32)
    (j : Fin 16) (n : Fin 100000) :
    k2_pay1 (F := Ideal) a h wr wo b (ix2 j n)
      = max ((∑ k : Fin 8, wr (ix2 j k) * a (ix2 k n)) + (∑ k : Fin 8, wo (ix2 j k) * h (ix2 k n)) + b (ix2 j (0 : Fin 1))) 0 := by
  unfold k2_pay1
  simp only [shapeCast_self]
  refine (maximumf_apply _ _ _).trans ?_
  refine congrArg₂ max ?_ Ideal.ofBits_zero_f32
  refine (addf_apply _ _ _).trans ?_
  refine congrArg₂ (· + ·) ?_ ?_
  · refine (addf_apply _ _ _).trans ?_
    refine congrArg₂ (· + ·) ?_ ?_
    · exact (Ideal.matmul_constant_zero_apply KD none _ _ _).trans (kmm wr a j n)
    · exact (Ideal.matmul_constant_zero_apply KD none _ _ _).trans (kmm wo h j n)
  · exact broadcastTo_apply b _ (ix2 j n) (ix2 j (0 : Fin 1)) (fun ax => by
      match ax with
      | ⟨0, _⟩ => rfl
      | ⟨1, _⟩ => rfl)

theorem zeros2 : (![0, 0] : Fin 2 → Nat) = fun _ => 0 := funext fun a => by fin_cases a <;> rfl

section Region
variable (V : (c : Dev nD) → (b : Ref sig .tc) → Buf (Elt Ideal) ((c : Thread nD τ).loc b))

/-! The region has one grid point and every window's block is its whole array. -/

theorem blk2_0 (c : Dev nD) (t : Fin cfg2.N) : (iblk2 V c 0 t : Vec Ideal S8x100000 .f32) = (V c main_v78 : Vec Ideal S8x100000 .f32) := by
  obtain rfl := fin_N2 t
  have hz' : (fun a => win2_0.index t2_0 a * main_v78.ty.shape.size a) = fun _ => 0 := funext fun a => by fin_cases a <;> decide +kernel
  unfold iblk2
  exact Memref.read_access_unit_zero (Elt Ideal) main_v78 hz' (fun a => by rw [congrFun hz' a]; simp) _

theorem blk2_1 (c : Dev nD) (t : Fin cfg2.N) : (iblk2 V c 1 t : Vec Ideal S8x100000 .f32) = (V c main_v66 : Vec Ideal S8x100000 .f32) := by
  obtain rfl := fin_N2 t
  have hz' : (fun a => win2_1.index t2_0 a * main_v66.ty.shape.size a) = fun _ => 0 := funext fun a => by fin_cases a <;> decide +kernel
  unfold iblk2
  exact Memref.read_access_unit_zero (Elt Ideal) main_v66 hz' (fun a => by rw [congrFun hz' a]; simp) _

theorem blk2_2 (c : Dev nD) (t : Fin cfg2.N) : (iblk2 V c 2 t : Vec Ideal S16x8 .f32) = (V c main_v79 : Vec Ideal S16x8 .f32) := by
  obtain rfl := fin_N2 t
  have hz' : (fun a => win2_2.index t2_0 a * main_v79.ty.shape.size a) = fun _ => 0 := funext fun a => by fin_cases a <;> decide +kernel
  unfold iblk2
  exact Memref.read_access_unit_zero (Elt Ideal) main_v79 hz' (fun a => by rw [congrFun hz' a]; simp) _

theorem blk2_3 (c : Dev nD) (t : Fin cfg2.N) : (iblk2 V c 3 t : Vec Ideal S16x8 .f32) = (V c main_v80 : Vec Ideal S16x8 .f32) := by
  obtain rfl := fin_N2 t
  have hz' : (fun a => win2_3.index t2_0 a * main_v80.ty.shape.size a) = fun _ => 0 := funext fun a => by fin_cases a <;> decide +kernel
  unfold iblk2
  exact Memref.read_access_unit_zero (Elt Ideal) main_v80 hz' (fun a => by rw [congrFun hz' a]; simp) _

theorem blk2_4 (c : Dev nD) (t : Fin cfg2.N) : (iblk2 V c 4 t : Vec Ideal S16x1 .f32) = (V c main_v81 : Vec Ideal S16x1 .f32) := by
  obtain rfl := fin_N2 t
  have hz' : (fun a => win2_4.index t2_0 a * main_v81.ty.shape.size a) = fun _ => 0 := funext fun a => by fin_cases a <;> decide +kernel
  unfold iblk2
  exact Memref.read_access_unit_zero (Elt Ideal) main_v81 hz' (fun a => by rw [congrFun hz' a]; simp) _

/-- What the one grid point stores, as a function of the five arrays the region reads. -/
abbrev layerOf (c : Dev nD) : Vec Ideal S16x100000 .f32 :=
  k2_pay1 (F := Ideal) (V c main_v78) (V c main_v66) (V c main_v79) (V c main_v80) (V c main_v81)

/-- The one write-back writes that function's whole array. -/
theorem flushed2_5 (c : Dev nD) (t : Fin cfg2.N) (hf : (cfg2.win 5).flush t = true) :
    (dat2 V c).flushed 5 t = ((cfg2.win 5).blk t).view.read (Elt Ideal) (layerOf V c) := by
  show (cfg2.win 5).cut (grid2.coords t) ((dat2 V c).after 5 t) = _
  rw [after2_5]
  unfold out2_5
  rw [View.canon_unit_zero zeros2]
  simp only [View.ld_unit_zero (S := S8x100000) zeros2, View.ld_unit_zero (S := S16x8) zeros2, View.ld_unit_zero (S := S16x1) zeros2]
  rw [blk2_0 V c t, blk2_1 V c t, blk2_2 V c t, blk2_3 V c t, blk2_4 V c t]
  obtain rfl := fin_N2 t
  have hz' : (fun a => win2_5.index t2_0 a * main_v82.ty.shape.size a) = fun _ => 0 := funext fun a => by fin_cases a <;> decide +kernel
  exact (Memref.read_access_unit_zero (Elt Ideal) main_v82 hz' (fun a => by rw [congrFun hz' a]; simp) (layerOf V c)).symm

/-- So the output array ends holding it: the one block covers the array. -/
theorem region2_out (c : Dev nD) : (dat2 V c).arrAt 5 cfg2.N = layerOf V c :=
  (dat2 V c).arrAt_eq_of_cover 5 (layerOf V c) (flushed2_5 V c) fun i =>
    ⟨t2_0, flush2_5 t2_0, by
      show i ∈ ((View.whole main_v82).slice (win2_5.rect t2_0)).set
      rw [View.set_slice_whole, Rect.mem_set_unit]
      intro a
      have h0 : (i 0 : Nat) < 16 := (i 0).isLt
      have h1 : (i 1 : Nat) < 100000 := (i 1).isLt
      match a with
      | ⟨0, _⟩ => show win2_5.index t2_0 0 * win2_5.size 0 ≤ (i 0 : Nat) ∧ (i 0 : Nat) < win2_5.index t2_0 0 * win2_5.size 0 + win2_5.xsize (grid2.coords t2_0) 0
                  rw [show win2_5.index t2_0 0 * win2_5.size 0 = 0 from by decide +kernel, show win2_5.xsize (grid2.coords t2_0) 0 = 16 from by decide +kernel]; omega
      | ⟨1, _⟩ => show win2_5.index t2_0 1 * win2_5.size 1 ≤ (i 1 : Nat) ∧ (i 1 : Nat) < win2_5.index t2_0 1 * win2_5.size 1 + win2_5.xsize (grid2.coords t2_0) 1
                  rw [show win2_5.index t2_0 1 * win2_5.size 1 = 0 from by decide +kernel, show win2_5.xsize (grid2.coords t2_0) 1 = 100000 from by decide +kernel]; omega⟩

end Region

/-! ### The host operations before the region, from any buffer contents -/

theorem hs_v78 (VK : Valuation τ sig (Elt Ideal)) :
    (StableHlo.after hostOps2 VK (Proc.devRef .tc main_v78) : Vec Ideal S8x100000 .f32)
      = transpose S8x100000 [1, 0] (StableHlo.after hostOps2 VK (Proc.devRef .tc main_v77) : Vec Ideal S100000x8 .f32) transposes_S100000x8_S8x100000_1_0 := by
  simp only [hostOps2]
  after_results_simp

theorem hs_v66 (VK : Valuation τ sig (Elt Ideal)) :
    StableHlo.after hostOps2 VK (Proc.devRef .tc main_v66) = VK (Proc.devRef .tc main_v66) := by
  simp only [hostOps2]
  after_results_simp

theorem hs_v79 (VK : Valuation τ sig (Elt Ideal)) :
    (StableHlo.after hostOps2 VK (Proc.devRef .tc main_v79) : Vec Ideal S16x8 .f32)
      = transpose S16x8 [1, 0] (VK (Proc.devRef .tc main_arg7) : Vec Ideal S8x16 .f32) transposes_S8x16_S16x8_1_0 := by
  simp only [hostOps2]
  after_results_simp

theorem hs_v80 (VK : Valuation τ sig (Elt Ideal)) :
    (StableHlo.after hostOps2 VK (Proc.devRef .tc main_v80) : Vec Ideal S16x8 .f32)
      = transpose S16x8 [1, 0] (VK (Proc.devRef .tc main_arg8) : Vec Ideal S8x16 .f32) transposes_S8x16_S16x8_1_0 := by
  simp only [hostOps2]
  after_results_simp

theorem hs_v81 (VK : Valuation τ sig (Elt Ideal)) :
    (StableHlo.after hostOps2 VK (Proc.devRef .tc main_v81) : Vec Ideal S16x1 .f32)
      = shapeCast S16x1 (VK (Proc.devRef .tc main_arg9) : Vec Ideal S16 .f32) shapeCasts_S16_S16x1 := by
  simp only [hostOps2]
  after_results_simp
  rfl

/-- Nothing between region 1's exit and the end of the program writes argument 7, and it ends as launched. -/
theorem W23_arg7 (m : KMem) (ρ : Dev nD → PrngReg) (c : Dev nD) :
    W23 (F := Ideal) m ρ c (Proc.devRef .tc main_arg7) = m ((c : Thread nD τ).loc main_arg7) :=
  (calc W36 (F := Ideal) m ρ c (Proc.devRef .tc main_arg7)
    _ = W35 m ρ c (Proc.devRef .tc main_arg7) := StableHlo.after_of_forall_not_mem (b := Proc.devRef .tc main_arg7) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W34 m ρ c (Proc.devRef .tc main_arg7) := W35_of_ne m ρ c main_arg7 (by decide)
    _ = W33 m ρ c (Proc.devRef .tc main_arg7) := StableHlo.after_of_forall_not_mem (b := Proc.devRef .tc main_arg7) _ _ (List.forall_iff_forall_mem.mp (by
          simp only [hostOps3_8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W32 m ρ c (Proc.devRef .tc main_arg7) := StableHlo.after_of_forall_not_mem (b := Proc.devRef .tc main_arg7) _ _ (List.forall_iff_forall_mem.mp (by
          simp only [hostOps3_7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W31 m ρ c (Proc.devRef .tc main_arg7) := StableHlo.after_of_forall_not_mem (b := Proc.devRef .tc main_arg7) _ _ (List.forall_iff_forall_mem.mp (by
          simp only [hostOps3_6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W30 m ρ c (Proc.devRef .tc main_arg7) := StableHlo.after_of_forall_not_mem (b := Proc.devRef .tc main_arg7) _ _ (List.forall_iff_forall_mem.mp (by
          simp only [hostOps3_5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_arg7) := StableHlo.after_of_forall_not_mem (b := Proc.devRef .tc main_arg7) _ _ (List.forall_iff_forall_mem.mp (by
          simp only [hostOps3_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W28 m ρ c (Proc.devRef .tc main_arg7) := StableHlo.after_of_forall_not_mem (b := Proc.devRef .tc main_arg7) _ _ (List.forall_iff_forall_mem.mp (by
          simp only [hostOps3_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_arg7) := StableHlo.after_of_forall_not_mem (b := Proc.devRef .tc main_arg7) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W26 m ρ c (Proc.devRef .tc main_arg7) := StableHlo.after_of_forall_not_mem (b := Proc.devRef .tc main_arg7) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W24 m ρ c (Proc.devRef .tc main_arg7) := W25_of_ne m ρ c main_arg7 (by decide)
    _ = W23 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
  ).symm.trans (W36_main_arg7 m ρ c)

/-- Nothing between region 1's exit and the end of the program writes argument 8, and it ends as launched. -/
theorem W23_arg8 (m : KMem) (ρ : Dev nD → PrngReg) (c : Dev nD) :
    W23 (F := Ideal) m ρ c (Proc.devRef .tc main_arg8) = m ((c : Thread nD τ).loc main_arg8) :=
  (calc W36 (F := Ideal) m ρ c (Proc.devRef .tc main_arg8)
    _ = W35 m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W34 m ρ c (Proc.devRef .tc main_arg8) := W35_of_ne m ρ c main_arg8 (by decide)
    _ = W33 m ρ c (Proc.devRef .tc main_arg8) := StableHlo.after_of_forall_not_mem (b := Proc.devRef .tc main_arg8) _ _ (List.forall_iff_forall_mem.mp (by
          simp only [hostOps3_8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W32 m ρ c (Proc.devRef .tc main_arg8) := StableHlo.after_of_forall_not_mem (b := Proc.devRef .tc main_arg8) _ _ (List.forall_iff_forall_mem.mp (by
          simp only [hostOps3_7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W31 m ρ c (Proc.devRef .tc main_arg8) := StableHlo.after_of_forall_not_mem (b := Proc.devRef .tc main_arg8) _ _ (List.forall_iff_forall_mem.mp (by
          simp only [hostOps3_6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W30 m ρ c (Proc.devRef .tc main_arg8) := StableHlo.after_of_forall_not_mem (b := Proc.devRef .tc main_arg8) _ _ (List.forall_iff_forall_mem.mp (by
          simp only [hostOps3_5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_arg8) := StableHlo.after_of_forall_not_mem (b := Proc.devRef .tc main_arg8) _ _ (List.forall_iff_forall_mem.mp (by
          simp only [hostOps3_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W28 m ρ c (Proc.devRef .tc main_arg8) := StableHlo.after_of_forall_not_mem (b := Proc.devRef .tc main_arg8) _ _ (List.forall_iff_forall_mem.mp (by
          simp only [hostOps3_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_arg8) := StableHlo.after_of_forall_not_mem (b := Proc.devRef .tc main_arg8) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W26 m ρ c (Proc.devRef .tc main_arg8) := StableHlo.after_of_forall_not_mem (b := Proc.devRef .tc main_arg8) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W24 m ρ c (Proc.devRef .tc main_arg8) := W25_of_ne m ρ c main_arg8 (by decide)
    _ = W23 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
  ).symm.trans (W36_main_arg8 m ρ c)

/-- Nothing between region 1's exit and the end of the program writes argument 9, and it ends as launched. -/
theorem W23_arg9 (m : KMem) (ρ : Dev nD → PrngReg) (c : Dev nD) :
    W23 (F := Ideal) m ρ c (Proc.devRef .tc main_arg9) = m ((c : Thread nD τ).loc main_arg9) :=
  (calc W36 (F := Ideal) m ρ c (Proc.devRef .tc main_arg9)
    _ = W35 m ρ c (Proc.devRef .tc main_arg9) := StableHlo.after_of_forall_not_mem (b := Proc.devRef .tc main_arg9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W34 m ρ c (Proc.devRef .tc main_arg9) := W35_of_ne m ρ c main_arg9 (by decide)
    _ = W33 m ρ c (Proc.devRef .tc main_arg9) := StableHlo.after_of_forall_not_mem (b := Proc.devRef .tc main_arg9) _ _ (List.forall_iff_forall_mem.mp (by
          simp only [hostOps3_8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W32 m ρ c (Proc.devRef .tc main_arg9) := StableHlo.after_of_forall_not_mem (b := Proc.devRef .tc main_arg9) _ _ (List.forall_iff_forall_mem.mp (by
          simp only [hostOps3_7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W31 m ρ c (Proc.devRef .tc main_arg9) := StableHlo.after_of_forall_not_mem (b := Proc.devRef .tc main_arg9) _ _ (List.forall_iff_forall_mem.mp (by
          simp only [hostOps3_6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W30 m ρ c (Proc.devRef .tc main_arg9) := StableHlo.after_of_forall_not_mem (b := Proc.devRef .tc main_arg9) _ _ (List.forall_iff_forall_mem.mp (by
          simp only [hostOps3_5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W29 m ρ c (Proc.devRef .tc main_arg9) := StableHlo.after_of_forall_not_mem (b := Proc.devRef .tc main_arg9) _ _ (List.forall_iff_forall_mem.mp (by
          simp only [hostOps3_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W28 m ρ c (Proc.devRef .tc main_arg9) := StableHlo.after_of_forall_not_mem (b := Proc.devRef .tc main_arg9) _ _ (List.forall_iff_forall_mem.mp (by
          simp only [hostOps3_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_arg9) := StableHlo.after_of_forall_not_mem (b := Proc.devRef .tc main_arg9) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W26 m ρ c (Proc.devRef .tc main_arg9) := StableHlo.after_of_forall_not_mem (b := Proc.devRef .tc main_arg9) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W25 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W24 m ρ c (Proc.devRef .tc main_arg9) := W25_of_ne m ρ c main_arg9 (by decide)
    _ = W23 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
  ).symm.trans (W36_main_arg9 m ρ c)

end KernelSide

/-! ## The comparison -/

variable (m : KMem) (ρ : Dev Cert.KernelIdeal.nD → PrngReg) (m' : RMem) (c : Dev Cert.KernelIdeal.nD)

/-- The second layer's two weight matrices and its bias row, as each program is launched with them. -/
abbrev kW7 : Vec Ideal (Sh2 8 16) .f32 := m ((c.tc : Thread Cert.KernelIdeal.nD Cert.KernelIdeal.τ).loc Cert.KernelIdeal.main_arg7)
abbrev kW8 : Vec Ideal (Sh2 8 16) .f32 := m ((c.tc : Thread Cert.KernelIdeal.nD Cert.KernelIdeal.τ).loc Cert.KernelIdeal.main_arg8)
abbrev kB9 : Vec Ideal (Sh1 16) .f32 := m ((c.tc : Thread Cert.KernelIdeal.nD Cert.KernelIdeal.τ).loc Cert.KernelIdeal.main_arg9)
abbrev rW7 : Vec Ideal (Sh2 8 16) .f32 := m' ((c.tc : Thread Cert.ReferenceIdeal.nD Cert.ReferenceIdeal.τ).loc Cert.ReferenceIdeal.main_arg7)
abbrev rW8 : Vec Ideal (Sh2 8 16) .f32 := m' ((c.tc : Thread Cert.ReferenceIdeal.nD Cert.ReferenceIdeal.τ).loc Cert.ReferenceIdeal.main_arg8)
abbrev rB9 : Vec Ideal (Sh1 16) .f32 := m' ((c.tc : Thread Cert.ReferenceIdeal.nD Cert.ReferenceIdeal.τ).loc Cert.ReferenceIdeal.main_arg9)

/-- A transposed matrix at (a, b) is the matrix at (b, a). -/
theorem transpose_swap {p q : Nat} (x : Vec Ideal (Sh2 p q) .f32) (h : (Sh2 p q).Transposes [1, 0] (Sh2 q p)) (a : Fin q) (b : Fin p) :
    transpose (Sh2 q p) [1, 0] x h (ix2 a b) = x (ix2 b a) :=
  transpose_apply [1, 0] x h (ix2 a b) (ix2 b a) (fun ax => by
    match ax with
    | ⟨0, _⟩ => rfl
    | ⟨1, _⟩ => rfl)

/-- Entry (j, n) of the kernel's feature-major output: row j of each transposed weight matrix against column n of the
    transposed sum and of region 1's output, plus entry j of the bias, then the maximum with zero. -/
theorem kH2T_apply (j : Fin 16) (n : Fin 100000) :
    kH2T m ρ c (ix2 j n)
      = max ((∑ k : Fin 8, kW7 m c (ix2 k j) * kAgg2 m ρ c (ix2 n k)) + (∑ k : Fin 8, kW8 m c (ix2 k j) * kH1T m ρ c (ix2 k n))
          + kB9 m c (ix1 j)) 0 := by
  have e : kH2T m ρ c = layerOf (Cert.KernelIdeal.Gen.V24 m ρ) c :=
    (Cert.KernelIdeal.Gen.W25_arr m ρ c 5).trans (region2_out (Cert.KernelIdeal.Gen.V24 m ρ) c)
  refine (congrFun e (ix2 j n)).trans ?_
  refine (kpay_apply _ _ _ _ _ j n).trans ?_
  refine congrArg₂ max (congrArg₂ (· + ·) (congrArg₂ (· + ·) (Finset.sum_congr rfl fun k _ => congrArg₂ (· * ·) ?_ ?_)
    (Finset.sum_congr rfl fun k _ => congrArg₂ (· * ·) ?_ ?_)) ?_) rfl
  · exact (congrFun (hs_v79 (Cert.KernelIdeal.Gen.W23 m ρ c)) (ix2 j k)).trans
      ((transpose_swap _ _ j k).trans (congrFun (W23_arg7 m ρ c) (ix2 k j)))
  · exact (congrFun (hs_v78 (Cert.KernelIdeal.Gen.W23 m ρ c)) (ix2 k n)).trans (transpose_swap _ _ k n)
  · exact (congrFun (hs_v80 (Cert.KernelIdeal.Gen.W23 m ρ c)) (ix2 j k)).trans
      ((transpose_swap _ _ j k).trans (congrFun (W23_arg8 m ρ c) (ix2 k j)))
  · exact congrFun (hs_v66 (Cert.KernelIdeal.Gen.W23 m ρ c)) (ix2 k n)
  · exact (congrFun (hs_v81 (Cert.KernelIdeal.Gen.W23 m ρ c)) (ix2 j (0 : Fin 1))).trans
      ((shapeCast_apply _ _ (ix2 j (0 : Fin 1)) (ix1 j) (by rfl)).trans (congrFun (W23_arg9 m ρ c) (ix1 j)))

/-- Entry (n, j) of the reference's row-major output. -/
theorem rH2_apply (n : Fin 100000) (j : Fin 16) :
    rH2 m' c (ix2 n j)
      = max ((∑ k : Fin 8, rAgg2 m' c (ix2 n k) * rW7 m' c (ix2 k j)) + (∑ k : Fin 8, rH1 m' c (ix2 n k) * rW8 m' c (ix2 k j))
          + rB9 m' c (ix1 j)) 0 := by
  refine (congrFun (ref_seg6 (Cert.ReferenceIdeal.Hand.RW5 (RV m' c))) (ix2 n j)).trans ?_
  refine (rlayer_apply _ _ _ _ _ n j).trans ?_
  have e67 := ref_seg5_v67 (Cert.ReferenceIdeal.Hand.RW4 (RV m' c))
  have e7 := RW5_arg7 (RV m' c)
  have e8 := RW5_arg8 (RV m' c)
  have e9 := RW5_arg9 (RV m' c)
  exact congrArg₂ max (congrArg₂ (· + ·) (congrArg₂ (· + ·)
    (Finset.sum_congr rfl fun k _ => congrArg₂ (· * ·) rfl (congrFun e7 (ix2 k j)))
    (Finset.sum_congr rfl fun k _ => congrArg₂ (· * ·) (congrFun e67 (ix2 n k)) (congrFun e8 (ix2 k j)))) (congrFun e9 (ix1 j))) rfl

end H2

variable (m : KMem) (ρ : Dev Cert.KernelIdeal.nD → PrngReg) (m' : RMem) (c : Dev Cert.KernelIdeal.nD)

/-- The two programs' second layers agree entry by entry, the kernel's transposed. -/
theorem P_h2 (h : Agree m m' c) (hh1 : ∀ (j : Fin 8) (n : Fin 100000), kH1T m ρ c (ix2 j n) = rH1 m' c (ix2 n j))
    (hagg : kAgg2 m ρ c = rAgg2 m' c) :
    ∀ (j : Fin 16) (n : Fin 100000), kH2T m ρ c (ix2 j n) = rH2 m' c (ix2 n j) := by
  intro j n
  obtain ⟨-, -, -, -, -, -, -, a7, a8, a9, -⟩ := h
  refine (H2.kH2T_apply m ρ c j n).trans (Eq.trans ?_ (H2.rH2_apply m' c n j).symm)
  refine congrArg₂ max (congrArg₂ (· + ·) (congrArg₂ (· + ·) (Finset.sum_congr rfl fun k _ => ?_)
    (Finset.sum_congr rfl fun k _ => ?_)) ?_) rfl
  · exact (mul_comm _ _).trans (congrArg₂ (· * ·) (congrFun hagg (ix2 n k)) (congrFun a7 (ix2 k j)).symm)
  · exact (mul_comm _ _).trans (congrArg₂ (· * ·) (hh1 k n) (congrFun a8 (ix2 k j)).symm)
  · exact (congrFun a9 (ix1 j)).symm

end Cert.Bridge
end
-- ==== Proof.POutSpec.lean ====
import proofs.«402058_j52493090292432_1_alg».proof.Proof.Iface

/-! The perceptron's score of one candidate pair, as one formula both programs are read against: the two 16-feature rows
    side by side (32 features), a linear layer to 64 with its bias, max with 0, a linear layer to 1 with its bias. -/

noncomputable section

namespace Cert.Bridge

open Idealize.ShloMosaic Idealize.ShloMosaic.TcCoe Idealize.SL.Sem Idealize.ShloMosaic.StableHlo Idealize.ShloMosaic.ValueIdx

/-- The two rows side by side: features 0–15 from the first, 16–31 from the second. -/
def ecat (e0 e1 : Fin 16 → EReal) (k : Fin 32) : EReal :=
  if h : k.val < 16 then e0 ⟨k.val, h⟩ else e1 ⟨k.val - 16, by omega⟩

/-- The score: `(Σ_j max ((Σ_k e k · wa k j) + ba j) 0 · wb j) + bb`. -/
def score (e0 e1 : Fin 16 → EReal) (wa : Fin 32 → Fin 64 → EReal) (ba : Fin 64 → EReal) (wb : Fin 64 → EReal) (bb : EReal) : EReal :=
  (∑ j : Fin 64, max ((∑ k : Fin 32, ecat e0 e1 k * wa k j) + ba j) 0 * wb j) + bb

/-- The row a candidate index names: the index read signed, as a natural number, kept below 100000. -/
def candRow (x : BitVec 32) : Fin 100000 := ⟨min x.toInt.toNat 99999, by omega⟩

variable (m : KMem) (c : Dev Cert.KernelIdeal.nD)

/-- The perceptron's weights, as the kernel's program is launched with them. -/
def kWa : Fin 32 → Fin 64 → EReal := fun k j =>
  (m ((c.tc : Thread Cert.KernelIdeal.nD Cert.KernelIdeal.τ).loc Cert.KernelIdeal.main_arg12) : Vec Ideal (Sh2 32 64) .f32) (ix2 k j)
def kBa : Fin 64 → EReal := fun j =>
  (m ((c.tc : Thread Cert.KernelIdeal.nD Cert.KernelIdeal.τ).loc Cert.KernelIdeal.main_arg13) : Vec Ideal (Sh1 64) .f32) (ix1 j)
def kWb : Fin 64 → EReal := fun j =>
  (m ((c.tc : Thread Cert.KernelIdeal.nD Cert.KernelIdeal.τ).loc Cert.KernelIdeal.main_arg14) : Vec Ideal (Sh2 64 1) .f32) (ix2 j 0)
def kBb : EReal :=
  (m ((c.tc : Thread Cert.KernelIdeal.nD Cert.KernelIdeal.τ).loc Cert.KernelIdeal.main_arg15) : Vec Ideal (Sh1 1) .f32) (ix1 0)

end Cert.Bridge

end
-- ==== Proof.POutKIface.lean ====
import proofs.«402058_j52493090292432_1_alg».proof.Proof.POutSpec

/-! The arrays region 3 (the perceptron's kernel) is entered with and leaves, named: the two padded gathers (16 features by
    1015808 columns, the candidates' columns then 15808 columns of padding), the two weight matrices transposed, the two
    biases as columns, and the region's output row. -/

noncomputable section

namespace Cert.Bridge

open Idealize.ShloMosaic Idealize.ShloMosaic.TcCoe Idealize.SL.Sem Idealize.ShloMosaic.StableHlo Idealize.ShloMosaic.ValueIdx

variable (m : KMem) (ρ : Dev Cert.KernelIdeal.nD → PrngReg) (c : Dev Cert.KernelIdeal.nD)

abbrev kHpad : Vec Ideal (Sh2 16 1015808) .f32 := Cert.KernelIdeal.Gen.W34 (F := Ideal) m ρ c (Proc.devRef .tc Cert.KernelIdeal.main_v91)
abbrev kXpad : Vec Ideal (Sh2 16 1015808) .f32 := Cert.KernelIdeal.Gen.W34 (F := Ideal) m ρ c (Proc.devRef .tc Cert.KernelIdeal.main_v92)
abbrev kWaT : Vec Ideal (Sh2 64 32) .f32 := Cert.KernelIdeal.Gen.W34 (F := Ideal) m ρ c (Proc.devRef .tc Cert.KernelIdeal.main_v89)
abbrev kBa2 : Vec Ideal (Sh2 64 1) .f32 := Cert.KernelIdeal.Gen.W34 (F := Ideal) m ρ c (Proc.devRef .tc Cert.KernelIdeal.main_v93)
abbrev kWbT : Vec Ideal (Sh2 1 64) .f32 := Cert.KernelIdeal.Gen.W34 (F := Ideal) m ρ c (Proc.devRef .tc Cert.KernelIdeal.main_v90)
abbrev kBb2 : Vec Ideal (Sh2 1 1) .f32 := Cert.KernelIdeal.Gen.W34 (F := Ideal) m ρ c (Proc.devRef .tc Cert.KernelIdeal.main_v94)
/-- region 3's output row, at its exit -/
abbrev kOutT : Vec Ideal (Sh2 1 1015808) .f32 := Cert.KernelIdeal.Gen.W35 (F := Ideal) m ρ c (Proc.devRef .tc Cert.KernelIdeal.main_v95)

/-- A candidate's column among the padded ones. -/
def padCol (i : Fin 1000000) : Fin 1015808 := ⟨i.val, by omega⟩

end Cert.Bridge

end
-- ==== Proof.POutKHost.lean ====
import proofs.«402058_j52493090292432_1_alg».proof.Proof.POutKIface
import Idealize.ShloMosaic.Lib.StableHlo.Run
import Idealize.ShloMosaic.Lib.ValueLayout
import Idealize.ShloMosaic.Lib.KernelVsHost
import Idealize.ShloMosaic.PureOps.Reduce

/-! What region 3 is entered with: at a candidate's column the padded gathers hold the column of the feature-major array
    that the candidate names (its index in range, the gather's fill is never taken), and the weights are the arguments'
    transposes and reshapes. -/

noncomputable section

namespace Cert.Bridge

open Idealize.ShloMosaic Idealize.ShloMosaic.TcCoe Idealize.SL.Sem Idealize.ShloMosaic.StableHlo Idealize.ShloMosaic.ValueIdx

namespace OutKHost

/-! ## Operations read at one index -/

section Generic
variable {α : Type}

/-- A list with one entry has that entry at every position. -/
theorem getElem_of_eq_singleton {β : Type} (l : List β) (x : β) (hl : l = [x]) (i : Nat) (h : i < l.length) : l[i] = x := by
  subst hl
  have h0 : i = 0 := by simpa using h
  subst h0; rfl

/-- A gather of whole columns: the operand `[K, N]`, the start indices an `[n, 1]` column of positions along axis 1, the
    result `[K, n]`. Entry `(k, p)` is the operand's entry `(k, q)`, `q` the `p`-th start index read signed and kept in
    `[0, N - 1]`. -/
theorem gather_cols {K N n w : Nat} (d : GatherDims ⟨2, ![K, N]⟩ ⟨2, ![n, 1]⟩ ⟨2, ![K, n]⟩)
    (hoff : d.offsetDims = [0]) (hcoll : d.collapsedSliceDims = [1]) (hob : d.operandBatchingDims = [])
    (hsim : d.startIndexMap = [1]) (hivd : d.indexVectorDim = 1)
    (x : (⟨2, ![K, N]⟩ : Shape).Idx → α) (idx : IVec ⟨2, ![n, 1]⟩ w) (k : Fin K) (p : Fin n) (hN : 0 < N) :
    Host.gather d x idx (ix2 k p) = x (ix2 k ⟨min (idx (ix2 p 0)).toInt.toNat (N - 1), by omega⟩) := by
  have ne01 : (0 : Fin 2) = 1 → False := by decide
  unfold Host.gather
  congr 1
  funext a
  apply Fin.ext
  have hb : ∀ a : Fin 2, a ∉ d.operandBatchingDims := fun a => by rw [hob]; exact List.not_mem_nil
  match a with
  | ⟨0, _⟩ =>
    have hk : (0 : Fin 2) ∈ d.sKept :=
      (d.mem_sKept 0).2 ⟨by rw [hcoll]; exact fun h => ne01 (List.mem_singleton.mp h), hb 0⟩
    have hm : (0 : Fin 2) ∉ d.startIndexMap := by rw [hsim]; exact fun h => ne01 (List.mem_singleton.mp h)
    show d.start (ix2 k p) idx 0 + d.batchCoord (ix2 k p) 0 + d.offCoord (ix2 k p) 0 = k.val
    rw [d.batchCoord_eq_zero _ _ (hb 0)]
    unfold GatherDims.start GatherDims.offCoord
    rw [dif_neg hm, dif_pos hk]
    simp only [Nat.zero_add, Nat.add_zero]
    exact congrArg (fun q => ((ix2 k p) q).val) (getElem_of_eq_singleton _ _ hoff _ _)
  | ⟨1, _⟩ =>
    have hk : (1 : Fin 2) ∉ d.sKept := fun h => ((d.mem_sKept 1).1 h).1 (by rw [hcoll]; exact List.mem_singleton.mpr rfl)
    have hm : (1 : Fin 2) ∈ d.startIndexMap := by rw [hsim]; exact List.mem_singleton.mpr rfl
    have hsl : d.sliceSizes 1 = 1 := d.slice_collapsed 1 (by rw [hcoll]; exact List.mem_singleton.mpr rfl)
    have hbd : d.batchDims = [1] := by show Shape.kept _ d.offsetDims = [1]; rw [hoff]; rfl
    have e : ∀ cc, d.siIdx (ix2 k p) cc = ix2 p 0 := fun cc => by
      funext b
      match b with
      | ⟨0, h0⟩ =>
        unfold GatherDims.siIdx
        rw [dif_neg (by rw [hivd]; exact Nat.zero_ne_one)]
        unfold GatherDims.siCoord
        apply Fin.ext
        simp only [Fin.val_cast]
        exact congrArg (fun q => ((ix2 k p) q).val) (getElem_of_eq_singleton _ _ hbd _ _)
      | ⟨1, h1⟩ =>
        apply Fin.ext
        have hlt : (d.siIdx (ix2 k p) cc ⟨1, h1⟩).val < 1 := (d.siIdx (ix2 k p) cc ⟨1, h1⟩).isLt
        show (d.siIdx (ix2 k p) cc ⟨1, h1⟩).val = 0
        omega
    show d.start (ix2 k p) idx 1 + d.batchCoord (ix2 k p) 1 + d.offCoord (ix2 k p) 1 = min (idx (ix2 p 0)).toInt.toNat (N - 1)
    rw [d.batchCoord_eq_zero _ _ (hb 1), d.offCoord_eq_zero _ _ hk]
    simp only [Nat.add_zero]
    unfold GatherDims.start
    rw [dif_pos hm, e]
    show min (idx (ix2 p 0)).toInt.toNat (N - d.sliceSizes 1) = _
    rw [hsl]

/-- `gather_cols` with the start index named: entry `(k, p)` is the operand's at column `min y.toInt.toNat (N - 1)`
    when the `p`-th start index is `y`. -/
theorem gather_cols_of_eq {K N n w : Nat} (d : GatherDims ⟨2, ![K, N]⟩ ⟨2, ![n, 1]⟩ ⟨2, ![K, n]⟩)
    (hoff : d.offsetDims = [0]) (hcoll : d.collapsedSliceDims = [1]) (hob : d.operandBatchingDims = [])
    (hsim : d.startIndexMap = [1]) (hivd : d.indexVectorDim = 1)
    (x : (⟨2, ![K, N]⟩ : Shape).Idx → α) (idx : IVec ⟨2, ![n, 1]⟩ w) (k : Fin K) (p : Fin n) (hN : 0 < N)
    (y : BitVec w) (e : idx (ix2 p 0) = y) :
    Host.gather d x idx (ix2 k p) = x (ix2 k ⟨min y.toInt.toNat (N - 1), by omega⟩) := by
  subst e; exact gather_cols d hoff hcoll hob hsim hivd x idx k p hN

/-- A reduce by `and` of an array of ones, from one, is one. -/
theorem reduce_andi_of_forall {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  have h11 : IntOp.andi (1#1 : BitVec 1) 1#1 = 1#1 := by decide
  rw [Host.reduce_eq_foldl, hi]
  generalize (((List.finRange s.numel).map s.rowMajor.symm).filter fun i => h.drop i = j) = l
  induction l with
  | nil => rfl
  | cons a l ih => rw [List.foldl_cons, hx a, h11]; exact ih

/-- A vector as an `[n, 1]` column reads, at `(p, u)`, the vector at `p`. -/
theorem bcast_col_apply {n : Nat} (h : (⟨1, ![n]⟩ : Shape).BroadcastsInDim ⟨2, ![n, 1]⟩ ![0]) (v : (⟨1, ![n]⟩ : Shape).Idx → α)
    (p : Fin n) (u : Fin 1) : broadcastInDim ⟨2, ![n, 1]⟩ ![0] h v (ix2 p u) = v (ix1 p) :=
  broadcastInDim_apply _ h v _ _ fun a => by
    match a with
    | ⟨0, _⟩ =>
      show p.val = if n = 1 then 0 else p.val
      have := p.isLt
      split
      · omega
      · rfl

/-- A vector laid along the columns of a `[K, n]` rectangle reads, at `(k, p)`, the vector at `p`. -/
theorem bcast_row_apply {K n : Nat} (h : (⟨1, ![n]⟩ : Shape).BroadcastsInDim ⟨2, ![K, n]⟩ ![1]) (v : (⟨1, ![n]⟩ : Shape).Idx → α)
    (k : Fin K) (p : Fin n) : broadcastInDim ⟨2, ![K, n]⟩ ![1] h v (ix2 k p) = v (ix1 p) :=
  broadcastInDim_apply _ h v _ _ fun a => by
    match a with
    | ⟨0, _⟩ =>
      show p.val = if n = 1 then 0 else p.val
      have := p.isLt
      split
      · omega
      · rfl

/-- Columns padded on the right only: a column of the operand's keeps its entries. -/
theorem pad_cols_apply {K n n' : Nat} (hi : Nat) (x : (⟨2, ![K, n]⟩ : Shape).Idx → α) {u : Shape} (v : u.Idx → α)
    (h : (⟨2, ![K, n]⟩ : Shape).Pads ![0, 0] ![0, hi] ![0, 0] ⟨2, ![K, n']⟩) (hu : 0 < u.numel) (k : Fin K) (i : Fin n) (i' : Fin n')
    (hi' : i'.val = i.val) : pad ⟨2, ![K, n']⟩ ![0, 0] ![0, hi] ![0, 0] x v h hu (ix2 k i') = x (ix2 k i) :=
  pad_apply_of_inside _ _ _ x v h hu _ _ fun a => by
    match a with
    | ⟨0, _⟩ => show k.val = 0 + k.val * (0 + 1); omega
    | ⟨1, _⟩ => show i'.val = 0 + i.val * (0 + 1); omega

/-- A column cut out of an `[n, 2]` table and kept as a vector reads, at `p`, the table at `(p, o)`. -/
theorem col_apply {n w : Nat} (o : Nat) (ho : o < 2) (X : IVec ⟨2, ![n, 2]⟩ w) (h1 : (⟨2, ![n, 2]⟩ : Shape).Slices ![0, o] ⟨2, ![n, 1]⟩)
    (h2 : (⟨2, ![n, 1]⟩ : Shape).ShapeCasts ⟨1, ![n]⟩) (p : Fin n) :
    shapeCast ⟨1, ![n]⟩ (extractStridedSlice ⟨2, ![n, 1]⟩ ![0, o] X h1) h2 (ix1 p) = X (ix2 p ⟨o, ho⟩) := by
  rw [shapeCast_apply _ h2 (ix1 p) (ix2 p (0 : Fin 1)) (by
    rw [Shape.rowMajor_val_two, Shape.rowMajor_val_one]
    show p.val * 1 + 0 = p.val
    omega)]
  exact slice2_axis1_apply o X h1 p 0 ⟨o, ho⟩ rfl

/-- A select on an array of conditions reads the first branch where the condition is one. -/
theorem select_of_one {s : Shape} (cnd : IVec s 1) (a b : s.Idx → α) (j : s.Idx) (hc : cnd j = 1#1) : select cnd a b j = a j := by
  rw [select_apply, hc]; exact select_one _ _

/-- A word in `[0, 100000)` read signed passes the test `0 ≤ · ≤ 99999`. -/
theorem inrange_of (x y : BitVec 32) (e : x = y) (h0 : 0 ≤ y.toInt) (h1 : y.toInt < 100000) :
    IntOp.andi (IntOp.cmpi .sge x 0#32) (IntOp.cmpi .sle x 99999#32) = 1#1 := by
  subst e
  have e0 : (0#32 : BitVec 32).toInt = 0 := by decide
  have e9 : (99999#32 : BitVec 32).toInt = 99999 := by decide
  have a : (0#32 : BitVec 32).sle x = true := by rw [BitVec.sle, e0]; exact decide_eq_true h0
  have b : x.sle 99999#32 = true := by rw [BitVec.sle, e9]; exact decide_eq_true (by omega)
  show IntOp.andi (BitVec.ofBool ((0#32 : BitVec 32).sle x)) (BitVec.ofBool (x.sle 99999#32)) = 1#1
  rw [a, b]; decide

/-- "Add the extent where negative" keeps a word that is not negative read signed. -/
theorem wrap_apply {s : Shape} (col add c0 : IVec s 32) (j : s.Idx) (y : BitVec 32) (hc0 : c0 j = 0#32) (e : col j = y)
    (h0 : 0 ≤ y.toInt) : select (cmpi .slt col c0) add col j = y := by
  have e0 : (0#32 : BitVec 32).toInt = 0 := by decide
  have a : y.slt 0#32 = false := by rw [BitVec.slt, e0]; exact decide_eq_false (by omega)
  show Scalar.select (IntOp.cmpi .slt (col j) (c0 j)) (add j) (col j) = y
  rw [hc0, e]
  show Scalar.select (BitVec.ofBool (y.slt 0#32)) (add j) y = y
  rw [a]; exact select_zero _ _

end Generic

/-- Contents moved to a typed reference's own buffer type and back are the contents. -/
theorem ofBuf_toBuf {sig : RefSig} {Val : EltTy → Type} {T : BufTy} (x : StableHlo.TRef sig T) (v : T.Contents Val) :
    x.ofBuf (x.toBuf v) = v := by
  obtain ⟨r, h1, h2, h3⟩ := x
  subst h1
  rfl

/-- The range test on an array of words, at an index where the word is in `[0, 100000)`. -/
theorem inrange_vec {s : Shape} (v c0 c9 : IVec s 32) (j : s.Idx) (y : BitVec 32) (hc0 : c0 j = 0#32) (hc9 : c9 j = 99999#32)
    (e : v j = y) (h0 : 0 ≤ y.toInt) (h1 : y.toInt < 100000) : andi (cmpi .sge v c0) (cmpi .sle v c9) j = 1#1 := by
  show IntOp.andi (IntOp.cmpi .sge (v j) (c0 j)) (IntOp.cmpi .sle (v j) (c9 j)) = 1#1
  rw [hc0, hc9]; exact inrange_of _ _ e h0 h1

/-! ## The host stretches between region 2 and region 3 -/

abbrev KV := Valuation Cert.KernelIdeal.τ Cert.KernelIdeal.sig (Elt Ideal)

/-- The nine host stretches between region 2's exit and region 3's entry, composed. -/
abbrev host3 (V : KV) : KV :=
  StableHlo.after Cert.KernelIdeal.Gen.hostOps3_8 (StableHlo.after Cert.KernelIdeal.Gen.hostOps3_7
    (StableHlo.after Cert.KernelIdeal.Gen.hostOps3_6 (StableHlo.after Cert.KernelIdeal.Gen.hostOps3_5
      (StableHlo.after Cert.KernelIdeal.Gen.hostOps3_4 (StableHlo.after Cert.KernelIdeal.Gen.hostOps3_3
        (StableHlo.after Cert.KernelIdeal.Gen.hostOps3_2 (StableHlo.after Cert.KernelIdeal.Gen.hostOps3_1
          (StableHlo.after Cert.KernelIdeal.Gen.hostOps3 V))))))))

local macro "read_host3" : tactic => `(tactic| (
  simp only [Cert.Bridge.OutKHost.host3, Cert.KernelIdeal.Gen.hostOps3, Cert.KernelIdeal.Gen.hostOps3_1, Cert.KernelIdeal.Gen.hostOps3_2,
    Cert.KernelIdeal.Gen.hostOps3_3, Cert.KernelIdeal.Gen.hostOps3_4, Cert.KernelIdeal.Gen.hostOps3_5, Cert.KernelIdeal.Gen.hostOps3_6,
    Cert.KernelIdeal.Gen.hostOps3_7, Cert.KernelIdeal.Gen.hostOps3_8]
  after_results_simp))

local macro "read_tail" : tactic => `(tactic| (simp only [Cert.KernelIdeal.Gen.hostOps4]; after_results_simp))

/-- The first take, padded: at a candidate's column the padded array holds the source's column the candidate's first index
    names, given that every such index is in `[0, 100000)`. From any contents `V`, the candidates named `A`. -/
theorem host3_v91 (V : KV) (A : IVec (Sh2 1000000 2) 32)
    (hA : (V (Proc.devRef .tc Cert.KernelIdeal.main_arg2) : IVec (Sh2 1000000 2) 32) = A)
    (hR : ∀ i : Fin 1000000, 0 ≤ (A (ix2 i 0)).toInt ∧ (A (ix2 i 0)).toInt < 100000) (k : Fin 16) (i : Fin 1000000) :
    (host3 V (Proc.devRef .tc Cert.KernelIdeal.main_v91) : Vec Ideal (Sh2 16 1015808) .f32) (ix2 k (padCol i))
      = (V (Proc.devRef .tc Cert.KernelIdeal.main_v82) : Vec Ideal (Sh2 16 100000) .f32) (ix2 k (candRow (A (ix2 i 0)))) := by
  subst hA
  read_host3
  simp only [ofBuf_toBuf]
  refine Eq.trans (pad_cols_apply 15808 _ _ Cert.KernelIdeal.Gen.pads_S16x1000000_S16x1015808_000_0158080
    Cert.KernelIdeal.Gen.h_S_ k i (padCol i) rfl) ?_
  refine Eq.trans (select_of_one _ _ _ _ ?_) ?_
  · refine Eq.trans (bcast_row_apply Cert.KernelIdeal.Gen.bcast_S1000000_S16x1000000_1 _ k i) ?_
    refine reduce_andi_of_forall _ _ Cert.KernelIdeal.Gen.reducesTo_S1000000x1_S1000000_d1 Cert.KernelIdeal.Gen.h_S_ _
      (fun j => ?_) rfl
    obtain ⟨p, u, rfl⟩ : ∃ p u, j = ix2 p u := ⟨j 0, j 1, eq_ix2 j⟩
    exact inrange_vec _ _ _ _ _ rfl rfl
      (Eq.trans (bcast_col_apply Cert.KernelIdeal.Gen.bcast_S1000000_S1000000x1_0 _ p u)
        (wrap_apply _ _ _ _ _ rfl (col_apply 0 (by decide) _ Cert.KernelIdeal.Gen.slices_S1000000x2_S1000000x1_0_0
          Cert.KernelIdeal.Gen.shapeCasts_S1000000x1_S1000000 p) (hR p).1)) (hR p).1 (hR p).2
  · exact gather_cols_of_eq Cert.KernelIdeal.gather_S16x100000_S1000000x1_S16x1000000_0_1_n_n_1_1_161 rfl rfl rfl rfl rfl
      _ _ k i (by decide) _
      (Eq.trans (bcast_col_apply Cert.KernelIdeal.Gen.bcast_S1000000_S1000000x1_0 _ i 0)
        (wrap_apply _ _ _ _ _ rfl (col_apply 0 (by decide) _ Cert.KernelIdeal.Gen.slices_S1000000x2_S1000000x1_0_0
          Cert.KernelIdeal.Gen.shapeCasts_S1000000x1_S1000000 i) (hR i).1))

/-- The second take, padded: the same at the candidate's second index, the source the other feature-major array. -/
theorem host3_v92 (V : KV) (A : IVec (Sh2 1000000 2) 32)
    (hA : (V (Proc.devRef .tc Cert.KernelIdeal.main_arg2) : IVec (Sh2 1000000 2) 32) = A)
    (hR : ∀ i : Fin 1000000, 0 ≤ (A (ix2 i 1)).toInt ∧ (A (ix2 i 1)).toInt < 100000) (k : Fin 16) (i : Fin 1000000) :
    (host3 V (Proc.devRef .tc Cert.KernelIdeal.main_v92) : Vec Ideal (Sh2 16 1015808) .f32) (ix2 k (padCol i))
      = (V (Proc.devRef .tc Cert.KernelIdeal.main_v47) : Vec Ideal (Sh2 16 100000) .f32) (ix2 k (candRow (A (ix2 i 1)))) := by
  subst hA
  read_host3
  simp only [ofBuf_toBuf]
  refine Eq.trans (pad_cols_apply 15808 _ _ Cert.KernelIdeal.Gen.pads_S16x1000000_S16x1015808_000_0158080
    Cert.KernelIdeal.Gen.h_S_ k i (padCol i) rfl) ?_
  refine Eq.trans (select_of_one _ _ _ _ ?_) ?_
  · refine Eq.trans (bcast_row_apply Cert.KernelIdeal.Gen.bcast_S1000000_S16x1000000_1 _ k i) ?_
    refine reduce_andi_of_forall _ _ Cert.KernelIdeal.Gen.reducesTo_S1000000x1_S1000000_d1 Cert.KernelIdeal.Gen.h_S_ _
      (fun j => ?_) rfl
    obtain ⟨p, u, rfl⟩ : ∃ p u, j = ix2 p u := ⟨j 0, j 1, eq_ix2 j⟩
    exact inrange_vec _ _ _ _ _ rfl rfl
      (Eq.trans (bcast_col_apply Cert.KernelIdeal.Gen.bcast_S1000000_S1000000x1_0 _ p u)
        (wrap_apply _ _ _ _ _ rfl (col_apply 1 (by decide) _ Cert.KernelIdeal.Gen.slices_S1000000x2_S1000000x1_0_1
          Cert.KernelIdeal.Gen.shapeCasts_S1000000x1_S1000000 p) (hR p).1)) (hR p).1 (hR p).2
  · exact gather_cols_of_eq Cert.KernelIdeal.gather_S16x100000_S1000000x1_S16x1000000_0_1_n_n_1_1_161 rfl rfl rfl rfl rfl
      _ _ k i (by decide) _
      (Eq.trans (bcast_col_apply Cert.KernelIdeal.Gen.bcast_S1000000_S1000000x1_0 _ i 0)
        (wrap_apply _ _ _ _ _ rfl (col_apply 1 (by decide) _ Cert.KernelIdeal.Gen.slices_S1000000x2_S1000000x1_0_1
          Cert.KernelIdeal.Gen.shapeCasts_S1000000x1_S1000000 i) (hR i).1))

/-! ## The weights: transposes and reshapes of the arguments -/

theorem host3_v89 (V : KV) (j : Fin 64) (k : Fin 32) :
    (host3 V (Proc.devRef .tc Cert.KernelIdeal.main_v89) : Vec Ideal (Sh2 64 32) .f32) (ix2 j k)
      = (V (Proc.devRef .tc Cert.KernelIdeal.main_arg12) : Vec Ideal (Sh2 32 64) .f32) (ix2 k j) := by
  read_host3
  exact transpose_ix2_apply _ _ j k

theorem host3_v90 (V : KV) (j : Fin 64) :
    (host3 V (Proc.devRef .tc Cert.KernelIdeal.main_v90) : Vec Ideal (Sh2 1 64) .f32) (ix2 0 j)
      = (V (Proc.devRef .tc Cert.KernelIdeal.main_arg14) : Vec Ideal (Sh2 64 1) .f32) (ix2 j 0) := by
  read_host3
  exact transpose_ix2_apply _ _ 0 j

theorem host3_v93 (V : KV) (j : Fin 64) :
    (host3 V (Proc.devRef .tc Cert.KernelIdeal.main_v93) : Vec Ideal (Sh2 64 1) .f32) (ix2 j 0)
      = (V (Proc.devRef .tc Cert.KernelIdeal.main_arg13) : Vec Ideal (Sh1 64) .f32) (ix1 j) := by
  read_host3
  show shapeCast _ _ _ (ix2 j 0) = _
  exact shapeCast_apply (s := ⟨1, ![64]⟩) (t := ⟨2, ![64, 1]⟩) _ _ (ix2 j 0) (ix1 j) (by
    rw [Shape.rowMajor_val_one, Shape.rowMajor_val_two]
    show j.val = j.val * 1 + 0
    omega)

theorem host3_v94 (V : KV) :
    (host3 V (Proc.devRef .tc Cert.KernelIdeal.main_v94) : Vec Ideal (Sh2 1 1) .f32) (ix2 0 0)
      = (V (Proc.devRef .tc Cert.KernelIdeal.main_arg15) : Vec Ideal (Sh1 1) .f32) (ix1 0) := by
  read_host3
  show shapeCast _ _ _ (ix2 0 0) = _
  exact shapeCast_a_1a_apply (a := 1) _ _ 0 0

/-! ## Region 0's output is untouched up to region 2's exit -/

theorem ops1_v47 (V : KV) :
    StableHlo.after Cert.KernelIdeal.Gen.hostOps1 V (Proc.devRef .tc Cert.KernelIdeal.main_v47) = V (Proc.devRef .tc Cert.KernelIdeal.main_v47) := by
  simp only [Cert.KernelIdeal.Gen.hostOps1]; after_results_simp
theorem ops2_v47 (V : KV) :
    StableHlo.after Cert.KernelIdeal.Gen.hostOps2 V (Proc.devRef .tc Cert.KernelIdeal.main_v47) = V (Proc.devRef .tc Cert.KernelIdeal.main_v47) := by
  simp only [Cert.KernelIdeal.Gen.hostOps2]; after_results_simp

/-! ## The arguments are the launch's: carried up to the end of the run, where they are read back -/

theorem host3_arg2 (V : KV) : host3 V (Proc.devRef .tc Cert.KernelIdeal.main_arg2) = V (Proc.devRef .tc Cert.KernelIdeal.main_arg2) := by
  read_host3
theorem tail_arg2 (V : KV) :
    StableHlo.after Cert.KernelIdeal.Gen.hostOps4 V (Proc.devRef .tc Cert.KernelIdeal.main_arg2) = V (Proc.devRef .tc Cert.KernelIdeal.main_arg2) := by
  read_tail

theorem host3_arg12 (V : KV) : host3 V (Proc.devRef .tc Cert.KernelIdeal.main_arg12) = V (Proc.devRef .tc Cert.KernelIdeal.main_arg12) := by
  read_host3
theorem tail_arg12 (V : KV) :
    StableHlo.after Cert.KernelIdeal.Gen.hostOps4 V (Proc.devRef .tc Cert.KernelIdeal.main_arg12) = V (Proc.devRef .tc Cert.KernelIdeal.main_arg12) := by
  read_tail

theorem host3_arg13 (V : KV) : host3 V (Proc.devRef .tc Cert.KernelIdeal.main_arg13) = V (Proc.devRef .tc Cert.KernelIdeal.main_arg13) := by
  read_host3
theorem tail_arg13 (V : KV) :
    StableHlo.after Cert.KernelIdeal.Gen.hostOps4 V (Proc.devRef .tc Cert.KernelIdeal.main_arg13) = V (Proc.devRef .tc Cert.KernelIdeal.main_arg13) := by
  read_tail

theorem host3_arg14 (V : KV) : host3 V (Proc.devRef .tc Cert.KernelIdeal.main_arg14) = V (Proc.devRef .tc Cert.KernelIdeal.main_arg14) := by
  read_host3
theorem tail_arg14 (V : KV) :
    StableHlo.after Cert.KernelIdeal.Gen.hostOps4 V (Proc.devRef .tc Cert.KernelIdeal.main_arg14) = V (Proc.devRef .tc Cert.KernelIdeal.main_arg14) := by
  read_tail

theorem host3_arg15 (V : KV) : host3 V (Proc.devRef .tc Cert.KernelIdeal.main_arg15) = V (Proc.devRef .tc Cert.KernelIdeal.main_arg15) := by
  read_host3
theorem tail_arg15 (V : KV) :
    StableHlo.after Cert.KernelIdeal.Gen.hostOps4 V (Proc.devRef .tc Cert.KernelIdeal.main_arg15) = V (Proc.devRef .tc Cert.KernelIdeal.main_arg15) := by
  read_tail

variable (m : KMem) (ρ : Dev Cert.KernelIdeal.nD → PrngReg) (c : Dev Cert.KernelIdeal.nD)

/-- Argument 2 is still the launch's at region 2's exit: no stretch or region after it writes it, and at the end it is. -/
theorem W25_arg2 : Cert.KernelIdeal.Gen.W25 (F := Ideal) m ρ c (Proc.devRef .tc Cert.KernelIdeal.main_arg2)
    = m ((c.tc : Thread Cert.KernelIdeal.nD Cert.KernelIdeal.τ).loc Cert.KernelIdeal.main_arg2) :=
  calc Cert.KernelIdeal.Gen.W25 (F := Ideal) m ρ c (Proc.devRef .tc Cert.KernelIdeal.main_arg2)
    _ = Cert.KernelIdeal.Gen.W34 (F := Ideal) m ρ c (Proc.devRef .tc Cert.KernelIdeal.main_arg2) :=
      (host3_arg2 (Cert.KernelIdeal.Gen.W25 m ρ c)).symm
    _ = Cert.KernelIdeal.Gen.W35 (F := Ideal) m ρ c (Proc.devRef .tc Cert.KernelIdeal.main_arg2) :=
      (Cert.KernelIdeal.Gen.W35_of_ne m ρ c Cert.KernelIdeal.main_arg2 (by decide)).symm
    _ = Cert.KernelIdeal.Gen.W36 (F := Ideal) m ρ c (Proc.devRef .tc Cert.KernelIdeal.main_arg2) :=
      (tail_arg2 (Cert.KernelIdeal.Gen.W35 m ρ c)).symm
    _ = _ := Cert.KernelIdeal.Gen.W36_main_arg2 m ρ c

/-- Argument 12 is still the launch's at region 2's exit: no stretch or region after it writes it, and at the end it is. -/
theorem W25_arg12 : Cert.KernelIdeal.Gen.W25 (F := Ideal) m ρ c (Proc.devRef .tc Cert.KernelIdeal.main_arg12)
    = m ((c.tc : Thread Cert.KernelIdeal.nD Cert.KernelIdeal.τ).loc Cert.KernelIdeal.main_arg12) :=
  calc Cert.KernelIdeal.Gen.W25 (F := Ideal) m ρ c (Proc.devRef .tc Cert.KernelIdeal.main_arg12)
    _ = Cert.KernelIdeal.Gen.W34 (F := Ideal) m ρ c (Proc.devRef .tc Cert.KernelIdeal.main_arg12) :=
      (host3_arg12 (Cert.KernelIdeal.Gen.W25 m ρ c)).symm
    _ = Cert.KernelIdeal.Gen.W35 (F := Ideal) m ρ c (Proc.devRef .tc Cert.KernelIdeal.main_arg12) :=
      (Cert.KernelIdeal.Gen.W35_of_ne m ρ c Cert.KernelIdeal.main_arg12 (by decide)).symm
    _ = Cert.KernelIdeal.Gen.W36 (F := Ideal) m ρ c (Proc.devRef .tc Cert.KernelIdeal.main_arg12) :=
      (tail_arg12 (Cert.KernelIdeal.Gen.W35 m ρ c)).symm
    _ = _ := Cert.KernelIdeal.Gen.W36_main_arg12 m ρ c

/-- Argument 13 is still the launch's at region 2's exit: no stretch or region after it writes it, and at the end it is. -/
theorem W25_arg13 : Cert.KernelIdeal.Gen.W25 (F := Ideal) m ρ c (Proc.devRef .tc Cert.KernelIdeal.main_arg13)
    = m ((c.tc : Thread Cert.KernelIdeal.nD Cert.KernelIdeal.τ).loc Cert.KernelIdeal.main_arg13) :=
  calc Cert.KernelIdeal.Gen.W25 (F := Ideal) m ρ c (Proc.devRef .tc Cert.KernelIdeal.main_arg13)
    _ = Cert.KernelIdeal.Gen.W34 (F := Ideal) m ρ c (Proc.devRef .tc Cert.KernelIdeal.main_arg13) :=
      (host3_arg13 (Cert.KernelIdeal.Gen.W25 m ρ c)).symm
    _ = Cert.KernelIdeal.Gen.W35 (F := Ideal) m ρ c (Proc.devRef .tc Cert.KernelIdeal.main_arg13) :=
      (Cert.KernelIdeal.Gen.W35_of_ne m ρ c Cert.KernelIdeal.main_arg13 (by decide)).symm
    _ = Cert.KernelIdeal.Gen.W36 (F := Ideal) m ρ c (Proc.devRef .tc Cert.KernelIdeal.main_arg13) :=
      (tail_arg13 (Cert.KernelIdeal.Gen.W35 m ρ c)).symm
    _ = _ := Cert.KernelIdeal.Gen.W36_main_arg13 m ρ c

/-- Argument 14 is still the launch's at region 2's exit: no stretch or region after it writes it, and at the end it is. -/
theorem W25_arg14 : Cert.KernelIdeal.Gen.W25 (F := Ideal) m ρ c (Proc.devRef .tc Cert.KernelIdeal.main_arg14)
    = m ((c.tc : Thread Cert.KernelIdeal.nD Cert.KernelIdeal.τ).loc Cert.KernelIdeal.main_arg14) :=
  calc Cert.KernelIdeal.Gen.W25 (F := Ideal) m ρ c (Proc.devRef .tc Cert.KernelIdeal.main_arg14)
    _ = Cert.KernelIdeal.Gen.W34 (F := Ideal) m ρ c (Proc.devRef .tc Cert.KernelIdeal.main_arg14) :=
      (host3_arg14 (Cert.KernelIdeal.Gen.W25 m ρ c)).symm
    _ = Cert.KernelIdeal.Gen.W35 (F := Ideal) m ρ c (Proc.devRef .tc Cert.KernelIdeal.main_arg14) :=
      (Cert.KernelIdeal.Gen.W35_of_ne m ρ c Cert.KernelIdeal.main_arg14 (by decide)).symm
    _ = Cert.KernelIdeal.Gen.W36 (F := Ideal) m ρ c (Proc.devRef .tc Cert.KernelIdeal.main_arg14) :=
      (tail_arg14 (Cert.KernelIdeal.Gen.W35 m ρ c)).symm
    _ = _ := Cert.KernelIdeal.Gen.W36_main_arg14 m ρ c

/-- Argument 15 is still the launch's at region 2's exit: no stretch or region after it writes it, and at the end it is. -/
theorem W25_arg15 : Cert.KernelIdeal.Gen.W25 (F := Ideal) m ρ c (Proc.devRef .tc Cert.KernelIdeal.main_arg15)
    = m ((c.tc : Thread Cert.KernelIdeal.nD Cert.KernelIdeal.τ).loc Cert.KernelIdeal.main_arg15) :=
  calc Cert.KernelIdeal.Gen.W25 (F := Ideal) m ρ c (Proc.devRef .tc Cert.KernelIdeal.main_arg15)
    _ = Cert.KernelIdeal.Gen.W34 (F := Ideal) m ρ c (Proc.devRef .tc Cert.KernelIdeal.main_arg15) :=
      (host3_arg15 (Cert.KernelIdeal.Gen.W25 m ρ c)).symm
    _ = Cert.KernelIdeal.Gen.W35 (F := Ideal) m ρ c (Proc.devRef .tc Cert.KernelIdeal.main_arg15) :=
      (Cert.KernelIdeal.Gen.W35_of_ne m ρ c Cert.KernelIdeal.main_arg15 (by decide)).symm
    _ = Cert.KernelIdeal.Gen.W36 (F := Ideal) m ρ c (Proc.devRef .tc Cert.KernelIdeal.main_arg15) :=
      (tail_arg15 (Cert.KernelIdeal.Gen.W35 m ρ c)).symm
    _ = _ := Cert.KernelIdeal.Gen.W36_main_arg15 m ρ c

/-- Region 0's output at region 2's exit is what region 0 left: neither later region has it among its arrays, neither
    stretch between writes it. -/
theorem W25_v47 : Cert.KernelIdeal.Gen.W25 (F := Ideal) m ρ c (Proc.devRef .tc Cert.KernelIdeal.main_v47)
    = Cert.KernelIdeal.Gen.W21 (F := Ideal) m ρ c (Proc.devRef .tc Cert.KernelIdeal.main_v47) :=
  calc Cert.KernelIdeal.Gen.W25 (F := Ideal) m ρ c (Proc.devRef .tc Cert.KernelIdeal.main_v47)
    _ = Cert.KernelIdeal.Gen.W24 (F := Ideal) m ρ c (Proc.devRef .tc Cert.KernelIdeal.main_v47) :=
      Cert.KernelIdeal.Gen.W25_of_ne m ρ c Cert.KernelIdeal.main_v47 (by decide)
    _ = Cert.KernelIdeal.Gen.W23 (F := Ideal) m ρ c (Proc.devRef .tc Cert.KernelIdeal.main_v47) :=
      ops2_v47 (Cert.KernelIdeal.Gen.W23 m ρ c)
    _ = Cert.KernelIdeal.Gen.W22 (F := Ideal) m ρ c (Proc.devRef .tc Cert.KernelIdeal.main_v47) :=
      Cert.KernelIdeal.Gen.W23_of_ne m ρ c Cert.KernelIdeal.main_v47 (by decide)
    _ = Cert.KernelIdeal.Gen.W21 (F := Ideal) m ρ c (Proc.devRef .tc Cert.KernelIdeal.main_v47) :=
      ops1_v47 (Cert.KernelIdeal.Gen.W21 m ρ c)

end OutKHost

variable (m : KMem) (ρ : Dev Cert.KernelIdeal.nD → PrngReg) (c : Dev Cert.KernelIdeal.nD)

theorem kHpad_apply (hr : CandRange m c) (k : Fin 16) (i : Fin 1000000) :
    kHpad m ρ c (ix2 k (padCol i)) = kH2T m ρ c (ix2 k (candRow (kCand m c (ix2 i 0)))) :=
  OutKHost.host3_v91 (Cert.KernelIdeal.Gen.W25 m ρ c) (kCand m c) (OutKHost.W25_arg2 m ρ c) (fun i => hr (ix2 i 0)) k i

theorem kXpad_apply (hr : CandRange m c) (k : Fin 16) (i : Fin 1000000) :
    kXpad m ρ c (ix2 k (padCol i)) = kXuncT m ρ c (ix2 k (candRow (kCand m c (ix2 i 1)))) := by
  have h := OutKHost.host3_v92 (Cert.KernelIdeal.Gen.W25 m ρ c) (kCand m c) (OutKHost.W25_arg2 m ρ c) (fun i => hr (ix2 i 1)) k i
  rw [OutKHost.W25_v47 m ρ c] at h
  exact h

theorem kWaT_apply (j : Fin 64) (k : Fin 32) : kWaT m ρ c (ix2 j k) = kWa m c k j := by
  unfold kWa
  rw [← OutKHost.W25_arg12 m ρ c]
  exact OutKHost.host3_v89 (Cert.KernelIdeal.Gen.W25 m ρ c) j k

theorem kBa2_apply (j : Fin 64) : kBa2 m ρ c (ix2 j 0) = kBa m c j := by
  unfold kBa
  rw [← OutKHost.W25_arg13 m ρ c]
  exact OutKHost.host3_v93 (Cert.KernelIdeal.Gen.W25 m ρ c) j

theorem kWbT_apply (j : Fin 64) : kWbT m ρ c (ix2 0 j) = kWb m c j := by
  unfold kWb
  rw [← OutKHost.W25_arg14 m ρ c]
  exact OutKHost.host3_v90 (Cert.KernelIdeal.Gen.W25 m ρ c) j

theorem kBb2_apply : kBb2 m ρ c (ix2 0 0) = kBb m c := by
  unfold kBb
  rw [← OutKHost.W25_arg15 m ρ c]
  exact OutKHost.host3_v94 (Cert.KernelIdeal.Gen.W25 m ρ c)

end Cert.Bridge

end
-- ==== Proof.POutKReg.lean ====
import proofs.«402058_j52493090292432_1_alg».proof.Proof.POutKIface
import Idealize.ShloMosaic.Lib.Pipeline.Value
import Idealize.ShloMosaic.Lib.ValueIdx
import Idealize.ShloMosaic.PureOps.Ideal.Laws

/-! Region 3: the output row at a column is the score of that column of the two padded arrays, with the region's own
    (transposed) weights; the 31 blocks of 32768 columns tile the row. -/

noncomputable section

namespace Cert.Bridge

open Idealize.ShloMosaic Idealize.ShloMosaic.TcCoe Idealize.SL.Sem Idealize.ShloMosaic.StableHlo Idealize.ShloMosaic.ValueIdx
open Idealize.ShloMosaic.Pipeline (Dat)
open Cert.KernelIdeal Cert.KernelIdeal.Gen

/-! ## One block: the body's value at a column -/

/-- The first product (64×32 by 32×32768): which entry of each operand an output entry and a contraction position read. -/
theorem lhs_hid_0 (i : S64x32768.Idx) (q : dot_S64x32_S32x32768_S64x32768_1_0_0_1_n_n.contr.Idx) :
    (dot_S64x32_S32x32768_S64x32768_1_0_0_1_n_n.lhsIdx i q 0).val = (i 0).val := by
  unfold DotDims.lhsIdx
  rw [dif_neg (show ¬(0 : Fin S64x32.rank) ∈ dot_S64x32_S32x32768_S64x32768_1_0_0_1_n_n.lhsBatch by decide), dif_pos (show (0 : Fin S64x32.rank) ∈ dot_S64x32_S32x32768_S64x32768_1_0_0_1_n_n.lhsNonContracting by decide)]
  rfl
theorem lhs_hid_1 (i : S64x32768.Idx) (q : dot_S64x32_S32x32768_S64x32768_1_0_0_1_n_n.contr.Idx) :
    (dot_S64x32_S32x32768_S64x32768_1_0_0_1_n_n.lhsIdx i q 1).val = (q ⟨0, by decide⟩).val :=
  dot_S64x32_S32x32768_S64x32768_1_0_0_1_n_n.lhsIdx_val_of_single rfl i q
theorem rhs_hid_0 (i : S64x32768.Idx) (q : dot_S64x32_S32x32768_S64x32768_1_0_0_1_n_n.contr.Idx) :
    (dot_S64x32_S32x32768_S64x32768_1_0_0_1_n_n.rhsIdx i q 0).val = (q ⟨0, by decide⟩).val :=
  dot_S64x32_S32x32768_S64x32768_1_0_0_1_n_n.rhsIdx_val_of_single rfl i q
theorem rhs_hid_1 (i : S64x32768.Idx) (q : dot_S64x32_S32x32768_S64x32768_1_0_0_1_n_n.contr.Idx) :
    (dot_S64x32_S32x32768_S64x32768_1_0_0_1_n_n.rhsIdx i q 1).val = (i 1).val := by
  unfold DotDims.rhsIdx
  rw [dif_neg (show ¬(1 : Fin S32x32768.rank) ∈ dot_S64x32_S32x32768_S64x32768_1_0_0_1_n_n.rhsBatch by decide), dif_pos (show (1 : Fin S32x32768.rank) ∈ dot_S64x32_S32x32768_S64x32768_1_0_0_1_n_n.rhsNonContracting by decide)]
  rfl

/-- The first product into a zero accumulator, at (j, q): the sum over the 32 features. -/
theorem hid_apply (A : FVec Ideal S64x32 .bf16) (B : FVec Ideal S32x32768 .bf16) (j : Fin 64) (q : Fin 32768) :
    matmul dot_S64x32_S32x32768_S64x32768_1_0_0_1_n_n none A B (constant (F := Ideal) S64x32768 .f32 0x00000000#32) (ix2 j q)
      = ∑ k : Fin 32, A (ix2 j k) * B (ix2 k q) := by
  simp only [matmul]
  rw [Ideal.matmul_constant_zero_apply, ← Equiv.sum_comp (contrEquiv1 dot_S64x32_S32x32768_S64x32768_1_0_0_1_n_n 32 rfl rfl).symm]
  refine Finset.sum_congr rfl fun k _ => ?_
  have hk := contrEquiv1_symm_val dot_S64x32_S32x32768_S64x32768_1_0_0_1_n_n 32 rfl rfl k
  have el : dot_S64x32_S32x32768_S64x32768_1_0_0_1_n_n.lhsIdx (ix2 j q) ((contrEquiv1 dot_S64x32_S32x32768_S64x32768_1_0_0_1_n_n 32 rfl rfl).symm k) = ix2 j k := funext fun a => Fin.ext (by
    match a with
    | ⟨0, _⟩ => exact lhs_hid_0 _ _
    | ⟨1, _⟩ => exact (lhs_hid_1 _ _).trans hk)
  have er : dot_S64x32_S32x32768_S64x32768_1_0_0_1_n_n.rhsIdx (ix2 j q) ((contrEquiv1 dot_S64x32_S32x32768_S64x32768_1_0_0_1_n_n 32 rfl rfl).symm k) = ix2 k q := funext fun a => Fin.ext (by
    match a with
    | ⟨0, _⟩ => exact (rhs_hid_0 _ _).trans hk
    | ⟨1, _⟩ => exact rhs_hid_1 _ _)
  rw [el, er]

/-- The second product (1×64 by 64×32768): the same four facts. -/
theorem lhs_out_0 (i : S1x32768.Idx) (q : dot_S1x64_S64x32768_S1x32768_1_0_0_1_n_n.contr.Idx) :
    (dot_S1x64_S64x32768_S1x32768_1_0_0_1_n_n.lhsIdx i q 0).val = (i 0).val := by
  unfold DotDims.lhsIdx
  rw [dif_neg (show ¬(0 : Fin S1x64.rank) ∈ dot_S1x64_S64x32768_S1x32768_1_0_0_1_n_n.lhsBatch by decide), dif_pos (show (0 : Fin S1x64.rank) ∈ dot_S1x64_S64x32768_S1x32768_1_0_0_1_n_n.lhsNonContracting by decide)]
  rfl
theorem lhs_out_1 (i : S1x32768.Idx) (q : dot_S1x64_S64x32768_S1x32768_1_0_0_1_n_n.contr.Idx) :
    (dot_S1x64_S64x32768_S1x32768_1_0_0_1_n_n.lhsIdx i q 1).val = (q ⟨0, by decide⟩).val :=
  dot_S1x64_S64x32768_S1x32768_1_0_0_1_n_n.lhsIdx_val_of_single rfl i q
theorem rhs_out_0 (i : S1x32768.Idx) (q : dot_S1x64_S64x32768_S1x32768_1_0_0_1_n_n.contr.Idx) :
    (dot_S1x64_S64x32768_S1x32768_1_0_0_1_n_n.rhsIdx i q 0).val = (q ⟨0, by decide⟩).val :=
  dot_S1x64_S64x32768_S1x32768_1_0_0_1_n_n.rhsIdx_val_of_single rfl i q
theorem rhs_out_1 (i : S1x32768.Idx) (q : dot_S1x64_S64x32768_S1x32768_1_0_0_1_n_n.contr.Idx) :
    (dot_S1x64_S64x32768_S1x32768_1_0_0_1_n_n.rhsIdx i q 1).val = (i 1).val := by
  unfold DotDims.rhsIdx
  rw [dif_neg (show ¬(1 : Fin S64x32768.rank) ∈ dot_S1x64_S64x32768_S1x32768_1_0_0_1_n_n.rhsBatch by decide), dif_pos (show (1 : Fin S64x32768.rank) ∈ dot_S1x64_S64x32768_S1x32768_1_0_0_1_n_n.rhsNonContracting by decide)]
  rfl

/-- The second product into a zero accumulator, at (0, q): the sum over the 64 hidden units. -/
theorem out_apply (A : FVec Ideal S1x64 .bf16) (B : FVec Ideal S64x32768 .bf16) (q : Fin 32768) :
    matmul dot_S1x64_S64x32768_S1x32768_1_0_0_1_n_n none A B (constant (F := Ideal) S1x32768 .f32 0x00000000#32) (ix2 0 q)
      = ∑ j : Fin 64, A (ix2 0 j) * B (ix2 j q) := by
  simp only [matmul]
  rw [Ideal.matmul_constant_zero_apply, ← Equiv.sum_comp (contrEquiv1 dot_S1x64_S64x32768_S1x32768_1_0_0_1_n_n 64 rfl rfl).symm]
  refine Finset.sum_congr rfl fun k _ => ?_
  have hk := contrEquiv1_symm_val dot_S1x64_S64x32768_S1x32768_1_0_0_1_n_n 64 rfl rfl k
  have el : dot_S1x64_S64x32768_S1x32768_1_0_0_1_n_n.lhsIdx (ix2 0 q) ((contrEquiv1 dot_S1x64_S64x32768_S1x32768_1_0_0_1_n_n 64 rfl rfl).symm k) = ix2 0 k := funext fun a => Fin.ext (by
    match a with
    | ⟨0, _⟩ => exact lhs_out_0 _ _
    | ⟨1, _⟩ => exact (lhs_out_1 _ _).trans hk)
  have er : dot_S1x64_S64x32768_S1x32768_1_0_0_1_n_n.rhsIdx (ix2 0 q) ((contrEquiv1 dot_S1x64_S64x32768_S1x32768_1_0_0_1_n_n 64 rfl rfl).symm k) = ix2 k q := funext fun a => Fin.ext (by
    match a with
    | ⟨0, _⟩ => exact (rhs_out_0 _ _).trans hk
    | ⟨1, _⟩ => exact rhs_out_1 _ _)
  rw [el, er]

/-- The two 16-row blocks stacked, at (k, q): row k of the first when k < 16, row k − 16 of the second otherwise. -/
theorem cat_apply (x0 x1 : FVec Ideal S16x32768 .f32) (h : Shape.Concatenates [S16x32768, S16x32768] S32x32768 0)
    (k : Fin 32) (q : Fin 32768) :
    concatenate S32x32768 0 [⟨S16x32768, x0⟩, ⟨S16x32768, x1⟩] h (ix2 k q)
      = ecat (fun k => x0 (ix2 k q)) (fun k => x1 (ix2 k q)) k := by
  unfold ecat
  by_cases hk : k.val < 16
  · rw [dif_pos hk]
    exact concatenate_pair_apply_left (0 : Fin S32x32768.rank) x0 x1 h (ix2 k q) rfl (ix2 ⟨k.val, hk⟩ q)
      (fun b => by match b with | ⟨0, _⟩ => rfl | ⟨1, _⟩ => rfl)
  · rw [dif_neg hk]
    exact concatenate_pair_apply_right (0 : Fin S32x32768.rank) x0 x1 h (ix2 k q) rfl rfl (ix2 ⟨k.val - 16, by omega⟩ q)
      (fun b hb => by match b with | ⟨0, _⟩ => exact absurd rfl hb | ⟨1, _⟩ => rfl)
      (by show (k.val - 16) + 16 = k.val; omega)

/-- A column of 64 spread over the 32768 columns. -/
theorem bcol_apply (x : FVec Ideal S64x1 .f32) (h : S64x1.Broadcasts S64x32768) (j : Fin 64) (q : Fin 32768) :
    broadcastTo S64x32768 x h (ix2 j q) = x (ix2 j 0) :=
  broadcastTo_apply x h (ix2 j q) (ix2 j 0) (fun a => by match a with | ⟨0, _⟩ => rfl | ⟨1, _⟩ => rfl)

/-- One entry spread over the row. -/
theorem bone_apply (x : FVec Ideal S1x1 .f32) (h : S1x1.Broadcasts S1x32768) (q : Fin 32768) :
    broadcastTo S1x32768 x h (ix2 0 q) = x (ix2 0 0) :=
  broadcastTo_apply x h (ix2 0 q) (ix2 0 0) (fun a => by match a with | ⟨0, _⟩ => rfl | ⟨1, _⟩ => rfl)

/-- The body's stored row at column q of its block is the score of column q of the two 16-row blocks. -/
theorem pay_apply (x0 x1 : Vec Ideal S16x32768 .f32) (x2 : Vec Ideal S64x32 .f32) (x3 : Vec Ideal S64x1 .f32)
    (x4 : Vec Ideal S1x64 .f32) (x5 : Vec Ideal S1x1 .f32) (q : Fin 32768) :
    k3_pay1 (F := Ideal) x0 x1 x2 x3 x4 x5 (ix2 0 q)
      = score (fun k => x0 (ix2 k q)) (fun k => x1 (ix2 k q)) (fun k j => x2 (ix2 j k)) (fun j => x3 (ix2 j 0))
          (fun j => x4 (ix2 0 j)) (x5 (ix2 0 0)) := by
  unfold k3_pay1 score
  simp only [shapeCast_self]
  rw [addf_apply, out_apply, bone_apply]
  congr 1
  refine Finset.sum_congr rfl fun j _ => ?_
  rw [truncf_apply, truncf_apply, maximumf_apply, addf_apply, hid_apply, bcol_apply, broadcast_apply, mul_comm]
  show max ((∑ k : Fin 32, _) + _) (Ideal.ofBits .f32 0x00000000#32) * _ = _
  rw [Ideal.ofBits_zero_f32]
  congr 3
  refine Finset.sum_congr rfl fun k _ => ?_
  rw [truncf_apply, truncf_apply, cat_apply, mul_comm]
  simp only [shapeCast_self]

/-! ## From the 31 blocks to the row -/

section Row

variable (V : (c : Dev nD) → (b : Ref sig .tc) → Buf (Elt Ideal) ((c : Thread nD τ).loc b))

/-- The row the region leaves, as one function of the arrays it is entered with: at column n, the score of column n
    of the two padded arrays with the region's weights. -/
def rowScore (c : Dev nD) : Vec Ideal S1x1015808 .f32 := fun i =>
  score (fun k => (V c main_v91 : Vec Ideal S16x1015808 .f32) (ix2 k ⟨(i 1).val, idx2_lt1 i⟩))
    (fun k => (V c main_v92 : Vec Ideal S16x1015808 .f32) (ix2 k ⟨(i 1).val, idx2_lt1 i⟩))
    (fun k j => (V c main_v89 : Vec Ideal S64x32 .f32) (ix2 j k))
    (fun j => (V c main_v93 : Vec Ideal S64x1 .f32) (ix2 j 0))
    (fun j => (V c main_v90 : Vec Ideal S1x64 .f32) (ix2 0 j))
    ((V c main_v94 : Vec Ideal S1x1 .f32) (ix2 0 0))

theorem zero_offsets : (![0, 0] : Fin 2 → Nat) = fun _ => 0 := funext fun a => by fin_cases a <;> rfl

/-- The index maps over the grid: the two padded arrays and the output row move one block of columns per point, the
    weights and biases stay whole. -/
theorem block_indices : ∀ t : Fin cfg3.N,
    win3_0.index t (0 : Fin 2) = 0 ∧ win3_0.index t (1 : Fin 2) = t.val
    ∧ win3_1.index t (0 : Fin 2) = 0 ∧ win3_1.index t (1 : Fin 2) = t.val
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = t.val :=
  (by decide +kernel : ∀ t : Fin grid3.N, _)

/-- Block t of a padded array, at (k, q), is the array at column 32768 t + q. -/
theorem hblk_apply (c : Dev nD) (t : Fin cfg3.N) (k : Fin 16) (q : Fin 32768) (n : Fin 1015808)
    (hn : n.val = t.val * 32768 + q.val) :
    (iblk3 V c 0 t : Vec Ideal S16x32768 .f32) (ix2 k q) = (V c main_v91 : Vec Ideal S16x1015808 .f32) (ix2 k n) := by
  obtain ⟨e0, e1, -⟩ := block_indices t
  show (V c main_v91 : Vec Ideal S16x1015808 .f32) (((cfg3.win 0).blk t).view.emb (ix2 k q)) = _
  refine congrArg _ (funext fun a => Fin.ext ?_)
  match a with
  | ⟨0, _⟩ => show win3_0.index t (0 : Fin 2) * 16 + 1 * k.val = k.val; rw [e0]; omega
  | ⟨1, _⟩ => show win3_0.index t (1 : Fin 2) * 32768 + 1 * q.val = n.val; rw [e1, hn]; omega
theorem xblk_apply (c : Dev nD) (t : Fin cfg3.N) (k : Fin 16) (q : Fin 32768) (n : Fin 1015808)
    (hn : n.val = t.val * 32768 + q.val) :
    (iblk3 V c 1 t : Vec Ideal S16x32768 .f32) (ix2 k q) = (V c main_v92 : Vec Ideal S16x1015808 .f32) (ix2 k n) := by
  obtain ⟨-, -, e0, e1, -⟩ := block_indices t
  show (V c main_v92 : Vec Ideal S16x1015808 .f32) (((cfg3.win 1).blk t).view.emb (ix2 k q)) = _
  refine congrArg _ (funext fun a => Fin.ext ?_)
  match a with
  | ⟨0, _⟩ => show win3_1.index t (0 : Fin 2) * 16 + 1 * k.val = k.val; rw [e0]; omega
  | ⟨1, _⟩ => show win3_1.index t (1 : Fin 2) * 32768 + 1 * q.val = n.val; rw [e1, hn]; omega
/-- The weights' and biases' blocks are their arrays. -/
theorem wablk_apply (c : Dev nD) (t : Fin cfg3.N) (j : Fin 64) (k : Fin 32) :
    (iblk3 V c 2 t : Vec Ideal S64x32 .f32) (ix2 j k) = (V c main_v89 : Vec Ideal S64x32 .f32) (ix2 j k) := by
  obtain ⟨-, -, -, -, e0, e1, -⟩ := block_indices t
  show (V c main_v89 : Vec Ideal S64x32 .f32) (((cfg3.win 2).blk t).view.emb (ix2 j k)) = _
  refine congrArg _ (funext fun a => Fin.ext ?_)
  match a with
  | ⟨0, _⟩ => show win3_2.index t (0 : Fin 2) * 64 + 1 * j.val = j.val; rw [e0]; omega
  | ⟨1, _⟩ => show win3_2.index t (1 : Fin 2) * 32 + 1 * k.val = k.val; rw [e1]; omega
theorem bablk_apply (c : Dev nD) (t : Fin cfg3.N) (j : Fin 64) :
    (iblk3 V c 3 t : Vec Ideal S64x1 .f32) (ix2 j 0) = (V c main_v93 : Vec Ideal S64x1 .f32) (ix2 j 0) := by
  obtain ⟨-, -, -, -, -, -, e0, e1, -⟩ := block_indices t
  show (V c main_v93 : Vec Ideal S64x1 .f32) (((cfg3.win 3).blk t).view.emb (ix2 j 0)) = _
  refine congrArg _ (funext fun a => Fin.ext ?_)
  match a with
  | ⟨0, _⟩ => show win3_3.index t (0 : Fin 2) * 64 + 1 * j.val = j.val; rw [e0]; omega
  | ⟨1, _⟩ => show win3_3.index t (1 : Fin 2) * 1 + 1 * 0 = 0; rw [e1]
theorem wbblk_apply (c : Dev nD) (t : Fin cfg3.N) (j : Fin 64) :
    (iblk3 V c 4 t : Vec Ideal S1x64 .f32) (ix2 0 j) = (V c main_v90 : Vec Ideal S1x64 .f32) (ix2 0 j) := by
  obtain ⟨-, -, -, -, -, -, -, -, e0, e1, -⟩ := block_indices t
  show (V c main_v90 : Vec Ideal S1x64 .f32) (((cfg3.win 4).blk t).view.emb (ix2 0 j)) = _
  refine congrArg _ (funext fun a => Fin.ext ?_)
  match a with
  | ⟨0, _⟩ => show win3_4.index t (0 : Fin 2) * 1 + 1 * 0 = 0; rw [e0]
  | ⟨1, _⟩ => show win3_4.index t (1 : Fin 2) * 64 + 1 * j.val = j.val; rw [e1]; omega
theorem bbblk_apply (c : Dev nD) (t : Fin cfg3.N) :
    (iblk3 V c 5 t : Vec Ideal S1x1 .f32) (ix2 0 0) = (V c main_v94 : Vec Ideal S1x1 .f32) (ix2 0 0) := by
  obtain ⟨-, -, -, -, -, -, -, -, -, -, e0, e1, -⟩ := block_indices t
  show (V c main_v94 : Vec Ideal S1x1 .f32) (((cfg3.win 5).blk t).view.emb (ix2 0 0)) = _
  refine congrArg _ (funext fun a => Fin.ext ?_)
  match a with
  | ⟨0, _⟩ => show win3_5.index t (0 : Fin 2) * 1 + 1 * 0 = 0; rw [e0]
  | ⟨1, _⟩ => show win3_5.index t (1 : Fin 2) * 1 + 1 * 0 = 0; rw [e1]

/-- The score depends on its arguments entry by entry. -/
theorem score_congr {e0 e0' e1 e1' : Fin 16 → EReal} {wa wa' : Fin 32 → Fin 64 → EReal} {ba ba' wb wb' : Fin 64 → EReal}
    {bb bb' : EReal} (h0 : ∀ k, e0 k = e0' k) (h1 : ∀ k, e1 k = e1' k) (h2 : ∀ k j, wa k j = wa' k j)
    (h3 : ∀ j, ba j = ba' j) (h4 : ∀ j, wb j = wb' j) (h5 : bb = bb') :
    score e0 e1 wa ba wb bb = score e0' e1' wa' ba' wb' bb' := by
  obtain rfl : e0 = e0' := funext h0
  obtain rfl : e1 = e1' := funext h1
  obtain rfl : wa = wa' := funext fun k => funext (h2 k)
  obtain rfl : ba = ba' := funext h3
  obtain rfl : wb = wb' := funext h4
  rw [h5]

/-- What point t leaves in the output's staging row is block t of the row function. -/
theorem staged_apply (c : Dev nD) (t : Fin cfg3.N) (y : S1x32768.Idx) :
    k3_pay1 (F := Ideal) (iblk3 V c 0 t) (iblk3 V c 1 t) (iblk3 V c 2 t) (iblk3 V c 3 t) (iblk3 V c 4 t) (iblk3 V c 5 t) y
      = rowScore V c (((cfg3.win 6).blk t).view.emb y) := by
  obtain ⟨p, q, rfl⟩ : ∃ (p : Fin 1) (q : Fin 32768), y = ix2 p q := ⟨y 0, y 1, eq_ix2 y⟩
  obtain rfl : p = 0 := Subsingleton.elim _ _
  obtain ⟨-, -, -, -, -, -, -, -, -, -, -, -, e0, e1⟩ := block_indices t
  have hn : ((((cfg3.win 6).blk t).view.emb (ix2 (0 : Fin 1) q)) 1).val = t.val * 32768 + q.val := by
    show win3_6.index t (1 : Fin 2) * 32768 + 1 * q.val = _
    rw [e1]; omega
  refine (pay_apply (iblk3 V c 0 t) (iblk3 V c 1 t) (iblk3 V c 2 t) (iblk3 V c 3 t) (iblk3 V c 4 t) (iblk3 V c 5 t) q).trans ?_
  exact score_congr (fun k => hblk_apply V c t k q _ hn) (fun k => xblk_apply V c t k q _ hn)
    (fun k j => wablk_apply V c t j k) (fun j => bablk_apply V c t j) (fun j => wbblk_apply V c t j) (bbblk_apply V c t)

/-- WHAT POINT t WRITES BACK is block t of the row function. -/
theorem flushed_row (c : Dev nD) (t : Fin cfg3.N) :
    (dat3 V c).flushed 6 t = ((cfg3.win 6).blk t).view.read (Elt Ideal) (rowScore V c) := by
  show (cfg3.win 6).cut (grid3.coords t) ((dat3 V c).after 6 t) = _
  rw [after3_6]
  unfold out3_6
  rw [View.canon_unit_zero zero_offsets]
  simp only [View.ld_unit_zero (S := S16x32768) zero_offsets, View.ld_unit_zero (S := S64x32) zero_offsets,
    View.ld_unit_zero (S := S64x1) zero_offsets, View.ld_unit_zero (S := S1x64) zero_offsets,
    View.ld_unit_zero (S := S1x1) zero_offsets]
  funext y
  exact staged_apply V c t y

/-- A column is in point t's block iff it lies in the block's range of columns. -/
theorem mem_block (t : Fin cfg3.N) (i : S1x1015808.Idx) :
    i ∈ ((cfg3.win 6).blk t).view.set ↔ ∀ a : Fin 2, win3_6.index t a * S1x32768.size a ≤ (i a).val ∧ (i a).val < win3_6.index t a * S1x32768.size a + S1x32768.size a := by
  show i ∈ ((View.whole main_v95).slice (win3_6.rect t)).set ↔ _
  rw [View.set_slice_whole, Rect.mem_set_unit]
  exact Iff.rfl

/-- Every column is in the block of the point numbered by its quotient by 32768. -/
theorem covered (i : S1x1015808.Idx) :
    ∃ t : Fin cfg3.N, (cfg3.win 6).flush t = true ∧ i ∈ ((cfg3.win 6).blk t).view.set := by
  have hi0 : (i 0).val < 1 := idx2_lt0 i
  have hi1 : (i 1).val < 1015808 := idx2_lt1 i
  have hN : cfg3.N = 31 := N_3
  obtain ⟨t, ht⟩ : ∃ t : Fin cfg3.N, t.val = (i 1).val / 32768 := ⟨⟨(i 1).val / 32768, by rw [hN]; omega⟩, rfl⟩
  obtain ⟨-, -, -, -, -, -, -, -, -, -, -, -, e0, e1⟩ := block_indices t
  refine ⟨t, flush3_6 t, ?_⟩
  rw [mem_block]
  intro a
  match a with
  | ⟨0, _⟩ => show win3_6.index t (0 : Fin 2) * 1 ≤ (i 0).val ∧ (i 0).val < win3_6.index t (0 : Fin 2) * 1 + 1; rw [e0]; omega
  | ⟨1, _⟩ => show win3_6.index t (1 : Fin 2) * 32768 ≤ (i 1).val ∧ (i 1).val < win3_6.index t (1 : Fin 2) * 32768 + 32768; rw [e1, ht]; omega

/-- THE ROW after the region: the row function of the arrays the region is entered with. -/
theorem row_final (c : Dev nD) : (dat3 V c).arrAt 6 cfg3.N = rowScore V c :=
  (dat3 V c).arrAt_eq_of_cover 6 (rowScore V c) (fun t _ => flushed_row V c t) covered

end Row

variable (m : KMem) (ρ : Dev Cert.KernelIdeal.nD → PrngReg) (c : Dev Cert.KernelIdeal.nD)

theorem kOutT_apply (i' : Fin 1015808) :
    kOutT m ρ c (ix2 0 i')
      = score (fun k => kHpad m ρ c (ix2 k i')) (fun k => kXpad m ρ c (ix2 k i'))
          (fun k j => kWaT m ρ c (ix2 j k)) (fun j => kBa2 m ρ c (ix2 j 0)) (fun j => kWbT m ρ c (ix2 0 j)) (kBb2 m ρ c (ix2 0 0)) := by
  have h : kOutT m ρ c = (dat3 (V34 (F := Ideal) m ρ) c).arrAt 6 cfg3.N := W35_arr (F := Ideal) m ρ c 6
  refine (congrFun (h.trans (row_final (V34 (F := Ideal) m ρ) c)) (ix2 0 i')).trans ?_
  rfl

end Cert.Bridge

end
-- ==== Proof.POutKTail.lean ====
import proofs.«402058_j52493090292432_1_alg».proof.Proof.POutKIface
import Idealize.ShloMosaic.Lib.StableHlo.Run
import Idealize.ShloMosaic.Lib.ValueLayout

/-! After region 3 the result is the first 1000000 entries of its output row. -/

noncomputable section

namespace Cert.Bridge

open Idealize.ShloMosaic Idealize.ShloMosaic.TcCoe Idealize.SL.Sem Idealize.ShloMosaic.StableHlo Idealize.ShloMosaic.ValueIdx

namespace OutKTail

/-- The last host stretch, from any contents: a cut of the row's first 1000000 columns, then the unit axis dropped. Entry
    `i` of the result is the row's entry at column `i`. -/
theorem tail_read (V : Valuation Cert.KernelIdeal.τ Cert.KernelIdeal.sig (Elt Ideal)) (i : Fin 1000000) :
    (StableHlo.after Cert.KernelIdeal.Gen.hostOps4 V (Proc.devRef .tc Cert.KernelIdeal.main_v97) : Vec Ideal (Sh1 1000000) .f32) (ix1 i)
      = (V (Proc.devRef .tc Cert.KernelIdeal.main_v95) : Vec Ideal (Sh2 1 1015808) .f32) (ix2 0 (padCol i)) := by
  simp only [Cert.KernelIdeal.Gen.hostOps4]
  after_results_simp
  show shapeCast _ _ _ (ix1 i) = _
  rw [shapeCast_1a_a_apply]
  exact slice2_axis1_apply 0 _ _ 0 i (padCol i) (Nat.zero_add _).symm

end OutKTail

variable (m : KMem) (ρ : Dev Cert.KernelIdeal.nD → PrngReg) (c : Dev Cert.KernelIdeal.nD)

theorem kOut_slice (i : Fin 1000000) : kOut m ρ c (ix1 i) = kOutT m ρ c (ix2 0 (padCol i)) :=
  OutKTail.tail_read (Cert.KernelIdeal.Gen.W35 m ρ c) i

end Cert.Bridge

end
-- ==== Proof.POutK.lean ====
import proofs.«402058_j52493090292432_1_alg».proof.Proof.POutKHost
import proofs.«402058_j52493090292432_1_alg».proof.Proof.POutKReg
import proofs.«402058_j52493090292432_1_alg».proof.Proof.POutKTail

/-! The kernel's result at candidate `i`: the score of the columns of its two feature-major arrays that the pair names. -/

noncomputable section

namespace Cert.Bridge

open Idealize.ShloMosaic Idealize.ShloMosaic.TcCoe Idealize.SL.Sem Idealize.ShloMosaic.StableHlo Idealize.ShloMosaic.ValueIdx

variable (m : KMem) (ρ : Dev Cert.KernelIdeal.nD → PrngReg) (m' : RMem) (c : Dev Cert.KernelIdeal.nD)

theorem kOut_apply (hr : CandRange m c) (i : Fin 1000000) :
    kOut m ρ c (ix1 i)
      = score (fun k => kH2T m ρ c (ix2 k (candRow (kCand m c (ix2 i 0)))))
          (fun k => kXuncT m ρ c (ix2 k (candRow (kCand m c (ix2 i 1)))))
          (kWa m c) (kBa m c) (kWb m c) (kBb m c) := by
  rw [kOut_slice m ρ c i, kOutT_apply m ρ c (padCol i)]
  simp only [kHpad_apply m ρ c hr, kXpad_apply m ρ c hr, kWaT_apply m ρ c, kBa2_apply m ρ c, kWbT_apply m ρ c, kBb2_apply m ρ c]

end Cert.Bridge

end
-- ==== Proof.RArgs.lean ====
import proofs.«402058_j52493090292432_1_alg».proof.Proof.Iface

/-! No operation of the reference writes an argument: after the whole line each argument's buffer is as launched. Segment
    by segment, a buffer that is the result of none of the segment's operations keeps its contents. -/

set_option maxRecDepth 8192

noncomputable section

namespace Cert.Bridge

open Idealize.ShloMosaic Idealize.ShloMosaic.TcCoe Idealize.SL.Sem Idealize.ShloMosaic.StableHlo
open Cert.ReferenceIdeal Cert.ReferenceIdeal.Hand

/-- Closes `after seg V b = V b` for a literal segment none of whose operations writes `b`: each operation's written
    buffer is a different reference. -/
macro "seg_keeps" : tactic =>
  `(tactic| (refine StableHlo.after_of_forall_not_mem _ _ (List.forall_iff_forall_mem.mp ?_)
             simp only [seg1, seg2, seg3, seg4, seg5, seg6, seg7, it0, it1, it2, it3, it4, it5, it6, it7, it8, it9, it10, it11, it12, it13, it14, it15, it16, it17, it18, it19, it20, it21, it22, it23, it24, it25, it26, it27, it28, it29, it30, it31,
               List.flatten_cons, List.flatten_nil, List.append_nil, List.cons_append, List.nil_append, List.Forall,
               StableHlo.nullary_writes, StableHlo.unary_writes, StableHlo.binary_writes, StableHlo.ternary_writes,
               StableHlo.quaternary_writes, StableHlo.reshape_writes, Finset.mem_singleton]
             repeat' apply And.intro
             all_goals exact StableHlo.devRef_ne_of_ne (by decide)))

/-- A buffer every segment keeps is, after the whole line, as it was. -/
theorem kept_through (b : Ref sig .tc)
    (h1 : ∀ V : Valuation τ sig (Elt Ideal), after seg1 V (Proc.devRef .tc b) = V (Proc.devRef .tc b))
    (h2 : ∀ V : Valuation τ sig (Elt Ideal), after seg2 V (Proc.devRef .tc b) = V (Proc.devRef .tc b))
    (h3 : ∀ V : Valuation τ sig (Elt Ideal), after seg3 V (Proc.devRef .tc b) = V (Proc.devRef .tc b))
    (h4 : ∀ V : Valuation τ sig (Elt Ideal), after seg4 V (Proc.devRef .tc b) = V (Proc.devRef .tc b))
    (h5 : ∀ V : Valuation τ sig (Elt Ideal), after seg5 V (Proc.devRef .tc b) = V (Proc.devRef .tc b))
    (h6 : ∀ V : Valuation τ sig (Elt Ideal), after seg6 V (Proc.devRef .tc b) = V (Proc.devRef .tc b))
    (h7 : ∀ V : Valuation τ sig (Elt Ideal), after seg7 V (Proc.devRef .tc b) = V (Proc.devRef .tc b))
    (V : Valuation τ sig (Elt Ideal)) : RW7 V (Proc.devRef .tc b) = V (Proc.devRef .tc b) :=
  (h7 _).trans ((h6 _).trans ((h5 _).trans ((h4 _).trans ((h3 _).trans ((h2 _).trans (h1 V))))))

variable (m' : RMem) (c : Dev Cert.KernelIdeal.nD)

theorem R_arg0 : Cert.ReferenceIdeal.Hand.RW7 (RV m' c) (Proc.devRef .tc Cert.ReferenceIdeal.main_arg0) = m' ((c.tc : Thread Cert.ReferenceIdeal.nD Cert.ReferenceIdeal.τ).loc Cert.ReferenceIdeal.main_arg0) :=
  kept_through main_arg0 (fun _ => by seg_keeps) (fun _ => by seg_keeps) (fun _ => by seg_keeps) (fun _ => by seg_keeps)
    (fun _ => by seg_keeps) (fun _ => by seg_keeps) (fun _ => by seg_keeps) (RV m' c)

theorem R_arg1 : Cert.ReferenceIdeal.Hand.RW7 (RV m' c) (Proc.devRef .tc Cert.ReferenceIdeal.main_arg1) = m' ((c.tc : Thread Cert.ReferenceIdeal.nD Cert.ReferenceIdeal.τ).loc Cert.ReferenceIdeal.main_arg1) :=
  kept_through main_arg1 (fun _ => by seg_keeps) (fun _ => by seg_keeps) (fun _ => by seg_keeps) (fun _ => by seg_keeps)
    (fun _ => by seg_keeps) (fun _ => by seg_keeps) (fun _ => by seg_keeps) (RV m' c)

theorem R_arg2 : Cert.ReferenceIdeal.Hand.RW7 (RV m' c) (Proc.devRef .tc Cert.ReferenceIdeal.main_arg2) = m' ((c.tc : Thread Cert.ReferenceIdeal.nD Cert.ReferenceIdeal.τ).loc Cert.ReferenceIdeal.main_arg2) :=
  kept_through main_arg2 (fun _ => by seg_keeps) (fun _ => by seg_keeps) (fun _ => by seg_keeps) (fun _ => by seg_keeps)
    (fun _ => by seg_keeps) (fun _ => by seg_keeps) (fun _ => by seg_keeps) (RV m' c)

theorem R_arg3 : Cert.ReferenceIdeal.Hand.RW7 (RV m' c) (Proc.devRef .tc Cert.ReferenceIdeal.main_arg3) = m' ((c.tc : Thread Cert.ReferenceIdeal.nD Cert.ReferenceIdeal.τ).loc Cert.ReferenceIdeal.main_arg3) :=
  kept_through main_arg3 (fun _ => by seg_keeps) (fun _ => by seg_keeps) (fun _ => by seg_keeps) (fun _ => by seg_keeps)
    (fun _ => by seg_keeps) (fun _ => by seg_keeps) (fun _ => by seg_keeps) (RV m' c)

theorem R_arg4 : Cert.ReferenceIdeal.Hand.RW7 (RV m' c) (Proc.devRef .tc Cert.ReferenceIdeal.main_arg4) = m' ((c.tc : Thread Cert.ReferenceIdeal.nD Cert.ReferenceIdeal.τ).loc Cert.ReferenceIdeal.main_arg4) :=
  kept_through main_arg4 (fun _ => by seg_keeps) (fun _ => by seg_keeps) (fun _ => by seg_keeps) (fun _ => by seg_keeps)
    (fun _ => by seg_keeps) (fun _ => by seg_keeps) (fun _ => by seg_keeps) (RV m' c)

theorem R_arg5 : Cert.ReferenceIdeal.Hand.RW7 (RV m' c) (Proc.devRef .tc Cert.ReferenceIdeal.main_arg5) = m' ((c.tc : Thread Cert.ReferenceIdeal.nD Cert.ReferenceIdeal.τ).loc Cert.ReferenceIdeal.main_arg5) :=
  kept_through main_arg5 (fun _ => by seg_keeps) (fun _ => by seg_keeps) (fun _ => by seg_keeps) (fun _ => by seg_keeps)
    (fun _ => by seg_keeps) (fun _ => by seg_keeps) (fun _ => by seg_keeps) (RV m' c)

theorem R_arg6 : Cert.ReferenceIdeal.Hand.RW7 (RV m' c) (Proc.devRef .tc Cert.ReferenceIdeal.main_arg6) = m' ((c.tc : Thread Cert.ReferenceIdeal.nD Cert.ReferenceIdeal.τ).loc Cert.ReferenceIdeal.main_arg6) :=
  kept_through main_arg6 (fun _ => by seg_keeps) (fun _ => by seg_keeps) (fun _ => by seg_keeps) (fun _ => by seg_keeps)
    (fun _ => by seg_keeps) (fun _ => by seg_keeps) (fun _ => by seg_keeps) (RV m' c)

theorem R_arg7 : Cert.ReferenceIdeal.Hand.RW7 (RV m' c) (Proc.devRef .tc Cert.ReferenceIdeal.main_arg7) = m' ((c.tc : Thread Cert.ReferenceIdeal.nD Cert.ReferenceIdeal.τ).loc Cert.ReferenceIdeal.main_arg7) :=
  kept_through main_arg7 (fun _ => by seg_keeps) (fun _ => by seg_keeps) (fun _ => by seg_keeps) (fun _ => by seg_keeps)
    (fun _ => by seg_keeps) (fun _ => by seg_keeps) (fun _ => by seg_keeps) (RV m' c)

theorem R_arg8 : Cert.ReferenceIdeal.Hand.RW7 (RV m' c) (Proc.devRef .tc Cert.ReferenceIdeal.main_arg8) = m' ((c.tc : Thread Cert.ReferenceIdeal.nD Cert.ReferenceIdeal.τ).loc Cert.ReferenceIdeal.main_arg8) :=
  kept_through main_arg8 (fun _ => by seg_keeps) (fun _ => by seg_keeps) (fun _ => by seg_keeps) (fun _ => by seg_keeps)
    (fun _ => by seg_keeps) (fun _ => by seg_keeps) (fun _ => by seg_keeps) (RV m' c)

theorem R_arg9 : Cert.ReferenceIdeal.Hand.RW7 (RV m' c) (Proc.devRef .tc Cert.ReferenceIdeal.main_arg9) = m' ((c.tc : Thread Cert.ReferenceIdeal.nD Cert.ReferenceIdeal.τ).loc Cert.ReferenceIdeal.main_arg9) :=
  kept_through main_arg9 (fun _ => by seg_keeps) (fun _ => by seg_keeps) (fun _ => by seg_keeps) (fun _ => by seg_keeps)
    (fun _ => by seg_keeps) (fun _ => by seg_keeps) (fun _ => by seg_keeps) (RV m' c)

theorem R_arg10 : Cert.ReferenceIdeal.Hand.RW7 (RV m' c) (Proc.devRef .tc Cert.ReferenceIdeal.main_arg10) = m' ((c.tc : Thread Cert.ReferenceIdeal.nD Cert.ReferenceIdeal.τ).loc Cert.ReferenceIdeal.main_arg10) :=
  kept_through main_arg10 (fun _ => by seg_keeps) (fun _ => by seg_keeps) (fun _ => by seg_keeps) (fun _ => by seg_keeps)
    (fun _ => by seg_keeps) (fun _ => by seg_keeps) (fun _ => by seg_keeps) (RV m' c)

theorem R_arg11 : Cert.ReferenceIdeal.Hand.RW7 (RV m' c) (Proc.devRef .tc Cert.ReferenceIdeal.main_arg11) = m' ((c.tc : Thread Cert.ReferenceIdeal.nD Cert.ReferenceIdeal.τ).loc Cert.ReferenceIdeal.main_arg11) :=
  kept_through main_arg11 (fun _ => by seg_keeps) (fun _ => by seg_keeps) (fun _ => by seg_keeps) (fun _ => by seg_keeps)
    (fun _ => by seg_keeps) (fun _ => by seg_keeps) (fun _ => by seg_keeps) (RV m' c)

theorem R_arg12 : Cert.ReferenceIdeal.Hand.RW7 (RV m' c) (Proc.devRef .tc Cert.ReferenceIdeal.main_arg12) = m' ((c.tc : Thread Cert.ReferenceIdeal.nD Cert.ReferenceIdeal.τ).loc Cert.ReferenceIdeal.main_arg12) :=
  kept_through main_arg12 (fun _ => by seg_keeps) (fun _ => by seg_keeps) (fun _ => by seg_keeps) (fun _ => by seg_keeps)
    (fun _ => by seg_keeps) (fun _ => by seg_keeps) (fun _ => by seg_keeps) (RV m' c)

theorem R_arg13 : Cert.ReferenceIdeal.Hand.RW7 (RV m' c) (Proc.devRef .tc Cert.ReferenceIdeal.main_arg13) = m' ((c.tc : Thread Cert.ReferenceIdeal.nD Cert.ReferenceIdeal.τ).loc Cert.ReferenceIdeal.main_arg13) :=
  kept_through main_arg13 (fun _ => by seg_keeps) (fun _ => by seg_keeps) (fun _ => by seg_keeps) (fun _ => by seg_keeps)
    (fun _ => by seg_keeps) (fun _ => by seg_keeps) (fun _ => by seg_keeps) (RV m' c)

theorem R_arg14 : Cert.ReferenceIdeal.Hand.RW7 (RV m' c) (Proc.devRef .tc Cert.ReferenceIdeal.main_arg14) = m' ((c.tc : Thread Cert.ReferenceIdeal.nD Cert.ReferenceIdeal.τ).loc Cert.ReferenceIdeal.main_arg14) :=
  kept_through main_arg14 (fun _ => by seg_keeps) (fun _ => by seg_keeps) (fun _ => by seg_keeps) (fun _ => by seg_keeps)
    (fun _ => by seg_keeps) (fun _ => by seg_keeps) (fun _ => by seg_keeps) (RV m' c)

theorem R_arg15 : Cert.ReferenceIdeal.Hand.RW7 (RV m' c) (Proc.devRef .tc Cert.ReferenceIdeal.main_arg15) = m' ((c.tc : Thread Cert.ReferenceIdeal.nD Cert.ReferenceIdeal.τ).loc Cert.ReferenceIdeal.main_arg15) :=
  kept_through main_arg15 (fun _ => by seg_keeps) (fun _ => by seg_keeps) (fun _ => by seg_keeps) (fun _ => by seg_keeps)
    (fun _ => by seg_keeps) (fun _ => by seg_keeps) (fun _ => by seg_keeps) (RV m' c)

end Cert.Bridge

end
-- ==== Proof.RCarry.lean ====
import proofs.«402058_j52493090292432_1_alg».proof.Proof.RArgs

/-! What the reference's last segment reads of earlier work: after the sixth segment the unselected rows' linear layer is
    still the array the second segment left, and the arguments the last segment takes are as launched. -/

set_option maxRecDepth 8192

noncomputable section

namespace Cert.Bridge

open Idealize.ShloMosaic Idealize.ShloMosaic.TcCoe Idealize.SL.Sem Idealize.ShloMosaic.StableHlo
open Cert.ReferenceIdeal Cert.ReferenceIdeal.Hand

/-- A buffer each of the first six segments keeps is, after the sixth, as it was. -/
theorem kept_through6 (b : Ref sig .tc)
    (h1 : ∀ V : Valuation τ sig (Elt Ideal), after seg1 V (Proc.devRef .tc b) = V (Proc.devRef .tc b))
    (h2 : ∀ V : Valuation τ sig (Elt Ideal), after seg2 V (Proc.devRef .tc b) = V (Proc.devRef .tc b))
    (h3 : ∀ V : Valuation τ sig (Elt Ideal), after seg3 V (Proc.devRef .tc b) = V (Proc.devRef .tc b))
    (h4 : ∀ V : Valuation τ sig (Elt Ideal), after seg4 V (Proc.devRef .tc b) = V (Proc.devRef .tc b))
    (h5 : ∀ V : Valuation τ sig (Elt Ideal), after seg5 V (Proc.devRef .tc b) = V (Proc.devRef .tc b))
    (h6 : ∀ V : Valuation τ sig (Elt Ideal), after seg6 V (Proc.devRef .tc b) = V (Proc.devRef .tc b))
    (V : Valuation τ sig (Elt Ideal)) : RW6 V (Proc.devRef .tc b) = V (Proc.devRef .tc b) :=
  (h6 _).trans ((h5 _).trans ((h4 _).trans ((h3 _).trans ((h2 _).trans (h1 V)))))

/-- A buffer segments three to six keep is, after the sixth, as it was after the second. -/
theorem kept_after2 (b : Ref sig .tc)
    (h3 : ∀ V : Valuation τ sig (Elt Ideal), after seg3 V (Proc.devRef .tc b) = V (Proc.devRef .tc b))
    (h4 : ∀ V : Valuation τ sig (Elt Ideal), after seg4 V (Proc.devRef .tc b) = V (Proc.devRef .tc b))
    (h5 : ∀ V : Valuation τ sig (Elt Ideal), after seg5 V (Proc.devRef .tc b) = V (Proc.devRef .tc b))
    (h6 : ∀ V : Valuation τ sig (Elt Ideal), after seg6 V (Proc.devRef .tc b) = V (Proc.devRef .tc b))
    (V : Valuation τ sig (Elt Ideal)) : RW6 V (Proc.devRef .tc b) = RW2 V (Proc.devRef .tc b) :=
  (h6 _).trans ((h5 _).trans ((h4 _).trans (h3 _)))

variable (m' : RMem) (c : Dev Cert.KernelIdeal.nD)

theorem r6_xunc : Cert.ReferenceIdeal.Hand.RW6 (RV m' c) (Proc.devRef .tc Cert.ReferenceIdeal.main_v39) = rXunc m' c :=
  kept_after2 main_v39 (fun _ => by seg_keeps) (fun _ => by seg_keeps) (fun _ => by seg_keeps) (fun _ => by seg_keeps) (RV m' c)

theorem r6_arg2 : Cert.ReferenceIdeal.Hand.RW6 (RV m' c) (Proc.devRef .tc Cert.ReferenceIdeal.main_arg2) = m' ((c.tc : Thread Cert.ReferenceIdeal.nD Cert.ReferenceIdeal.τ).loc Cert.ReferenceIdeal.main_arg2) :=
  kept_through6 main_arg2 (fun _ => by seg_keeps) (fun _ => by seg_keeps) (fun _ => by seg_keeps)
    (fun _ => by seg_keeps) (fun _ => by seg_keeps) (fun _ => by seg_keeps) (RV m' c)

theorem r6_arg12 : Cert.ReferenceIdeal.Hand.RW6 (RV m' c) (Proc.devRef .tc Cert.ReferenceIdeal.main_arg12) = m' ((c.tc : Thread Cert.ReferenceIdeal.nD Cert.ReferenceIdeal.τ).loc Cert.ReferenceIdeal.main_arg12) :=
  kept_through6 main_arg12 (fun _ => by seg_keeps) (fun _ => by seg_keeps) (fun _ => by seg_keeps)
    (fun _ => by seg_keeps) (fun _ => by seg_keeps) (fun _ => by seg_keeps) (RV m' c)

theorem r6_arg13 : Cert.ReferenceIdeal.Hand.RW6 (RV m' c) (Proc.devRef .tc Cert.ReferenceIdeal.main_arg13) = m' ((c.tc : Thread Cert.ReferenceIdeal.nD Cert.ReferenceIdeal.τ).loc Cert.ReferenceIdeal.main_arg13) :=
  kept_through6 main_arg13 (fun _ => by seg_keeps) (fun _ => by seg_keeps) (fun _ => by seg_keeps)
    (fun _ => by seg_keeps) (fun _ => by seg_keeps) (fun _ => by seg_keeps) (RV m' c)

theorem r6_arg14 : Cert.ReferenceIdeal.Hand.RW6 (RV m' c) (Proc.devRef .tc Cert.ReferenceIdeal.main_arg14) = m' ((c.tc : Thread Cert.ReferenceIdeal.nD Cert.ReferenceIdeal.τ).loc Cert.ReferenceIdeal.main_arg14) :=
  kept_through6 main_arg14 (fun _ => by seg_keeps) (fun _ => by seg_keeps) (fun _ => by seg_keeps)
    (fun _ => by seg_keeps) (fun _ => by seg_keeps) (fun _ => by seg_keeps) (RV m' c)

theorem r6_arg15 : Cert.ReferenceIdeal.Hand.RW6 (RV m' c) (Proc.devRef .tc Cert.ReferenceIdeal.main_arg15) = m' ((c.tc : Thread Cert.ReferenceIdeal.nD Cert.ReferenceIdeal.τ).loc Cert.ReferenceIdeal.main_arg15) :=
  kept_through6 main_arg15 (fun _ => by seg_keeps) (fun _ => by seg_keeps) (fun _ => by seg_keeps)
    (fun _ => by seg_keeps) (fun _ => by seg_keeps) (fun _ => by seg_keeps) (RV m' c)

end Cert.Bridge

end
-- ==== Proof.POutR.lean ====
import proofs.«402058_j52493090292432_1_alg».proof.Proof.POutSpec
import proofs.«402058_j52493090292432_1_alg».proof.Proof.RCarry
import Idealize.ShloMosaic.Lib.StableHlo.Run
import Idealize.ShloMosaic.Lib.StableHlo.Predicate
import Idealize.ShloMosaic.Lib.StackMember
import Idealize.ShloMosaic.Lib.Pipeline.Value
import Idealize.ShloMosaic.Lib.Affine
import Idealize.ShloMosaic.PureOps.Ideal.Laws

/-! The reference's result at candidate `i`: the score of the rows of its two arrays that the pair names.

    The reference's last segment takes column 0 and column 1 of the candidate pairs, adds the row count to an index below
    zero (an index in range is left alone), gathers the named rows of the second layer's output and of the linear layer of the
    unselected rows (a gather keeps a start index inside the array, which is the clamp in `candRow`), lays the two
    16-feature rows side by side, and applies the two-layer perceptron: a 32 × 64 product with its bias, max with 0, a
    64 × 1 product with its bias. Read at one candidate each step is a finite sum or an entry of an argument, so the
    result is `score` of the two rows and the four arguments. -/

noncomputable section

namespace Cert.Bridge.OutR

open Idealize.ShloMosaic Idealize.ShloMosaic.TcCoe Idealize.SL.Sem Idealize.ShloMosaic.StableHlo Idealize.ShloMosaic.ValueIdx

/-- The dimension numbers of a gather of whole rows: operand `[N, C]`, one start index per result row (`[R, 1]`), the row
    axis collapsed and start-indexed, the column axis the result's offset axis. -/
abbrev rowsDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- A gather of whole rows read at `(r, k)`: the operand's row named by start index `r`, read signed and clamped into
    `[0, N − 1]`, at column `k`. -/
theorem gather_rows_apply {α : Type} {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowsDims N R C wf) x idx (ix2 r k) = x (ix2 ⟨min (idx (ix2 r 0)).toInt.toNat (N - 1), by omega⟩ k) := by
  unfold Host.gather
  congr 1
  funext a
  refine Fin.ext ?_
  match a with
  | ⟨0, _⟩ =>
    show (rowsDims N R C wf).start (ix2 r k) idx 0 + (rowsDims N R C wf).batchCoord (ix2 r k) 0
      + (rowsDims N R C wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx (ix2 r k) ⟨List.idxOf (0 : Fin 2) (rowsDims N R C wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  | ⟨1, _⟩ =>
    show (rowsDims N R C wf).start (ix2 r k) idx 1 + (rowsDims N R C wf).batchCoord (ix2 r k) 1
      + (rowsDims N R C wf).offCoord (ix2 r k) 1 = k.val
    rw [GatherDims.batchCoord_eq_zero _ _ _ List.not_mem_nil]
    have hs : (rowsDims N R C wf).start (ix2 r k) idx 1 = 0 := by
      unfold GatherDims.start
      rw [dif_neg (show ¬ ((1 : Fin 2) ∈ ([0] : List (Fin 2))) by decide)]
    have hk : (1 : Fin 2) ∈ (rowsDims N R C wf).sKept := (GatherDims.mem_sKept _ _).mpr ⟨(show ¬ ((1 : Fin 2) ∈ ([0] : List (Fin 2))) by decide), List.not_mem_nil⟩
    have ho : (rowsDims N R C wf).offCoord (ix2 r k) 1 = k.val := by
      unfold GatherDims.offCoord
      rw [dif_pos hk]
      rfl
    rw [hs, ho]
    omega

/-- The reference's gather, at its own dimension numbers. -/
theorem gatherR_apply (x : Vec Ideal (Sh2 100000 16) .f32) (idx : IVec (Sh2 1000000 1) 32) (r : Fin 1000000) (k : Fin 16) :
    Host.gather Cert.ReferenceIdeal.gather_S100000x16_S1000000x1_S1000000x16_1_0_n_n_0_1_116 x idx (ix2 r k)
      = x (ix2 (candRow (idx (ix2 r 0))) k) :=
  gather_rows_apply (by decide) Cert.ReferenceIdeal.Facts₀.gather_S100000x16_S1000000x1_S1000000x16_1_0_n_n_0_1_116_wf x idx r k

/-- jnp's wrap of a negative index (add the extent when below zero) leaves a non-negative index alone. -/
theorem wrap_eq (x : BitVec 32) (h0 : 0 ≤ x.toInt) :
    Scalar.select (IntOp.cmpi .slt x 0#32) (IntOp.addi x 100000#32) x = x := by
  have hc : IntOp.cmpi .slt x 0#32 = 0#1 := by
    apply eq_zero_of_ne_one
    rw [IntOp.cmpi_slt]
    simp only [BitVec.toInt_zero]
    omega
  rw [hc, select_zero]

/-- The reference's first product (candidates × 32 by 32 × 64), read at an index: the sum over the 32 features. -/
theorem dot1_apply (A : FVec Ideal (Sh2 1000000 32) .f32) (B : FVec Ideal (Sh2 32 64) .f32) (a : Fin 1000000) (b : Fin 64) :
    Host.dotGeneral (F := Ideal) Cert.ReferenceIdeal.dot_S1000000x32_S32x64_S1000000x64_1_0_0_1_n_n none A B (ix2 a b)
      = ∑ c : Fin 32, A (ix2 a c) * B (ix2 c b) :=
  StackMember.dotGeneral_plain_apply none A B a b

/-- The reference's second product (candidates × 64 by 64 × 1), read at an index: the sum over the 64 hidden units. -/
theorem dot2_apply (A : FVec Ideal (Sh2 1000000 64) .f32) (B : FVec Ideal (Sh2 64 1) .f32) (a : Fin 1000000) (b : Fin 1) :
    Host.dotGeneral (F := Ideal) Cert.ReferenceIdeal.dot_S1000000x64_S64x1_S1000000x1_1_0_0_1_n_n none A B (ix2 a b)
      = ∑ c : Fin 64, A (ix2 a c) * B (ix2 c b) :=
  StackMember.dotGeneral_plain_apply none A B a b

/-- The same with the compared and added constants named, for a goal that spells them as arrays read at an index. -/
theorem wrap_eq' (c z n x : BitVec 32) (hc : c = x) (hz : z = 0#32) (hn : n = 100000#32) (h0 : 0 ≤ x.toInt) :
    Scalar.select (IntOp.cmpi .slt c z) (IntOp.addi c n) c = x := by
  subst hc hz hn
  exact wrap_eq _ h0

/-- A valuation of the reference's buffers. -/
abbrev RVal := Valuation Cert.ReferenceIdeal.τ Cert.ReferenceIdeal.sig (Elt Ideal)

set_option maxHeartbeats 1000000 in
/-- The last segment from ANY contents `V` of the buffers, read at candidate `i` whose two indices are not below zero: the
    score of the rows of `V`'s two 16-feature arrays that the pair names, with `V`'s perceptron arguments. Outside in: the
    reshape reads the [n, 1] column at (i, 0); the sum with the broadcast bias splits; each product is a finite sum over
    the contracted axis; the maximum with the broadcast zero is `max · 0`; a feature below 16 of the concatenation is the
    first gather's, one from 16 on the second's at 16 less; a gathered row is the operand's row at the clamped start
    index; and the start index is the candidate column's entry, the wrap of an index that is not below zero being the
    index itself. -/
theorem seg7_apply (V : RVal) (i : Fin 1000000)
    (h0 : 0 ≤ ((V (Proc.devRef .tc Cert.ReferenceIdeal.main_arg2) : IVec (Sh2 1000000 2) 32) (ix2 i 0)).toInt)
    (h1 : 0 ≤ ((V (Proc.devRef .tc Cert.ReferenceIdeal.main_arg2) : IVec (Sh2 1000000 2) 32) (ix2 i 1)).toInt) :
    (StableHlo.after Cert.ReferenceIdeal.Hand.seg7 V (Proc.devRef .tc Cert.ReferenceIdeal.main_v117) : Vec Ideal (Sh1 1000000) .f32) (ix1 i)
      = score
          (fun k => (V (Proc.devRef .tc Cert.ReferenceIdeal.main_v88) : Vec Ideal (Sh2 100000 16) .f32)
            (ix2 (candRow ((V (Proc.devRef .tc Cert.ReferenceIdeal.main_arg2) : IVec (Sh2 1000000 2) 32) (ix2 i 0))) k))
          (fun k => (V (Proc.devRef .tc Cert.ReferenceIdeal.main_v39) : Vec Ideal (Sh2 100000 16) .f32)
            (ix2 (candRow ((V (Proc.devRef .tc Cert.ReferenceIdeal.main_arg2) : IVec (Sh2 1000000 2) 32) (ix2 i 1))) k))
          (fun k j => (V (Proc.devRef .tc Cert.ReferenceIdeal.main_arg12) : Vec Ideal (Sh2 32 64) .f32) (ix2 k j))
          (fun j => (V (Proc.devRef .tc Cert.ReferenceIdeal.main_arg13) : Vec Ideal (Sh1 64) .f32) (ix1 j))
          (fun j => (V (Proc.devRef .tc Cert.ReferenceIdeal.main_arg14) : Vec Ideal (Sh2 64 1) .f32) (ix2 j 0))
          ((V (Proc.devRef .tc Cert.ReferenceIdeal.main_arg15) : Vec Ideal (Sh1 1) .f32) (ix1 0)) := by
  simp only [Cert.ReferenceIdeal.Hand.seg7, Cert.ReferenceIdeal.Hand.it28, Cert.ReferenceIdeal.Hand.it29,
    Cert.ReferenceIdeal.Hand.it30, Cert.ReferenceIdeal.Hand.it31, List.flatten_cons, List.flatten_nil, List.append_nil,
    List.cons_append, List.nil_append]
  after_results_simp
  unfold score
  refine (shapeCast_apply _ _ _ (ix2 i 0) ?_).trans ?_
  · show ((⟨2, ![1000000, 1]⟩ : Shape).rowMajor (ix2 i 0)).val = ((⟨1, ![1000000]⟩ : Shape).rowMajor (ix1 i)).val
    rw [Shape.rowMajor_val_two, Shape.rowMajor_val_one]
    show i.val * 1 + 0 = i.val
    omega
  rw [addf_apply]
  refine congrArg₂ (· + ·) ?_ ?_
  · refine (dot2_apply _ _ i 0).trans ?_
    refine Finset.sum_congr rfl fun j _ => ?_
    refine congrArg₂ (· * ·) ?_ rfl
    change max _ _ = _
    refine congrArg₂ max ?_ ?_
    · change _ + _ = _
      refine congrArg₂ (· + ·) ?_ ?_
      · refine (dot1_apply _ _ i j).trans ?_
        refine Finset.sum_congr rfl fun k _ => ?_
        refine congrArg₂ (· * ·) ?_ rfl
        unfold ecat
        split
        · next hk =>
          refine (concatenate_pair_apply_left _ _ _ _ _ (by rfl) (ix2 i ⟨k.val, hk⟩) ?_).trans ?_
          · intro b
            match b with
            | ⟨0, _⟩ => rfl
            | ⟨1, _⟩ => rfl
          after_results_simp
          refine (gatherR_apply _ _ i ⟨k.val, hk⟩).trans ?_
          refine congrArg (fun t : BitVec 32 => (V (Proc.devRef .tc Cert.ReferenceIdeal.main_v88) : Vec Ideal (Sh2 100000 16) .f32)
            (ix2 (candRow t) (⟨k.val, hk⟩ : Fin 16))) ?_
          refine (broadcastInDim_apply _ _ _ _ (ix1 i) ?_).trans ?_
          · intro a
            match a with
            | ⟨0, _⟩ => rfl
          change Scalar.select (IntOp.cmpi .slt _ _) (IntOp.addi _ _) _ = _
          refine wrap_eq' _ _ _ _ ?_ rfl rfl h0
          refine (shapeCast_apply _ _ _ (ix2 i 0) ?_).trans ?_
          · show ((⟨2, ![1000000, 1]⟩ : Shape).rowMajor (ix2 i 0)).val = ((⟨1, ![1000000]⟩ : Shape).rowMajor (ix1 i)).val
            rw [Shape.rowMajor_val_two, Shape.rowMajor_val_one]
            show i.val * 1 + 0 = i.val
            omega
          refine extractStridedSlice_apply _ _ _ _ (ix2 i 0) ?_
          intro a
          match a with
          | ⟨0, _⟩ => show i.val = 0 + i.val; omega
          | ⟨1, _⟩ => rfl
        · next hk =>
          have hk' : k.val - 16 < 16 := by have := k.isLt; omega
          refine (concatenate_pair_apply_right _ _ _ _ _ (by rfl) (by rfl) (ix2 i ⟨k.val - 16, hk'⟩) ?_ ?_).trans ?_
          · intro b hb
            match b, hb with
            | ⟨0, _⟩, _ => rfl
            | ⟨1, _⟩, hb => exact absurd rfl hb
          · show (k.val - 16) + 16 = k.val
            omega
          after_results_simp
          refine (gatherR_apply _ _ i ⟨k.val - 16, hk'⟩).trans ?_
          refine congrArg (fun t : BitVec 32 => (V (Proc.devRef .tc Cert.ReferenceIdeal.main_v39) : Vec Ideal (Sh2 100000 16) .f32)
            (ix2 (candRow t) (⟨k.val - 16, hk'⟩ : Fin 16))) ?_
          refine (broadcastInDim_apply _ _ _ _ (ix1 i) ?_).trans ?_
          · intro a
            match a with
            | ⟨0, _⟩ => rfl
          change Scalar.select (IntOp.cmpi .slt _ _) (IntOp.addi _ _) _ = _
          refine wrap_eq' _ _ _ _ ?_ rfl rfl h1
          refine (shapeCast_apply _ _ _ (ix2 i 0) ?_).trans ?_
          · show ((⟨2, ![1000000, 1]⟩ : Shape).rowMajor (ix2 i 0)).val = ((⟨1, ![1000000]⟩ : Shape).rowMajor (ix1 i)).val
            rw [Shape.rowMajor_val_two, Shape.rowMajor_val_one]
            show i.val * 1 + 0 = i.val
            omega
          refine extractStridedSlice_apply _ _ _ _ (ix2 i 1) ?_
          intro a
          match a with
          | ⟨0, _⟩ => show i.val = 0 + i.val; omega
          | ⟨1, _⟩ => rfl
      · refine (broadcastInDim_apply _ _ _ _ (ix2 0 j) ?_).trans ?_
        · intro a
          match a with
          | ⟨0, _⟩ => rfl
          | ⟨1, _⟩ => rfl
        refine (broadcastInDim_apply _ _ _ _ (ix1 j) ?_).trans rfl
        intro a
        match a with
        | ⟨0, _⟩ => rfl
    · exact Ideal.ofBits_zero_f32
  · refine (broadcastInDim_apply _ _ _ _ (ix2 0 0) ?_).trans ?_
    · intro a
      match a with
      | ⟨0, _⟩ => rfl
      | ⟨1, _⟩ => rfl
    refine (broadcastInDim_apply _ _ _ _ (ix1 0) ?_).trans rfl
    intro a
    match a with
    | ⟨0, _⟩ => rfl

end Cert.Bridge.OutR

namespace Cert.Bridge

open Idealize.ShloMosaic Idealize.ShloMosaic.TcCoe Idealize.SL.Sem Idealize.ShloMosaic.StableHlo Idealize.ShloMosaic.ValueIdx

variable (m : KMem) (ρ : Dev Cert.KernelIdeal.nD → PrngReg) (m' : RMem) (c : Dev Cert.KernelIdeal.nD)

/-- The reading of the last segment with each array it starts from named: the valuation's contents of the candidates,
    of the two 16-feature arrays and of the four perceptron arguments are given by equations. -/
theorem OutR.seg7_apply_of (V : OutR.RVal) (i : Fin 1000000)
    (cand : IVec (Sh2 1000000 2) 32) (a b : Vec Ideal (Sh2 100000 16) .f32)
    (wa : Vec Ideal (Sh2 32 64) .f32) (ba : Vec Ideal (Sh1 64) .f32) (wb : Vec Ideal (Sh2 64 1) .f32) (bb : Vec Ideal (Sh1 1) .f32)
    (e2 : V (Proc.devRef .tc Cert.ReferenceIdeal.main_arg2) = cand)
    (e88 : V (Proc.devRef .tc Cert.ReferenceIdeal.main_v88) = a)
    (e39 : V (Proc.devRef .tc Cert.ReferenceIdeal.main_v39) = b)
    (e12 : V (Proc.devRef .tc Cert.ReferenceIdeal.main_arg12) = wa)
    (e13 : V (Proc.devRef .tc Cert.ReferenceIdeal.main_arg13) = ba)
    (e14 : V (Proc.devRef .tc Cert.ReferenceIdeal.main_arg14) = wb)
    (e15 : V (Proc.devRef .tc Cert.ReferenceIdeal.main_arg15) = bb)
    (h0 : 0 ≤ (cand (ix2 i 0)).toInt) (h1 : 0 ≤ (cand (ix2 i 1)).toInt) :
    (StableHlo.after Cert.ReferenceIdeal.Hand.seg7 V (Proc.devRef .tc Cert.ReferenceIdeal.main_v117) : Vec Ideal (Sh1 1000000) .f32) (ix1 i)
      = score (fun k => a (ix2 (candRow (cand (ix2 i 0))) k)) (fun k => b (ix2 (candRow (cand (ix2 i 1))) k))
          (fun k j => wa (ix2 k j)) (fun j => ba (ix1 j)) (fun j => wb (ix2 j 0)) (bb (ix1 0)) := by
  subst e2 e88 e39 e12 e13 e14 e15
  exact OutR.seg7_apply V i h0 h1

/-- The statement, from the six carries of the buffers the last segment starts from. -/
theorem OutR.rOut_apply_of (h : Agree m m' c) (hr : CandRange m c) (i : Fin 1000000)
    (c39 : Cert.ReferenceIdeal.Hand.RW6 (RV m' c) (Proc.devRef .tc Cert.ReferenceIdeal.main_v39) = rXunc m' c)
    (c2 : Cert.ReferenceIdeal.Hand.RW6 (RV m' c) (Proc.devRef .tc Cert.ReferenceIdeal.main_arg2) = m' ((c.tc : Thread Cert.ReferenceIdeal.nD Cert.ReferenceIdeal.τ).loc Cert.ReferenceIdeal.main_arg2))
    (c12 : Cert.ReferenceIdeal.Hand.RW6 (RV m' c) (Proc.devRef .tc Cert.ReferenceIdeal.main_arg12) = m' ((c.tc : Thread Cert.ReferenceIdeal.nD Cert.ReferenceIdeal.τ).loc Cert.ReferenceIdeal.main_arg12))
    (c13 : Cert.ReferenceIdeal.Hand.RW6 (RV m' c) (Proc.devRef .tc Cert.ReferenceIdeal.main_arg13) = m' ((c.tc : Thread Cert.ReferenceIdeal.nD Cert.ReferenceIdeal.τ).loc Cert.ReferenceIdeal.main_arg13))
    (c14 : Cert.ReferenceIdeal.Hand.RW6 (RV m' c) (Proc.devRef .tc Cert.ReferenceIdeal.main_arg14) = m' ((c.tc : Thread Cert.ReferenceIdeal.nD Cert.ReferenceIdeal.τ).loc Cert.ReferenceIdeal.main_arg14))
    (c15 : Cert.ReferenceIdeal.Hand.RW6 (RV m' c) (Proc.devRef .tc Cert.ReferenceIdeal.main_arg15) = m' ((c.tc : Thread Cert.ReferenceIdeal.nD Cert.ReferenceIdeal.τ).loc Cert.ReferenceIdeal.main_arg15)) :
    rOut m' c (ix1 i)
      = score (fun k => rH2 m' c (ix2 (candRow (kCand m c (ix2 i 0))) k))
          (fun k => rXunc m' c (ix2 (candRow (kCand m c (ix2 i 1))) k))
          (kWa m c) (kBa m c) (kWb m c) (kBb m c) := by
  obtain ⟨_, _, a2, _, _, _, _, _, _, _, _, _, a12, a13, a14, a15⟩ := h
  exact OutR.seg7_apply_of (Cert.ReferenceIdeal.Hand.RW6 (RV m' c)) i (kCand m c) (rH2 m' c) (rXunc m' c)
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15))
    (c2.trans a2) rfl c39 (c12.trans a12) (c13.trans a13) (c14.trans a14) (c15.trans a15)
    (hr (ix2 i 0)).1 (hr (ix2 i 1)).1

/-- THE REFERENCE'S RESULT at candidate `i`: the last segment starts from the contents after the sixth; there the
    candidates and the four perceptron arguments are still the launch's (which the two programs share), the second
    layer's output is `rH2` and the linear layer of the unselected rows is still `rXunc`; the candidates' indices are in
    range, so not below zero. -/
theorem rOut_apply (h : Agree m m' c) (hr : CandRange m c) (i : Fin 1000000) :
    rOut m' c (ix1 i)
      = score (fun k => rH2 m' c (ix2 (candRow (kCand m c (ix2 i 0))) k))
          (fun k => rXunc m' c (ix2 (candRow (kCand m c (ix2 i 1))) k))
          (kWa m c) (kBa m c) (kWb m c) (kBb m c) :=
  OutR.rOut_apply_of m m' c h hr i (r6_xunc m' c) (r6_arg2 m' c) (r6_arg12 m' c) (r6_arg13 m' c) (r6_arg14 m' c) (r6_arg15 m' c)

end Cert.Bridge

end
-- ==== Proof.POut.lean ====
import proofs.«402058_j52493090292432_1_alg».proof.Proof.POutK
import proofs.«402058_j52493090292432_1_alg».proof.Proof.POutR

/-! The perceptron over the candidate pairs: with every candidate index in range the two results are one array. Both
    are the same score of the rows the pair names, and those rows agree (the kernel holds them as columns). -/

noncomputable section

namespace Cert.Bridge

open Idealize.ShloMosaic Idealize.ShloMosaic.TcCoe Idealize.SL.Sem Idealize.ShloMosaic.StableHlo Idealize.ShloMosaic.ValueIdx

variable (m : KMem) (ρ : Dev Cert.KernelIdeal.nD → PrngReg) (m' : RMem) (c : Dev Cert.KernelIdeal.nD)

theorem P_out (h : Agree m m' c) (hr : CandRange m c)
    (hxunc : ∀ (j : Fin 16) (n : Fin 100000), kXuncT m ρ c (ix2 j n) = rXunc m' c (ix2 n j))
    (hh2 : ∀ (j : Fin 16) (n : Fin 100000), kH2T m ρ c (ix2 j n) = rH2 m' c (ix2 n j)) :
    kOut m ρ c = rOut m' c := by
  funext j
  obtain ⟨i, rfl⟩ : ∃ i : Fin 1000000, j = ix1 i := ⟨j 0, eq_ix1 j⟩
  rw [kOut_apply m ρ c hr i, rOut_apply m m' c h hr i]
  have e0 : (fun k : Fin 16 => kH2T m ρ c (ix2 k (candRow (kCand m c (ix2 i 0)))))
      = fun k : Fin 16 => rH2 m' c (ix2 (candRow (kCand m c (ix2 i 0))) k) := funext fun k => hh2 k _
  have e1 : (fun k : Fin 16 => kXuncT m ρ c (ix2 k (candRow (kCand m c (ix2 i 1)))))
      = fun k : Fin 16 => rXunc m' c (ix2 (candRow (kCand m c (ix2 i 1))) k) := funext fun k => hxunc k _
  rw [e0, e1]

end Cert.Bridge

end
-- ==== Proof.PreRange.lean ====
import proofs.«402058_j52493090292432_1_alg».proof.Proof.Iface
import proofs.«402058_j52493090292432_1_alg».proof.Defs
import proofs.«402058_j52493090292432_1_alg».proof.Proof.Gen.Pre_finite_inputs
import Idealize.ShloMosaic.Lib.ReduceAll
import Idealize.ShloMosaic.Lib.Affine
import Idealize.ShloMosaic.Lib.StableHlo.Predicate
import Idealize.ShloMosaic.Lib.ValueIdx

/-! The precondition's last two conjuncts, read back: every candidate index is at least 0 and below 100000. The
    precondition is a conjunction (`and` of one-bit words) of reductions by `and`; a conjunction that is 1 has both
    conjuncts 1, a reduction by `and` that is 1 has a 1 at every index, and a signed comparison that is 1 says its
    operands compare so as integers. -/

noncomputable section

namespace Cert.Bridge

open Idealize.ShloMosaic Idealize.ShloMosaic.TcCoe Idealize.SL.Sem Idealize.ShloMosaic.StableHlo Idealize.ShloMosaic.ValueIdx

variable (m : KMem) (c : Dev Cert.KernelIdeal.nD)

instance : Subsingleton Cert.Pre_finite_inputs.S_.Idx := ⟨fun a b => funext fun d => d.elim0⟩

theorem cand_range (hpre : Cert.Pre_KernelIdeal (hPre_finite_inputs := Cert.Pre_finite_inputs.Gen.facts) m) : CandRange m c := by
  have h := congrFun (hpre c) ix0
  unfold Cert.Pre_finite_inputs.fn Cert.Pre_finite_inputs.fn_part1 Cert.Pre_finite_inputs.fn_part2
    Cert.Pre_finite_inputs.fn_part3 Cert.Pre_finite_inputs.fn_part4 at h
  dsimp only at h
  unfold andi at h
  obtain ⟨h1, hlt⟩ := IntOp.andi_eq_one.mp h
  obtain ⟨-, hge⟩ := IntOp.andi_eq_one.mp h1
  intro j
  have hge' := Host.reduce_andi_all _ _ _ _ _ hge j
  have hlt' := Host.reduce_andi_all _ _ _ _ _ hlt j
  unfold cmpi at hge' hlt'
  rw [StableHlo.Predicate.bcast_scalar _ (by decide)] at hge' hlt'
  have hge'' := IntOp.cmpi_sge.mp hge'
  have hlt'' := IntOp.cmpi_slt.mp hlt'
  have e0 : (0#32 : BitVec 32).toInt = 0 := by decide
  have e1 : (100000#32 : BitVec 32).toInt = 100000 := by decide
  unfold constantI at hge'' hlt''
  rw [e0] at hge''
  rw [e1] at hlt''
  exact ⟨hge'', hlt''⟩

end Cert.Bridge

end
-- ==== Proof.lean ====
/- The two programs compute one function of their arguments. Both select the rows of `x` inside and outside the mask,
   push the inside rows through two graph layers (sum the sources' rows into their targets; a linear layer of the sum and
   of the row itself; max with 0) and the outside rows through one linear layer, gather the rows a candidate pair names and
   score the pair by a two-layer perceptron. The kernel's program does the linear algebra in four Pallas regions, keeping
   the arrays feature-major, and fetches the candidates' rows with a gather that fills out-of-range reads; the reference
   does it on the host with a gather that clamps. Where every candidate index is in range the two gathers read the same
   rows, and everything else agrees at the ideal instance by commuting the factors of each product and transposing the
   arrays (sums over the same finite index sets). The frames are the generated ones for the kernel's program and the run
   of the reference's straight line for the reference. -/
import proofs.«402058_j52493090292432_1_alg».proof.Defs
import proofs.«402058_j52493090292432_1_alg».proof.Proof.Gen.Kernel
import proofs.«402058_j52493090292432_1_alg».proof.Proof.Gen.Kernel.Skeleton
import proofs.«402058_j52493090292432_1_alg».proof.Proof.Gen.Kernel.Launch
import proofs.«402058_j52493090292432_1_alg».proof.Proof.Gen.Kernel.Points
import proofs.«402058_j52493090292432_1_alg».proof.Proof.Gen.Kernel.Frame
import proofs.«402058_j52493090292432_1_alg».proof.Proof.Gen.KernelIdeal
import proofs.«402058_j52493090292432_1_alg».proof.Proof.Gen.KernelIdeal.Skeleton
import proofs.«402058_j52493090292432_1_alg».proof.Proof.Gen.KernelIdeal.Launch
import proofs.«402058_j52493090292432_1_alg».proof.Proof.Gen.KernelIdeal.Points
import proofs.«402058_j52493090292432_1_alg».proof.Proof.Gen.KernelIdeal.Frame
import proofs.«402058_j52493090292432_1_alg».proof.Proof.Gen.ReferenceIdeal
import proofs.«402058_j52493090292432_1_alg».proof.Proof.Gen.Pre_finite_inputs
import proofs.«402058_j52493090292432_1_alg».proof.Proof.KRun
import proofs.«402058_j52493090292432_1_alg».proof.Proof.RefOps
import proofs.«402058_j52493090292432_1_alg».proof.Proof.Iface
import proofs.«402058_j52493090292432_1_alg».proof.Proof.PA
import proofs.«402058_j52493090292432_1_alg».proof.Proof.PXunc
import proofs.«402058_j52493090292432_1_alg».proof.Proof.PAgg1
import proofs.«402058_j52493090292432_1_alg».proof.Proof.PH1
import proofs.«402058_j52493090292432_1_alg».proof.Proof.PAgg2
import proofs.«402058_j52493090292432_1_alg».proof.Proof.PH2
import proofs.«402058_j52493090292432_1_alg».proof.Proof.POut
import proofs.«402058_j52493090292432_1_alg».proof.Proof.PreRange
import proofs.«402058_j52493090292432_1_alg».proof.Proof.RArgs
import Idealize.ShloMosaic.Adequacy
import Idealize.ShloMosaic.Init

noncomputable section

namespace Cert.Proof

open Idealize.ShloMosaic Idealize.SL.Sem Cert.Bridge

theorem frame_k : Cert.frame_Kernel := fun m ρ _ => Cert.Kernel.Gen.frame m ρ

theorem frame_ki : Cert.frame_KernelIdeal := fun m ρ _ => Cert.KernelIdeal.Gen.frame m ρ

/-- The reference's line writes no argument, so its run ends with the arguments as launched. -/
theorem frame_ri : Cert.frame_ReferenceIdeal := fun m ρ _ =>
  (θ_run Cert.ReferenceIdeal.defs _ _).mono
    (fun _ h c => ⟨(h c Cert.ReferenceIdeal.main_arg0).trans (R_arg0 m c),
      (h c Cert.ReferenceIdeal.main_arg1).trans (R_arg1 m c),
      (h c Cert.ReferenceIdeal.main_arg2).trans (R_arg2 m c),
      (h c Cert.ReferenceIdeal.main_arg3).trans (R_arg3 m c),
      (h c Cert.ReferenceIdeal.main_arg4).trans (R_arg4 m c),
      (h c Cert.ReferenceIdeal.main_arg5).trans (R_arg5 m c),
      (h c Cert.ReferenceIdeal.main_arg6).trans (R_arg6 m c),
      (h c Cert.ReferenceIdeal.main_arg7).trans (R_arg7 m c),
      (h c Cert.ReferenceIdeal.main_arg8).trans (R_arg8 m c),
      (h c Cert.ReferenceIdeal.main_arg9).trans (R_arg9 m c),
      (h c Cert.ReferenceIdeal.main_arg10).trans (R_arg10 m c),
      (h c Cert.ReferenceIdeal.main_arg11).trans (R_arg11 m c),
      (h c Cert.ReferenceIdeal.main_arg12).trans (R_arg12 m c),
      (h c Cert.ReferenceIdeal.main_arg13).trans (R_arg13 m c),
      (h c Cert.ReferenceIdeal.main_arg14).trans (R_arg14 m c),
      (h c Cert.ReferenceIdeal.main_arg15).trans (R_arg15 m c)⟩)
    (Cert.ReferenceIdeal.Hand.run (F := Ideal) m ρ)

/-- Under the precondition and from memories that agree on the arguments both programs run, and the result buffers end
    equal: the stage arrays agree one after the other (the selected rows, the linear layer, the two graph layers, the
    perceptron over in-range candidates). -/
theorem algebraic : Cert.algebraic_KernelIdeal_ReferenceIdeal := by
  intro m ρ m' ρ' hpre hagree
  refine ⟨fun c => kOut m ρ c, Cert.KernelIdeal.Hand.run_out (F := Ideal) m ρ, ?_⟩
  refine (θ_run Cert.ReferenceIdeal.defs _ _).mono
    (fun _ h c => ⟨(h c Cert.ReferenceIdeal.main_v117).trans ?_,
      (h c Cert.ReferenceIdeal.main_arg0).trans (R_arg0 m' c),
      (h c Cert.ReferenceIdeal.main_arg1).trans (R_arg1 m' c),
      (h c Cert.ReferenceIdeal.main_arg2).trans (R_arg2 m' c),
      (h c Cert.ReferenceIdeal.main_arg3).trans (R_arg3 m' c),
      (h c Cert.ReferenceIdeal.main_arg4).trans (R_arg4 m' c),
      (h c Cert.ReferenceIdeal.main_arg5).trans (R_arg5 m' c),
      (h c Cert.ReferenceIdeal.main_arg6).trans (R_arg6 m' c),
      (h c Cert.ReferenceIdeal.main_arg7).trans (R_arg7 m' c),
      (h c Cert.ReferenceIdeal.main_arg8).trans (R_arg8 m' c),
      (h c Cert.ReferenceIdeal.main_arg9).trans (R_arg9 m' c),
      (h c Cert.ReferenceIdeal.main_arg10).trans (R_arg10 m' c),
      (h c Cert.ReferenceIdeal.main_arg11).trans (R_arg11 m' c),
      (h c Cert.ReferenceIdeal.main_arg12).trans (R_arg12 m' c),
      (h c Cert.ReferenceIdeal.main_arg13).trans (R_arg13 m' c),
      (h c Cert.ReferenceIdeal.main_arg14).trans (R_arg14 m' c),
      (h c Cert.ReferenceIdeal.main_arg15).trans (R_arg15 m' c)⟩)
    (Cert.ReferenceIdeal.Hand.run (F := Ideal) m' ρ')
  have hA := P_A m ρ m' c (hagree c)
  have hxunc := P_xunc m ρ m' c (hagree c) hA.1
  have hagg1 := P_agg1 m ρ m' c (hagree c) hA.2
  have hh1 := P_h1 m ρ m' c (hagree c) hA.2 hagg1
  have hagg2 := P_agg2 m ρ m' c (hagree c) hh1
  have hh2 := P_h2 m ρ m' c (hagree c) hh1 hagg2
  exact (P_out m ρ m' c (hagree c) (cand_range m c hpre) hxunc hh2).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
